-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S64x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39_1)) (v1 : (c : Dev Cert.KernelIdeal.nD) → Buf (Elt Ideal) ((c.tc : Thread Cert.KernelIdeal.nD Cert.KernelIdeal.τ).loc Cert.KernelIdeal.main_v39_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_1) = v0 c
          ∧ r.2.mem ((c.tc : Thread Cert.KernelIdeal.nD Cert.KernelIdeal.τ).loc Cert.KernelIdeal.main_v39_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S1000000 : Shape := ⟨1, ![1000000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S1000000 : S_.BroadcastsInDim S1000000 (![] : Fin 0 → Fin S1000000.rank)
  reducesTo_S1000000_S_d0 : S1000000.ReducesTo [0] S_

variable [Facts]

def fn_part3 {F : FTy → Type} [FloatOps F] (main_v48 : IVec S_ 1) (main_v50 : IVec S1000000 1) : IVec S_ 1 :=
  let main_c_19 : IVec S_ 1 := constantI S_ 1 1#1
  let main_v51 : IVec S_ 1 := (fun x v => Host.reduce IntOp.andi x v reducesTo_S1000000_S_d0 h_S_) main_v50 main_c_19
  let main_v52 : IVec S_ 1 := andi main_v48 main_v51
  main_v52

def fn_part2 {F : FTy → Type} [FloatOps F] (main_arg7 : FVec F S256 .f32) (main_arg8 : FVec F S256 .f32) (main_arg9 : FVec F S256 .f32) (main_arg11 : IVec S1000000 32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_c_18 : IVec S_ 32 := constantI S_ 32 0#32
  let main_v49 : IVec S1000000 32 := broadcastInDim S1000000 ![] bcast_S_S1000000 main_c_18
  let main_v50 : IVec S1000000 1 := cmpi .sge main_arg11 main_v49
  fn_part3 (F := F) main_v48 main_v50

def fn_part1 {F : FTy → Type} [FloatOps F] (main_arg4 : FVec F S256 .f32) (main_arg5 : FVec F S256 .f32) (main_arg6 : FVec F S256x256 .f32) (main_arg7 : FVec F S256 .f32) (main_arg8 : FVec F S256 .f32) (main_arg9 : FVec F S256 .f32) (main_arg11 : IVec S1000000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg11 main_v33

def fn {F : FTy → Type} [FloatOps F] (main_arg0 : FVec F S100000x128 .f32) (main_arg1 : FVec F S128x256 .f32) (main_arg2 : FVec F S128x256 .f32) (main_arg3 : FVec F S256 .f32) (main_arg4 : FVec F S256 .f32) (main_arg5 : FVec F S256 .f32) (main_arg6 : FVec F S256x256 .f32) (main_arg7 : FVec F S256 .f32) (main_arg8 : FVec F S256 .f32) (main_arg9 : FVec F S256 .f32) (main_arg10 : IVec S1000000 32) (main_arg11 : IVec S1000000 32) (main_arg12 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg11 main_v13 main_v16
-- ==== Kernel.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S1000000 : Shape := ⟨1, ![1000000]⟩
abbrev S100000 : Shape := ⟨1, ![100000]⟩
abbrev S_ : Shape := ⟨0, ![]⟩
abbrev S1000000x1 : Shape := ⟨2, ![1000000, 1]⟩
abbrev S1000000x128 : Shape := ⟨2, ![1000000, 128]⟩
abbrev S100000x1 : Shape := ⟨2, ![100000, 1]⟩
abbrev S1x256 : Shape := ⟨2, ![1, 256]⟩
abbrev S10x1x10000 : Shape := ⟨3, ![10, 1, 10000]⟩
abbrev S2x1x256 : Shape := ⟨3, ![2, 1, 256]⟩
abbrev S2x64x256 : Shape := ⟨3, ![2, 64, 256]⟩
abbrev S2x64x1 : Shape := ⟨3, ![2, 64, 1]⟩
abbrev S10000x128 : Shape := ⟨2, ![10000, 128]⟩
abbrev S1x1x10000 : Shape := ⟨3, ![1, 1, 10000]⟩
abbrev S1x1x256 : Shape := ⟨3, ![1, 1, 256]⟩
abbrev S1x64x256 : Shape := ⟨3, ![1, 64, 256]⟩
abbrev S1x64x1 : Shape := ⟨3, ![1, 64, 1]⟩
abbrev S64x256 : Shape := ⟨2, ![64, 256]⟩
abbrev S64x1 : Shape := ⟨2, ![64, 1]⟩
abbrev S10000x256 : Shape := ⟨2, ![10000, 256]⟩
abbrev S1x10000 : Shape := ⟨2, ![1, 10000]⟩
abbrev S64x10000 : Shape := ⟨2, ![64, 10000]⟩
abbrev S64 : Shape := ⟨1, ![64]⟩

abbrev nBuf : Space → Nat
  | .hbm => 68
  | .vmem => 29
  | .smem => 0
  | _ => 0

abbrev bufTy : (tb : Table) → Fin (tcTables nBuf tb) → BufTy
  | .hbm, ⟨0, _⟩ => ⟨S100000x128, .f32⟩
  | .hbm, ⟨1, _⟩ => ⟨S128x256, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S1000000, .i32⟩
  | .hbm, ⟨11, _⟩ => ⟨S1000000, .i32⟩
  | .hbm, ⟨12, _⟩ => ⟨S100000, .i32⟩
  | .hbm, ⟨13, _⟩ => ⟨S100000x128, .bf16⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000x128, .bf16⟩
  | .hbm, ⟨23, _⟩ => ⟨S1000000x128, .f32⟩
  | .hbm, ⟨24, _⟩ => ⟨S_, .f32⟩
  | .hbm, ⟨25, _⟩ => ⟨S100000x128, .f32⟩
  | .hbm, ⟨26, _⟩ => ⟨S1000000x1, .i32⟩
  | .hbm, ⟨27, _⟩ => ⟨S100000x128, .f32⟩
  | .hbm, ⟨28, _⟩ => ⟨S_, .i32⟩
  | .hbm, ⟨29, _⟩ => ⟨S100000, .i32⟩
  | .hbm, ⟨30, _⟩ => ⟨S_, .i32⟩
  | .hbm, ⟨31, _⟩ => ⟨S_, .i32⟩
  | .hbm, ⟨32, _⟩ => ⟨S1000000, .i32⟩
  | .hbm, ⟨33, _⟩ => ⟨S1000000, .i32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S_, .i32⟩
  | .hbm, ⟨43, _⟩ => ⟨S1000000, .i32⟩
  | .hbm, ⟨44, _⟩ => ⟨S100000, .i32⟩
  | .hbm, ⟨45, _⟩ => ⟨S100000, .f32⟩
  | .hbm, ⟨46, _⟩ => ⟨S100000x1, .f32⟩
  | .hbm, ⟨47, _⟩ => ⟨S_, .f32⟩
  | .hbm, ⟨48, _⟩ => ⟨S100000x1, .f32⟩
  | .hbm, ⟨49, _⟩ => ⟨S100000x1, .f32⟩
  | .hbm, ⟨50, _⟩ => ⟨S100000x128, .f32⟩
  | .hbm, ⟨51, _⟩ => ⟨S100000x128, .f32⟩
  | .hbm, ⟨52, _⟩ => ⟨S100000x128, .bf16⟩
  | .hbm, ⟨53, _⟩ => ⟨S128x256, .bf16⟩
  | .hbm, ⟨54, _⟩ => ⟨S128x256, .bf16⟩
  | .hbm, ⟨55, _⟩ => ⟨S1x256, .f32⟩
  | .hbm, ⟨56, _⟩ => ⟨S10x1x10000, .i32⟩
  | .hbm, ⟨57, _⟩ => ⟨S2x1x256, .f32⟩
  | .hbm, ⟨58, _⟩ => ⟨S2x1x256, .f32⟩
  | .hbm, ⟨59, _⟩ => ⟨S2x64x256, .f32⟩
  | .hbm, ⟨60, _⟩ => ⟨S2x64x1, .f32⟩
  | .hbm, ⟨61, _⟩ => ⟨S1x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S64x256, .f32⟩
  | .hbm, ⟨67, _⟩ => ⟨S64x256, .f32⟩
  | .local _ .vmem, ⟨0, _⟩ => ⟨S10000x128, .bf16⟩
  | .local _ .vmem, ⟨1, _⟩ => ⟨S10000x128, .bf16⟩
  | .local _ .vmem, ⟨2, _⟩ => ⟨S10000x128, .bf16⟩
  | .local _ .vmem, ⟨3, _⟩ => ⟨S10000x128, .bf16⟩
  | .local _ .vmem, ⟨4, _⟩ => ⟨S1x1x10000, .i32⟩
  | .local _ .vmem, ⟨5, _⟩ => ⟨S1x1x10000, .i32⟩
  | .local _ .vmem, ⟨6, _⟩ => ⟨S128x256, .bf16⟩
  | .local _ .vmem, ⟨7, _⟩ => ⟨S128x256, .bf16⟩
  | .local _ .vmem, ⟨8, _⟩ => ⟨S1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x64x256, .f32⟩
  | .local _ .vmem, ⟨14, _⟩ => ⟨S1x64x256, .f32⟩
  | .local _ .vmem, ⟨15, _⟩ => ⟨S1x64x1, .f32⟩
  | .local _ .vmem, ⟨16, _⟩ => ⟨S1x64x1, .f32⟩
  | .local _ .vmem, ⟨17, _⟩ => ⟨S2x64x256, .f32⟩
  | .local _ .vmem, ⟨18, _⟩ => ⟨S2x64x1, .f32⟩
  | .local _ .vmem, ⟨19, _⟩ => ⟨S2x1x256, .f32⟩
  | .local _ .vmem, ⟨20, _⟩ => ⟨S2x1x256, .f32⟩
  | .local _ .vmem, ⟨21, _⟩ => ⟨S1x256, .f32⟩
  | .local _ .vmem, ⟨22, _⟩ => ⟨S1x256, .f32⟩
  | .local _ .vmem, ⟨23, _⟩ => ⟨S256x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S64x256, .f32⟩
  | .local _ .vmem, ⟨28, _⟩ => ⟨S64x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_c_2 : Ref sig .tc := ⟨.hbm, 30, rfl⟩
abbrev main_call0_v0 : Ref sig .tc := ⟨.hbm, 31, rfl⟩
abbrev main_call0_v1 : Ref sig .tc := ⟨.hbm, 32, rfl⟩
abbrev main_v13 : Ref sig .tc := ⟨.hbm, 33, rfl⟩
abbrev main_c_3 : Ref sig .tc := ⟨.hbm, 34, rfl⟩
abbrev main_v14 : Ref sig .tc := ⟨.hbm, 35, rfl⟩
abbrev main_v15 : Ref sig .tc := ⟨.hbm, 36, rfl⟩
abbrev main_c_4 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_6 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_v33_2 : Ref sig .tc := ⟨.hbm, 59, rfl⟩
abbrev main_v33_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39_0 : Ref sig .tc := ⟨.hbm, 66, rfl⟩
abbrev main_v39_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc1_sem0_0 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28

abbrev nD : Nat := 1
abbrev τ : Topo := Topo.v7x

variable {F : FTy → Type} [FloatOps F]

abbrev grid0 : Pipeline.Grid := ⟨2, ![2, 5], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S10000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x10000 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2x64x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

class Facts₀ : Prop where
  bitsLt_bf16_f32 : FTy.bits .bf16 < FTy.bits .f32
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S256_S1x256 : S256.ShapeCasts S1x256
  shapeCasts_S100000_S10x1x10000 : S100000.ShapeCasts S10x1x10000
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S1x256_S1x1x256 : S1x256.ShapeCasts S1x1x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  reduces_S10000x256_S256 : S10000x256.Reduces [0] S256
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  iota_S64x10000_d0_w32 : S64x10000.Iotas .tc 32 [0]
  broadcasts_S1x10000_S64x10000 : S1x10000.Broadcasts S64x10000
  natLt_1_32 : 1 < 32
  reduces_S64x10000_S64 : S64x10000.Reduces [1] S64
  shapeCasts_S64_S64x1 : S64.ShapeCasts S64x1
  inb_S2x1x256_S2x1x256_0_0_0 : ∀ a, (![0, 0, 0] : Fin 3 → Nat) a + S2x1x256.size a ≤ S2x1x256.size a
  h_S2x1x256 : 0 < S2x1x256.numel
  shapeCasts_S2x1x256_S2x1x256 : S2x1x256.ShapeCasts S2x1x256
  reduces_S2x1x256_S1x256 : S2x1x256.Reduces [0] S1x256
  inb_S2x64x256_S2x64x256_0_0_0 : ∀ a, (![0, 0, 0] : Fin 3 → Nat) a + S2x64x256.size a ≤ S2x64x256.size a
  h_S2x64x256 : 0 < S2x64x256.numel
  shapeCasts_S2x64x256_S2x64x256 : S2x64x256.ShapeCasts S2x64x256
  reduces_S2x64x256_S64x256 : S2x64x256.Reduces [0] S64x256
  inb_S2x64x1_S2x64x1_0_0_0 : ∀ a, (![0, 0, 0] : Fin 3 → Nat) a + S2x64x1.size a ≤ S2x64x1.size a
  h_S2x64x1 : 0 < S2x64x1.numel
  shapeCasts_S2x64x1_S2x64x1 : S2x64x1.ShapeCasts S2x64x1
  reduces_S2x64x1_S64x1 : S2x64x1.Reduces [0] S64x1
  broadcasts_S1x256_S64x256 : S1x256.Broadcasts S64x256
  broadcasts_S64x1_S64x256 : S64x1.Broadcasts S64x256
  inb_S256x256_S256x256_0_0 : ∀ a, (![0, 0] : Fin 2 → Nat) a + S256x256.size a ≤ S256x256.size a
  h_S256x256 : 0 < S256x256.numel
  reduces_S64x256_S256 : S64x256.Reduces [0] S256
  inb_S64x256_S64x256_0_0 : ∀ a, (![0, 0] : Fin 2 → Nat) a + S64x256.size a ≤ S64x256.size a
  h_S64x256 : 0 < S64x256.numel
  reduces_S64x256_S64 : S64x256.Reduces [1] S64
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000_S1000000x1_S1000000_n_0_0_1_wf : ScatterDims.WF S100000 S1000000x1 S1000000 [] [0] [0] 1
  dot_S10000x128_S128x256_S10000x256_1_0_0_1_n_n_wf : DotDims.WF S10000x128 S128x256 S10000x256 [1] [0] [0] [1] [] []
  dot_S64x10000_S10000x256_S64x256_1_0_0_1_n_n_wf : DotDims.WF S64x10000 S10000x256 S64x256 [1] [0] [0] [1] [] []
  dot_S64x256_S256x256_S64x256_1_0_0_1_n_n_wf : DotDims.WF S64x256 S256x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .bf16 = 32 ∨ (Rect.block (s := S100000x128) S10000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .bf16 = 32 ∨ (Rect.block (s := S100000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x10000.size a ≤ S10x1x10000.size a
  hwx0_2 : ∀ i : grid0.Coords, EltTy.bits .i32 = 32 ∨ (Rect.block (s := S10x1x10000) S1x1x10000.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S2x1x256.size a
  hwx0_6 : ∀ i : grid0.Coords, EltTy.bits .f32 = 32 ∨ (Rect.block (s := S2x1x256) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x256.size a ≤ S2x1x256.size a
  hwx0_7 : ∀ i : grid0.Coords, EltTy.bits .f32 = 32 ∨ (Rect.block (s := S2x1x256) S1x1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x64x256.size a ≤ S2x64x256.size a
  hwx0_8 : ∀ i : grid0.Coords, EltTy.bits .f32 = 32 ∨ (Rect.block (s := S2x64x256) S1x64x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x64x1.size a ≤ S2x64x1.size a
  hwx0_9 : ∀ i : grid0.Coords, EltTy.bits .f32 = 32 ∨ (Rect.block (s := S2x64x1) S1x64x1.size (cc0_transform_9 i) (hinb0_9 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2x64x256.size a ≤ S2x64x256.size a
  hwx1_0 : ∀ i : grid1.Coords, EltTy.bits .f32 = 32 ∨ (Rect.block (s := S2x64x256) S2x64x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2x64x1.size a ≤ S2x64x1.size a
  hwx1_1 : ∀ i : grid1.Coords, EltTy.bits .f32 = 32 ∨ (Rect.block (s := S2x64x1) S2x64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x1x256.size a ≤ S2x1x256.size a
  hwx1_2 : ∀ i : grid1.Coords, EltTy.bits .f32 = 32 ∨ (Rect.block (s := S2x1x256) S2x1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x1x256.size a ≤ S2x1x256.size a
  hwx1_3 : ∀ i : grid1.Coords, EltTy.bits .f32 = 32 ∨ (Rect.block (s := S2x1x256) S2x1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x256.size a ≤ S64x256.size a
  hwx1_10 : ∀ i : grid1.Coords, EltTy.bits .f32 = 32 ∨ (Rect.block (s := S64x256) S64x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x256.size a ≤ S64x256.size a
  hwx1_11 : ∀ i : grid1.Coords, EltTy.bits .f32 = 32 ∨ (Rect.block (s := S64x256) S64x256.size (cc1_transform_11 i) (hinb1_11 i)).WholeWords (EltTy.packing .f32)

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S64x10000_S10000x256_S64x256_1_0_0_1_n_n : DotDims S64x10000 S10000x256 S64x256 where
  lhsContracting := [1]
  rhsContracting := [0]
  lhsNonContracting := [0]
  rhsNonContracting := [1]
  lhsBatch := []
  rhsBatch := []
  wf := dot_S64x10000_S10000x256_S64x256_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

abbrev win0_0 : Pipeline.Window sig grid0 :=
  Pipeline.Window.ofSpec (Memref.whole main_v0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x1x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33_0) S1x1x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v33_1) S1x1x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v33_2) S1x64x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v33_3) S1x64x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v33_2) S2x64x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v33_3) S2x64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33_0) S2x1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33_1) S2x1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v37) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v38) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v39_0) S64x256.size cc1_transform_10 reads1_10 true true 1 stage1_10 sem1_10
    hrank1 hreads1_10 hinb1_10 nbuf1_10 (Memref.isWhole_whole _) hwx1_10 hstage1_10

abbrev win1_11 : Pipeline.Window sig grid1 :=
  Pipeline.Window.ofSpec (Memref.whole main_v39_1) S64x256.size cc1_transform_11 reads1_11 true true 1 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x256 : Shape := ⟨2, ![128, 256]⟩
abbrev S256 : Shape := ⟨1, ![256]⟩
abbrev S256x256 : Shape := ⟨2, ![256, 256]⟩
abbrev S1000000 : Shape := ⟨1, ![1000000]⟩
abbrev S100000 : Shape := ⟨1, ![100000]⟩
abbrev S_ : Shape := ⟨0, ![]⟩
abbrev S1000000x1 : Shape := ⟨2, ![1000000, 1]⟩
abbrev S1000000x128 : Shape := ⟨2, ![1000000, 128]⟩
abbrev S100000x1 : Shape := ⟨2, ![100000, 1]⟩
abbrev S100000x256 : Shape := ⟨2, ![100000, 256]⟩
abbrev S1x256 : Shape := ⟨2, ![1, 256]⟩
abbrev S64x256 : Shape := ⟨2, ![64, 256]⟩
abbrev S64 : Shape := ⟨1, ![64]⟩
abbrev S64x1 : Shape := ⟨2, ![64, 1]⟩

abbrev nBuf : Space → Nat
  | .hbm => 211
  | .vmem => 0
  | .smem => 0
  | _ => 0

abbrev hbmTy0_0 (i : Nat) : BufTy := match i % 128 with
  | 0 => ⟨S100000x128, .f32⟩
  | 1 => ⟨S128x256, .f32⟩
  | 2 => ⟨S128x256, .f32⟩
  | 3 => ⟨S256, .f32⟩
  | 4 => ⟨S256, .f32⟩
  | 5 => ⟨S256, .f32⟩
  | 6 => ⟨S256x256, .f32⟩
  | 7 => ⟨S256, .f32⟩
  | 8 => ⟨S256, .f32⟩
  | 9 => ⟨S256, .f32⟩
  | 10 => ⟨S1000000, .i32⟩
  | 11 => ⟨S1000000, .i32⟩
  | 12 => ⟨S100000, .i32⟩
  | 13 => ⟨S_, .i32⟩
  | 14 => ⟨S1000000, .i32⟩
  | 15 => ⟨S1000000, .i1⟩
  | 16 => ⟨S_, .i32⟩
  | 17 => ⟨S1000000, .i32⟩
  | 18 => ⟨S1000000, .i32⟩
  | 19 => ⟨S1000000, .i32⟩
  | 20 => ⟨S1000000x1, .i32⟩
  | 21 => ⟨S1000000x128, .f32⟩
  | 22 => ⟨S_, .f32⟩
  | 23 => ⟨S100000x128, .f32⟩
  | 24 => ⟨S1000000x1, .i32⟩
  | 25 => ⟨S100000x128, .f32⟩
  | 26 => ⟨S_, .f32⟩
  | 27 => ⟨S1000000x1, .f32⟩
  | 28 => ⟨S_, .f32⟩
  | 29 => ⟨S100000x1, .f32⟩
  | 30 => ⟨S1000000x1, .i32⟩
  | 31 => ⟨S100000x1, .f32⟩
  | 32 => ⟨S_, .f32⟩
  | 33 => ⟨S100000x1, .f32⟩
  | 34 => ⟨S100000x1, .f32⟩
  | 35 => ⟨S100000x128, .f32⟩
  | 36 => ⟨S100000x128, .f32⟩
  | 37 => ⟨S100000x256, .f32⟩
  | 38 => ⟨S100000x256, .f32⟩
  | 39 => ⟨S100000x256, .f32⟩
  | 40 => ⟨S1x256, .f32⟩
  | 41 => ⟨S100000x256, .f32⟩
  | 42 => ⟨S100000x256, .f32⟩
  | 43 => ⟨S_, .f32⟩
  | 44 => ⟨S100000x256, .f32⟩
  | 45 => ⟨S100000x256, .f32⟩
  | 46 => ⟨S_, .f32⟩
  | 47 => ⟨S256, .f32⟩
  | 48 => ⟨S_, .f32⟩
  | 49 => ⟨S256, .f32⟩
  | 50 => ⟨S256, .f32⟩
  | 51 => ⟨S_, .i32⟩
  | 52 => ⟨S_, .f32⟩
  | 53 => ⟨S256, .f32⟩
  | 54 => ⟨S1x256, .f32⟩
  | 55 => ⟨S_, .f32⟩
  | 56 => ⟨S1x256, .f32⟩
  | 57 => ⟨S1x256, .f32⟩
  | 58 => ⟨S100000x256, .f32⟩
  | 59 => ⟨S100000x256, .f32⟩
  | 60 => ⟨S100000x256, .f32⟩
  | 61 => ⟨S_, .f32⟩
  | 62 => ⟨S_, .f32⟩
  | 63 => ⟨S_, .f32⟩
  | 64 => ⟨S_, .f32⟩
  | 65 => ⟨S256, .f32⟩
  | 66 => ⟨S256, .f32⟩
  | 67 => ⟨S256, .f32⟩
  | 68 => ⟨S_, .f32⟩
  | 69 => ⟨S_, .i1⟩
  | 70 => ⟨S_, .f32⟩
  | 71 => ⟨S_, .f32⟩
  | 72 => ⟨S256, .f32⟩
  | 73 => ⟨S256, .f32⟩
  | 74 => ⟨S1x256, .f32⟩
  | 75 => ⟨S100000x256, .f32⟩
  | 76 => ⟨S100000x256, .f32⟩
  | 77 => ⟨S_, .f32⟩
  | 78 => ⟨S256, .f32⟩
  | 79 => ⟨S256, .f32⟩
  | 80 => ⟨S256, .f32⟩
  | 81 => ⟨S1x256, .f32⟩
  | 82 => ⟨S100000x256, .f32⟩
  | 83 => ⟨S100000x256, .f32⟩
  | 84 => ⟨S1x256, .f32⟩
  | 85 => ⟨S100000x256, .f32⟩
  | 86 => ⟨S100000x256, .f32⟩
  | 87 => ⟨S1x256, .f32⟩
  | 88 => ⟨S100000x256, .f32⟩
  | 89 => ⟨S100000x256, .f32⟩
  | 90 => ⟨S_, .f32⟩
  | 91 => ⟨S64x256, .f32⟩
  | 92 => ⟨S100000x1, .i32⟩
  | 93 => ⟨S64x256, .f32⟩
  | 94 => ⟨S64x256, .f32⟩
  | 95 => ⟨S1x256, .f32⟩
  | 96 => ⟨S64x256, .f32⟩
  | 97 => ⟨S64x256, .f32⟩
  | 98 => ⟨S_, .f32⟩
  | 99 => ⟨S64x256, .f32⟩
  | 100 => ⟨S64x256, .f32⟩
  | 101 => ⟨S_, .f32⟩
  | 102 => ⟨S256, .f32⟩
  | 103 => ⟨S_, .f32⟩
  | 104 => ⟨S256, .f32⟩
  | 105 => ⟨S256, .f32⟩
  | 106 => ⟨S_, .i32⟩
  | 107 => ⟨S_, .f32⟩
  | 108 => ⟨S256, .f32⟩
  | 109 => ⟨S1x256, .f32⟩
  | 110 => ⟨S_, .f32⟩
  | 111 => ⟨S1x256, .f32⟩
  | 112 => ⟨S1x256, .f32⟩
  | 113 => ⟨S64x256, .f32⟩
  | 114 => ⟨S64x256, .f32⟩
  | 115 => ⟨S64x256, .f32⟩
  | 116 => ⟨S_, .f32⟩
  | 117 => ⟨S_, .f32⟩
  | 118 => ⟨S_, .f32⟩
  | 119 => ⟨S_, .f32⟩
  | 120 => ⟨S256, .f32⟩
  | 121 => ⟨S256, .f32⟩
  | 122 => ⟨S256, .f32⟩
  | 123 => ⟨S_, .f32⟩
  | 124 => ⟨S_, .i1⟩
  | 125 => ⟨S_, .f32⟩
  | 126 => ⟨S_, .f32⟩
  | 127 => ⟨S256, .f32⟩
  | _ => ⟨S100000x128, .f32⟩

abbrev hbmTy0_1 (i : Nat) : BufTy := match i % 128 with
  | 0 => ⟨S256, .f32⟩
  | 1 => ⟨S1x256, .f32⟩
  | 2 => ⟨S64x256, .f32⟩
  | 3 => ⟨S64x256, .f32⟩
  | 4 => ⟨S_, .f32⟩
  | 5 => ⟨S256, .f32⟩
  | 6 => ⟨S256, .f32⟩
  | 7 => ⟨S256, .f32⟩
  | 8 => ⟨S1x256, .f32⟩
  | 9 => ⟨S64x256, .f32⟩
  | 10 => ⟨S64x256, .f32⟩
  | 11 => ⟨S1x256, .f32⟩
  | 12 => ⟨S64x256, .f32⟩
  | 13 => ⟨S64x256, .f32⟩
  | 14 => ⟨S1x256, .f32⟩
  | 15 => ⟨S64x256, .f32⟩
  | 16 => ⟨S64x256, .f32⟩
  | 17 => ⟨S64x256, .f32⟩
  | 18 => ⟨S1x256, .f32⟩
  | 19 => ⟨S64x256, .f32⟩
  | 20 => ⟨S64x256, .f32⟩
  | 21 => ⟨S_, .f32⟩
  | 22 => ⟨S64x256, .f32⟩
  | 23 => ⟨S64x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S64x256, .f32⟩
  | 37 => ⟨S64x256, .f32⟩
  | 38 => ⟨S64x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x256, .f32⟩
  | 53 => ⟨S64x256, .f32⟩
  | 54 => ⟨S64x256, .f32⟩
  | 55 => ⟨S_, .f32⟩
  | 56 => ⟨S256, .f32⟩
  | 57 => ⟨S256, .f32⟩
  | 58 => ⟨S256, .f32⟩
  | 59 => ⟨S1x256, .f32⟩
  | 60 => ⟨S64x256, .f32⟩
  | 61 => ⟨S64x256, .f32⟩
  | 62 => ⟨S1x256, .f32⟩
  | 63 => ⟨S64x256, .f32⟩
  | 64 => ⟨S64x256, .f32⟩
  | 65 => ⟨S1x256, .f32⟩
  | 66 => ⟨S64x256, .f32⟩
  | 67 => ⟨S64x256, .f32⟩
  | 68 => ⟨S_, .f32⟩
  | 69 => ⟨S64, .f32⟩
  | 70 => ⟨S_, .f32⟩
  | 71 => ⟨S64, .f32⟩
  | 72 => ⟨S64, .f32⟩
  | 73 => ⟨S64x1, .f32⟩
  | 74 => ⟨S64x256, .f32⟩
  | 75 => ⟨S64x256, .f32⟩
  | 76 => ⟨S64x256, .f32⟩
  | 77 => ⟨S_, .f32⟩
  | 78 => ⟨S64, .f32⟩
  | 79 => ⟨S64x1, .f32⟩
  | 80 => ⟨S64x1, .f32⟩
  | 81 => ⟨S64x256, .f32⟩
  | 82 => ⟨S64x256, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call0_cst : Ref sig .tc := ⟨.hbm, 43, rfl⟩
abbrev main_call0_v0 : Ref sig .tc := ⟨.hbm, 44, rfl⟩
abbrev main_v24 : Ref sig .tc := ⟨.hbm, 45, rfl⟩
abbrev main_cst_4 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_cst_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_cst_2 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_cst_3 : Ref sig .tc := ⟨.hbm, 68, rfl⟩
abbrev main_call1_v12 : Ref sig .tc := ⟨.hbm, 69, rfl⟩
abbrev main_call1_cst_4 : Ref sig .tc := ⟨.hbm, 70, rfl⟩
abbrev main_call1_call0_v0 : Ref sig .tc := ⟨.hbm, 71, rfl⟩
abbrev main_call1_call0_v1 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_7 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_cst_8 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_call2_cst : Ref sig .tc := ⟨.hbm, 98, rfl⟩
abbrev main_call2_v0 : Ref sig .tc := ⟨.hbm, 99, rfl⟩
abbrev main_v51 : Ref sig .tc := ⟨.hbm, 100, rfl⟩
abbrev main_cst_9 : Ref sig .tc := ⟨.hbm, 101, rfl⟩
abbrev main_v52 : Ref sig .tc := ⟨.hbm, 102, rfl⟩
abbrev main_cst_10 : Ref sig .tc := ⟨.hbm, 103, rfl⟩
abbrev main_v53 : Ref sig .tc := ⟨.hbm, 104, rfl⟩
abbrev main_v54 : Ref sig .tc := ⟨.hbm, 105, rfl⟩
abbrev main_c_11 : Ref sig .tc := ⟨.hbm, 106, rfl⟩
abbrev main_call3_cst : Ref sig .tc := ⟨.hbm, 107, rfl⟩
abbrev main_call3_v0 : Ref sig .tc := ⟨.hbm, 108, rfl⟩
abbrev main_call3_v1 : Ref sig .tc := ⟨.hbm, 109, rfl⟩
abbrev main_call3_cst_0 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_cst_1 : Ref sig .tc := ⟨.hbm, 117, rfl⟩
abbrev main_call3_v8 : Ref sig .tc := ⟨.hbm, 118, rfl⟩
abbrev main_call3_cst_2 : Ref sig .tc := ⟨.hbm, 119, rfl⟩
abbrev main_call3_v9 : Ref sig .tc := ⟨.hbm, 120, rfl⟩
abbrev main_call3_v10 : Ref sig .tc := ⟨.hbm, 121, rfl⟩
abbrev main_call3_v11 : Ref sig .tc := ⟨.hbm, 122, rfl⟩
abbrev main_call3_cst_3 : Ref sig .tc := ⟨.hbm, 123, rfl⟩
abbrev main_call3_v12 : Ref sig .tc := ⟨.hbm, 124, rfl⟩
abbrev main_call3_cst_4 : Ref sig .tc := ⟨.hbm, 125, rfl⟩
abbrev main_call3_call0_v0 : Ref sig .tc := ⟨.hbm, 126, rfl⟩
abbrev main_call3_call0_v1 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_cst_12 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_call4_cst : Ref sig .tc := ⟨.hbm, 149, rfl⟩
abbrev main_call4_v0 : Ref sig .tc := ⟨.hbm, 150, rfl⟩
abbrev main_v75 : Ref sig .tc := ⟨.hbm, 151, rfl⟩
abbrev main_cst_13 : Ref sig .tc := ⟨.hbm, 152, rfl⟩
abbrev main_v76 : Ref sig .tc := ⟨.hbm, 153, rfl⟩
abbrev main_cst_14 : Ref sig .tc := ⟨.hbm, 154, rfl⟩
abbrev main_v77 : Ref sig .tc := ⟨.hbm, 155, rfl⟩
abbrev main_v78 : Ref sig .tc := ⟨.hbm, 156, rfl⟩
abbrev main_c_15 : Ref sig .tc := ⟨.hbm, 157, rfl⟩
abbrev main_call5_cst : Ref sig .tc := ⟨.hbm, 158, rfl⟩
abbrev main_call5_v0 : Ref sig .tc := ⟨.hbm, 159, rfl⟩
abbrev main_call5_v1 : Ref sig .tc := ⟨.hbm, 160, rfl⟩
abbrev main_call5_cst_0 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_call5_v5 : Ref sig .tc := ⟨.hbm, 165, rfl⟩
abbrev main_call5_v6 : Ref sig .tc := ⟨.hbm, 166, rfl⟩
abbrev main_call5_v7 : Ref sig .tc := ⟨.hbm, 167, rfl⟩
abbrev main_call5_cst_1 : Ref sig .tc := ⟨.hbm, 168, rfl⟩
abbrev main_call5_v8 : Ref sig .tc := ⟨.hbm, 169, rfl⟩
abbrev main_call5_cst_2 : Ref sig .tc := ⟨.hbm, 170, rfl⟩
abbrev main_call5_v9 : Ref sig .tc := ⟨.hbm, 171, rfl⟩
abbrev main_call5_v10 : Ref sig .tc := ⟨.hbm, 172, rfl⟩
abbrev main_call5_v11 : Ref sig .tc := ⟨.hbm, 173, rfl⟩
abbrev main_call5_cst_3 : Ref sig .tc := ⟨.hbm, 174, rfl⟩
abbrev main_call5_v12 : Ref sig .tc := ⟨.hbm, 175, rfl⟩
abbrev main_call5_cst_4 : Ref sig .tc := ⟨.hbm, 176, rfl⟩
abbrev main_call5_call0_v0 : Ref sig .tc := ⟨.hbm, 177, rfl⟩
abbrev main_call5_call0_v1 : Ref sig .tc := ⟨.hbm, 178, rfl⟩
abbrev main_v79 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_cst_16 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_call6_cst : Ref sig .tc := ⟨.hbm, 196, rfl⟩
abbrev main_call6_v0 : Ref sig .tc := ⟨.hbm, 197, rfl⟩
abbrev main_call6_cst_0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_call6_v5 : Ref sig .tc := ⟨.hbm, 203, rfl⟩
abbrev main_call6_v6 : Ref sig .tc := ⟨.hbm, 204, rfl⟩
abbrev main_call6_cst_1 : Ref sig .tc := ⟨.hbm, 205, rfl⟩
abbrev main_call6_v7 : Ref sig .tc := ⟨.hbm, 206, rfl⟩
abbrev main_call6_v8 : Ref sig .tc := ⟨.hbm, 207, rfl⟩
abbrev main_call6_v9 : Ref sig .tc := ⟨.hbm, 208, rfl⟩
abbrev main_call6_v10 : Ref sig .tc := ⟨.hbm, 209, rfl⟩
abbrev main_v95 : Ref sig .tc := ⟨.hbm, 210, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x128 : S_.BroadcastsInDim S100000x128 (![] : Fin 0 → Fin S100000x128.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  reducesTo_S100000x256_S256_d0 : S100000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S64x256 : S_.BroadcastsInDim S64x256 (![] : Fin 0 → Fin S64x256.rank)
  bcast_S100000_S100000x1_0 : S100000.BroadcastsInDim S100000x1 (![0] : Fin 1 → Fin S100000x1.rank)
  bcast_S1x256_S64x256_0_1 : S1x256.BroadcastsInDim S64x256 (![0, 1] : Fin 2 → Fin S64x256.rank)
  reducesTo_S64x256_S256_d0 : S64x256.ReducesTo [0] S256
  reducesTo_S64x256_S64_d1 : S64x256.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  gather_S100000x128_S1000000x1_S1000000x128_1_0_n_n_0_1_1128_wf : GatherDims.WF S100000x128 S1000000x1 S1000000x128 [1] [0] [] [0] [] 1 ![1, 128]
  scatter_S100000x128_S1000000x1_S1000000x128_1_0_0_1_wf : ScatterDims.WF S100000x128 S1000000x1 S1000000x128 [1] [0] [0] 1
  scatter_S100000x1_S1000000x1_S1000000x1_1_0_0_1_wf : ScatterDims.WF S100000x1 S1000000x1 S1000000x1 [1] [0] [0] 1
  dot_S100000x128_S128x256_S100000x256_1_0_0_1_n_n_wf : DotDims.WF S100000x128 S128x256 S100000x256 [1] [0] [0] [1] [] []
  scatter_S64x256_S100000x1_S100000x256_1_0_0_1_wf : ScatterDims.WF S64x256 S100000x1 S100000x256 [1] [0] [0] 1
  dot_S64x256_S256x256_S64x256_1_0_0_1_n_n_wf : DotDims.WF S64x256 S256x256 S64x256 [1] [0] [0] [1] [] []

variable [Facts₀]

def gather_S100000x128_S1000000x1_S1000000x128_1_0_n_n_0_1_1128 : GatherDims S100000x128 S1000000x1 S1000000x128 where
  offsetDims := [1]
  collapsedSliceDims := [0]
  operandBatchingDims := []
  startIndicesBatchingDims := []
  startIndexMap := [0]
  indexVectorDim := 1
  sliceSizes := ![1, 128]
  wf := gather_S100000x128_S1000000x1_S1000000x128_1_0_n_n_0_1_1128_wf
def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def scatter_S64x256_S100000x1_S100000x256_1_0_0_1 : ScatterDims S64x256 S100000x1 S100000x256 where
  updateWindowDims := [1]
  insertedWindowDims := [0]
  scatterDimsToOperandDims := [0]
  indexVectorDim := 1
  wf := scatter_S64x256_S100000x1_S100000x256_1_0_0_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf

class Facts : Prop extends Facts₀ where

variable [Facts]
-- ==== Proof.Spec.lean ====
/-
  What the two programs compute, written as formulas over the extended reals: a mean-aggregating graph
  convolution (every node's input features, and the mean of the features its in-edges bring, each through a
  dense layer), a rectifier, a batch normalisation over the 100000 nodes, a sum of the normalised rows over each
  of 64 graphs, and a head that applies twice "dense layer, rectifier, batch normalisation over the 64 graphs"
  and ends in a row-wise log-softmax.

  One side normalises every node's row and then sums the rows of a graph. The other side never forms the
  normalised rows: per graph it sums the rectified rows and counts the nodes, per feature it sums the entries and
  their squares over all nodes, and it applies the normalisation's affine map once to the per-graph sums,
  sum_i (a r_i + b) = a (sum_i r_i) + (count) b, with the variance as the mean of squares minus the squared mean.
  That side also splits the nodes in 2 halves of 5 tiles of 10000 rows and accumulates tile after tile.

  Each formula below follows its program's own association, so that reading a program at an index lands on its
  formula by unfolding alone; that the two formulas agree on finite inputs is the subject of the bridge modules.
  Every stage takes the arrays it reads as explicit arguments; only the two results at the end are stated over
  the record of all argument arrays.
-/
import Idealize.ShloMosaic.PureOps.Ideal

noncomputable section

open Idealize.ShloMosaic

namespace Cert.Spec

/-! ## The float words both programs carry, at their exact values -/

abbrev c0 : EReal := Ideal.ofBits .f32 0x00000000#32
abbrev c1 : EReal := Ideal.ofBits .f32 0x3F800000#32
/-- The number of nodes, 100000, as the divisor of the node means. -/
abbrev cN : EReal := Ideal.ofBits .f32 0x47C35000#32
/-- The number of graphs, 64, as the divisor of the head's means. -/
abbrev cG : EReal := Ideal.ofBits .f32 0x42800000#32
/-- The normalisation's epsilon. -/
abbrev eps : EReal := Ideal.ofBits .f32 0x3727C5AC#32
/-- Minus infinity, where the row maximum starts. -/
abbrev cBot : EReal := Ideal.ofBits .f32 0xFF800000#32
/-- The variance's "degrees of freedom removed", the integer 0 read as a float. -/
abbrev ddof : EReal := (((0#32 : BitVec 32).toInt : ℝ) : EReal)

/-! ## The convolution: shared by both programs up to how the in-degree is counted -/

/-- The rows the in-edges of node i bring, summed: the zero the scatter starts from plus each landing message. -/
def agg (msg : Fin 1000000 → Fin 128 → EReal) (dst : Fin 1000000 → Int) (i : Fin 100000) (k : Fin 128) : EReal :=
  c0 + ∑ e : Fin 1000000, if dst e = (i.val : Int) then msg e k else 0

/-- The number of in-edges of node i, counted in floats: 1.0 per edge whose destination is i. -/
def degR (dst : Fin 1000000 → Int) (i : Fin 100000) : EReal :=
  c0 + ∑ e : Fin 1000000, if dst e = (i.val : Int) then c1 else 0

/-- The same count made in integers over destinations dK (the destinations clipped below at 0), read as a float. -/
def degK (dK : Fin 1000000 → Int) (i : Fin 100000) : EReal :=
  (0 : EReal) + ∑ e : Fin 1000000, if dK e = (i.val : Int) then (1 : EReal) else 0

/-- The mean of the in-coming rows; an isolated node divides by 1. -/
def hnOf (ag : Fin 100000 → Fin 128 → EReal) (deg : Fin 100000 → EReal) (i : Fin 100000) (k : Fin 128) : EReal :=
  Ideal.div (ag i k) (max (deg i) c1)

/-- The rectified convolution output of row i at feature h (the rows are all 100000 nodes, or one tile of 10000). -/
def actOf {n : ℕ} (feat hn : Fin n → Fin 128 → EReal) (Ws Wn : Fin 128 → Fin 256 → EReal) (b : Fin 256 → EReal)
    (i : Fin n) (h : Fin 256) : EReal :=
  max (((∑ k : Fin 128, feat i k * Ws k h) + (∑ k : Fin 128, hn i k * Wn k h)) + b h) c0

/-- One dense layer of the head and its rectifier, on a 64 by 256 array. -/
def lin (W : Fin 256 → Fin 256 → EReal) (b : Fin 256 → EReal) (x : Fin 64 → Fin 256 → EReal) (g : Fin 64) (h : Fin 256) :
    EReal :=
  max ((∑ k : Fin 256, x g k * W k h) + b h) c0

/-- Row q of tile j of half cc is node (5 cc + j) 10000 + q. -/
def node (cc : Fin 2) (j : Fin 5) (q : Fin 10000) : Fin 100000 :=
  ⟨(cc.val * 5 + j.val) * 10000 + q.val, by have := cc.isLt; have := j.isLt; have := q.isLt; omega⟩

/-- 1 when the graph number x is g, else 0: one entry of the membership matrix. -/
def hot (x : Int) (g : Fin 64) : EReal := if x = (g.val : Int) then 1 else 0

/-! ## The side that pools raw sums and normalises afterwards -/

namespace K

/-- Per half: the feature sums, the sums of squares, the per-graph sums and the per-graph counts, each a zero plus
    five tiles' contributions. -/
def S (r : Fin 100000 → Fin 256 → EReal) (cc : Fin 2) (h : Fin 256) : EReal :=
  c0 + ∑ j : Fin 5, ∑ q : Fin 10000, r (node cc j q) h
def Q (r : Fin 100000 → Fin 256 → EReal) (cc : Fin 2) (h : Fin 256) : EReal :=
  c0 + ∑ j : Fin 5, ∑ q : Fin 10000, r (node cc j q) h * r (node cc j q) h
def P (gid : Fin 100000 → Int) (r : Fin 100000 → Fin 256 → EReal) (cc : Fin 2) (g : Fin 64) (h : Fin 256) : EReal :=
  c0 + ∑ j : Fin 5, ∑ q : Fin 10000, hot (gid (node cc j q)) g * r (node cc j q) h
def C (gid : Fin 100000 → Int) (cc : Fin 2) (g : Fin 64) : EReal :=
  c0 + ∑ j : Fin 5, ∑ q : Fin 10000, hot (gid (node cc j q)) g

/-! The second stage, over the two halves' arrays. -/

def mean (S : Fin 2 → Fin 256 → EReal) (h : Fin 256) : EReal := Ideal.div (∑ cc : Fin 2, S cc h) cN
def var (S Q : Fin 2 → Fin 256 → EReal) (h : Fin 256) : EReal :=
  max (Ideal.div (∑ cc : Fin 2, Q cc h) cN - mean S h * mean S h) c0
/-- The normalisation as an affine map x ↦ a x + bb per feature. -/
def a (gc : Fin 256 → EReal) (S Q : Fin 2 → Fin 256 → EReal) (h : Fin 256) : EReal :=
  gc h * Ideal.rsqrt (var S Q h + eps)
def bb (gc bc : Fin 256 → EReal) (S Q : Fin 2 → Fin 256 → EReal) (h : Fin 256) : EReal :=
  bc h - mean S h * a gc S Q h
def pooledOf (gc bc : Fin 256 → EReal) (S Q : Fin 2 → Fin 256 → EReal) (P : Fin 2 → Fin 64 → Fin 256 → EReal)
    (C : Fin 2 → Fin 64 → EReal) (g : Fin 64) (h : Fin 256) : EReal :=
  (∑ cc : Fin 2, P cc g h) * a gc S Q h + (∑ cc : Fin 2, C cc g) * bb gc bc S Q h

/-- The pooled rows from the rectified rows r. -/
def pooled (gid : Fin 100000 → Int) (gc bc : Fin 256 → EReal) (r : Fin 100000 → Fin 256 → EReal) :
    Fin 64 → Fin 256 → EReal :=
  pooledOf gc bc (S r) (Q r) (P gid r) (C gid)

/-- Dense layer, rectifier, normalisation over the 64 rows. -/
def lpMean (W : Fin 256 → Fin 256 → EReal) (b : Fin 256 → EReal) (x : Fin 64 → Fin 256 → EReal) (h : Fin 256) : EReal :=
  Ideal.div (∑ g : Fin 64, lin W b x g h) cG
def lpVar (W : Fin 256 → Fin 256 → EReal) (b : Fin 256 → EReal) (x : Fin 64 → Fin 256 → EReal) (h : Fin 256) : EReal :=
  Ideal.div (∑ g : Fin 64, (lin W b x g h - lpMean W b x h) * (lin W b x g h - lpMean W b x h)) cG
def lp (W : Fin 256 → Fin 256 → EReal) (b gm bt : Fin 256 → EReal) (x : Fin 64 → Fin 256 → EReal) (g : Fin 64)
    (h : Fin 256) : EReal :=
  ((lin W b x g h - lpMean W b x h) * Ideal.rsqrt (lpVar W b x h + eps)) * gm h + bt h

/-- Row-wise log-softmax. -/
def rowMax (x : Fin 64 → Fin 256 → EReal) (g : Fin 64) : EReal :=
  (Finset.univ : Finset (Fin 256)).fold max cBot (fun k => x g k)
def lsm (x : Fin 64 → Fin 256 → EReal) (g : Fin 64) (h : Fin 256) : EReal :=
  (x g h - rowMax x g) - Ideal.log (∑ k : Fin 256, Ideal.exp (x g k - rowMax x g))

end K

/-! ## The side that normalises every node's row and sums the normalised rows -/

namespace R

def mean (r : Fin 100000 → Fin 256 → EReal) (h : Fin 256) : EReal := Ideal.div (c0 + ∑ i : Fin 100000, r i h) cN
def var (r : Fin 100000 → Fin 256 → EReal) (h : Fin 256) : EReal :=
  Ideal.div (c0 + ∑ i : Fin 100000, (r i h - mean r h) * (r i h - mean r h)) (cN - ddof)
def y (gc bc : Fin 256 → EReal) (r : Fin 100000 → Fin 256 → EReal) (i : Fin 100000) (h : Fin 256) : EReal :=
  ((r i h - mean r h) * Ideal.rsqrt (var r h + eps)) * gc h + bc h
def pooled (gid : Fin 100000 → Int) (gc bc : Fin 256 → EReal) (r : Fin 100000 → Fin 256 → EReal) (g : Fin 64)
    (h : Fin 256) : EReal :=
  c0 + ∑ i : Fin 100000, if gid i = (g.val : Int) then y gc bc r i h else 0

def lpMean (W : Fin 256 → Fin 256 → EReal) (b : Fin 256 → EReal) (x : Fin 64 → Fin 256 → EReal) (h : Fin 256) : EReal :=
  Ideal.div (c0 + ∑ g : Fin 64, lin W b x g h) cG
def lpVar (W : Fin 256 → Fin 256 → EReal) (b : Fin 256 → EReal) (x : Fin 64 → Fin 256 → EReal) (h : Fin 256) : EReal :=
  Ideal.div (c0 + ∑ g : Fin 64, (lin W b x g h - lpMean W b x h) * (lin W b x g h - lpMean W b x h)) (cG - ddof)
def lp (W : Fin 256 → Fin 256 → EReal) (b gm bt : Fin 256 → EReal) (x : Fin 64 → Fin 256 → EReal) (g : Fin 64)
    (h : Fin 256) : EReal :=
  ((lin W b x g h - lpMean W b x h) * Ideal.rsqrt (lpVar W b x h + eps)) * gm h + bt h

def rowMax (x : Fin 64 → Fin 256 → EReal) (g : Fin 64) : EReal :=
  max cBot ((Finset.univ : Finset (Fin 256)).fold max cBot (fun k => x g k))
def lsm (x : Fin 64 → Fin 256 → EReal) (g : Fin 64) (h : Fin 256) : EReal :=
  (x g h - rowMax x g) - Ideal.log (c0 + ∑ k : Fin 256, Ideal.exp (x g k - rowMax x g))

end R

/-! ## The two results over the record of all argument arrays -/

/-- The argument arrays, entry by entry. msg is the array of the source rows, one per edge (the same gather of
    feat in both programs); dst and gid are the destination of each edge and the graph of each node, read as
    signed integers. -/
structure Inputs where
  feat : Fin 100000 → Fin 128 → EReal
  msg : Fin 1000000 → Fin 128 → EReal
  dst : Fin 1000000 → Int
  gid : Fin 100000 → Int
  Ws : Fin 128 → Fin 256 → EReal
  Wn : Fin 128 → Fin 256 → EReal
  b : Fin 256 → EReal
  gc : Fin 256 → EReal
  bc : Fin 256 → EReal
  Wlp : Fin 256 → Fin 256 → EReal
  blp : Fin 256 → EReal
  glp : Fin 256 → EReal
  betalp : Fin 256 → EReal

/-- Every float entry is a real number. -/
def Inputs.Finite (I : Inputs) : Prop :=
  (∀ i k, ∃ x : ℝ, I.feat i k = (x : EReal)) ∧ (∀ e k, ∃ x : ℝ, I.msg e k = (x : EReal))
  ∧ (∀ k h, ∃ x : ℝ, I.Ws k h = (x : EReal)) ∧ (∀ k h, ∃ x : ℝ, I.Wn k h = (x : EReal))
  ∧ (∀ h, ∃ x : ℝ, I.b h = (x : EReal)) ∧ (∀ h, ∃ x : ℝ, I.gc h = (x : EReal)) ∧ (∀ h, ∃ x : ℝ, I.bc h = (x : EReal))
  ∧ (∀ k h, ∃ x : ℝ, I.Wlp k h = (x : EReal)) ∧ (∀ h, ∃ x : ℝ, I.blp h = (x : EReal))
  ∧ (∀ h, ∃ x : ℝ, I.glp h = (x : EReal)) ∧ (∀ h, ∃ x : ℝ, I.betalp h = (x : EReal))

namespace Inputs

variable (I : Inputs)

/-- The rectified rows with the in-degree counted in integers over the clipped destinations dK. -/
def actK (dK : Fin 1000000 → Int) : Fin 100000 → Fin 256 → EReal :=
  actOf I.feat (hnOf (agg I.msg I.dst) (degK dK)) I.Ws I.Wn I.b
/-- The rectified rows with the in-degree counted in floats. -/
def actR : Fin 100000 → Fin 256 → EReal :=
  actOf I.feat (hnOf (agg I.msg I.dst) (degR I.dst)) I.Ws I.Wn I.b

/-- The two results of the side that pools raw sums: p after one pass of the head, the log-softmax after two. -/
def pK (dK : Fin 1000000 → Int) : Fin 64 → Fin 256 → EReal :=
  K.lp I.Wlp I.blp I.glp I.betalp (K.pooled I.gid I.gc I.bc (I.actK dK))
def logsmK (dK : Fin 1000000 → Int) : Fin 64 → Fin 256 → EReal :=
  K.lsm (K.lp I.Wlp I.blp I.glp I.betalp (I.pK dK))

/-- The two results of the side that normalises row by row. -/
def pR : Fin 64 → Fin 256 → EReal :=
  R.lp I.Wlp I.blp I.glp I.betalp (R.pooled I.gid I.gc I.bc I.actR)
def logsmR : Fin 64 → Fin 256 → EReal :=
  R.lsm (R.lp I.Wlp I.blp I.glp I.betalp I.pR)

end Inputs

end Cert.Spec

end
-- ==== Proof.KernelInputs.lean ====
/-
  The argument arrays of the kernel's program, entry by entry, as the record the formulas are written over: the
  float arrays read at their coordinates, the edge destinations and the nodes' graph numbers read as signed
  integers, and the array of source rows (the gather of the feature rows at the edge sources, a negative source
  counted from the end). Also the destinations as the kernel's degree count uses them: clipped below at zero,
  then (vacuously) counted from the end when negative.
-/
import proofs.«416988_j64106681860685_3_alg».proof.KernelIdeal
import proofs.«416988_j64106681860685_3_alg».proof.Proof.Gen.KernelIdeal
import proofs.«416988_j64106681860685_3_alg».proof.Proof.Spec
import Idealize.ShloMosaic.Lib.ValueIdx

noncomputable section

namespace Cert.KernelIdeal.Inp

open Cert.KernelIdeal Idealize.ShloMosaic Idealize.ShloMosaic.TcCoe Idealize.SL.Sem Idealize.ShloMosaic.ValueIdx
open Cert.KernelIdeal.Facts₀ Cert.KernelIdeal.Facts

abbrev Mem : Type := (ℓ : Loc nD τ sig) → Buf (Elt Ideal) ℓ

/-- The edge sources as the gather reads them: a negative source counted from the end, laid out as a column. -/
def srcIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- One feature row per edge: the row of the edge's source. -/
def msgArr (feat : FVec Ideal S100000x128 .f32) (src : IVec S1000000 32) : FVec Ideal S1000000x128 .f32 :=
  Host.gather gather_S100000x128_S1000000x1_S1000000x128_1_0_n_n_0_1_1128 feat (srcIdx src)

/-- The destinations as the degree count scatters them: the maximum of 0 and the destination, then counted from the
    end if negative (never, after the maximum). -/
def dstClip (dst : IVec S1000000 32) : IVec S1000000 32 :=
  let cl : IVec S1000000 32 := maxsi (broadcastInDim S1000000 ![] bcast_S_S1000000 (constantI S_ 32 0#32)) dst
  select (cmpi .slt cl (broadcastInDim S1000000 ![] bcast_S_S1000000 (constantI S_ 32 0#32)))
    (addi cl (broadcastInDim S1000000 ![] bcast_S_S1000000 (constantI S_ 32 100000#32))) cl

variable (m : Mem) (c : Dev nD)

def inputs : Cert.Spec.Inputs where
  feat i k := (m ((c.tc : Thread nD τ).loc main_arg0) : FVec Ideal S100000x128 .f32) (ix2 i k)
  msg e k := msgArr (m ((c.tc : Thread nD τ).loc main_arg0)) (m ((c.tc : Thread nD τ).loc main_arg10)) (ix2 e k)
  dst e := ((m ((c.tc : Thread nD τ).loc main_arg11) : IVec S1000000 32) (ix1 e)).toInt
  gid i := ((m ((c.tc : Thread nD τ).loc main_arg12) : IVec S100000 32) (ix1 i)).toInt
  Ws k h := (m ((c.tc : Thread nD τ).loc main_arg1) : FVec Ideal S128x256 .f32) (ix2 k h)
  Wn k h := (m ((c.tc : Thread nD τ).loc main_arg2) : FVec Ideal S128x256 .f32) (ix2 k h)
  b h := (m ((c.tc : Thread nD τ).loc main_arg3) : FVec Ideal S256 .f32) (ix1 h)
  gc h := (m ((c.tc : Thread nD τ).loc main_arg4) : FVec Ideal S256 .f32) (ix1 h)
  bc h := (m ((c.tc : Thread nD τ).loc main_arg5) : FVec Ideal S256 .f32) (ix1 h)
  Wlp k h := (m ((c.tc : Thread nD τ).loc main_arg6) : FVec Ideal S256x256 .f32) (ix2 k h)
  blp h := (m ((c.tc : Thread nD τ).loc main_arg7) : FVec Ideal S256 .f32) (ix1 h)
  glp h := (m ((c.tc : Thread nD τ).loc main_arg8) : FVec Ideal S256 .f32) (ix1 h)
  betalp h := (m ((c.tc : Thread nD τ).loc main_arg9) : FVec Ideal S256 .f32) (ix1 h)

/-- The clipped destinations, read as signed integers. -/
def dK (e : Fin 1000000) : Int :=
  (dstClip (m ((c.tc : Thread nD τ).loc main_arg11)) (ix1 e)).toInt

end Cert.KernelIdeal.Inp

end
-- ==== Proof.KernelHost.lean ====
/-
  The arrays the two regions of the kernel's program are entered with, and the two arrays the second region leaves,
  each as a term of the argument arrays.

  Before the first region the program prepares, by whole-array operations: the feature rows rounded to half width;
  the neighbour means, rounded the same way: one row per edge, the rounded row of the edge's source (a negative
  source counted from the end) widened again, the rows summed into their edges' destinations from an array of
  zeros, each sum divided by the larger of 1 and the node's in-degree, the in-degree counted in integers by
  scattering a one per edge at its destination (clipped below at zero, then counted from the end if negative) and
  read as a float; the two weight matrices rounded to half width; the bias as one row; the nodes' graph numbers
  as 10 tiles of one row of 10000. Between the regions it lays five vectors out as one row each; the second
  region also takes one weight matrix as launched and the four arrays the first region wrote, and the program
  returns the two arrays the second region wrote.
-/
import proofs.«416988_j64106681860685_3_alg».proof.Proof.Gen.KernelIdeal.Frame
import proofs.«416988_j64106681860685_3_alg».proof.Proof.KernelInputs
import Idealize.ShloMosaic.Lib.StableHlo.Run

set_option maxRecDepth 16384

noncomputable section

namespace Cert.KernelIdeal.Host

open Cert.KernelIdeal Idealize.ShloMosaic Idealize.ShloMosaic.TcCoe Idealize.SL.Sem
open Idealize.ShloMosaic.StableHlo
open Cert.KernelIdeal.Facts₀ Cert.KernelIdeal.Facts

variable {F : FTy → Type} [FloatOps F]

/-! ## The prepared arrays as functions of the argument arrays -/

/-- An array of 1000000 integers as a column. -/
def col (x : IVec S1000000 32) : IVec S1000000x1 32 :=
  broadcastInDim S1000000x1 ![0] bcast_S1000000_S1000000x1_0 x

/-- The feature rows rounded to half width. -/
def featB (x : FVec F S100000x128 .f32) : FVec F S100000x128 .bf16 := truncf .bf16 x bitsLt_bf16_f32

/-- One row per edge: the rounded row of the edge's source, widened again. -/
def msgF (x : FVec F S100000x128 .f32) (src : IVec S1000000 32) : FVec F S1000000x128 .f32 :=
  extf .f32 (Host.gather gather_S100000x128_S1000000x1_S1000000x128_1_0_n_n_0_1_1128 (featB x) (Inp.srcIdx src))
    bitsLt_bf16_f32

/-- Per node the sum of the rows its in-edges bring: a scatter-add into zeros at the destinations. -/
def aggF (x : FVec F S100000x128 .f32) (src dst : IVec S1000000 32) : FVec F S100000x128 .f32 :=
  Host.scatterAdd scatter_S100000x128_S1000000x1_S1000000x128_1_0_0_1
    (broadcastInDim S100000x128 ![] bcast_S_S100000x128 (constant S_ .f32 0x00000000#32)) (col dst) (msgF x src)

/-- Per node the number of its in-edges, counted in integers: a one per edge added at its clipped destination. -/
def degI (dst : IVec S1000000 32) : IVec S100000 32 :=
  Host.scatter scatter_S100000_S1000000x1_S1000000_n_0_0_1 IntOp.addi
    (broadcastInDim S100000 ![] bcast_S_S100000 (constantI S_ 32 0#32)) (col (Inp.dstClip dst))
    (broadcastInDim S1000000 ![] bcast_S_S1000000 (constantI S_ 32 1#32))

/-- The divisor of the neighbour mean: the larger of the in-degree, read as a float, and 1, the same along a row. -/
def degF (dst : IVec S1000000 32) : FVec F S100000x128 .f32 :=
  broadcastInDim S100000x128 ![0, 1] bcast_S100000x1_S100000x128_0_1
    (maximumf (shapeCast S100000x1 (sitofp .f32 (degI dst)) shapeCasts_S100000_S100000x1)
      (broadcastInDim S100000x1 ![] bcast_S_S100000x1 (constant S_ .f32 0x3F800000#32)))

/-- The neighbour means, rounded to half width. -/
def hnB (x : FVec F S100000x128 .f32) (src dst : IVec S1000000 32) : FVec F S100000x128 .bf16 :=
  truncf .bf16 (Host.divf (aggF x src dst) (degF dst)) bitsLt_bf16_f32

/-- A weight matrix of the convolution rounded to half width. -/
def wB (w : FVec F S128x256 .f32) : FVec F S128x256 .bf16 := truncf .bf16 w bitsLt_bf16_f32

/-- A vector of 256 floats as one row. -/
def row (v : FVec F S256 .f32) : FVec F S1x256 .f32 := shapeCast S1x256 v shapeCasts_S256_S1x256

/-- The nodes' graph numbers as 10 tiles of one row of 10000. -/
def gidT (g : IVec S100000 32) : IVec S10x1x10000 32 := shapeCast S10x1x10000 g shapeCasts_S100000_S10x1x10000

variable (m : (ℓ : Loc nD τ sig) → Buf (Elt F) ℓ) (ρ : Dev nD → PrngReg) (c : Dev nD)

/-! ## What the first region is entered with -/

theorem V3_v0 : (Gen.V3 m ρ c main_v0 : FVec F S100000x128 .bf16) = featB (m ((c.tc : Thread nD τ).loc main_arg0)) := by
  dsimp only [Gen.V3, Gen.W3, Gen.W2, Gen.W1, Gen.W0]
  simp only [Gen.hostOps0, Gen.hostOps0_1, Gen.hostOps0_2]
  after_results
  rfl

/-! The neighbour means take all three stretches of operations: the sums of the in-coming rows are made in the
    first, the destinations are clipped in the second (a function of the program called once), the in-degrees are
    counted and the division is made in the third. Each stretch is read on its own, from any contents V. -/

section Stretches

variable (V : Valuation τ sig (Elt F))

theorem first_v11 : (after Gen.hostOps0 V (Proc.devRef .tc main_v11) : FVec F S100000x128 .f32)
    = aggF (V (Proc.devRef .tc main_arg0)) (V (Proc.devRef .tc main_arg10)) (V (Proc.devRef .tc main_arg11)) := by
  simp only [Gen.hostOps0]
  after_results
  rfl

theorem first_v12 : (after Gen.hostOps0 V (Proc.devRef .tc main_v12) : IVec S100000 32)
    = broadcastInDim S100000 ![] bcast_S_S100000 (constantI S_ 32 0#32) := by
  simp only [Gen.hostOps0]
  after_results

theorem first_c_2 : (after Gen.hostOps0 V (Proc.devRef .tc main_c_2) : IVec S_ 32) = constantI S_ 32 0#32 := by
  simp only [Gen.hostOps0]
  after_results

theorem first_arg11 : after Gen.hostOps0 V (Proc.devRef .tc main_arg11) = V (Proc.devRef .tc main_arg11) := by
  simp only [Gen.hostOps0]
  after_results

theorem second_v11 : after Gen.hostOps0_1 V (Proc.devRef .tc main_v11) = V (Proc.devRef .tc main_v11) := by
  simp only [Gen.hostOps0_1]
  after_results

theorem second_v12 : after Gen.hostOps0_1 V (Proc.devRef .tc main_v12) = V (Proc.devRef .tc main_v12) := by
  simp only [Gen.hostOps0_1]
  after_results

/-- The destinations clipped below at the scalar the first stretch left. -/
theorem second_v13 : (after Gen.hostOps0_1 V (Proc.devRef .tc main_v13) : IVec S1000000 32)
    = maxsi (broadcastInDim S1000000 ![] bcast_S_S1000000 (V (Proc.devRef .tc main_c_2))) (V (Proc.devRef .tc main_arg11)) := by
  simp only [Gen.hostOps0_1]
  after_results
  rfl

set_option maxHeartbeats 1000000 in
/-- The third stretch's quotient from any contents: of the array the count starts from, of the clipped destinations
    it counts (counted from the end if negative), and of the sums of rows it divides. -/
theorem third_v28 : (after Gen.hostOps0_2 V (Proc.devRef .tc main_v28) : FVec F S100000x128 .bf16)
    = truncf .bf16 (Host.divf (V (Proc.devRef .tc main_v11) : FVec F S100000x128 .f32)
        (broadcastInDim S100000x128 ![0, 1] bcast_S100000x1_S100000x128_0_1
          (maximumf (shapeCast S100000x1 (sitofp .f32
              (Host.scatter scatter_S100000_S1000000x1_S1000000_n_0_0_1 IntOp.addi (V (Proc.devRef .tc main_v12))
                (col (select (cmpi .slt (V (Proc.devRef .tc main_v13)) (broadcastInDim S1000000 ![] bcast_S_S1000000 (constantI S_ 32 0#32)))
                  (addi (V (Proc.devRef .tc main_v13)) (broadcastInDim S1000000 ![] bcast_S_S1000000 (constantI S_ 32 100000#32)))
                  (V (Proc.devRef .tc main_v13))))
                (broadcastInDim S1000000 ![] bcast_S_S1000000 (constantI S_ 32 1#32)))) shapeCasts_S100000_S100000x1)
            (broadcastInDim S100000x1 ![] bcast_S_S100000x1 (constant S_ .f32 0x3F800000#32))))) bitsLt_bf16_f32 := by
  simp only [Gen.hostOps0_2]
  after_results_simp
  rfl

end Stretches

theorem W2_v11 : (Gen.W2 m ρ c (Proc.devRef .tc main_v11) : FVec F S100000x128 .f32)
    = aggF (m ((c.tc : Thread nD τ).loc main_arg0)) (m ((c.tc : Thread nD τ).loc main_arg10)) (m ((c.tc : Thread nD τ).loc main_arg11)) := by
  dsimp only [Gen.W2, Gen.W1]
  rw [second_v11, first_v11]

theorem W2_v12 : (Gen.W2 m ρ c (Proc.devRef .tc main_v12) : IVec S100000 32)
    = broadcastInDim S100000 ![] bcast_S_S100000 (constantI S_ 32 0#32) := by
  dsimp only [Gen.W2, Gen.W1]
  rw [second_v12, first_v12]

/-- The destinations clipped below at zero. -/
theorem W2_v13 : (Gen.W2 m ρ c (Proc.devRef .tc main_v13) : IVec S1000000 32)
    = maxsi (broadcastInDim S1000000 ![] bcast_S_S1000000 (constantI S_ 32 0#32)) (m ((c.tc : Thread nD τ).loc main_arg11)) := by
  dsimp only [Gen.W2, Gen.W1]
  rw [second_v13, first_c_2, first_arg11]

theorem V3_v28 : (Gen.V3 m ρ c main_v28 : FVec F S100000x128 .bf16)
    = hnB (m ((c.tc : Thread nD τ).loc main_arg0)) (m ((c.tc : Thread nD τ).loc main_arg10)) (m ((c.tc : Thread nD τ).loc main_arg11)) := by
  dsimp only [Gen.V3, Gen.W3]
  rw [third_v28, W2_v11, W2_v12, W2_v13]
  rfl

theorem V3_v29 : (Gen.V3 m ρ c main_v29 : FVec F S128x256 .bf16) = wB (m ((c.tc : Thread nD τ).loc main_arg1)) := by
  dsimp only [Gen.V3, Gen.W3, Gen.W2, Gen.W1, Gen.W0]
  simp only [Gen.hostOps0, Gen.hostOps0_1, Gen.hostOps0_2]
  after_results
  rfl

theorem V3_v30 : (Gen.V3 m ρ c main_v30 : FVec F S128x256 .bf16) = wB (m ((c.tc : Thread nD τ).loc main_arg2)) := by
  dsimp only [Gen.V3, Gen.W3, Gen.W2, Gen.W1, Gen.W0]
  simp only [Gen.hostOps0, Gen.hostOps0_1, Gen.hostOps0_2]
  after_results
  rfl

theorem V3_v31 : (Gen.V3 m ρ c main_v31 : FVec F S1x256 .f32) = row (m ((c.tc : Thread nD τ).loc main_arg3)) := by
  dsimp only [Gen.V3, Gen.W3, Gen.W2, Gen.W1, Gen.W0]
  simp only [Gen.hostOps0, Gen.hostOps0_1, Gen.hostOps0_2]
  after_results
  rfl

theorem V3_v32 : (Gen.V3 m ρ c main_v32 : IVec S10x1x10000 32) = gidT (m ((c.tc : Thread nD τ).loc main_arg12)) := by
  dsimp only [Gen.V3, Gen.W3, Gen.W2, Gen.W1, Gen.W0]
  simp only [Gen.hostOps0, Gen.hostOps0_1, Gen.hostOps0_2]
  after_results
  rfl

/-! ## What the second region is entered with

An argument array is as launched when the first region is left: no operation before it writes an argument, and the
region writes its four result arrays only. -/

theorem W4_arg4 : Gen.W4 m ρ c (Proc.devRef .tc main_arg4) = m ((c.tc : Thread nD τ).loc main_arg4) := by
  rw [Gen.W4_of_ne m ρ c main_arg4 (by decide)]
  dsimp only [Gen.W3, Gen.W2, Gen.W1, Gen.W0]
  simp only [Gen.hostOps0, Gen.hostOps0_1, Gen.hostOps0_2]
  after_results

theorem W4_arg5 : Gen.W4 m ρ c (Proc.devRef .tc main_arg5) = m ((c.tc : Thread nD τ).loc main_arg5) := by
  rw [Gen.W4_of_ne m ρ c main_arg5 (by decide)]
  dsimp only [Gen.W3, Gen.W2, Gen.W1, Gen.W0]
  simp only [Gen.hostOps0, Gen.hostOps0_1, Gen.hostOps0_2]
  after_results

theorem W4_arg6 : Gen.W4 m ρ c (Proc.devRef .tc main_arg6) = m ((c.tc : Thread nD τ).loc main_arg6) := by
  rw [Gen.W4_of_ne m ρ c main_arg6 (by decide)]
  dsimp only [Gen.W3, Gen.W2, Gen.W1, Gen.W0]
  simp only [Gen.hostOps0, Gen.hostOps0_1, Gen.hostOps0_2]
  after_results

theorem W4_arg7 : Gen.W4 m ρ c (Proc.devRef .tc main_arg7) = m ((c.tc : Thread nD τ).loc main_arg7) := by
  rw [Gen.W4_of_ne m ρ c main_arg7 (by decide)]
  dsimp only [Gen.W3, Gen.W2, Gen.W1, Gen.W0]
  simp only [Gen.hostOps0, Gen.hostOps0_1, Gen.hostOps0_2]
  after_results

theorem W4_arg8 : Gen.W4 m ρ c (Proc.devRef .tc main_arg8) = m ((c.tc : Thread nD τ).loc main_arg8) := by
  rw [Gen.W4_of_ne m ρ c main_arg8 (by decide)]
  dsimp only [Gen.W3, Gen.W2, Gen.W1, Gen.W0]
  simp only [Gen.hostOps0, Gen.hostOps0_1, Gen.hostOps0_2]
  after_results

theorem W4_arg9 : Gen.W4 m ρ c (Proc.devRef .tc main_arg9) = m ((c.tc : Thread nD τ).loc main_arg9) := by
  rw [Gen.W4_of_ne m ρ c main_arg9 (by decide)]
  dsimp only [Gen.W3, Gen.W2, Gen.W1, Gen.W0]
  simp only [Gen.hostOps0, Gen.hostOps0_1, Gen.hostOps0_2]
  after_results

theorem V5_v34 : (Gen.V5 m ρ c main_v34 : FVec F S1x256 .f32) = row (m ((c.tc : Thread nD τ).loc main_arg4)) := by
  dsimp only [Gen.V5, Gen.W5]
  simp only [Gen.hostOps1]
  after_results
  rw [W4_arg4]
  rfl

theorem V5_v35 : (Gen.V5 m ρ c main_v35 : FVec F S1x256 .f32) = row (m ((c.tc : Thread nD τ).loc main_arg5)) := by
  dsimp only [Gen.V5, Gen.W5]
  simp only [Gen.hostOps1]
  after_results
  rw [W4_arg5]
  rfl

theorem V5_v36 : (Gen.V5 m ρ c main_v36 : FVec F S1x256 .f32) = row (m ((c.tc : Thread nD τ).loc main_arg7)) := by
  dsimp only [Gen.V5, Gen.W5]
  simp only [Gen.hostOps1]
  after_results
  rw [W4_arg7]
  rfl

theorem V5_v37 : (Gen.V5 m ρ c main_v37 : FVec F S1x256 .f32) = row (m ((c.tc : Thread nD τ).loc main_arg8)) := by
  dsimp only [Gen.V5, Gen.W5]
  simp only [Gen.hostOps1]
  after_results
  rw [W4_arg8]
  rfl

theorem V5_v38 : (Gen.V5 m ρ c main_v38 : FVec F S1x256 .f32) = row (m ((c.tc : Thread nD τ).loc main_arg9)) := by
  dsimp only [Gen.V5, Gen.W5]
  simp only [Gen.hostOps1]
  after_results
  rw [W4_arg9]
  rfl

theorem V5_arg6 : (Gen.V5 m ρ c main_arg6 : FVec F S256x256 .f32) = m ((c.tc : Thread nD τ).loc main_arg6) := by
  dsimp only [Gen.V5, Gen.W5]
  simp only [Gen.hostOps1]
  after_results
  exact W4_arg6 m ρ c

/-! The four arrays the first region wrote are what its write-backs leave: no operation between the regions writes
    them. Window 6 is the sums' array, 7 the sums of squares', 8 the per-graph sums', 9 the per-graph counts'. -/

theorem V5_v33_0 : Gen.V5 m ρ c main_v33_0 = (Gen.dat0 (Gen.V3 m ρ) c).arrAt 6 cfg0.N := by
  dsimp only [Gen.V5, Gen.W5]
  simp only [Gen.hostOps1]
  after_results
  exact Gen.W4_arr m ρ c 6

theorem V5_v33_1 : Gen.V5 m ρ c main_v33_1 = (Gen.dat0 (Gen.V3 m ρ) c).arrAt 7 cfg0.N := by
  dsimp only [Gen.V5, Gen.W5]
  simp only [Gen.hostOps1]
  after_results
  exact Gen.W4_arr m ρ c 7

theorem V5_v33_2 : Gen.V5 m ρ c main_v33_2 = (Gen.dat0 (Gen.V3 m ρ) c).arrAt 8 cfg0.N := by
  dsimp only [Gen.V5, Gen.W5]
  simp only [Gen.hostOps1]
  after_results
  exact Gen.W4_arr m ρ c 8

theorem V5_v33_3 : Gen.V5 m ρ c main_v33_3 = (Gen.dat0 (Gen.V3 m ρ) c).arrAt 9 cfg0.N := by
  dsimp only [Gen.V5, Gen.W5]
  simp only [Gen.hostOps1]
  after_results
  exact Gen.W4_arr m ρ c 9

/-! ## What the second region leaves in the two result arrays

Window 10 writes the call's first result, the head's rows after one pass; window 11 the second, the log-softmax
of the rows after two passes. -/

theorem W6_v39_1 : Gen.W6 m ρ c (Proc.devRef .tc main_v39_1) = (Gen.dat1 (Gen.V5 m ρ) c).arrAt 11 cfg1.N :=
  Gen.W6_arr m ρ c 11

theorem W6_v39_0 : Gen.W6 m ρ c (Proc.devRef .tc main_v39_0) = (Gen.dat1 (Gen.V5 m ρ) c).arrAt 10 cfg1.N :=
  Gen.W6_arr m ρ c 10

end Cert.KernelIdeal.Host

end
-- ==== Proof.LibScatterAddRows.lean ====
/-
  A float scatter-add that adds whole ROWS into a rank-2 table (what `segment_sum(x, ids, N)` prints for an `[n, C]` batch
  and a vector of `n` row numbers laid out as an `[n, 1]` column of scatter indices): update window axis 1, inserted
  window axis 0, the scatter index naming operand axis 0, the index vector along axis 1 of the scatter indices; and the same
  for a rank-1 table and a vector of updates (no window axis).

  Over the extended reals the result at `(k, q)` is the operand there plus the sum of the updates `(p, q)` whose row number,
  read signed and NOT clamped, is `k`; an update whose row number is outside `[0, N)` lands nowhere.
-/
import Idealize.ShloMosaic.PureOps
import Idealize.ShloMosaic.PureOps.Ideal
import Idealize.ShloMosaic.Lib.ValueIdx

namespace Idealize.ShloMosaic.ScatterAddRows

open Idealize.ShloMosaic Idealize.ShloMosaic.ValueIdx

/-- The dimension numbers of a row scatter into an `[N, C]` table by an `[n, 1]` column of row numbers. -/
abbrev rowDims (N C n : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- The dimension numbers of an entry scatter into an `[N]` table by an `[n, 1]` column of entry numbers. -/
abbrev entryDims (N n : Nat) (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

/-- On the row axis the start of update `(p, q)` is row number `p`, read signed: the one scatter index of update row `p`
    sits at `(p, 0)` of the column of scatter indices. -/
private theorem rows_start0 {N C n w : Nat}
    (wf : ScatterDims.WF ⟨2, ![N, C]⟩ ⟨2, ![n, 1]⟩ ⟨2, ![n, C]⟩ [1] [0] [0] 1)
    (idx : IVec ⟨2, ![n, 1]⟩ w) (p : Fin n) (q : Fin C) :
    (rowDims N C n wf).start (ix2 p q) idx (⟨0, by decide⟩ : Fin 2) = (idx (ix2 p ⟨0, Nat.one_pos⟩)).toInt := by
  unfold ScatterDims.start
  rw [dif_pos (show (⟨0, by decide⟩ : Fin 2) ∈ (rowDims N C n wf).scatterDimsToOperandDims from List.mem_singleton.mpr rfl)]
  have hsi : (rowDims N C n wf).siIdx (ix2 p q)
      ⟨List.idxOf (⟨0, by decide⟩ : Fin 2) (rowDims N C n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The column axis is named by no scatter index: its start is `0`. -/
private theorem rows_start1 {N C n w : Nat}
    (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) :
    (rowDims N C n wf).start j idx (⟨1, by decide⟩ : Fin 2) = 0 := by
  unfold ScatterDims.start
  rw [dif_neg (fun h => by have := congrArg Fin.val (List.mem_singleton.mp h); simp at this)]

/-- The row axis is an inserted window axis: it has no window coordinate. -/
private theorem rows_window0 {N C n : Nat}
    (wf : ScatterDims.WF ⟨2, ![N, C]⟩ ⟨2, ![n, 1]⟩ ⟨2, ![n, C]⟩ [1] [0] [0] 1)
    (j : (⟨2, ![n, C]⟩ : Shape).Idx) :
    (rowDims N C n wf).window j (⟨0, by decide⟩ : Fin 2) = 0 := by
  unfold ScatterDims.window
  rw [dif_neg (by simp [Shape.kept])]

/-- The column axis is the one window axis: its window coordinate is the update's own column. -/
private theorem rows_window1 {N C n : Nat}
    (wf : ScatterDims.WF ⟨2, ![N, C]⟩ ⟨2, ![n, 1]⟩ ⟨2, ![n, C]⟩ [1] [0] [0] 1)
    (p : Fin n) (q : Fin C) :
    (rowDims N C n wf).window (ix2 p q) (⟨1, by decide⟩ : Fin 2) = q.val := by
  unfold ScatterDims.window
  rw [dif_pos (by simp [Shape.kept])]
  rfl

/-- Update `(p, q')` lands on `(k, q)` exactly when row number `p` is `k` and `q' = q`: it lands at (row number + 0, 0 + q')
    when that is inside the table, and nowhere otherwise; and `(k, q)` is inside the table. -/
private theorem rows_resultIdx_iff {N C n w : Nat}
    (wf : ScatterDims.WF ⟨2, ![N, C]⟩ ⟨2, ![n, 1]⟩ ⟨2, ![n, C]⟩ [1] [0] [0] 1)
    (idx : IVec ⟨2, ![n, 1]⟩ w) (p : Fin n) (q' : Fin C) (k : Fin N) (q : Fin C) :
    (rowDims N C n wf).resultIdx? (ix2 p q') idx = some (ix2 k q)
      ↔ (idx (ix2 p ⟨0, Nat.one_pos⟩)).toInt = (k.val : Int) ∧ q' = q := by
  have h0 := rows_start0 wf idx p q'
  have h1 := rows_start1 wf idx (ix2 p q')
  have w0 := rows_window0 wf (ix2 p q')
  have w1 := rows_window1 wf p q'
  unfold ScatterDims.resultIdx?
  split
  · rename_i h
    rw [Option.some.injEq]
    have hh := (h (⟨0, by decide⟩ : Fin 2)).1
    rw [h0, w0] at hh
    constructor
    · intro hf
      have e0 : ((rowDims N C n wf).start (ix2 p q') idx (⟨0, by decide⟩ : Fin 2)
          + ((rowDims N C n wf).window (ix2 p q') (⟨0, by decide⟩ : Fin 2) : Int)).toNat = k.val :=
        congrArg Fin.val (congrFun hf (⟨0, by decide⟩ : Fin 2))
      have e1 : ((rowDims N C n wf).start (ix2 p q') idx (⟨1, by decide⟩ : Fin 2)
          + ((rowDims N C n wf).window (ix2 p q') (⟨1, by decide⟩ : Fin 2) : Int)).toNat = q.val :=
        congrArg Fin.val (congrFun hf (⟨1, by decide⟩ : Fin 2))
      rw [h0, w0] at e0
      rw [h1, w1] at e1
      exact ⟨by omega, Fin.ext (by omega)⟩
    · rintro ⟨ht, rfl⟩
      funext a; refine Fin.ext ?_
      match a with
      | ⟨0, _⟩ =>
        show ((rowDims N C n wf).start (ix2 p q') idx (⟨0, by decide⟩ : Fin 2)
          + ((rowDims N C n wf).window (ix2 p q') (⟨0, by decide⟩ : Fin 2) : Int)).toNat = k.val
        rw [h0, w0]; omega
      | ⟨1, _⟩ =>
        show ((rowDims N C n wf).start (ix2 p q') idx (⟨1, by decide⟩ : Fin 2)
          + ((rowDims N C n wf).window (ix2 p q') (⟨1, by decide⟩ : Fin 2) : Int)).toNat = q'.val
        rw [h1, w1]; omega
  · rename_i h
    constructor
    · intro hf; exact absurd hf (by simp)
    · rintro ⟨ht, rfl⟩
      exfalso; apply h
      intro a
      match a with
      | ⟨0, _⟩ =>
        show 0 ≤ (rowDims N C n wf).start (ix2 p q') idx (⟨0, by decide⟩ : Fin 2)
            + ((rowDims N C n wf).window (ix2 p q') (⟨0, by decide⟩ : Fin 2) : Int)
          ∧ (rowDims N C n wf).start (ix2 p q') idx (⟨0, by decide⟩ : Fin 2)
            + ((rowDims N C n wf).window (ix2 p q') (⟨0, by decide⟩ : Fin 2) : Int) < (N : Int)
        rw [h0, w0, ht]; have := k.isLt; omega
      | ⟨1, _⟩ =>
        show 0 ≤ (rowDims N C n wf).start (ix2 p q') idx (⟨1, by decide⟩ : Fin 2)
            + ((rowDims N C n wf).window (ix2 p q') (⟨1, by decide⟩ : Fin 2) : Int)
          ∧ (rowDims N C n wf).start (ix2 p q') idx (⟨1, by decide⟩ : Fin 2)
            + ((rowDims N C n wf).window (ix2 p q') (⟨1, by decide⟩ : Fin 2) : Int) < (C : Int)
        rw [h1, w1]; have := q'.isLt; omega

/-- THE ROW SCATTER-ADD READ AT `(k, q)`: the operand there plus the updates `(p, q)` of the rows `p` numbered `k`. -/
theorem scatterAdd_rows_apply {N C n w : Nat}
    (wf : ScatterDims.WF ⟨2, ![N, C]⟩ ⟨2, ![n, 1]⟩ ⟨2, ![n, C]⟩ [1] [0] [0] 1)
    (x0 : (⟨2, ![N, C]⟩ : Shape).Idx → EReal) (idx : IVec ⟨2, ![n, 1]⟩ w) (upd : (⟨2, ![n, C]⟩ : Shape).Idx → EReal)
    (k : Fin N) (q : Fin C) :
    Ideal.hostScatterAdd (rowDims N C n wf) x0 idx upd (ix2 k q)
      = x0 (ix2 k q) + ∑ p : Fin n, if (idx (ix2 p ⟨0, Nat.one_pos⟩)).toInt = (k.val : Int) then upd (ix2 p q) else 0 := by
  unfold Ideal.hostScatterAdd
  congr 1
  -- the sum over the updates landing on `(k, q)`, as a double sum over `(p, q')` of the updates with row number `k` and `q' = q`
  rw [Finset.sum_filter, sum_idx2]
  refine Finset.sum_congr rfl fun p _ => ?_
  simp only [rows_resultIdx_iff]
  by_cases ht : (idx (ix2 p ⟨0, Nat.one_pos⟩)).toInt = (k.val : Int)
  · -- row `p` is numbered `k`: of its columns only `q' = q` remains
    simp only [ht, true_and, if_true]
    rw [Finset.sum_ite_eq' Finset.univ q (fun q' => upd (ix2 p q'))]
    simp
  · -- row `p` is not numbered `k`: every term is `0`
    simp only [ht, false_and, if_false]
    exact Finset.sum_const_zero

/-- The start of update `p` on the one operand axis is entry number `p`, read signed. -/
private theorem entries_start0 {N n w : Nat}
    (wf : ScatterDims.WF ⟨1, ![N]⟩ ⟨2, ![n, 1]⟩ ⟨1, ![n]⟩ [] [0] [0] 1)
    (idx : IVec ⟨2, ![n, 1]⟩ w) (p : Fin n) :
    (entryDims N n wf).start (ix1 p) idx (⟨0, by decide⟩ : Fin 1) = (idx (ix2 p ⟨0, Nat.one_pos⟩)).toInt := by
  unfold ScatterDims.start
  rw [dif_pos (show (⟨0, by decide⟩ : Fin 1) ∈ (entryDims N n wf).scatterDimsToOperandDims from List.mem_singleton.mpr rfl)]
  have hsi : (entryDims N n wf).siIdx (ix1 p)
      ⟨List.idxOf (⟨0, by decide⟩ : Fin 1) (entryDims N n wf).scatterDimsToOperandDims,
        List.idxOf_lt_length_iff.2 (List.mem_singleton.mpr rfl)⟩ = ix2 p ⟨0, Nat.one_pos⟩ := by
    funext b; refine Fin.ext ?_
    match b with
    | ⟨0, _⟩ => rfl
    | ⟨1, _⟩ => rfl
  rw [hsi]

/-- The one operand axis is an inserted window axis: it has no window coordinate. -/
private theorem entries_window0 {N n : Nat}
    (wf : ScatterDims.WF ⟨1, ![N]⟩ ⟨2, ![n, 1]⟩ ⟨1, ![n]⟩ [] [0] [0] 1)
    (j : (⟨1, ![n]⟩ : Shape).Idx) :
    (entryDims N n wf).window j (⟨0, by decide⟩ : Fin 1) = 0 := by
  unfold ScatterDims.window
  rw [dif_neg (by simp [Shape.kept])]

/-- Update `p` lands on `k` exactly when entry number `p` is `k`. -/
private theorem entries_resultIdx_iff {N n w : Nat}
    (wf : ScatterDims.WF ⟨1, ![N]⟩ ⟨2, ![n, 1]⟩ ⟨1, ![n]⟩ [] [0] [0] 1)
    (idx : IVec ⟨2, ![n, 1]⟩ w) (p : Fin n) (k : Fin N) :
    (entryDims N n wf).resultIdx? (ix1 p) idx = some (ix1 k)
      ↔ (idx (ix2 p ⟨0, Nat.one_pos⟩)).toInt = (k.val : Int) := by
  have h0 := entries_start0 wf idx p
  have w0 := entries_window0 wf (ix1 p)
  unfold ScatterDims.resultIdx?
  split
  · rename_i h
    rw [Option.some.injEq]
    have hh := (h (⟨0, by decide⟩ : Fin 1)).1
    rw [h0, w0] at hh
    constructor
    · intro hf
      have e0 : ((entryDims N n wf).start (ix1 p) idx (⟨0, by decide⟩ : Fin 1)
          + ((entryDims N n wf).window (ix1 p) (⟨0, by decide⟩ : Fin 1) : Int)).toNat = k.val :=
        congrArg Fin.val (congrFun hf (⟨0, by decide⟩ : Fin 1))
      rw [h0, w0] at e0
      omega
    · intro ht
      funext a; refine Fin.ext ?_
      match a with
      | ⟨0, _⟩ =>
        show ((entryDims N n wf).start (ix1 p) idx (⟨0, by decide⟩ : Fin 1)
          + ((entryDims N n wf).window (ix1 p) (⟨0, by decide⟩ : Fin 1) : Int)).toNat = k.val
        rw [h0, w0]; omega
  · rename_i h
    constructor
    · intro hf; exact absurd hf (by simp)
    · intro ht
      exfalso; apply h
      intro a
      match a with
      | ⟨0, _⟩ =>
        show 0 ≤ (entryDims N n wf).start (ix1 p) idx (⟨0, by decide⟩ : Fin 1)
            + ((entryDims N n wf).window (ix1 p) (⟨0, by decide⟩ : Fin 1) : Int)
          ∧ (entryDims N n wf).start (ix1 p) idx (⟨0, by decide⟩ : Fin 1)
            + ((entryDims N n wf).window (ix1 p) (⟨0, by decide⟩ : Fin 1) : Int) < (N : Int)
        rw [h0, w0, ht]; have := k.isLt; omega

/-- A sum over a rank-1 index set is the sum over its coordinate. -/
private theorem sum_idx1' {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    fun i => congrArg f (eq_ix1 i)

/-- THE ENTRY SCATTER-ADD READ AT `k`: the operand there plus the updates `p` numbered `k`. -/
theorem scatterAdd_entries_apply {N n w : Nat}
    (wf : ScatterDims.WF ⟨1, ![N]⟩ ⟨2, ![n, 1]⟩ ⟨1, ![n]⟩ [] [0] [0] 1)
    (x0 : (⟨1, ![N]⟩ : Shape).Idx → EReal) (idx : IVec ⟨2, ![n, 1]⟩ w) (upd : (⟨1, ![n]⟩ : Shape).Idx → EReal)
    (k : Fin N) :
    Ideal.hostScatterAdd (entryDims N n wf) x0 idx upd (ix1 k)
      = x0 (ix1 k) + ∑ p : Fin n, if (idx (ix2 p ⟨0, Nat.one_pos⟩)).toInt = (k.val : Int) then upd (ix1 p) else 0 := by
  unfold Ideal.hostScatterAdd
  congr 1
  -- the sum over the updates landing on `k`, as the sum over `p` of the updates with entry number `k`
  rw [Finset.sum_filter, sum_idx1']
  refine Finset.sum_congr rfl fun p _ => ?_
  simp only [entries_resultIdx_iff]

end Idealize.ShloMosaic.ScatterAddRows
-- ==== Proof.LibIdealReal.lean ====
/-
  Operations of the ideal instance on entries that are real numbers.

  At the ideal values a float is an extended real. When the entries in play are real numbers — every input finite,
  every count a natural number — each operation of a program is the real operation under the embedding `ℝ → EReal`:
  sums, quotients by a non-zero real, comparisons, a bit read as a float, a select on a decided bit. One lemma each,
  so that a program's value can be carried as the embedding of a real-valued expression.
-/
import Idealize.ShloMosaic.PureOps.Ideal
import Idealize.ShloMosaic.PureOps.Ideal.Laws

noncomputable section

namespace IdealReal

open Idealize.ShloMosaic
open scoped BigOperators

/-- The embedding of a finite sum of reals is the sum of the embeddings. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The ideal quotient of two reals, the divisor not zero, is the real quotient. -/
theorem div_coe_coe (a b : ℝ) (hb : b ≠ 0) : Ideal.div (a : EReal) (b : EReal) = ((a / b : ℝ) : EReal) := by
  rw [Ideal.div_coe hb, ← EReal.coe_mul, ← div_eq_mul_one_div]

/-- Comparisons of two reals at the ideal instance decide the real comparison. -/
theorem cmp_ogt_coe (a b : ℝ) : Ideal.cmp .ogt (a : EReal) (b : EReal) = BitVec.ofBool (decide (b < a)) := by
  simp only [Ideal.cmp, EReal.coe_lt_coe_iff]
theorem cmp_oge_coe (a b : ℝ) : Ideal.cmp .oge (a : EReal) (b : EReal) = BitVec.ofBool (decide (b ≤ a)) := by
  simp only [Ideal.cmp, EReal.coe_le_coe_iff]
theorem cmp_oeq_coe (a b : ℝ) : Ideal.cmp .oeq (a : EReal) (b : EReal) = BitVec.ofBool (decide (a = b)) := by
  simp only [Ideal.cmp, EReal.coe_eq_coe_iff]
theorem cmp_une_coe (a b : ℝ) : Ideal.cmp .une (a : EReal) (b : EReal) = BitVec.ofBool (decide (a ≠ b)) := by
  simp only [Ideal.cmp, ne_eq, EReal.coe_eq_coe_iff]

/-- The f32 patterns of 0, 1 and 1024 denote those reals. -/
theorem ofBits_zero_f32 : Ideal.ofBits .f32 0x00000000#32 = ((0 : ℝ) : EReal) := by
  simp [Ideal.ofBits, Ideal.ieee]
theorem ofBits_one_f32 : Ideal.ofBits .f32 0x3F800000#32 = ((1 : ℝ) : EReal) := by
  simp [Ideal.ofBits, Ideal.ieee, -EReal.coe_mul]; norm_num
theorem ofBits_1024_f32 : Ideal.ofBits .f32 0x44800000#32 = ((1024 : ℝ) : EReal) := by
  simp [Ideal.ofBits, Ideal.ieee, -EReal.coe_mul]; norm_num

/-- A decided bit widened to a word and read as a signed integer is 1 or 0. -/
theorem sitofp_setWidth_ofBool (p : Bool) :
    FloatOps.sitofp (F := Ideal) .f32 ((BitVec.ofBool p).setWidth 32) = (((if p then 1 else 0 : ℝ)) : EReal) := by
  cases p <;> simp [FloatOps.sitofp]
/-- A decided bit read as an unsigned integer is 1 or 0. -/
theorem uitofp_ofBool (p : Bool) :
    FloatOps.uitofp (F := Ideal) .f32 (BitVec.ofBool p) = (((if p then 1 else 0 : ℝ)) : EReal) := by
  cases p <;> simp [FloatOps.uitofp]
/-- A select on a decided bit is the `if`. -/
theorem select_ofBool {α : Type} (p : Bool) (a b : α) : Scalar.select (BitVec.ofBool p) a b = if p then a else b := by
  cases p <;> rfl

/-- The logistic function of a real: `1 / (1 + e^(-r))`, a real in (0, 1). -/
theorem logistic_coe (r : ℝ) : Ideal.logistic (r : EReal) = (((1 + Real.exp (-r))⁻¹ : ℝ) : EReal) := Ideal.logistic_coe r

end IdealReal

end
-- ==== Proof.LibScatterCount.lean ====
/-
  Counting with a scatter. A scatter whose body adds leaves at an index the operand there plus the sum of the updates
  that land on it, whatever the order it walks the updates in. So an INTEGER scatter of ones into zeros holds at an index
  the number of updates landing there — as long as there are fewer than 2 ^ 31 updates the sum of ones does not leave
  the 32-bit word — and, read signed as a float, it is the float scatter-add of ones into zeros: a count of segment
  members made in integers and converted is the count made in floats.
-/
import Idealize.ShloMosaic.PureOps
import Idealize.ShloMosaic.PureOps.Ideal
import Idealize.ShloMosaic.Lib.WordSum
import Idealize.ShloMosaic.Lib.StableHlo.Predicate
import proofs.«416988_j64106681860685_3_alg».proof.Proof.LibIdealReal

noncomputable section

namespace Cert.ScatterCount

open Idealize.ShloMosaic
open scoped BigOperators

/-! ## A scatter whose body adds: the operand plus the sum of the updates that land -/

/-- The scatter's fold, over any list of update positions, at an index: what was there plus the updates of the list that
    land on it. One step changes the index it lands on by its update and no other. -/
theorem scatter_fold_add {α : Type} [AddCommMonoid α] {s si u : Shape} {w : Nat} (d : ScatterDims s si u)
    (f : α → α → α) (hf : ∀ a b, f a b = a + b) (idx : IVec si w) (upd : u.Idx → α) (L : List (Fin u.numel))
    (x : s.Idx → α) (i : s.Idx) :
    L.foldl (fun r n =>
        match d.resultIdx? (u.rowMajor.symm n) idx with
        | some i₀ => fun i' => if i' = i₀ then f (r i₀) (upd (u.rowMajor.symm n)) else r i'
        | none => r) x i
      = x i + (L.map fun n => if d.resultIdx? (u.rowMajor.symm n) idx = some i then upd (u.rowMajor.symm n) else 0).sum := by
  induction L generalizing x with
  | nil => simp
  | cons n L ih =>
    rw [List.foldl_cons, ih, List.map_cons, List.sum_cons, ← add_assoc]
    congr 1
    cases h : d.resultIdx? (u.rowMajor.symm n) idx with
    | none => simp
    | some i₀ =>
      by_cases hi : i = i₀
      · subst hi; simp [hf]
      · have hne : ¬ (some i₀ = some i) := fun e => hi (Option.some.inj e).symm
        simp [hi, hne]

/-- A scatter whose body adds, at an index: the operand there plus the sum of the updates that land on it. -/
theorem scatter_add_apply {α : Type} [AddCommMonoid α] {s si u : Shape} {w : Nat} (d : ScatterDims s si u)
    (f : α → α → α) (hf : ∀ a b, f a b = a + b) (x : s.Idx → α) (idx : IVec si w) (upd : u.Idx → α) (i : s.Idx) :
    Host.scatter d f x idx upd i = x i + ∑ j ∈ Finset.univ.filter (fun j => d.resultIdx? j idx = some i), upd j := by
  refine (scatter_fold_add d f hf idx upd (List.finRange u.numel) x i).trans ?_
  rw [Finset.sum_filter, ← Equiv.sum_comp u.rowMajor.symm, Fin.sum_univ_def]

/-! ## Counting with a scatter -/

/-- The updates that land on one index are at most all of them. -/
theorem card_landing_le {s si u : Shape} {w : Nat} (d : ScatterDims s si u) (idx : IVec si w) (i : s.Idx) :
    (Finset.univ.filter (fun j : u.Idx => d.resultIdx? j idx = some i)).card ≤ u.numel :=
  calc (Finset.univ.filter (fun j : u.Idx => d.resultIdx? j idx = some i)).card
      ≤ Fintype.card u.Idx := Finset.card_le_univ _
    _ = u.numel := by rw [Fintype.card_congr u.rowMajor, Fintype.card_fin]

/-- An integer scatter of ones into zeros, its body an addition of 32-bit words, holds at an index the NUMBER of updates
    that land there, while there are fewer than 2 ^ 31 updates in all: the sum of ones does not leave the word, and read
    signed it is that number. Read as a float it is therefore the float scatter-add of ones into zeros: one per update
    landing on the index. -/
theorem sitofp_scatter_ones {s si u : Shape} {w : Nat} (d : ScatterDims s si u) (f : BitVec 32 → BitVec 32 → BitVec 32)
    (hf : ∀ a b, f a b = a + b) (x : s.Idx → BitVec 32) (hx : ∀ i, x i = 0#32) (idx : IVec si w)
    (upd : u.Idx → BitVec 32) (hupd : ∀ j, upd j = 1#32) (hu : u.numel < 2 ^ 31) (i : s.Idx) :
    FloatOps.sitofp (F := Ideal) .f32 (Host.scatter d f x idx upd i)
      = Ideal.hostScatterAdd d (fun _ => 0) idx (fun _ => 1) i := by
  have hcard := card_landing_le d idx i
  have hnat : (Host.scatter d f x idx upd i).toNat
      = (Finset.univ.filter (fun j : u.Idx => d.resultIdx? j idx = some i)).card := by
    have hones : ∑ j ∈ Finset.univ.filter (fun j : u.Idx => d.resultIdx? j idx = some i), (upd j).toNat
        = (Finset.univ.filter (fun j : u.Idx => d.resultIdx? j idx = some i)).card := by
      rw [Finset.card_eq_sum_ones]
      exact Finset.sum_congr rfl fun j _ => by rw [hupd j]; rfl
    rw [scatter_add_apply d f hf, hx i, show (0#32 : BitVec 32) = 0 from rfl, zero_add,
      WordSum.toNat_sum _ _ (by rw [hones]; omega), hones]
  show (((Host.scatter d f x idx upd i).toInt : ℝ) : EReal) = _
  rw [StableHlo.Predicate.toInt_eq_toNat_of_lt (by rw [hnat]; omega), hnat]
  unfold Ideal.hostScatterAdd
  rw [zero_add, Int.cast_natCast, Finset.card_eq_sum_ones, Nat.cast_sum, IdealReal.coe_sum]
  exact Finset.sum_congr rfl fun j _ => by rw [Nat.cast_one, EReal.coe_one]

end Cert.ScatterCount

end
-- ==== Proof.LibRowOps.lean ====
/-
  Row-wise operations of an [n, m] array read at an index, over the extended reals.

  A kernel that reduces each row of a block with keepdims, and the host that reduces each row of the whole array,
  meet the same handful of operations: a sum or a maximum along axis 1 read at row r; a vector [n] recast as a
  column [n, 1]; a column [n, 1] broadcast along the rows of [n, m]; two columns laid side by side as [n, 2]; and,
  on the host, a column of [n, 2] cut out and recast as a vector [n]. Each is stated here once, at any extents, with
  indices written by their coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowOps

open Idealize.ShloMosaic Idealize.ShloMosaic.ValueIdx

variable {α : Type}

/-! ## The index of row r with column k put back -/

/-- Over row index r, the source index whose coordinate on the dropped axis 1 is k is (r, k). -/
theorem lift_row {n m : ℕ} (h : (⟨2, ![n, m]⟩ : Shape).Reduces [1] ⟨1, ![n]⟩) (r : Fin n)
    (k : Fin ((⟨2, ![n, m]⟩ : Shape).size 1)) : h.lift (ix1 r) k = ix2 r (⟨k.val, k.isLt⟩ : Fin m) := by
  funext c; apply Fin.ext
  fin_cases c <;> rfl

/-! ## A kernel's lane reductions along axis 1 -/

/-- A float sum along axis 1, at row r, is the sum of the row's entries. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin m, src (ix2 r k) := by
  refine (Ideal.multiReduction_add_single src acc h hφ hacc (ix1 r)).trans ?_
  exact Finset.sum_congr rfl fun k _ => congrArg src (lift_row h r k)

/-- A float maximum along axis 1, at row r, is the fold of max over the row's entries from the accumulator's value. -/
theorem rowMax_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ) (r : Fin n) :
    multiReduction .maximumf [1] ⟨1, ![n]⟩ src acc h hφ hacc (ix1 r)
      = (Finset.univ : Finset (Fin m)).fold max (Ideal.ofBits φ acc) (fun k => src (ix2 r k)) := by
  refine (Ideal.multiReduction_maximumf_single src acc h hφ hacc (ix1 r)).trans ?_
  have hf : (src ∘ h.lift (ix1 r)) = fun k : Fin m => src (ix2 r k) := funext fun k => congrArg src (lift_row h r k)
  exact congrArg (fun f => Finset.fold max (Ideal.ofBits φ acc) f (Finset.univ : Finset (Fin m))) hf

/-! ## The host's reductions along axis 1 -/

/-- The host's maximum along axis 1, at row r, is the fold of max over the row's entries from the initial value. -/
theorem hostRowMax_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel) (r : Fin n) :
    Host.reduce FloatOps.maximumf x init h' hu (ix1 r)
      = (Finset.univ : Finset (Fin m)).fold max (init (Shape.Idx.first hu)) (fun k => x (ix2 r k)) := by
  refine (Host.reduce_eq_fold_single FloatOps.maximumf x init h' h hu (ix1 r)).trans ?_
  have hf : (x ∘ h.lift (ix1 r)) = fun k : Fin m => x (ix2 r k) := funext fun k => congrArg x (lift_row h r k)
  exact congrArg (fun f => Finset.fold max (init (Shape.Idx.first hu)) f (Finset.univ : Finset (Fin m))) hf

/-! ## Columns -/

/-- A vector [n] recast as a column [n, 1] reads, at (r, u), entry r. -/
theorem shapeCast_a_a1_apply {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column [n, 1] recast as a vector [n] reads, at r, the column at (r, 0). -/
theorem shapeCast_a1_a_apply {n : ℕ} (x : (⟨2, ![n, 1]⟩ : Shape).Idx → α) (h : (⟨2, ![n, 1]⟩ : Shape).ShapeCasts ⟨1, ![n]⟩)
    (r : Fin n) : shapeCast ⟨1, ![n]⟩ x h (ix1 r) = x (ix2 r (0 : Fin 1)) :=
  shapeCast_apply x h _ _ (by
    rw [Shape.rowMajor_val_two, Shape.rowMajor_val_one]
    show r.val * 1 + 0 = r.val
    rw [Nat.mul_one, Nat.add_zero])

/-- A column [n, 1] broadcast along the rows of [n, m] (m at least 2, n at least 2) reads, at (r, k), the column at (r, 0). -/
theorem broadcastTo_a1_ab_apply {n m : ℕ} (hn : n ≠ 1) (v : (⟨2, ![n, 1]⟩ : Shape).Idx → α)
    (h : (⟨2, ![n, 1]⟩ : Shape).Broadcasts ⟨2, ![n, m]⟩) (r : Fin n) (k : Fin m) :
    broadcastTo ⟨2, ![n, m]⟩ v h (ix2 r k) = v (ix2 r (0 : Fin 1)) := by
  refine broadcastTo_apply v h (ix2 r k) (ix2 r (0 : Fin 1)) fun ax => ?_
  match ax with
  | ⟨0, _⟩ =>
    show r.val = if n = 1 then 0 else r.val
    rw [if_neg hn]
  | ⟨1, _⟩ => rfl

/-- Two columns [n, 1] laid side by side as [n, 2] read, at (r, 0), the first column at (r, 0). -/
theorem concat_cols_left {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (0 : Fin 2)) = x₁ (ix2 r (0 : Fin 1)) :=
  concatenate_pair_apply_left 1 x₁ x₂ h (ix2 r (0 : Fin 2)) rfl (ix2 r (0 : Fin 1)) (fun b => by
    match b with
    | ⟨0, _⟩ => rfl
    | ⟨1, _⟩ => rfl)

/-- … and, at (r, 1), the second column at (r, 0). -/
theorem concat_cols_right {n : ℕ} (x₁ x₂ : (⟨2, ![n, 1]⟩ : Shape).Idx → α)
    (h : Shape.Concatenates [(⟨2, ![n, 1]⟩ : Shape), ⟨2, ![n, 1]⟩] ⟨2, ![n, 2]⟩ 1) (r : Fin n) :
    concatenate ⟨2, ![n, 2]⟩ 1 [⟨⟨2, ![n, 1]⟩, x₁⟩, ⟨⟨2, ![n, 1]⟩, x₂⟩] h (ix2 r (1 : Fin 2)) = x₂ (ix2 r (0 : Fin 1)) :=
  concatenate_pair_apply_right 1 x₁ x₂ h (ix2 r (1 : Fin 2)) rfl rfl (ix2 r (0 : Fin 1)) (fun b hb => by
    match b with
    | ⟨0, _⟩ => rfl
    | ⟨1, _⟩ => exact absurd rfl hb) rfl

/-- Column c of an [n, 2] array, cut out as [n, 1], reads at (r, 0) the array at (r, c). -/
theorem slice_col_apply {n : ℕ} (c : Fin 2) (X : (⟨2, ![n, 2]⟩ : Shape).Idx → α)
    (h : (⟨2, ![n, 2]⟩ : Shape).Slices ![0, c.val] ⟨2, ![n, 1]⟩) (r : Fin n) :
    extractStridedSlice ⟨2, ![n, 1]⟩ ![0, c.val] X h (ix2 r (0 : Fin 1)) = X (ix2 r c) :=
  slice2_axis1_apply c.val X h r (0 : Fin 1) c rfl

end Cert.RowOps

end
-- ==== Proof.KernelConvRead.lean ====
/-
  The arrays the two regions of the kernel's program are entered with, read at an index, in terms of the argument
  arrays.

  The feature rows, the two weight matrices of the convolution and the head's weight matrix are the arguments'
  own entries: at the extended reals rounding to half width and widening back change nothing. The bias and the five
  vectors of the normalisations are laid out as one row each, the graph numbers as 10 tiles of one row of 10000:
  a recast keeps the row-major position. The neighbour means are where the work is: the float scatter-add of the
  gathered rows by the column of destinations leaves at node i the zero it starts from plus the rows of the edges
  whose destination, read signed, is i; the integer scatter of ones by the clipped destinations, read as a float,
  is the number of edges whose clipped destination is i; and the quotient of the first by the larger of the second
  and 1 is the formula's mean of the in-coming rows.
-/
import proofs.«416988_j64106681860685_3_alg».proof.Proof.KernelHost
import proofs.«416988_j64106681860685_3_alg».proof.Proof.KernelInputs
import proofs.«416988_j64106681860685_3_alg».proof.Proof.Spec
import proofs.«416988_j64106681860685_3_alg».proof.Proof.LibScatterAddRows
import proofs.«416988_j64106681860685_3_alg».proof.Proof.LibScatterCount
import proofs.«416988_j64106681860685_3_alg».proof.Proof.LibRowOps
import Idealize.ShloMosaic.Lib.ValueIdx
import Idealize.ShloMosaic.Lib.ValueLayout
import Idealize.ShloMosaic.Lib.Pipeline.Value

noncomputable section

namespace Cert.KernelIdeal.ConvRead

open Cert.KernelIdeal Idealize.ShloMosaic Idealize.ShloMosaic.TcCoe Idealize.SL.Sem Idealize.ShloMosaic.ValueIdx
open Cert.KernelIdeal.Facts₀ Cert.KernelIdeal.Facts

/-! ## Columns, zeros and ones -/

/-- A vector of 1000000 words laid out as a column reads, at (p, 0), word p. -/
theorem col_apply (d : IVec S1000000 32) (p : Fin 1000000) :
    Host.col d (ix2 p ⟨0, Nat.one_pos⟩) = d (ix1 p) := by
  unfold Host.col
  exact broadcastInDim_apply ![0] bcast_S1000000_S1000000x1_0 d (ix2 p ⟨0, Nat.one_pos⟩) (ix1 p) fun a => by
    match a with
    | ⟨0, _⟩ =>
      show p.val = if (1000000 : ℕ) = 1 then 0 else p.val
      rw [if_neg (by decide)]

/-- The program's two scatters are the row scatter and the entry scatter by a column of numbers. -/
theorem rowDims_eq : scatter_S100000x128_S1000000x1_S1000000x128_1_0_0_1
      = ScatterAddRows.rowDims 100000 128 1000000 scatter_S100000x128_S1000000x1_S1000000x128_1_0_0_1_wf := rfl
theorem entryDims_eq : scatter_S100000_S1000000x1_S1000000_n_0_0_1
      = ScatterAddRows.entryDims 100000 1000000 scatter_S100000_S1000000x1_S1000000_n_0_0_1_wf := rfl

/-- The array of float zeros the scatter-add starts from. -/
theorem zeros_apply (j : S100000x128.Idx) :
    broadcastInDim S100000x128 ![] bcast_S_S100000x128 (constant (F := Ideal) S_ .f32 0x00000000#32) j = Cert.Spec.c0 := by
  unfold broadcastInDim constant
  exact Ideal.ofBits_def _

/-- The column of float ones the in-degree is compared with. -/
theorem ones_apply (j : S100000x1.Idx) :
    broadcastInDim S100000x1 ![] bcast_S_S100000x1 (constant (F := Ideal) S_ .f32 0x3F800000#32) j = Cert.Spec.c1 := by
  unfold broadcastInDim constant
  exact Ideal.ofBits_def _

/-- The float scatter-add of rows by a column of row numbers, over any operand, column and updates, read at (i, k). -/
theorem scatterRows_read (x0 : FVec Ideal S100000x128 .f32) (idx : IVec S1000000x1 32) (upd : FVec Ideal S1000000x128 .f32)
    (i : Fin 100000) (k : Fin 128) :
    Host.scatterAdd scatter_S100000x128_S1000000x1_S1000000x128_1_0_0_1 x0 idx upd (ix2 i k)
      = x0 (ix2 i k) + ∑ e : Fin 1000000, if (idx (ix2 e ⟨0, Nat.one_pos⟩)).toInt = (i.val : Int) then upd (ix2 e k) else 0 :=
  (congrArg (fun d => Ideal.hostScatterAdd d x0 idx upd (ix2 i k)) rowDims_eq).trans
    (ScatterAddRows.scatterAdd_rows_apply scatter_S100000x128_S1000000x1_S1000000x128_1_0_0_1_wf x0 idx upd i k)

/-- At the extended reals rounding to half width and widening back change nothing: the rows the edges bring are the
    gathered feature rows. -/
theorem msgF_eq (x : FVec Ideal S100000x128 .f32) (src : IVec S1000000 32) :
    Host.msgF (F := Ideal) x src = Inp.msgArr x src := rfl

/-- The sums of the in-coming rows, read at (i, k). -/
theorem aggF_apply (x : FVec Ideal S100000x128 .f32) (src dst : IVec S1000000 32) (i : Fin 100000) (k : Fin 128) :
    Host.aggF (F := Ideal) x src dst (ix2 i k)
      = Cert.Spec.agg (fun e k => Inp.msgArr x src (ix2 e k)) (fun e => (dst (ix1 e)).toInt) i k := by
  unfold Host.aggF Cert.Spec.agg
  refine (scatterRows_read _ _ _ i k).trans ?_
  refine congrArg₂ (· + ·) (zeros_apply _) (Finset.sum_congr rfl fun e _ => ?_)
  rw [col_apply, msgF_eq]

/-! ## The in-degree -/

/-- The in-degree counted in integers and read as a float, at node i: one per edge whose clipped destination is i. -/
theorem degI_sitofp_apply (dst : IVec S1000000 32) (i : Fin 100000) :
    sitofp (F := Ideal) .f32 (Host.degI dst) (ix1 i)
      = Cert.Spec.degK (fun e => (Inp.dstClip dst (ix1 e)).toInt) i := by
  unfold Host.degI Cert.Spec.degK
  refine (Cert.ScatterCount.sitofp_scatter_ones scatter_S100000_S1000000x1_S1000000_n_0_0_1 IntOp.addi (fun _ _ => rfl)
    _ (fun _ => rfl) (Host.col (Inp.dstClip dst)) _ (fun _ => rfl) (by rw [Shape.numel_rank1]; decide) (ix1 i)).trans ?_
  refine (congrArg (fun d => Ideal.hostScatterAdd d (fun _ => (0 : EReal)) (Host.col (Inp.dstClip dst)) (fun _ => (1 : EReal)) (ix1 i))
    entryDims_eq).trans ?_
  refine (ScatterAddRows.scatterAdd_entries_apply scatter_S100000_S1000000x1_S1000000_n_0_0_1_wf _ _ _ i).trans ?_
  refine congrArg (fun s : EReal => (0 : EReal) + s) (Finset.sum_congr rfl fun e _ => ?_)
  rw [col_apply]

/-- A column of 100000 floats repeated along rows of 128 reads, at (i, k), the column at (i, 0). -/
theorem bcastCol_apply (v : FVec Ideal S100000x1 .f32) (i : Fin 100000) (k : Fin 128) :
    broadcastInDim S100000x128 ![0, 1] bcast_S100000x1_S100000x128_0_1 v (ix2 i k) = v (ix2 i (0 : Fin 1)) :=
  broadcastInDim_apply ![0, 1] bcast_S100000x1_S100000x128_0_1 v (ix2 i k) (ix2 i (0 : Fin 1)) fun a => by
    match a with
    | ⟨0, _⟩ =>
      show i.val = if (100000 : ℕ) = 1 then 0 else i.val
      rw [if_neg (by decide)]
    | ⟨1, _⟩ =>
      show (0 : ℕ) = if (1 : ℕ) = 1 then 0 else k.val
      rw [if_pos rfl]

/-- The divisor of the neighbour mean at (i, k): the larger of node i's in-degree and 1. -/
theorem degF_apply (dst : IVec S1000000 32) (i : Fin 100000) (k : Fin 128) :
    Host.degF (F := Ideal) dst (ix2 i k)
      = max (Cert.Spec.degK (fun e => (Inp.dstClip dst (ix1 e)).toInt) i) Cert.Spec.c1 := by
  unfold Host.degF
  refine (bcastCol_apply _ i k).trans ?_
  refine (maximumf_apply _ _ _).trans ?_
  refine congrArg₂ max ?_ (ones_apply _)
  exact (Cert.RowOps.shapeCast_a_a1_apply _ shapeCasts_S100000_S100000x1 i (0 : Fin 1)).trans (degI_sitofp_apply dst i)

/-- The neighbour means at (i, k). -/
theorem hnB_apply (x : FVec Ideal S100000x128 .f32) (src dst : IVec S1000000 32) (i : Fin 100000) (k : Fin 128) :
    Host.hnB (F := Ideal) x src dst (ix2 i k)
      = Cert.Spec.hnOf (Cert.Spec.agg (fun e k => Inp.msgArr x src (ix2 e k)) (fun e => (dst (ix1 e)).toInt))
          (Cert.Spec.degK (fun e => (Inp.dstClip dst (ix1 e)).toInt)) i k := by
  unfold Host.hnB Cert.Spec.hnOf
  refine (show truncf .bf16 (Host.divf (Host.aggF (F := Ideal) x src dst) (Host.degF dst)) bitsLt_bf16_f32 (ix2 i k)
      = Ideal.div (Host.aggF (F := Ideal) x src dst (ix2 i k)) (Host.degF (F := Ideal) dst (ix2 i k)) from rfl).trans ?_
  exact congrArg₂ Ideal.div (aggF_apply x src dst i k) (degF_apply dst i k)

/-- Rounding to half width changes nothing at the extended reals. -/
theorem featB_apply (x : FVec Ideal S100000x128 .f32) (j : S100000x128.Idx) : Host.featB (F := Ideal) x j = x j := rfl
theorem wB_apply (w : FVec Ideal S128x256 .f32) (j : S128x256.Idx) : Host.wB (F := Ideal) w j = w j := rfl

/-- A vector of 256 floats as one row reads, at (0, h), entry h. -/
theorem row_apply (v : FVec Ideal S256 .f32) (h : Fin 256) : Host.row (F := Ideal) v (ix2 (0 : Fin 1) h) = v (ix1 h) := by
  unfold Host.row
  exact shapeCast_a_1a_apply v shapeCasts_S256_S1x256 (0 : Fin 1) h

/-- The graph numbers as 10 tiles of one row of 10000 read, at (t, 0, q), the number of node 10000 t + q. -/
theorem gidT_apply (g : IVec S100000 32) (t : Fin 10) (q : Fin 10000) :
    Host.gidT g (ix3 t (0 : Fin 1) q) = g (ix1 ⟨t.val * 10000 + q.val, by have := t.isLt; have := q.isLt; omega⟩) := by
  unfold Host.gidT
  refine shapeCast_apply g shapeCasts_S100000_S10x1x10000 _ _ ?_
  rw [Shape.rowMajor_val_three, Shape.rowMajor_val_one]
  show t.val * 10000 + q.val = (t.val * 1 + 0) * 10000 + q.val
  omega

/-! ## The arrays of the two regions, entry by entry -/

variable (m : Inp.Mem) (ρ : Dev nD → PrngReg) (c : Dev nD)

/-- The feature rows the first region takes are the argument's. -/
theorem v0_read (i : Fin 100000) (k : Fin 128) :
    (Gen.V3 m ρ c main_v0 : FVec Ideal S100000x128 .bf16) (ix2 i k) = (Inp.inputs m c).feat i k :=
  (congrFun (Host.V3_v0 m ρ c) (ix2 i k)).trans (featB_apply _ _)

/-- The neighbour means the first region takes are the formula's: the summed in-coming rows over the larger of the
    in-degree and 1. -/
theorem v28_read (i : Fin 100000) (k : Fin 128) :
    (Gen.V3 m ρ c main_v28 : FVec Ideal S100000x128 .bf16) (ix2 i k)
      = Cert.Spec.hnOf (Cert.Spec.agg (Inp.inputs m c).msg (Inp.inputs m c).dst) (Cert.Spec.degK (Inp.dK m c)) i k :=
  (congrFun (Host.V3_v28 m ρ c) (ix2 i k)).trans (hnB_apply _ _ _ i k)

/-- The two weight matrices of the convolution are the arguments'. -/
theorem v29_read (k : Fin 128) (h : Fin 256) :
    (Gen.V3 m ρ c main_v29 : FVec Ideal S128x256 .bf16) (ix2 k h) = (Inp.inputs m c).Ws k h :=
  (congrFun (Host.V3_v29 m ρ c) (ix2 k h)).trans (wB_apply _ _)

theorem v30_read (k : Fin 128) (h : Fin 256) :
    (Gen.V3 m ρ c main_v30 : FVec Ideal S128x256 .bf16) (ix2 k h) = (Inp.inputs m c).Wn k h :=
  (congrFun (Host.V3_v30 m ρ c) (ix2 k h)).trans (wB_apply _ _)

/-- The bias, laid out as one row. -/
theorem v31_read (h : Fin 256) :
    (Gen.V3 m ρ c main_v31 : FVec Ideal S1x256 .f32) (ix2 (0 : Fin 1) h) = (Inp.inputs m c).b h :=
  (congrFun (Host.V3_v31 m ρ c) (ix2 (0 : Fin 1) h)).trans (row_apply _ h)

/-- The graph number at row q of tile t is that of node 10000 t + q. -/
theorem v32_read (t : Fin 10) (q : Fin 10000) :
    ((Gen.V3 m ρ c main_v32 : IVec S10x1x10000 32) (ix3 t (0 : Fin 1) q)).toInt
      = (Inp.inputs m c).gid ⟨t.val * 10000 + q.val, by have := t.isLt; have := q.isLt; omega⟩ :=
  congrArg BitVec.toInt ((congrFun (Host.V3_v32 m ρ c) (ix3 t (0 : Fin 1) q)).trans (gidT_apply _ t q))

/-- The scale and shift of the node normalisation, then the head's bias, scale and shift, each laid out as one row. -/
theorem v34_read (h : Fin 256) :
    (Gen.V5 m ρ c main_v34 : FVec Ideal S1x256 .f32) (ix2 (0 : Fin 1) h) = (Inp.inputs m c).gc h :=
  (congrFun (Host.V5_v34 m ρ c) (ix2 (0 : Fin 1) h)).trans (row_apply _ h)

theorem v35_read (h : Fin 256) :
    (Gen.V5 m ρ c main_v35 : FVec Ideal S1x256 .f32) (ix2 (0 : Fin 1) h) = (Inp.inputs m c).bc h :=
  (congrFun (Host.V5_v35 m ρ c) (ix2 (0 : Fin 1) h)).trans (row_apply _ h)

theorem v36_read (h : Fin 256) :
    (Gen.V5 m ρ c main_v36 : FVec Ideal S1x256 .f32) (ix2 (0 : Fin 1) h) = (Inp.inputs m c).blp h :=
  (congrFun (Host.V5_v36 m ρ c) (ix2 (0 : Fin 1) h)).trans (row_apply _ h)

theorem v37_read (h : Fin 256) :
    (Gen.V5 m ρ c main_v37 : FVec Ideal S1x256 .f32) (ix2 (0 : Fin 1) h) = (Inp.inputs m c).glp h :=
  (congrFun (Host.V5_v37 m ρ c) (ix2 (0 : Fin 1) h)).trans (row_apply _ h)

theorem v38_read (h : Fin 256) :
    (Gen.V5 m ρ c main_v38 : FVec Ideal S1x256 .f32) (ix2 (0 : Fin 1) h) = (Inp.inputs m c).betalp h :=
  (congrFun (Host.V5_v38 m ρ c) (ix2 (0 : Fin 1) h)).trans (row_apply _ h)

/-- The head's weight matrix is the argument's. -/
theorem arg6_read (k h : Fin 256) :
    (Gen.V5 m ρ c main_arg6 : FVec Ideal S256x256 .f32) (ix2 k h) = (Inp.inputs m c).Wlp k h :=
  congrFun (Host.V5_arg6 m ρ c) (ix2 k h)

end Cert.KernelIdeal.ConvRead

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.Region0Tile.lean ====
/-
  One tile of the convolution-and-pooling kernel, read entry by entry over the extended reals.

  At one grid point the kernel holds a tile of 10000 nodes: their feature rows, the mean rows their in-edges bring,
  and their graph numbers. It forms the rectified rows  r q h = max ((sum_k feat q k * Ws k h + sum_k hn q k * Wn k h) + b h) 0
  and adds four contributions to four running arrays: per feature h the sum of r q h over the tile's rows and the sum of
  its squares; per graph g and feature h the sum of r q h over the rows whose graph number is g, taken as a product
  with the 64 by 10000 membership matrix of zeros and ones; and per graph g the number of such rows, the sum of the
  membership matrix's row g. At the first tile of a half the four arrays are first reset to zero, so the tile leaves
  zero plus its contribution; at every other tile it leaves what the tile before left plus its contribution.

  The lemmas below state exactly that, for the two cases, at an explicit entry of each of the four arrays.
-/
import proofs.«416988_j64106681860685_3_alg».proof.Proof.Gen.KernelIdeal.Frame
import proofs.«416988_j64106681860685_3_alg».proof.Proof.Spec
import proofs.«416988_j64106681860685_3_alg».proof.Proof.LibIdealReal
import proofs.«416988_j64106681860685_3_alg».proof.Proof.LibPlainMatmul
import proofs.«416988_j64106681860685_3_alg».proof.Proof.LibRowOps
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

namespace Cert.KernelIdeal.Reg0Tile

open Idealize.ShloMosaic Idealize.ShloMosaic.TcCoe Idealize.ShloMosaic.ValueIdx Idealize.SL.Sem
open Cert.KernelIdeal Cert.KernelIdeal.Gen
open scoped BigOperators

/-- The tile's rectified row q at feature h, from the tile's blocks. -/
abbrev rt (x0 x1 : Vec Ideal S10000x128 .bf16) (x3 x4 : Vec Ideal S128x256 .bf16) (x5 : Vec Ideal S1x256 .f32)
    (q : Fin 10000) (h : Fin 256) : EReal :=
  Cert.Spec.actOf (n := 10000) (fun q k => x0 (ix2 q k)) (fun q k => x1 (ix2 q k)) (fun k h => x3 (ix2 k h))
    (fun k h => x4 (ix2 k h)) (fun h => x5 (ix2 0 h)) q h

/-- The membership entry of the tile's row q in graph g. -/
abbrev hotw (x2 : Vec Ideal S1x1x10000 .i32) (q : Fin 10000) (g : Fin 64) : EReal :=
  Cert.Spec.hot ((x2 (ix3 0 0 q)).toInt) g

/-! ## What each case leaves in each output's buffer, as a payload of the blocks (for any float values) -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

section A
variable (c : Dev nD) (i : grid0.Coords) (arg2 : Memref sig .tc .vmem S10000x128 .bf16) (harg2 : arg2.IsWhole) (arg3 : Memref sig .tc .vmem S10000x128 .bf16) (harg3 : arg3.IsWhole) (arg4 : Memref sig .tc .vmem S1x1x10000 .i32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x64x256 .f32) (harg10 : arg10.IsWhole) (arg11 : Memref sig .tc .vmem S1x64x1 .f32) (harg11 : arg11.IsWhole) (hc0 : cond0_0 i)
  (x0 x1 : Vec F S10000x128 .bf16) (x2 : Vec F S1x1x10000 .i32) (x3 x4 : Vec F S128x256 .bf16) (x5 : Vec F S1x256 .f32)

/-- What the first tile of a half leaves in output 6's buffer: the update's payload over the reset's payload. -/
theorem outA6_piece : out0_A_6 c i arg2 harg2 arg3 harg3 arg4 harg4 arg5 harg5 arg6 harg6 arg7 harg7 arg8 harg8 arg9 harg9 arg10 harg10 arg11 harg11 hc0 x0 x1 x2 x3 x4 x5 = k0_pay10 x0 x3 x1 x4 x5 (k0_pay5 (F := F)) := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x256) hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What the first tile of a half leaves in output 7's buffer: the update's payload over the reset's payload. -/
theorem outA7_piece : out0_A_7 c i arg2 harg2 arg3 harg3 arg4 harg4 arg5 harg5 arg6 harg6 arg7 harg7 arg8 harg8 arg9 harg9 arg10 harg10 arg11 harg11 hc0 x0 x1 x2 x3 x4 x5 = k0_pay1 (k0_pay11 (k0_pay6 (F := F))) (k0_pay12 x0 x3 x1 x4 x5) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x1x256) hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What the first tile of a half leaves in output 8's buffer: the update's payload over the reset's payload. -/
theorem outA8_piece : out0_A_8 c i arg2 harg2 arg3 harg3 arg4 harg4 arg5 harg5 arg6 harg6 arg7 harg7 arg8 harg8 arg9 harg9 arg10 harg10 arg11 harg11 hc0 x0 x1 x2 x3 x4 x5 = k0_pay3 (k0_pay9 x0 x3 x1 x4 x5) x2 (k0_pay7 (F := F)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x64x256) hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What the first tile of a half leaves in output 9's buffer: the update's payload over the reset's payload. -/
theorem outA9_piece : out0_A_9 c i arg2 harg2 arg3 harg3 arg4 harg4 arg5 harg5 arg6 harg6 arg7 harg7 arg8 harg8 arg9 harg9 arg10 harg10 arg11 harg11 hc0 x0 x1 x2 x3 x4 x5 = k0_pay4 x2 (k0_pay8 (F := F)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc0 x0 x1 x2 x3 x4 x5)]
  unfold kernelRun0_A
  dsimp only
  sl_unfold_words
  rw [View.canon_cons_unit_zero (S := S1x64x1) hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

end A

section B
variable (c : Dev nD) (i : grid0.Coords) (arg2 : Memref sig .tc .vmem S10000x128 .bf16) (harg2 : arg2.IsWhole) (arg3 : Memref sig .tc .vmem S10000x128 .bf16) (harg3 : arg3.IsWhole) (arg4 : Memref sig .tc .vmem S1x1x10000 .i32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x64x256 .f32) (harg10 : arg10.IsWhole) (arg11 : Memref sig .tc .vmem S1x64x1 .f32) (harg11 : arg11.IsWhole) (hc0 : ¬cond0_0 i)
  (x0 x1 : Vec F S10000x128 .bf16) (x2 : Vec F S1x1x10000 .i32) (x3 x4 : Vec F S128x256 .bf16) (x5 : Vec F S1x256 .f32)
  (d6 d7 : Vec F S1x1x256 .f32) (d8 : Vec F S1x64x256 .f32) (d9 : Vec F S1x64x1 .f32)

/-- What a later tile leaves in output 6's buffer: the update's payload over the contents the tile before left. -/
theorem outB6_piece : out0_B_6 c i arg2 harg2 arg3 harg3 arg4 harg4 arg5 harg5 arg6 harg6 arg7 harg7 arg8 harg8 arg9 harg9 arg10 harg10 arg11 harg11 hc0 x0 x1 x2 x3 x4 x5 d6 d7 d8 d9 = k0_pay10 x0 x3 x1 x4 x5 d6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc0 x0 x1 x2 x3 x4 x5 d6 d7 d8 d9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What a later tile leaves in output 7's buffer: the update's payload over the contents the tile before left. -/
theorem outB7_piece : out0_B_7 c i arg2 harg2 arg3 harg3 arg4 harg4 arg5 harg5 arg6 harg6 arg7 harg7 arg8 harg8 arg9 harg9 arg10 harg10 arg11 harg11 hc0 x0 x1 x2 x3 x4 x5 d6 d7 d8 d9 = k0_pay1 (k0_pay11 d7) (k0_pay12 x0 x3 x1 x4 x5) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 d6 d7 d8 d9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What a later tile leaves in output 8's buffer: the update's payload over the contents the tile before left. -/
theorem outB8_piece : out0_B_8 c i arg2 harg2 arg3 harg3 arg4 harg4 arg5 harg5 arg6 harg6 arg7 harg7 arg8 harg8 arg9 harg9 arg10 harg10 arg11 harg11 hc0 x0 x1 x2 x3 x4 x5 d6 d7 d8 d9 = k0_pay3 (k0_pay9 x0 x3 x1 x4 x5) x2 d8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc0 x0 x1 x2 x3 x4 x5 d6 d7 d8 d9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

/-- What a later tile leaves in output 9's buffer: the update's payload over the contents the tile before left. -/
theorem outB9_piece : out0_B_9 c i arg2 harg2 arg3 harg3 arg4 harg4 arg5 harg5 arg6 harg6 arg7 harg7 arg8 harg8 arg9 harg9 arg10 harg10 arg11 harg11 hc0 x0 x1 x2 x3 x4 x5 d6 d7 d8 d9 = k0_pay4 x2 d9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc0 x0 x1 x2 x3 x4 x5 d6 d7 d8 d9)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, View.ld_unit_zero (S := S10000x128) hz2, View.ld_unit_zero (S := S128x256) hz2, View.ld_unit_zero (S := S1x256) hz2, View.ld_unit_zero (S := S1x1x10000) hz3, View.ld_unit_zero (S := S1x1x256) hz3, View.ld_unit_zero (S := S1x64x256) hz3, View.ld_unit_zero (S := S1x64x1) hz3, View.readCov_unit_zero (S := S1x1x256) _ hz3, View.readCov_unit_zero (S := S1x64x256) _ hz3, View.readCov_unit_zero (S := S1x64x1) _ hz3]

end B

end Pieces

/-! ## The payloads read at an entry, over the extended reals -/

section Payloads

/-- Over column index c, the source index whose coordinate on the dropped axis 0 is k is (k, c). -/
theorem lift_col {n m : ℕ} (h : (⟨2, ![n, m]⟩ : Shape).Reduces [0] ⟨1, ![m]⟩) (c : Fin m)
    (k : Fin ((⟨2, ![n, m]⟩ : Shape).size 0)) : h.lift (ix1 c) k = ix2 (⟨k.val, k.isLt⟩ : Fin n) c := by
  funext a; apply Fin.ext
  fin_cases a <;> rfl

/-- A float sum along axis 0, at column c, is the sum of the column's entries. -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ) (c : Fin m) :
    multiReduction .add [0] ⟨1, ![m]⟩ src acc h hφ hacc (ix1 c) = ∑ k : Fin n, src (ix2 k c) := by
  refine (Ideal.multiReduction_add_single src acc h hφ hacc (ix1 c)).trans ?_
  exact Finset.sum_congr rfl fun k _ => congrArg src (lift_col h c k)

/-- The two dense layers' product: entry (q, h) is the sum over the 128 input features. -/
theorem featMatmul_apply (a : FVec Ideal S10000x128 .bf16) (b : FVec Ideal S128x256 .bf16) (q : Fin 10000) (h : Fin 256) :
    matmul dot_S10000x128_S128x256_S10000x256_1_0_0_1_n_n none a b (constant S10000x256 .f32 0x00000000#32) (ix2 q h)
      = ∑ k : Fin 128, a (ix2 q k) * b (ix2 k h) :=
  Cert.PlainMatmul.apply none a b q h

/-- The pooling product: entry (g, h) is the sum over the tile's 10000 rows. -/
theorem poolMatmul_apply (a : FVec Ideal S64x10000 .bf16) (b : FVec Ideal S10000x256 .bf16) (g : Fin 64) (h : Fin 256) :
    matmul dot_S64x10000_S10000x256_S64x256_1_0_0_1_n_n none a b (constant S64x256 .f32 0x00000000#32) (ix2 g h)
      = ∑ q : Fin 10000, a (ix2 g q) * b (ix2 q h) :=
  Cert.PlainMatmul.apply none a b g h

/-- Two 32-bit words, the second the number g below 64, are equal exactly when the first reads g as a signed integer;
    so the comparison's bit, widened and read as a float, is the membership entry. -/
theorem hot_word (w : BitVec 32) (g : Fin 64) :
    FloatOps.sitofp (F := Ideal) .f32 ((IntOp.cmpi .eq w (BitVec.ofNat 32 g.val)).setWidth 32) = Cert.Spec.hot w.toInt g := by
  have hg : (BitVec.ofNat 32 g.val).toInt = (g.val : Int) := by
    have hlt := g.isLt
    have hn : (BitVec.ofNat 32 g.val).toNat = g.val := by rw [BitVec.toNat_ofNat]; omega
    rw [BitVec.toInt_eq_toNat_of_lt (by rw [hn]; omega), hn]
  have hiff : w = BitVec.ofNat 32 g.val ↔ w.toInt = (g.val : Int) :=
    ⟨fun e => e ▸ hg, fun e => BitVec.eq_of_toInt_eq (e.trans hg.symm)⟩
  unfold IntOp.cmpi Cert.Spec.hot
  rw [IdealReal.sitofp_setWidth_ofBool]
  by_cases h : w.toInt = (g.val : Int)
  · have hp : (w == BitVec.ofNat 32 g.val) = true := by rw [beq_iff_eq]; exact hiff.mpr h
    rw [hp, if_pos h]; simp
  · have hp : (w == BitVec.ofNat 32 g.val) = false := by rw [beq_eq_false_iff_ne]; exact fun e => h (hiff.mp e)
    rw [hp, if_neg h]; simp

variable (x0 x1 : Vec Ideal S10000x128 .bf16) (x2 : Vec Ideal S1x1x10000 .i32) (x3 x4 : Vec Ideal S128x256 .bf16) (x5 : Vec Ideal S1x256 .f32)

/-- The rectified rows. -/
theorem pay9_apply (q : Fin 10000) (h : Fin 256) :
    k0_pay9 (F := Ideal) x0 x3 x1 x4 x5 (ix2 q h) = rt x0 x1 x3 x4 x5 q h := by
  have e1 := featMatmul_apply x0 x3 q h
  have e2 := featMatmul_apply x1 x4 q h
  have e3 : broadcastTo S10000x256 x5 broadcasts_S1x256_S10000x256 (ix2 q h) = x5 (ix2 (0 : Fin 1) h) :=
    broadcastTo_1b_ab_apply x5 _ q h
  unfold k0_pay9
  simp only [maximumf_apply, addf_apply, broadcast_apply, shapeCast_self]
  rw [e1, e2, e3]
  rfl

/-- Their squares. -/
theorem pay12_apply (q : Fin 10000) (h : Fin 256) :
    k0_pay12 (F := Ideal) x0 x3 x1 x4 x5 (ix2 q h) = rt x0 x1 x3 x4 x5 q h * rt x0 x1 x3 x4 x5 q h := by
  unfold k0_pay12
  simp only [mulf_apply]
  rw [pay9_apply]

/-- A one-row array plus the column sums of a 10000-row array, recast with a leading unit axis. -/
theorem accCol_apply (a : FVec Ideal S1x256 .f32) (v : FVec Ideal S10000x256 .f32) (h : Fin 256) :
    shapeCast S1x1x256 (addf a (shapeCast S1x256 (multiReduction .add [0] S256 v 0x00000000#32 reduces_S10000x256_S256 (.inl rfl) rfl) shapeCasts_S256_S1x256)) shapeCasts_S1x256_S1x1x256 (ix3 (0 : Fin 1) (0 : Fin 1) h)
      = a (ix2 (0 : Fin 1) h) + ∑ q : Fin 10000, v (ix2 q h) := by
  refine (shapeCast_ab_1ab_apply _ _ (0 : Fin 1) (0 : Fin 1) h).trans ?_
  refine congrArg (a (ix2 (0 : Fin 1) h) + ·) ?_
  refine (shapeCast_a_1a_apply _ _ (0 : Fin 1) h).trans ?_
  exact colSum_apply v 0x00000000#32 reduces_S10000x256_S256 (.inl rfl) rfl h

/-- The running feature sums after the tile: what was there plus the tile's column sums of the rectified rows. -/
theorem pay10_apply (d : Vec Ideal S1x1x256 .f32) (h : Fin 256) :
    k0_pay10 (F := Ideal) x0 x3 x1 x4 x5 d (ix3 (0 : Fin 1) (0 : Fin 1) h)
      = d (ix3 (0 : Fin 1) (0 : Fin 1) h) + ∑ q : Fin 10000, rt x0 x1 x3 x4 x5 q h := by
  unfold k0_pay10
  dsimp only
  refine (accCol_apply _ _ h).trans ?_
  refine congrArg₂ (· + ·) (shapeCast_1ab_ab_apply d _ (0 : Fin 1) h) ?_
  exact Finset.sum_congr rfl fun q _ => pay9_apply x0 x1 x3 x4 x5 q h

/-- The running sums of squares after the tile. -/
theorem pay1_apply (d : Vec Ideal S1x1x256 .f32) (h : Fin 256) :
    k0_pay1 (F := Ideal) (k0_pay11 d) (k0_pay12 x0 x3 x1 x4 x5) (ix3 (0 : Fin 1) (0 : Fin 1) h)
      = d (ix3 (0 : Fin 1) (0 : Fin 1) h) + ∑ q : Fin 10000, rt x0 x1 x3 x4 x5 q h * rt x0 x1 x3 x4 x5 q h := by
  unfold k0_pay1 k0_pay11
  dsimp only
  refine (accCol_apply _ _ h).trans ?_
  refine congrArg₂ (· + ·) (shapeCast_1ab_ab_apply d _ (0 : Fin 1) h) ?_
  exact Finset.sum_congr rfl fun q _ => pay12_apply x0 x1 x3 x4 x5 q h

/-- The membership matrix: entry (g, q) is 1 when row q's graph number is g, else 0. -/
theorem pay2_apply (g : Fin 64) (q : Fin 10000) :
    k0_pay2 (F := Ideal) x2 (ix2 g q) = hotw x2 q g := by
  have eb : broadcastTo S64x10000 (shapeCast S1x10000 x2 shapeCasts_S1x1x10000_S1x10000) broadcasts_S1x10000_S64x10000 (ix2 g q)
      = x2 (ix3 (0 : Fin 1) (0 : Fin 1) q) :=
    (broadcastTo_1b_ab_apply _ _ g q).trans (shapeCast_1ab_ab_apply x2 _ (0 : Fin 1) q)
  have ei : iota .tc S64x10000 32 [0] iota_S64x10000_d0_w32 (ix2 g q) = BitVec.ofNat 32 g.val :=
    iota_single_apply .tc S64x10000 32 0 iota_S64x10000_d0_w32 (ix2 g q)
  unfold k0_pay2
  dsimp only
  show FloatOps.sitofp (F := Ideal) .f32 ((IntOp.cmpi .eq (broadcastTo S64x10000 (shapeCast S1x10000 x2 shapeCasts_S1x1x10000_S1x10000) broadcasts_S1x10000_S64x10000 (ix2 g q)) (iota .tc S64x10000 32 [0] iota_S64x10000_d0_w32 (ix2 g q))).setWidth 32) = _
  rw [eb, ei]
  exact hot_word _ g

/-- The running per-graph sums after the tile. -/
theorem pay3_apply (v19 : FVec Ideal S10000x256 .f32) (d : Vec Ideal S1x64x256 .f32) (g : Fin 64) (h : Fin 256) :
    k0_pay3 (F := Ideal) v19 x2 d (ix3 (0 : Fin 1) g h)
      = d (ix3 (0 : Fin 1) g h) + ∑ q : Fin 10000, hotw x2 q g * v19 (ix2 q h) := by
  unfold k0_pay3
  refine (shapeCast_ab_1ab_apply _ _ (0 : Fin 1) g h).trans ?_
  refine congrArg₂ (· + ·) (shapeCast_1ab_ab_apply d _ g h) ?_
  refine (poolMatmul_apply _ _ g h).trans ?_
  exact Finset.sum_congr rfl fun q _ => congrArg (· * v19 (ix2 q h)) (pay2_apply x2 g q)

/-- The running per-graph counts after the tile. -/
theorem pay4_apply (d : Vec Ideal S1x64x1 .f32) (g : Fin 64) :
    k0_pay4 (F := Ideal) x2 d (ix3 (0 : Fin 1) g (0 : Fin 1))
      = d (ix3 (0 : Fin 1) g (0 : Fin 1)) + ∑ q : Fin 10000, hotw x2 q g := by
  unfold k0_pay4
  dsimp only
  refine (shapeCast_ab_1ab_apply _ _ (0 : Fin 1) g (0 : Fin 1)).trans ?_
  refine congrArg₂ (· + ·) (shapeCast_1ab_ab_apply d _ g (0 : Fin 1)) ?_
  refine (Cert.RowOps.shapeCast_a_a1_apply _ _ g (0 : Fin 1)).trans ?_
  refine (Cert.RowOps.rowSum_apply _ 0x00000000#32 reduces_S64x10000_S64 (.inl rfl) rfl g).trans ?_
  exact Finset.sum_congr rfl fun q _ => pay2_apply x2 g q

/-- The four reset payloads are the zero word everywhere. -/
theorem pay5_apply (h : Fin 256) : k0_pay5 (F := Ideal) (ix3 (0 : Fin 1) (0 : Fin 1) h) = Cert.Spec.c0 := by
  unfold k0_pay5
  exact shapeCast_ab_1ab_apply _ _ (0 : Fin 1) (0 : Fin 1) h
theorem pay6_apply (h : Fin 256) : k0_pay6 (F := Ideal) (ix3 (0 : Fin 1) (0 : Fin 1) h) = Cert.Spec.c0 := by
  unfold k0_pay6
  exact shapeCast_ab_1ab_apply _ _ (0 : Fin 1) (0 : Fin 1) h
theorem pay7_apply (g : Fin 64) (h : Fin 256) : k0_pay7 (F := Ideal) (ix3 (0 : Fin 1) g h) = Cert.Spec.c0 := by
  unfold k0_pay7
  exact shapeCast_ab_1ab_apply _ _ (0 : Fin 1) g h
theorem pay8_apply (g : Fin 64) : k0_pay8 (F := Ideal) (ix3 (0 : Fin 1) g (0 : Fin 1)) = Cert.Spec.c0 := by
  unfold k0_pay8
  exact shapeCast_ab_1ab_apply _ _ (0 : Fin 1) g (0 : Fin 1)

end Payloads

/-! ## The four arrays after one tile, at an entry -/

section CaseA
variable (c : Dev nD) (i : grid0.Coords) (arg2 : Memref sig .tc .vmem S10000x128 .bf16) (harg2 : arg2.IsWhole) (arg3 : Memref sig .tc .vmem S10000x128 .bf16) (harg3 : arg3.IsWhole) (arg4 : Memref sig .tc .vmem S1x1x10000 .i32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x64x256 .f32) (harg10 : arg10.IsWhole) (arg11 : Memref sig .tc .vmem S1x64x1 .f32) (harg11 : arg11.IsWhole) (hc0 : cond0_0 i)
  (x0 x1 : Vec Ideal S10000x128 .bf16) (x2 : Vec Ideal S1x1x10000 .i32) (x3 x4 : Vec Ideal S128x256 .bf16) (x5 : Vec Ideal S1x256 .f32)

/-- First tile of a half, feature sums: zero plus the tile's sum of the rectified rows. -/
theorem outA6_apply (h : Fin 256) :
    out0_A_6 (F := Ideal) c i arg2 harg2 arg3 harg3 arg4 harg4 arg5 harg5 arg6 harg6 arg7 harg7 arg8 harg8 arg9 harg9 arg10 harg10 arg11 harg11 hc0 x0 x1 x2 x3 x4 x5 (ix3 0 0 h)
      = Cert.Spec.c0 + ∑ q : Fin 10000, rt x0 x1 x3 x4 x5 q h := by
  refine (congrFun (outA6_piece (F := Ideal) c i arg2 harg2 arg3 harg3 arg4 harg4 arg5 harg5 arg6 harg6 arg7 harg7 arg8 harg8 arg9 harg9 arg10 harg10 arg11 harg11 hc0 x0 x1 x2 x3 x4 x5) (ix3 0 0 h)).trans ?_
  refine (pay10_apply x0 x1 x3 x4 x5 _ h).trans ?_
  rw [pay5_apply]

/-- First tile of a half, sums of squares. -/
theorem outA7_apply (h : Fin 256) :
    out0_A_7 (F := Ideal) c i arg2 harg2 arg3 harg3 arg4 harg4 arg5 harg5 arg6 harg6 arg7 harg7 arg8 harg8 arg9 harg9 arg10 harg10 arg11 harg11 hc0 x0 x1 x2 x3 x4 x5 (ix3 0 0 h)
      = Cert.Spec.c0 + ∑ q : Fin 10000, rt x0 x1 x3 x4 x5 q h * rt x0 x1 x3 x4 x5 q h := by
  refine (congrFun (outA7_piece (F := Ideal) c i arg2 harg2 arg3 harg3 arg4 harg4 arg5 harg5 arg6 harg6 arg7 harg7 arg8 harg8 arg9 harg9 arg10 harg10 arg11 harg11 hc0 x0 x1 x2 x3 x4 x5) (ix3 0 0 h)).trans ?_
  refine (pay1_apply x0 x1 x3 x4 x5 _ h).trans ?_
  rw [pay6_apply]

/-- First tile of a half, per-graph sums. -/
theorem outA8_apply (g : Fin 64) (h : Fin 256) :
    out0_A_8 (F := Ideal) c i arg2 harg2 arg3 harg3 arg4 harg4 arg5 harg5 arg6 harg6 arg7 harg7 arg8 harg8 arg9 harg9 arg10 harg10 arg11 harg11 hc0 x0 x1 x2 x3 x4 x5 (ix3 0 g h)
      = Cert.Spec.c0 + ∑ q : Fin 10000, hotw x2 q g * rt x0 x1 x3 x4 x5 q h := by
  refine (congrFun (outA8_piece (F := Ideal) c i arg2 harg2 arg3 harg3 arg4 harg4 arg5 harg5 arg6 harg6 arg7 harg7 arg8 harg8 arg9 harg9 arg10 harg10 arg11 harg11 hc0 x0 x1 x2 x3 x4 x5) (ix3 0 g h)).trans ?_
  refine (pay3_apply x2 _ _ g h).trans ?_
  rw [pay7_apply]
  exact congrArg (Cert.Spec.c0 + ·) (Finset.sum_congr rfl fun q _ => congrArg (hotw x2 q g * ·) (pay9_apply x0 x1 x3 x4 x5 q h))

/-- First tile of a half, per-graph counts. -/
theorem outA9_apply (g : Fin 64) :
    out0_A_9 (F := Ideal) c i arg2 harg2 arg3 harg3 arg4 harg4 arg5 harg5 arg6 harg6 arg7 harg7 arg8 harg8 arg9 harg9 arg10 harg10 arg11 harg11 hc0 x0 x1 x2 x3 x4 x5 (ix3 0 g 0)
      = Cert.Spec.c0 + ∑ q : Fin 10000, hotw x2 q g := by
  refine (congrFun (outA9_piece (F := Ideal) c i arg2 harg2 arg3 harg3 arg4 harg4 arg5 harg5 arg6 harg6 arg7 harg7 arg8 harg8 arg9 harg9 arg10 harg10 arg11 harg11 hc0 x0 x1 x2 x3 x4 x5) (ix3 0 g 0)).trans ?_
  refine (pay4_apply x2 _ g).trans ?_
  rw [pay8_apply]

end CaseA

section CaseB
variable (c : Dev nD) (i : grid0.Coords) (arg2 : Memref sig .tc .vmem S10000x128 .bf16) (harg2 : arg2.IsWhole) (arg3 : Memref sig .tc .vmem S10000x128 .bf16) (harg3 : arg3.IsWhole) (arg4 : Memref sig .tc .vmem S1x1x10000 .i32) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x64x256 .f32) (harg10 : arg10.IsWhole) (arg11 : Memref sig .tc .vmem S1x64x1 .f32) (harg11 : arg11.IsWhole) (hc0 : ¬cond0_0 i)
  (x0 x1 : Vec Ideal S10000x128 .bf16) (x2 : Vec Ideal S1x1x10000 .i32) (x3 x4 : Vec Ideal S128x256 .bf16) (x5 : Vec Ideal S1x256 .f32)
  (d6 d7 : Vec Ideal S1x1x256 .f32) (d8 : Vec Ideal S1x64x256 .f32) (d9 : Vec Ideal S1x64x1 .f32)

/-- A later tile, feature sums: what the tile before left plus the tile's sum of the rectified rows. -/
theorem outB6_apply (h : Fin 256) :
    out0_B_6 (F := Ideal) c i arg2 harg2 arg3 harg3 arg4 harg4 arg5 harg5 arg6 harg6 arg7 harg7 arg8 harg8 arg9 harg9 arg10 harg10 arg11 harg11 hc0 x0 x1 x2 x3 x4 x5 d6 d7 d8 d9 (ix3 0 0 h)
      = d6 (ix3 0 0 h) + ∑ q : Fin 10000, rt x0 x1 x3 x4 x5 q h := by
  refine (congrFun (outB6_piece (F := Ideal) c i arg2 harg2 arg3 harg3 arg4 harg4 arg5 harg5 arg6 harg6 arg7 harg7 arg8 harg8 arg9 harg9 arg10 harg10 arg11 harg11 hc0 x0 x1 x2 x3 x4 x5 d6 d7 d8 d9) (ix3 0 0 h)).trans ?_
  exact pay10_apply x0 x1 x3 x4 x5 d6 h

/-- A later tile, sums of squares. -/
theorem outB7_apply (h : Fin 256) :
    out0_B_7 (F := Ideal) c i arg2 harg2 arg3 harg3 arg4 harg4 arg5 harg5 arg6 harg6 arg7 harg7 arg8 harg8 arg9 harg9 arg10 harg10 arg11 harg11 hc0 x0 x1 x2 x3 x4 x5 d6 d7 d8 d9 (ix3 0 0 h)
      = d7 (ix3 0 0 h) + ∑ q : Fin 10000, rt x0 x1 x3 x4 x5 q h * rt x0 x1 x3 x4 x5 q h := by
  refine (congrFun (outB7_piece (F := Ideal) c i arg2 harg2 arg3 harg3 arg4 harg4 arg5 harg5 arg6 harg6 arg7 harg7 arg8 harg8 arg9 harg9 arg10 harg10 arg11 harg11 hc0 x0 x1 x2 x3 x4 x5 d6 d7 d8 d9) (ix3 0 0 h)).trans ?_
  exact pay1_apply x0 x1 x3 x4 x5 d7 h

/-- A later tile, per-graph sums. -/
theorem outB8_apply (g : Fin 64) (h : Fin 256) :
    out0_B_8 (F := Ideal) c i arg2 harg2 arg3 harg3 arg4 harg4 arg5 harg5 arg6 harg6 arg7 harg7 arg8 harg8 arg9 harg9 arg10 harg10 arg11 harg11 hc0 x0 x1 x2 x3 x4 x5 d6 d7 d8 d9 (ix3 0 g h)
      = d8 (ix3 0 g h) + ∑ q : Fin 10000, hotw x2 q g * rt x0 x1 x3 x4 x5 q h := by
  refine (congrFun (outB8_piece (F := Ideal) c i arg2 harg2 arg3 harg3 arg4 harg4 arg5 harg5 arg6 harg6 arg7 harg7 arg8 harg8 arg9 harg9 arg10 harg10 arg11 harg11 hc0 x0 x1 x2 x3 x4 x5 d6 d7 d8 d9) (ix3 0 g h)).trans ?_
  refine (pay3_apply x2 _ d8 g h).trans ?_
  exact congrArg (d8 (ix3 0 g h) + ·) (Finset.sum_congr rfl fun q _ => congrArg (hotw x2 q g * ·) (pay9_apply x0 x1 x3 x4 x5 q h))

/-- A later tile, per-graph counts. -/
theorem outB9_apply (g : Fin 64) :
    out0_B_9 (F := Ideal) c i arg2 harg2 arg3 harg3 arg4 harg4 arg5 harg5 arg6 harg6 arg7 harg7 arg8 harg8 arg9 harg9 arg10 harg10 arg11 harg11 hc0 x0 x1 x2 x3 x4 x5 d6 d7 d8 d9 (ix3 0 g 0)
      = d9 (ix3 0 g 0) + ∑ q : Fin 10000, hotw x2 q g := by
  refine (congrFun (outB9_piece (F := Ideal) c i arg2 harg2 arg3 harg3 arg4 harg4 arg5 harg5 arg6 harg6 arg7 harg7 arg8 harg8 arg9 harg9 arg10 harg10 arg11 harg11 hc0 x0 x1 x2 x3 x4 x5 d6 d7 d8 d9) (ix3 0 g 0)).trans ?_
  exact pay4_apply x2 d9 g

end CaseB

end Cert.KernelIdeal.Reg0Tile

end
-- ==== Proof.Region0.lean ====
/-
  The first kernel's four running arrays over its grid of 2 halves times 5 tiles.

  Point t = 5 cc + j of the grid holds tile j of half cc: rows 10000 t, ..., 10000 t + 9999 of the feature rows,
  of the mean-aggregated rows and of the graph numbers, and the whole weight matrices and bias. Each of the four
  output arrays has one block per half. At the first tile of a half the block restarts from zero plus the tile's
  contribution, at every later tile the tile's contribution is added to what the tile before left, and the block
  is written to the array after the fifth tile. So block cc of each array ends holding

      0 + sum over j < 5 of (tile j's contribution),

  the kernel's own left-to-right association ((((0 + T0) + T1) + T2) + T3) + T4 regrouped by associativity of
  addition in the extended reals (no finiteness is needed for that). With every block entry identified with the
  entry of the array it was cut from (a block's coordinate is block index times block size plus the coordinate
  inside the block), the tile contributions become sums over the nodes (5 cc + j) 10000 + q, and the four arrays
  are the per-half feature sums S, sums of squares Q, per-graph sums P and per-graph counts C of the
  specification, entry by entry.
-/
import proofs.«416988_j64106681860685_3_alg».proof.Proof.Region0Tile
import Idealize.ShloMosaic.Lib.Pipeline.Value
import Idealize.ShloMosaic.Lib.ValueIdx
import Mathlib.Algebra.BigOperators.Fin

noncomputable section

namespace Cert.KernelIdeal.Reg0

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

/-! ## A running sum over the grid -/

/-- A quantity indexed by the ten grid points that restarts from z plus the point's own term at the first point
    of each half, and elsewhere adds the point's own term to what the point before left, is after point 5 cc + j
    the value z plus the terms of the points 5 cc, ..., 5 cc + j. -/
theorem fold_sum {ι : Type} {N : ℕ} (hN : N = 10) (f M : (n : ℕ) → n < N → ι → EReal) (z : EReal)
    (hA : ∀ (n : ℕ) (hn : n < N), n % 5 = 0 → ∀ i, f n hn i = z + M n hn i)
    (hB : ∀ (n : ℕ) (hn : n + 1 < N), ¬(n + 1) % 5 = 0 →
      ∀ i, f (n + 1) hn i = f n (Nat.lt_of_succ_lt hn) i + M (n + 1) hn i)
    (cc : Fin 2) : ∀ (j : ℕ) (hj : j < 5) (i : ι),
      f (cc.val * 5 + j) (by have := cc.isLt; omega) i
        = z + ∑ j' : Fin (j + 1), M (cc.val * 5 + j'.val) (by have := cc.isLt; have := j'.isLt; omega) i
  | 0, hj, i => by
    rw [Fin.sum_univ_one]
    exact hA (cc.val * 5 + 0) _ (by omega) i
  | j + 1, hj, i => by
    have ih := fold_sum hN f M z hA hB cc j (by omega) i
    refine (hB (cc.val * 5 + j) (by have := cc.isLt; omega) (by omega) i).trans ?_
    rw [ih, Fin.sum_univ_castSucc (n := j + 1), add_assoc z]
    rfl

/-! ## The arrays the region finds, and the formulas' arguments read off them -/

variable (V : (c : Dev nD) → (b : Ref sig .tc) → Buf (Elt Ideal) ((c : Thread nD τ).loc b)) (c : Dev nD)

/-- The feature rows, the mean-aggregated rows, the two weight matrices and the bias, entry by entry. -/
abbrev feat (i : Fin 100000) (k : Fin 128) : EReal := (V c main_v0 : FVec Ideal S100000x128 .bf16) (ix2 i k)
abbrev hn (i : Fin 100000) (k : Fin 128) : EReal := (V c main_v28 : FVec Ideal S100000x128 .bf16) (ix2 i k)
abbrev Ws (k : Fin 128) (h : Fin 256) : EReal := (V c main_v29 : FVec Ideal S128x256 .bf16) (ix2 k h)
abbrev Wn (k : Fin 128) (h : Fin 256) : EReal := (V c main_v30 : FVec Ideal S128x256 .bf16) (ix2 k h)
abbrev b (h : Fin 256) : EReal := (V c main_v31 : FVec Ideal S1x256 .f32) (ix2 0 h)
/-- The graph number of node i, read as a signed integer: the numbers are laid out as 10 rows of 10000. -/
abbrev gid (i : Fin 100000) : Int :=
  ((V c main_v32 : IVec S10x1x10000 32)
    (ix3 (⟨i.val / 10000, by have := i.isLt; omega⟩ : Fin 10) (0 : Fin 1) (⟨i.val % 10000, by omega⟩ : Fin 10000))).toInt
/-- The rectified convolution rows of all 100000 nodes. -/
abbrev rr : Fin 100000 → Fin 256 → EReal := Cert.Spec.actOf (feat V c) (hn V c) (Ws V c) (Wn V c) (b V c)

/-! ## The grid's points and the blocks the windows hold at them -/

theorem N10 : cfg0.N = 10 := N_0

/-- Tile j of half cc is point 5 cc + j. -/
def pt (cc : Fin 2) (j : Fin 5) : Fin cfg0.N :=
  ⟨cc.val * 5 + j.val, by rw [N10]; have := cc.isLt; have := j.isLt; omega⟩

/-- Row q of the tile at point t is node 10000 t + q. -/
def nodeT (t : Fin cfg0.N) (q : Fin 10000) : Fin 100000 :=
  ⟨t.val * 10000 + q.val, by have := lt_of_lt_of_eq t.isLt N10; have := q.isLt; omega⟩

abbrev xb0 (t : Fin cfg0.N) : Vec Ideal S10000x128 .bf16 := iblk0 V c 0 t
abbrev xb1 (t : Fin cfg0.N) : Vec Ideal S10000x128 .bf16 := iblk0 V c 1 t
abbrev xb2 (t : Fin cfg0.N) : Vec Ideal S1x1x10000 .i32 := iblk0 V c 2 t
abbrev xb3 (t : Fin cfg0.N) : Vec Ideal S128x256 .bf16 := iblk0 V c 3 t
abbrev xb4 (t : Fin cfg0.N) : Vec Ideal S128x256 .bf16 := iblk0 V c 4 t
abbrev xb5 (t : Fin cfg0.N) : Vec Ideal S1x256 .f32 := iblk0 V c 5 t

/-- The block indices of the six input windows at every point: the three row windows sit at block t, the
    weights and the bias at block 0. -/
theorem idx_in : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The block indices of the four output windows: block t / 5, the half the point belongs to. -/
theorem idx_out : ∀ t : Fin cfg0.N,
    win0_6.index t (0 : Fin 3) = t.val / 5 ∧ win0_6.index t (1 : Fin 3) = 0 ∧ win0_6.index t (2 : Fin 3) = 0
    ∧ win0_7.index t (0 : Fin 3) = t.val / 5 ∧ win0_7.index t (1 : Fin 3) = 0 ∧ win0_7.index t (2 : Fin 3) = 0
    ∧ win0_8.index t (0 : Fin 3) = t.val / 5 ∧ win0_8.index t (1 : Fin 3) = 0 ∧ win0_8.index t (2 : Fin 3) = 0
    ∧ win0_9.index t (0 : Fin 3) = t.val / 5 ∧ win0_9.index t (1 : Fin 3) = 0 ∧ win0_9.index t (2 : Fin 3) = 0 :=
  (by decide +kernel : ∀ t : Fin grid0.N, _)

/-! ## A block's entry is an entry of its array -/

theorem xb0_apply (t : Fin cfg0.N) (q : Fin 10000) (k : Fin 128) :
    xb0 V c t (ix2 q k) = feat V c (nodeT t q) k := by
  obtain ⟨e0, e1, -⟩ := idx_in t
  show V c main_v0 (((cfg0.win 0).blk t).view.emb (ix2 q k)) = V c main_v0 (ix2 (nodeT t q) k)
  congr 1
  funext a
  apply Fin.ext
  match a with
  | ⟨0, _⟩ => show win0_0.index t (0 : Fin 2) * 10000 + 1 * q.val = t.val * 10000 + q.val; rw [e0]; omega
  | ⟨1, _⟩ => show win0_0.index t (1 : Fin 2) * 128 + 1 * k.val = k.val; rw [e1]; omega

theorem xb1_apply (t : Fin cfg0.N) (q : Fin 10000) (k : Fin 128) :
    xb1 V c t (ix2 q k) = hn V c (nodeT t q) k := by
  obtain ⟨-, -, e0, e1, -⟩ := idx_in t
  show V c main_v28 (((cfg0.win 1).blk t).view.emb (ix2 q k)) = V c main_v28 (ix2 (nodeT t q) k)
  congr 1
  funext a
  apply Fin.ext
  match a with
  | ⟨0, _⟩ => show win0_1.index t (0 : Fin 2) * 10000 + 1 * q.val = t.val * 10000 + q.val; rw [e0]; omega
  | ⟨1, _⟩ => show win0_1.index t (1 : Fin 2) * 128 + 1 * k.val = k.val; rw [e1]; omega

theorem xb2_apply (t : Fin cfg0.N) (q : Fin 10000) :
    (xb2 V c t (ix3 0 0 q)).toInt = gid V c (nodeT t q) := by
  obtain ⟨-, -, -, -, e0, e1, e2, -⟩ := idx_in t
  have ht := lt_of_lt_of_eq t.isLt N10
  have hq := q.isLt
  show (V c main_v32 (((cfg0.win 2).blk t).view.emb (ix3 0 0 q))).toInt
    = (V c main_v32 (ix3 (⟨(nodeT t q).val / 10000, _⟩ : Fin 10) (0 : Fin 1) (⟨(nodeT t q).val % 10000, _⟩ : Fin 10000))).toInt
  congr 2
  funext a
  apply Fin.ext
  match a with
  | ⟨0, _⟩ => show win0_2.index t (0 : Fin 3) * 1 + 1 * 0 = (t.val * 10000 + q.val) / 10000; rw [e0]; omega
  | ⟨1, _⟩ => show win0_2.index t (1 : Fin 3) * 1 + 1 * 0 = 0; rw [e1]
  | ⟨2, _⟩ => show win0_2.index t (2 : Fin 3) * 10000 + 1 * q.val = (t.val * 10000 + q.val) % 10000; rw [e2]; omega

theorem xb3_apply (t : Fin cfg0.N) (k : Fin 128) (h : Fin 256) : xb3 V c t (ix2 k h) = Ws V c k h := by
  obtain ⟨-, -, -, -, -, -, -, e0, e1, -⟩ := idx_in t
  show V c main_v29 (((cfg0.win 3).blk t).view.emb (ix2 k h)) = V c main_v29 (ix2 k h)
  congr 1
  funext a
  apply Fin.ext
  match a with
  | ⟨0, _⟩ => show win0_3.index t (0 : Fin 2) * 128 + 1 * k.val = k.val; rw [e0]; omega
  | ⟨1, _⟩ => show win0_3.index t (1 : Fin 2) * 256 + 1 * h.val = h.val; rw [e1]; omega

theorem xb4_apply (t : Fin cfg0.N) (k : Fin 128) (h : Fin 256) : xb4 V c t (ix2 k h) = Wn V c k h := by
  obtain ⟨-, -, -, -, -, -, -, -, -, e0, e1, -⟩ := idx_in t
  show V c main_v30 (((cfg0.win 4).blk t).view.emb (ix2 k h)) = V c main_v30 (ix2 k h)
  congr 1
  funext a
  apply Fin.ext
  match a with
  | ⟨0, _⟩ => show win0_4.index t (0 : Fin 2) * 128 + 1 * k.val = k.val; rw [e0]; omega
  | ⟨1, _⟩ => show win0_4.index t (1 : Fin 2) * 256 + 1 * h.val = h.val; rw [e1]; omega

theorem xb5_apply (t : Fin cfg0.N) (h : Fin 256) : xb5 V c t (ix2 0 h) = b V c h := by
  obtain ⟨-, -, -, -, -, -, -, -, -, -, -, e0, e1⟩ := idx_in t
  show V c main_v31 (((cfg0.win 5).blk t).view.emb (ix2 0 h)) = V c main_v31 (ix2 0 h)
  congr 1
  funext a
  apply Fin.ext
  match a with
  | ⟨0, _⟩ => show win0_5.index t (0 : Fin 2) * 1 + 1 * 0 = 0; rw [e0]
  | ⟨1, _⟩ => show win0_5.index t (1 : Fin 2) * 256 + 1 * h.val = h.val; rw [e1]; omega

/-- The tile's rectified row q, computed from the blocks at point t, is the rectified row of node 10000 t + q. -/
theorem rt_eq (t : Fin cfg0.N) (q : Fin 10000) (h : Fin 256) :
    Reg0Tile.rt (xb0 V c t) (xb1 V c t) (xb3 V c t) (xb4 V c t) (xb5 V c t) q h = rr V c (nodeT t q) h := by
  unfold Reg0Tile.rt rr Cert.Spec.actOf
  simp only [xb0_apply V c t, xb1_apply V c t, xb3_apply V c t, xb4_apply V c t, xb5_apply V c t]

/-- The membership entry of the tile's row q is that of node 10000 t + q. -/
theorem hotw_eq (t : Fin cfg0.N) (q : Fin 10000) (g : Fin 64) :
    Reg0Tile.hotw (xb2 V c t) q g = Cert.Spec.hot (gid V c (nodeT t q)) g := by
  unfold Reg0Tile.hotw
  rw [xb2_apply V c t q]

/-- The contribution of the tile at point n to running array 6. -/
abbrev M6 (n : ℕ) (hn : n < cfg0.N) (h : Fin 256) : EReal :=
  ∑ q : Fin 10000, Reg0Tile.rt (xb0 V c ⟨n, hn⟩) (xb1 V c ⟨n, hn⟩) (xb3 V c ⟨n, hn⟩) (xb4 V c ⟨n, hn⟩) (xb5 V c ⟨n, hn⟩) q h

theorem stepA6 (t : Fin cfg0.N) (h0 : t.val % 5 = 0) (h : Fin 256) :
    (outsAt0 V c t.val t.isLt).1 (ix3 0 0 h) = Cert.Spec.c0 + M6 V c t.val t.isLt h := by
  rw [outsAt0_A V c t h0]
  dsimp only
  exact Reg0Tile.outA6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (xb0 V c t) (xb1 V c t) (xb2 V c t) (xb3 V c t) (xb4 V c t) (xb5 V c t) h

theorem stepB6 (t : Fin cfg0.N) (h0 : ¬t.val % 5 = 0) (h : Fin 256) :
    (outsAt0 V c t.val t.isLt).1 (ix3 0 0 h)
      = (outsAt0 V c (t.val - 1) (Nat.lt_of_le_of_lt (Nat.sub_le _ _) t.isLt)).1 (ix3 0 0 h) + M6 V c t.val t.isLt h := by
  rw [outsAt0_B V c t h0]
  dsimp only
  exact Reg0Tile.outB6_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h0 ((hcond0_0 t).mp hh)) (xb0 V c t) (xb1 V c t) (xb2 V c t) (xb3 V c t) (xb4 V c t) (xb5 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 h

/-- The contribution of the tile at point n to running array 7. -/
abbrev M7 (n : ℕ) (hn : n < cfg0.N) (h : Fin 256) : EReal :=
  ∑ q : Fin 10000, Reg0Tile.rt (xb0 V c ⟨n, hn⟩) (xb1 V c ⟨n, hn⟩) (xb3 V c ⟨n, hn⟩) (xb4 V c ⟨n, hn⟩) (xb5 V c ⟨n, hn⟩) q h * Reg0Tile.rt (xb0 V c ⟨n, hn⟩) (xb1 V c ⟨n, hn⟩) (xb3 V c ⟨n, hn⟩) (xb4 V c ⟨n, hn⟩) (xb5 V c ⟨n, hn⟩) q h

theorem stepA7 (t : Fin cfg0.N) (h0 : t.val % 5 = 0) (h : Fin 256) :
    (outsAt0 V c t.val t.isLt).2.1 (ix3 0 0 h) = Cert.Spec.c0 + M7 V c t.val t.isLt h := by
  rw [outsAt0_A V c t h0]
  dsimp only
  exact Reg0Tile.outA7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (xb0 V c t) (xb1 V c t) (xb2 V c t) (xb3 V c t) (xb4 V c t) (xb5 V c t) h

theorem stepB7 (t : Fin cfg0.N) (h0 : ¬t.val % 5 = 0) (h : Fin 256) :
    (outsAt0 V c t.val t.isLt).2.1 (ix3 0 0 h)
      = (outsAt0 V c (t.val - 1) (Nat.lt_of_le_of_lt (Nat.sub_le _ _) t.isLt)).2.1 (ix3 0 0 h) + M7 V c t.val t.isLt h := by
  rw [outsAt0_B V c t h0]
  dsimp only
  exact Reg0Tile.outB7_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h0 ((hcond0_0 t).mp hh)) (xb0 V c t) (xb1 V c t) (xb2 V c t) (xb3 V c t) (xb4 V c t) (xb5 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 h

/-- The contribution of the tile at point n to running array 8. -/
abbrev M8 (n : ℕ) (hn : n < cfg0.N) (p : Fin 64 × Fin 256) : EReal :=
  ∑ q : Fin 10000, Reg0Tile.hotw (xb2 V c ⟨n, hn⟩) q p.1 * Reg0Tile.rt (xb0 V c ⟨n, hn⟩) (xb1 V c ⟨n, hn⟩) (xb3 V c ⟨n, hn⟩) (xb4 V c ⟨n, hn⟩) (xb5 V c ⟨n, hn⟩) q p.2

theorem stepA8 (t : Fin cfg0.N) (h0 : t.val % 5 = 0) (p : Fin 64 × Fin 256) :
    (outsAt0 V c t.val t.isLt).2.2.1 (ix3 0 p.1 p.2) = Cert.Spec.c0 + M8 V c t.val t.isLt p := by
  rw [outsAt0_A V c t h0]
  dsimp only
  exact Reg0Tile.outA8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (xb0 V c t) (xb1 V c t) (xb2 V c t) (xb3 V c t) (xb4 V c t) (xb5 V c t) p.1 p.2

theorem stepB8 (t : Fin cfg0.N) (h0 : ¬t.val % 5 = 0) (p : Fin 64 × Fin 256) :
    (outsAt0 V c t.val t.isLt).2.2.1 (ix3 0 p.1 p.2)
      = (outsAt0 V c (t.val - 1) (Nat.lt_of_le_of_lt (Nat.sub_le _ _) t.isLt)).2.2.1 (ix3 0 p.1 p.2) + M8 V c t.val t.isLt p := by
  rw [outsAt0_B V c t h0]
  dsimp only
  exact Reg0Tile.outB8_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h0 ((hcond0_0 t).mp hh)) (xb0 V c t) (xb1 V c t) (xb2 V c t) (xb3 V c t) (xb4 V c t) (xb5 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 p.1 p.2

/-- The contribution of the tile at point n to running array 9. -/
abbrev M9 (n : ℕ) (hn : n < cfg0.N) (g : Fin 64) : EReal :=
  ∑ q : Fin 10000, Reg0Tile.hotw (xb2 V c ⟨n, hn⟩) q g

theorem stepA9 (t : Fin cfg0.N) (h0 : t.val % 5 = 0) (g : Fin 64) :
    (outsAt0 V c t.val t.isLt).2.2.2 (ix3 0 g 0) = Cert.Spec.c0 + M9 V c t.val t.isLt g := by
  rw [outsAt0_A V c t h0]
  dsimp only
  exact Reg0Tile.outA9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (xb0 V c t) (xb1 V c t) (xb2 V c t) (xb3 V c t) (xb4 V c t) (xb5 V c t) g

theorem stepB9 (t : Fin cfg0.N) (h0 : ¬t.val % 5 = 0) (g : Fin 64) :
    (outsAt0 V c t.val t.isLt).2.2.2 (ix3 0 g 0)
      = (outsAt0 V c (t.val - 1) (Nat.lt_of_le_of_lt (Nat.sub_le _ _) t.isLt)).2.2.2 (ix3 0 g 0) + M9 V c t.val t.isLt g := by
  rw [outsAt0_B V c t h0]
  dsimp only
  exact Reg0Tile.outB9_apply c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hh => h0 ((hcond0_0 t).mp hh)) (xb0 V c t) (xb1 V c t) (xb2 V c t) (xb3 V c t) (xb4 V c t) (xb5 V c t) (outsAt0 V c (t.val - 1) (Nat.lt_of_le_of_lt (Nat.sub_le _ _) t.isLt)).1 (outsAt0 V c (t.val - 1) (Nat.lt_of_le_of_lt (Nat.sub_le _ _) t.isLt)).2.1 (outsAt0 V c (t.val - 1) (Nat.lt_of_le_of_lt (Nat.sub_le _ _) t.isLt)).2.2.1 (outsAt0 V c (t.val - 1) (Nat.lt_of_le_of_lt (Nat.sub_le _ _) t.isLt)).2.2.2 g

/-! ## The four running arrays after the last tile of a half -/

/-- Tile j of half cc, row q: the node the specification calls node cc j q. -/
theorem nodeT_pt (cc : Fin 2) (j : Fin 5) (q : Fin 10000) : nodeT (pt cc j) q = Cert.Spec.node cc j q := rfl

theorem acc6 (cc : Fin 2) (h : Fin 256) :
    (outsAt0 V c (pt cc 4).val (pt cc 4).isLt).1 (ix3 0 0 h) = Cert.Spec.K.S (rr V c) cc h := by
  refine (fold_sum N10 (fun n hn (h : Fin 256) => (outsAt0 V c n hn).1 (ix3 0 0 h)) (M6 V c) Cert.Spec.c0
    (fun n hn h0 h => stepA6 V c ⟨n, hn⟩ h0 h) (fun n hn h0 h => stepB6 V c ⟨n + 1, hn⟩ h0 h) cc 4 (by omega) h).trans ?_
  unfold Cert.Spec.K.S
  refine congrArg (Cert.Spec.c0 + ·) (Finset.sum_congr rfl fun j _ => Finset.sum_congr rfl fun q _ => ?_)
  exact rt_eq V c (pt cc j) q h

theorem acc7 (cc : Fin 2) (h : Fin 256) :
    (outsAt0 V c (pt cc 4).val (pt cc 4).isLt).2.1 (ix3 0 0 h) = Cert.Spec.K.Q (rr V c) cc h := by
  refine (fold_sum N10 (fun n hn (h : Fin 256) => (outsAt0 V c n hn).2.1 (ix3 0 0 h)) (M7 V c) Cert.Spec.c0
    (fun n hn h0 h => stepA7 V c ⟨n, hn⟩ h0 h) (fun n hn h0 h => stepB7 V c ⟨n + 1, hn⟩ h0 h) cc 4 (by omega) h).trans ?_
  unfold Cert.Spec.K.Q
  refine congrArg (Cert.Spec.c0 + ·) (Finset.sum_congr rfl fun j _ => Finset.sum_congr rfl fun q _ => ?_)
  exact congrArg₂ (· * ·) (rt_eq V c (pt cc j) q h) (rt_eq V c (pt cc j) q h)

theorem acc8 (cc : Fin 2) (g : Fin 64) (h : Fin 256) :
    (outsAt0 V c (pt cc 4).val (pt cc 4).isLt).2.2.1 (ix3 0 g h) = Cert.Spec.K.P (gid V c) (rr V c) cc g h := by
  refine (fold_sum N10 (fun n hn (p : Fin 64 × Fin 256) => (outsAt0 V c n hn).2.2.1 (ix3 0 p.1 p.2)) (M8 V c) Cert.Spec.c0
    (fun n hn h0 p => stepA8 V c ⟨n, hn⟩ h0 p) (fun n hn h0 p => stepB8 V c ⟨n + 1, hn⟩ h0 p) cc 4 (by omega) (g, h)).trans ?_
  unfold Cert.Spec.K.P
  refine congrArg (Cert.Spec.c0 + ·) (Finset.sum_congr rfl fun j _ => Finset.sum_congr rfl fun q _ => ?_)
  exact congrArg₂ (· * ·) (hotw_eq V c (pt cc j) q g) (rt_eq V c (pt cc j) q h)

theorem acc9 (cc : Fin 2) (g : Fin 64) :
    (outsAt0 V c (pt cc 4).val (pt cc 4).isLt).2.2.2 (ix3 0 g 0) = Cert.Spec.K.C (gid V c) cc g := by
  refine (fold_sum N10 (fun n hn (g : Fin 64) => (outsAt0 V c n hn).2.2.2 (ix3 0 g 0)) (M9 V c) Cert.Spec.c0
    (fun n hn h0 g => stepA9 V c ⟨n, hn⟩ h0 g) (fun n hn h0 g => stepB9 V c ⟨n + 1, hn⟩ h0 g) cc 4 (by omega) g).trans ?_
  unfold Cert.Spec.K.C
  refine congrArg (Cert.Spec.c0 + ·) (Finset.sum_congr rfl fun j _ => Finset.sum_congr rfl fun q _ => ?_)
  exact hotw_eq V c (pt cc j) q g

/-! ## From the blocks to the arrays -/

/-- An index whose first two extents are 1 is its last coordinate. -/
theorem eq_ix3_00 {n : ℕ} (y : (⟨3, ![1, 1, n]⟩ : Shape).Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl
/-- An index whose first extent is 1 is its last two coordinates. -/
theorem eq_ix3_0 {n1 n2 : ℕ} (y : (⟨3, ![1, n1, n2]⟩ : Shape).Idx) : y = ix3 0 (y 1) (y 2) := by
  funext a
  match a with
  | ⟨0, _⟩ => exact Subsingleton.elim (α := Fin 1) _ _
  | ⟨1, _⟩ => rfl
  | ⟨2, _⟩ => rfl
/-- An index whose first and last extents are 1 is its middle coordinate. -/
theorem eq_ix3_0_0 {n1 : ℕ} (y : (⟨3, ![1, n1, 1]⟩ : Shape).Idx) : y = ix3 0 (y 1) 0 := by
  funext a
  match a with
  | ⟨0, _⟩ => exact Subsingleton.elim (α := Fin 1) _ _
  | ⟨1, _⟩ => rfl
  | ⟨2, _⟩ => exact Subsingleton.elim (α := Fin 1) _ _

/-- The point that ends half cc. -/
theorem pt4_val (cc : Fin 2) : (pt cc 4).val = cc.val * 5 + 4 := rfl

/-- Array 6 after the region as one function of its index: entry (cc, ...) is the feature sums of half cc. -/
abbrev G6 : Vec Ideal S2x1x256 .f32 := fun i =>
  Cert.Spec.K.S (rr V c) ⟨(i 0).val, (i 0).isLt⟩ ⟨(i 2).val, (i 2).isLt⟩

/-- The one write of half cc's block, after its fifth tile, writes block cc of that function. -/
theorem flushed6 (t : Fin cfg0.N) (hf : (cfg0.win 6).flush t = true) :
    (dat0 V c).flushed 6 t = ((cfg0.win 6).blk t).view.read (Elt Ideal) (G6 V c) := by
  have h4 : t.val % 5 = 4 := (flush0_6 t).mp hf
  have hN := lt_of_lt_of_eq t.isLt N10
  obtain ⟨cc, rfl⟩ : ∃ cc : Fin 2, t = pt cc 4 :=
    ⟨⟨t.val / 5, by omega⟩, Fin.ext (by show t.val = t.val / 5 * 5 + 4; omega)⟩
  have hp := pt4_val cc
  have hcc := cc.isLt
  obtain ⟨e0, e1, e2, -⟩ := idx_out (pt cc 4)
  show (cfg0.win 6).cut (grid0.coords (pt cc 4)) ((dat0 V c).after 6 (pt cc 4)) = _
  rw [after0_6]
  have key : ∀ y : S1x1x256.Idx, (outsAt0 V c (pt cc 4).val (pt cc 4).isLt).1 y
      = G6 V c (((cfg0.win 6).blk (pt cc 4)).view.emb y) := by
    intro y
    obtain ⟨h, rfl⟩ : ∃ h : Fin 256, y = ix3 0 0 h := ⟨y 2, eq_ix3_00 y⟩
    rw [acc6 V c cc h]
    refine congrArg₂ (Cert.Spec.K.S (rr V c)) (Fin.ext ?_) (Fin.ext ?_)
    · show cc.val = win0_6.index (pt cc 4) (0 : Fin 3) * 1 + 1 * 0
      rw [e0]; omega
    · show h.val = win0_6.index (pt cc 4) (2 : Fin 3) * 256 + 1 * h.val
      rw [e2]; omega
  funext y
  exact key y

/-- Entry (ix3 cc 0 h) of array 6 after the region. -/
theorem arr6_apply (cc : Fin 2) (h : Fin 256) :
    (dat0 V c).arrAt 6 cfg0.N (ix3 cc 0 h) = Cert.Spec.K.S (rr V c) cc h := by
  have hp := pt4_val cc
  have hcc := cc.isLt
  have hh := h.isLt
  have hf : (cfg0.win 6).flush (pt cc 4) = true := (flush0_6 _).mpr (by rw [hp]; omega)
  refine ((dat0 V c).arrAt_apply_of_mem 6 (G6 V c) (flushed6 V c) cfg0.N (pt cc 4) (ix3 cc 0 h) (pt cc 4).isLt hf ?_).trans rfl
  obtain ⟨e0, e1, e2, -⟩ := idx_out (pt cc 4)
  show (ix3 cc 0 h) ∈ ((View.whole main_v33_0).slice (win0_6.rect (pt cc 4))).set
  rw [View.set_slice_whole, Rect.mem_set_unit]
  intro a
  match a with
  | ⟨0, _⟩ =>
    show win0_6.index (pt cc 4) (0 : Fin 3) * 1 ≤ cc.val ∧ cc.val < win0_6.index (pt cc 4) (0 : Fin 3) * 1 + 1
    rw [e0]; omega
  | ⟨1, _⟩ =>
    show win0_6.index (pt cc 4) (1 : Fin 3) * 1 ≤ 0 ∧ 0 < win0_6.index (pt cc 4) (1 : Fin 3) * 1 + 1
    rw [e1]; omega
  | ⟨2, _⟩ =>
    show win0_6.index (pt cc 4) (2 : Fin 3) * 256 ≤ h.val ∧ h.val < win0_6.index (pt cc 4) (2 : Fin 3) * 256 + 256
    rw [e2]; omega

/-- Array 7 after the region as one function of its index: entry (cc, ...) is the sums of squares of half cc. -/
abbrev G7 : Vec Ideal S2x1x256 .f32 := fun i =>
  Cert.Spec.K.Q (rr V c) ⟨(i 0).val, (i 0).isLt⟩ ⟨(i 2).val, (i 2).isLt⟩

/-- The one write of half cc's block, after its fifth tile, writes block cc of that function. -/
theorem flushed7 (t : Fin cfg0.N) (hf : (cfg0.win 7).flush t = true) :
    (dat0 V c).flushed 7 t = ((cfg0.win 7).blk t).view.read (Elt Ideal) (G7 V c) := by
  have h4 : t.val % 5 = 4 := (flush0_7 t).mp hf
  have hN := lt_of_lt_of_eq t.isLt N10
  obtain ⟨cc, rfl⟩ : ∃ cc : Fin 2, t = pt cc 4 :=
    ⟨⟨t.val / 5, by omega⟩, Fin.ext (by show t.val = t.val / 5 * 5 + 4; omega)⟩
  have hp := pt4_val cc
  have hcc := cc.isLt
  obtain ⟨-, -, -, e0, e1, e2, -⟩ := idx_out (pt cc 4)
  show (cfg0.win 7).cut (grid0.coords (pt cc 4)) ((dat0 V c).after 7 (pt cc 4)) = _
  rw [after0_7]
  have key : ∀ y : S1x1x256.Idx, (outsAt0 V c (pt cc 4).val (pt cc 4).isLt).2.1 y
      = G7 V c (((cfg0.win 7).blk (pt cc 4)).view.emb y) := by
    intro y
    obtain ⟨h, rfl⟩ : ∃ h : Fin 256, y = ix3 0 0 h := ⟨y 2, eq_ix3_00 y⟩
    rw [acc7 V c cc h]
    refine congrArg₂ (Cert.Spec.K.Q (rr V c)) (Fin.ext ?_) (Fin.ext ?_)
    · show cc.val = win0_7.index (pt cc 4) (0 : Fin 3) * 1 + 1 * 0
      rw [e0]; omega
    · show h.val = win0_7.index (pt cc 4) (2 : Fin 3) * 256 + 1 * h.val
      rw [e2]; omega
  funext y
  exact key y

/-- Entry (ix3 cc 0 h) of array 7 after the region. -/
theorem arr7_apply (cc : Fin 2) (h : Fin 256) :
    (dat0 V c).arrAt 7 cfg0.N (ix3 cc 0 h) = Cert.Spec.K.Q (rr V c) cc h := by
  have hp := pt4_val cc
  have hcc := cc.isLt
  have hh := h.isLt
  have hf : (cfg0.win 7).flush (pt cc 4) = true := (flush0_7 _).mpr (by rw [hp]; omega)
  refine ((dat0 V c).arrAt_apply_of_mem 7 (G7 V c) (flushed7 V c) cfg0.N (pt cc 4) (ix3 cc 0 h) (pt cc 4).isLt hf ?_).trans rfl
  obtain ⟨-, -, -, e0, e1, e2, -⟩ := idx_out (pt cc 4)
  show (ix3 cc 0 h) ∈ ((View.whole main_v33_1).slice (win0_7.rect (pt cc 4))).set
  rw [View.set_slice_whole, Rect.mem_set_unit]
  intro a
  match a with
  | ⟨0, _⟩ =>
    show win0_7.index (pt cc 4) (0 : Fin 3) * 1 ≤ cc.val ∧ cc.val < win0_7.index (pt cc 4) (0 : Fin 3) * 1 + 1
    rw [e0]; omega
  | ⟨1, _⟩ =>
    show win0_7.index (pt cc 4) (1 : Fin 3) * 1 ≤ 0 ∧ 0 < win0_7.index (pt cc 4) (1 : Fin 3) * 1 + 1
    rw [e1]; omega
  | ⟨2, _⟩ =>
    show win0_7.index (pt cc 4) (2 : Fin 3) * 256 ≤ h.val ∧ h.val < win0_7.index (pt cc 4) (2 : Fin 3) * 256 + 256
    rw [e2]; omega

/-- Array 8 after the region as one function of its index: entry (cc, ...) is the per-graph sums of half cc. -/
abbrev G8 : Vec Ideal S2x64x256 .f32 := fun i =>
  Cert.Spec.K.P (gid V c) (rr V c) ⟨(i 0).val, (i 0).isLt⟩ ⟨(i 1).val, (i 1).isLt⟩ ⟨(i 2).val, (i 2).isLt⟩

/-- The one write of half cc's block, after its fifth tile, writes block cc of that function. -/
theorem flushed8 (t : Fin cfg0.N) (hf : (cfg0.win 8).flush t = true) :
    (dat0 V c).flushed 8 t = ((cfg0.win 8).blk t).view.read (Elt Ideal) (G8 V c) := by
  have h4 : t.val % 5 = 4 := (flush0_8 t).mp hf
  have hN := lt_of_lt_of_eq t.isLt N10
  obtain ⟨cc, rfl⟩ : ∃ cc : Fin 2, t = pt cc 4 :=
    ⟨⟨t.val / 5, by omega⟩, Fin.ext (by show t.val = t.val / 5 * 5 + 4; omega)⟩
  have hp := pt4_val cc
  have hcc := cc.isLt
  obtain ⟨-, -, -, -, -, -, e0, e1, e2, -⟩ := idx_out (pt cc 4)
  show (cfg0.win 8).cut (grid0.coords (pt cc 4)) ((dat0 V c).after 8 (pt cc 4)) = _
  rw [after0_8]
  have key : ∀ y : S1x64x256.Idx, (outsAt0 V c (pt cc 4).val (pt cc 4).isLt).2.2.1 y
      = G8 V c (((cfg0.win 8).blk (pt cc 4)).view.emb y) := by
    intro y
    obtain ⟨g, h, rfl⟩ : ∃ (g : Fin 64) (h : Fin 256), y = ix3 0 g h := ⟨y 1, y 2, eq_ix3_0 y⟩
    rw [acc8 V c cc g h]
    refine congr (congrArg₂ (Cert.Spec.K.P (gid V c) (rr V c)) (Fin.ext ?_) (Fin.ext ?_)) (Fin.ext ?_)
    · show cc.val = win0_8.index (pt cc 4) (0 : Fin 3) * 1 + 1 * 0
      rw [e0]; omega
    · show g.val = win0_8.index (pt cc 4) (1 : Fin 3) * 64 + 1 * g.val
      rw [e1]; omega
    · show h.val = win0_8.index (pt cc 4) (2 : Fin 3) * 256 + 1 * h.val
      rw [e2]; omega
  funext y
  exact key y

/-- Entry (ix3 cc g h) of array 8 after the region. -/
theorem arr8_apply (cc : Fin 2) (g : Fin 64) (h : Fin 256) :
    (dat0 V c).arrAt 8 cfg0.N (ix3 cc g h) = Cert.Spec.K.P (gid V c) (rr V c) cc g h := by
  have hp := pt4_val cc
  have hcc := cc.isLt
  have hg := g.isLt
  have hh := h.isLt
  have hf : (cfg0.win 8).flush (pt cc 4) = true := (flush0_8 _).mpr (by rw [hp]; omega)
  refine ((dat0 V c).arrAt_apply_of_mem 8 (G8 V c) (flushed8 V c) cfg0.N (pt cc 4) (ix3 cc g h) (pt cc 4).isLt hf ?_).trans rfl
  obtain ⟨-, -, -, -, -, -, e0, e1, e2, -⟩ := idx_out (pt cc 4)
  show (ix3 cc g h) ∈ ((View.whole main_v33_2).slice (win0_8.rect (pt cc 4))).set
  rw [View.set_slice_whole, Rect.mem_set_unit]
  intro a
  match a with
  | ⟨0, _⟩ =>
    show win0_8.index (pt cc 4) (0 : Fin 3) * 1 ≤ cc.val ∧ cc.val < win0_8.index (pt cc 4) (0 : Fin 3) * 1 + 1
    rw [e0]; omega
  | ⟨1, _⟩ =>
    show win0_8.index (pt cc 4) (1 : Fin 3) * 64 ≤ g.val ∧ g.val < win0_8.index (pt cc 4) (1 : Fin 3) * 64 + 64
    rw [e1]; omega
  | ⟨2, _⟩ =>
    show win0_8.index (pt cc 4) (2 : Fin 3) * 256 ≤ h.val ∧ h.val < win0_8.index (pt cc 4) (2 : Fin 3) * 256 + 256
    rw [e2]; omega

/-- Array 9 after the region as one function of its index: entry (cc, ...) is the per-graph counts of half cc. -/
abbrev G9 : Vec Ideal S2x64x1 .f32 := fun i =>
  Cert.Spec.K.C (gid V c) ⟨(i 0).val, (i 0).isLt⟩ ⟨(i 1).val, (i 1).isLt⟩

/-- The one write of half cc's block, after its fifth tile, writes block cc of that function. -/
theorem flushed9 (t : Fin cfg0.N) (hf : (cfg0.win 9).flush t = true) :
    (dat0 V c).flushed 9 t = ((cfg0.win 9).blk t).view.read (Elt Ideal) (G9 V c) := by
  have h4 : t.val % 5 = 4 := (flush0_9 t).mp hf
  have hN := lt_of_lt_of_eq t.isLt N10
  obtain ⟨cc, rfl⟩ : ∃ cc : Fin 2, t = pt cc 4 :=
    ⟨⟨t.val / 5, by omega⟩, Fin.ext (by show t.val = t.val / 5 * 5 + 4; omega)⟩
  have hp := pt4_val cc
  have hcc := cc.isLt
  obtain ⟨-, -, -, -, -, -, -, -, -, e0, e1, e2⟩ := idx_out (pt cc 4)
  show (cfg0.win 9).cut (grid0.coords (pt cc 4)) ((dat0 V c).after 9 (pt cc 4)) = _
  rw [after0_9]
  have key : ∀ y : S1x64x1.Idx, (outsAt0 V c (pt cc 4).val (pt cc 4).isLt).2.2.2 y
      = G9 V c (((cfg0.win 9).blk (pt cc 4)).view.emb y) := by
    intro y
    obtain ⟨g, rfl⟩ : ∃ g : Fin 64, y = ix3 0 g 0 := ⟨y 1, eq_ix3_0_0 y⟩
    rw [acc9 V c cc g]
    refine congrArg₂ (Cert.Spec.K.C (gid V c)) (Fin.ext ?_) (Fin.ext ?_)
    · show cc.val = win0_9.index (pt cc 4) (0 : Fin 3) * 1 + 1 * 0
      rw [e0]; omega
    · show g.val = win0_9.index (pt cc 4) (1 : Fin 3) * 64 + 1 * g.val
      rw [e1]; omega
  funext y
  exact key y

/-- Entry (ix3 cc g 0) of array 9 after the region. -/
theorem arr9_apply (cc : Fin 2) (g : Fin 64) :
    (dat0 V c).arrAt 9 cfg0.N (ix3 cc g 0) = Cert.Spec.K.C (gid V c) cc g := by
  have hp := pt4_val cc
  have hcc := cc.isLt
  have hg := g.isLt
  have hf : (cfg0.win 9).flush (pt cc 4) = true := (flush0_9 _).mpr (by rw [hp]; omega)
  refine ((dat0 V c).arrAt_apply_of_mem 9 (G9 V c) (flushed9 V c) cfg0.N (pt cc 4) (ix3 cc g 0) (pt cc 4).isLt hf ?_).trans rfl
  obtain ⟨-, -, -, -, -, -, -, -, -, e0, e1, e2⟩ := idx_out (pt cc 4)
  show (ix3 cc g 0) ∈ ((View.whole main_v33_3).slice (win0_9.rect (pt cc 4))).set
  rw [View.set_slice_whole, Rect.mem_set_unit]
  intro a
  match a with
  | ⟨0, _⟩ =>
    show win0_9.index (pt cc 4) (0 : Fin 3) * 1 ≤ cc.val ∧ cc.val < win0_9.index (pt cc 4) (0 : Fin 3) * 1 + 1
    rw [e0]; omega
  | ⟨1, _⟩ =>
    show win0_9.index (pt cc 4) (1 : Fin 3) * 64 ≤ g.val ∧ g.val < win0_9.index (pt cc 4) (1 : Fin 3) * 64 + 64
    rw [e1]; omega
  | ⟨2, _⟩ =>
    show win0_9.index (pt cc 4) (2 : Fin 3) * 1 ≤ 0 ∧ 0 < win0_9.index (pt cc 4) (2 : Fin 3) * 1 + 1
    rw [e2]; omega

end Cert.KernelIdeal.Reg0

end
-- ==== Proof.Region1.lean ====
/-
  The second kernel (the head) read at an index.

  The kernel folds the two halves' accumulators (feature sums, sums of squares, per-graph sums, per-graph counts),
  forms the batch normalisation's mean and variance and from them the affine map x ↦ a x + bb, applies the map once
  to the per-graph sums (a times the sums plus bb times the counts), and then runs twice "dense layer, rectifier,
  normalisation over the 64 rows"; the first result is stored, the second goes through a row-wise log-softmax and is
  stored. Each payload of the body is read here at an index and lands on its formula; the two stored blocks are the
  formulas lp and lsm of the specification. The region has one grid point and every window's block is its whole
  array, so after the region each output array is the stored block of the input arrays.
-/
import proofs.«416988_j64106681860685_3_alg».proof.Proof.Gen.KernelIdeal.Frame
import proofs.«416988_j64106681860685_3_alg».proof.Proof.Spec
import proofs.«416988_j64106681860685_3_alg».proof.Proof.LibRowOps
import proofs.«416988_j64106681860685_3_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Reg1

open Cert.KernelIdeal Cert.KernelIdeal.Gen Cert.Spec Idealize.ShloMosaic Idealize.ShloMosaic.ValueIdx Idealize.ShloMosaic.TcCoe

/-! ## Pointwise transcendental operations at an index -/

theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-! ## Reductions at an index, with the accumulator's word as it is printed -/

/-- Over the index (p, q) of the kept axes, the source index whose coordinate on the dropped axis 0 is k is (k, p, q). -/
theorem lift_half {a b : ℕ} (h : (⟨3, ![2, a, b]⟩ : Shape).Reduces [0] ⟨2, ![a, b]⟩) (p : Fin a) (q : Fin b)
    (k : Fin ((⟨3, ![2, a, b]⟩ : Shape).size 0)) : h.lift (ix2 p q) k = ix3 (⟨k.val, k.isLt⟩ : Fin 2) p q := by
  funext c; apply Fin.ext
  fin_cases c <;> rfl

/-- The sum over the two halves (axis 0 of a [2, a, b] array) at (p, q). -/
theorem halfSum_apply {a b : ℕ} (src : FVec Ideal ⟨3, ![2, a, b]⟩ .f32)
    (h : (⟨3, ![2, a, b]⟩ : Shape).Reduces [0] ⟨2, ![a, b]⟩) (hφ : FTy.f32 = FTy.f32 ∨ FTy.f32 = FTy.bf16)
    (hacc : (0x00000000#32 : BitVec 32) = 0x00000000#32) (p : Fin a) (q : Fin b) :
    multiReduction .add [0] ⟨2, ![a, b]⟩ src 0x00000000#32 h hφ hacc (ix2 p q) = ∑ cc : Fin 2, src (ix3 cc p q) := by
  refine (Ideal.multiReduction_add_single src 0x00000000#32 h hφ hacc (ix2 p q)).trans ?_
  exact Finset.sum_congr rfl fun k _ => congrArg src (lift_half h p q k)

/-- Over column index c, the source index whose coordinate on the dropped axis 0 is k is (k, c). -/
theorem lift_col {n m : ℕ} (h : (⟨2, ![n, m]⟩ : Shape).Reduces [0] ⟨1, ![m]⟩) (c : Fin m)
    (k : Fin ((⟨2, ![n, m]⟩ : Shape).size 0)) : h.lift (ix1 c) k = ix2 (⟨k.val, k.isLt⟩ : Fin n) c := by
  funext d; apply Fin.ext
  fin_cases d <;> rfl

/-- The sum down a column (axis 0 of an [n, m] array) at c. -/
theorem colSum_apply {n m : ℕ} (src : FVec Ideal ⟨2, ![n, m]⟩ .f32)
    (h : (⟨2, ![n, m]⟩ : Shape).Reduces [0] ⟨1, ![m]⟩) (hφ : FTy.f32 = FTy.f32 ∨ FTy.f32 = FTy.bf16)
    (hacc : (0x00000000#32 : BitVec 32) = 0x00000000#32) (c : Fin m) :
    multiReduction .add [0] ⟨1, ![m]⟩ src 0x00000000#32 h hφ hacc (ix1 c) = ∑ g : Fin n, src (ix2 g c) := by
  refine (Ideal.multiReduction_add_single src 0x00000000#32 h hφ hacc (ix1 c)).trans ?_
  exact Finset.sum_congr rfl fun k _ => congrArg src (lift_col h c k)

/-- The sum along a row (axis 1 of an [n, m] array) at r. -/
theorem rowSum_apply {n m : ℕ} (src : FVec Ideal ⟨2, ![n, m]⟩ .f32)
    (h : (⟨2, ![n, m]⟩ : Shape).Reduces [1] ⟨1, ![n]⟩) (hφ : FTy.f32 = FTy.f32 ∨ FTy.f32 = FTy.bf16)
    (hacc : (0x00000000#32 : BitVec 32) = 0x00000000#32) (r : Fin n) :
    multiReduction .add [1] ⟨1, ![n]⟩ src 0x00000000#32 h hφ hacc (ix1 r) = ∑ k : Fin m, src (ix2 r k) :=
  RowOps.rowSum_apply src 0x00000000#32 h hφ hacc r

/-- The maximum along a row at r, a fold of max from minus infinity. -/
theorem rowMax_apply {n m : ℕ} (src : FVec Ideal ⟨2, ![n, m]⟩ .f32)
    (h : (⟨2, ![n, m]⟩ : Shape).Reduces [1] ⟨1, ![n]⟩) (hφ : FTy.f32 = FTy.f32 ∨ FTy.f32 = FTy.bf16)
    (hacc : (0xFF800000#32 : BitVec 32) = 0xFF800000#32) (r : Fin n) :
    multiReduction .maximumf [1] ⟨1, ![n]⟩ src 0xFF800000#32 h hφ hacc (ix1 r)
      = (Finset.univ : Finset (Fin m)).fold max cBot (fun k => src (ix2 r k)) :=
  RowOps.rowMax_apply src 0xFF800000#32 h hφ hacc r

/-! ## Layout operations of this kernel at an index -/

/-- A column [64, 1] broadcast along the rows of [64, 256]. -/
theorem bcastCol_apply (v : S64x1.Idx → EReal) (h : S64x1.Broadcasts S64x256) (g : Fin 64) (k : Fin 256) :
    broadcastTo S64x256 v h (ix2 g k) = v (ix2 g (0 : Fin 1)) :=
  RowOps.broadcastTo_a1_ab_apply (by decide) v h g k

/-- The head's matrix product at (g, h): the sum over k of a (g, k) * w (k, h). -/
theorem mm_apply (a : FVec Ideal S64x256 .f32) (w : FVec Ideal S256x256 .f32) (g : Fin 64) (h : Fin 256) :
    matmul dot_S64x256_S256x256_S64x256_1_0_0_1_n_n none a w (constant (F := Ideal) S64x256 .f32 0x00000000#32) (ix2 g h)
      = ∑ k : Fin 256, a (ix2 g k) * w (ix2 k h) :=
  PlainMatmul.apply (M := 64) (K := 256) (N := 256) none a w g h

/-! ## The first stage: the two halves folded, the statistics, the affine map on the pooled sums -/

section Stage1

variable (x0 : Vec Ideal S2x64x256 .f32) (x1 : Vec Ideal S2x64x1 .f32) (x2 x3 : Vec Ideal S2x1x256 .f32)
  (x4 x5 : Vec Ideal S1x256 .f32)

/-- The feature means. -/
theorem pay2_apply (h : Fin 256) :
    k1_pay2 x2 (ix2 (0 : Fin 1) h) = K.mean (fun cc h => x2 (ix3 cc (0 : Fin 1) h)) h := by
  unfold k1_pay2
  simp only [divf_apply, broadcast_apply, shapeCast_self]
  rw [halfSum_apply]
  rfl

/-- The scale of the affine map. -/
theorem pay3_apply (h : Fin 256) :
    k1_pay3 x2 x3 x4 (ix2 (0 : Fin 1) h)
      = K.a (fun h => x4 (ix2 (0 : Fin 1) h)) (fun cc h => x2 (ix3 cc (0 : Fin 1) h)) (fun cc h => x3 (ix3 cc (0 : Fin 1) h)) h := by
  unfold k1_pay3
  simp only [mulf_apply, rsqrt_apply, addf_apply, maximumf_apply, subf_apply, divf_apply, broadcast_apply, shapeCast_self]
  rw [halfSum_apply, pay2_apply]
  rfl

/-- The per-graph sums through the scale. -/
theorem pay4_apply (g : Fin 64) (h : Fin 256) :
    k1_pay4 x2 x3 x0 x4 (ix2 g h)
      = (∑ cc : Fin 2, x0 (ix3 cc g h))
        * K.a (fun h => x4 (ix2 (0 : Fin 1) h)) (fun cc h => x2 (ix3 cc (0 : Fin 1) h)) (fun cc h => x3 (ix3 cc (0 : Fin 1) h)) h := by
  unfold k1_pay4
  simp only [mulf_apply, shapeCast_self]
  rw [halfSum_apply, broadcastTo_1b_ab_apply, pay3_apply]

/-- The per-graph counts through the shift. -/
theorem pay5_apply (g : Fin 64) (h : Fin 256) :
    k1_pay5 x2 x3 x1 x4 x5 (ix2 g h)
      = (∑ cc : Fin 2, x1 (ix3 cc g (0 : Fin 1)))
        * K.bb (fun h => x4 (ix2 (0 : Fin 1) h)) (fun h => x5 (ix2 (0 : Fin 1) h)) (fun cc h => x2 (ix3 cc (0 : Fin 1) h))
            (fun cc h => x3 (ix3 cc (0 : Fin 1) h)) h := by
  unfold k1_pay5
  simp only [mulf_apply, shapeCast_self]
  rw [bcastCol_apply, halfSum_apply, broadcastTo_1b_ab_apply]
  simp only [subf_apply, mulf_apply]
  rw [pay2_apply, pay3_apply]
  rfl

end Stage1

/-! ## The head's pass: dense layer, rectifier, normalisation over the 64 rows

The pass occurs twice in the kernel, once on the pooled rows and once on its own result. Its text is restated here once,
stage by stage, over any input; the two payloads are these stages by unfolding. -/

section Pass

/-- The column means of a [64, 256] array, as a [1, 256] row. -/
def meanV (r : FVec Ideal S64x256 .f32) : FVec Ideal S1x256 .f32 :=
  divf (shapeCast S1x256 (multiReduction (F := Ideal) .add [0] S256 r 0x00000000#32 Gen.reduces_S64x256_S256 (.inl rfl) rfl)
      Gen.shapeCasts_S256_S1x256)
    (broadcast S1x256 (Scalar.ofBits (F := Ideal) .f32 0x42800000#32))

/-- The deviations from the column means. -/
def devV (r : FVec Ideal S64x256 .f32) : FVec Ideal S64x256 .f32 :=
  subf r (broadcastTo S64x256 (meanV r) Gen.broadcasts_S1x256_S64x256)

/-- The normalisation over the rows, then the scale and the shift. -/
def normV (r : FVec Ideal S64x256 .f32) (x8 x9 : Vec Ideal S1x256 .f32) : FVec Ideal S64x256 .f32 :=
  addf
    (mulf
      (mulf (devV r)
        (broadcastTo S64x256
          (rsqrt (addf (meanV (mulf (devV r) (devV r))) (broadcast S1x256 (Scalar.ofBits (F := Ideal) .f32 0x3727C5AC#32))))
          Gen.broadcasts_S1x256_S64x256))
      (broadcastTo S64x256 (shapeCast S1x256 x8 Gen.shapeCasts_S1x256_S1x256) Gen.broadcasts_S1x256_S64x256))
    (broadcastTo S64x256 (shapeCast S1x256 x9 Gen.shapeCasts_S1x256_S1x256) Gen.broadcasts_S1x256_S64x256)

/-- The bias added and the rectifier. -/
def reluV (z : FVec Ideal S64x256 .f32) (x7 : Vec Ideal S1x256 .f32) : FVec Ideal S64x256 .f32 :=
  maximumf (addf z (broadcastTo S64x256 (shapeCast S1x256 x7 Gen.shapeCasts_S1x256_S1x256) Gen.broadcasts_S1x256_S64x256))
    (broadcast S64x256 (Scalar.ofBits (F := Ideal) .f32 0x00000000#32))

/-- The dense layer's product. -/
def mmV (a : FVec Ideal S64x256 .f32) (x6 : FVec Ideal S256x256 .f32) : FVec Ideal S64x256 .f32 :=
  matmul dot_S64x256_S256x256_S64x256_1_0_0_1_n_n none a x6 (constant (F := Ideal) S64x256 .f32 0x00000000#32)

variable (x6 : Vec Ideal S256x256 .f32) (x7 x8 x9 : Vec Ideal S1x256 .f32)

theorem pay6_eq (v31 v34 : FVec Ideal S64x256 .f32) :
    k1_pay6 v31 v34 x6 x7 x8 x9 = normV (reluV (mmV (addf v31 v34) x6) x7) x8 x9 := rfl

theorem pay7_eq (v31 v34 : FVec Ideal S64x256 .f32) (x6' : Vec Ideal S256x256 .f32) :
    k1_pay7 v31 v34 x6 x7 x8 x9 x6' = mmV (k1_pay6 v31 v34 x6 x7 x8 x9) x6' := rfl

theorem pay8_eq (v73 : FVec Ideal S64x256 .f32) :
    k1_pay8 v73 x7 x8 x9 = normV (reluV v73 x7) x8 x9 := rfl

theorem meanV_apply (r : FVec Ideal S64x256 .f32) (h : Fin 256) :
    meanV r (ix2 (0 : Fin 1) h) = Ideal.div (∑ g : Fin 64, r (ix2 g h)) cG := by
  unfold meanV
  rw [divf_apply, broadcast_apply, shapeCast_a_1a_apply, colSum_apply]
  rfl

theorem devV_apply (r : FVec Ideal S64x256 .f32) (g : Fin 64) (h : Fin 256) :
    devV r (ix2 g h) = r (ix2 g h) - Ideal.div (∑ g : Fin 64, r (ix2 g h)) cG := by
  unfold devV
  rw [subf_apply, broadcastTo_1b_ab_apply, meanV_apply]

theorem normV_apply (r : FVec Ideal S64x256 .f32) (g : Fin 64) (h : Fin 256) :
    normV r x8 x9 (ix2 g h)
      = ((r (ix2 g h) - Ideal.div (∑ g : Fin 64, r (ix2 g h)) cG)
          * Ideal.rsqrt (Ideal.div (∑ g : Fin 64, (r (ix2 g h) - Ideal.div (∑ g : Fin 64, r (ix2 g h)) cG)
              * (r (ix2 g h) - Ideal.div (∑ g : Fin 64, r (ix2 g h)) cG)) cG + eps))
          * x8 (ix2 (0 : Fin 1) h) + x9 (ix2 (0 : Fin 1) h) := by
  unfold normV
  simp only [addf_apply, mulf_apply, shapeCast_self]
  rw [broadcastTo_1b_ab_apply, broadcastTo_1b_ab_apply, broadcastTo_1b_ab_apply, rsqrt_apply, addf_apply, broadcast_apply,
    meanV_apply, devV_apply]
  simp only [mulf_apply, devV_apply]
  rfl

/-- The rectified dense layer at an entry, from the product's entries. -/
theorem reluV_apply (z : FVec Ideal S64x256 .f32) (g : Fin 64) (h : Fin 256) :
    reluV z x7 (ix2 g h) = max (z (ix2 g h) + x7 (ix2 (0 : Fin 1) h)) c0 := by
  unfold reluV
  simp only [maximumf_apply, addf_apply, broadcast_apply, shapeCast_self]
  rw [broadcastTo_1b_ab_apply]
  rfl

/-- One pass at an entry: when the product's entries are those of x against the weights, the pass is the formula lp of x. -/
theorem pass_apply (z : FVec Ideal S64x256 .f32) (x : Fin 64 → Fin 256 → EReal)
    (hz : ∀ g h, z (ix2 g h) = ∑ k : Fin 256, x g k * x6 (ix2 k h)) (g : Fin 64) (h : Fin 256) :
    normV (reluV z x7) x8 x9 (ix2 g h)
      = K.lp (fun k h => x6 (ix2 k h)) (fun h => x7 (ix2 (0 : Fin 1) h)) (fun h => x8 (ix2 (0 : Fin 1) h))
          (fun h => x9 (ix2 (0 : Fin 1) h)) x g h := by
  rw [normV_apply]
  simp only [reluV_apply, hz]
  rfl

end Pass

/-! ## The log-softmax over each row -/

section LogSoftmax

variable (v73 : FVec Ideal S64x256 .f32) (x7 x8 x9 : Vec Ideal S1x256 .f32)

/-- The row maxima, as a column. -/
theorem pay9_apply (g : Fin 64) :
    k1_pay9 v73 x7 x8 x9 (ix2 g (0 : Fin 1)) = K.rowMax (fun g h => k1_pay8 v73 x7 x8 x9 (ix2 g h)) g := by
  unfold k1_pay9
  rw [RowOps.shapeCast_a_a1_apply, rowMax_apply]
  rfl

/-- The entries with their row's maximum taken off. -/
theorem pay10_apply (g : Fin 64) (h : Fin 256) :
    k1_pay10 v73 x7 x8 x9 (ix2 g h)
      = k1_pay8 v73 x7 x8 x9 (ix2 g h) - K.rowMax (fun g h => k1_pay8 v73 x7 x8 x9 (ix2 g h)) g := by
  unfold k1_pay10
  rw [subf_apply, bcastCol_apply, pay9_apply]

/-- The logarithm of each row's sum of exponentials. -/
theorem pay11_apply (g : Fin 64) (h : Fin 256) :
    k1_pay11 v73 x7 x8 x9 (ix2 g h)
      = Ideal.log (∑ k : Fin 256, Ideal.exp (k1_pay8 v73 x7 x8 x9 (ix2 g k)
          - K.rowMax (fun g h => k1_pay8 v73 x7 x8 x9 (ix2 g h)) g)) := by
  unfold k1_pay11
  rw [bcastCol_apply, log_apply, RowOps.shapeCast_a_a1_apply, rowSum_apply]
  refine congrArg Ideal.log (Finset.sum_congr rfl fun k _ => ?_)
  rw [exp_apply, subf_apply, bcastCol_apply, pay9_apply]

/-- The stored difference is the log-softmax of the second pass's result. -/
theorem lsm_apply (g : Fin 64) (h : Fin 256) :
    k1_pay1 (k1_pay10 v73 x7 x8 x9) (k1_pay11 v73 x7 x8 x9) (ix2 g h)
      = K.lsm (fun g h => k1_pay8 v73 x7 x8 x9 (ix2 g h)) g h := by
  unfold k1_pay1
  rw [subf_apply, pay10_apply, pay11_apply]
  rfl

end LogSoftmax

/-! ## The two stored blocks at an index -/

section Outputs

variable (x0 : Vec Ideal S2x64x256 .f32) (x1 : Vec Ideal S2x64x1 .f32) (x2 x3 : Vec Ideal S2x1x256 .f32)
  (x4 x5 : Vec Ideal S1x256 .f32) (x6 : Vec Ideal S256x256 .f32) (x7 x8 x9 : Vec Ideal S1x256 .f32)

/-- The head's weights, entry by entry. -/
abbrev wOf (x6 : Vec Ideal S256x256 .f32) : Fin 256 → Fin 256 → EReal := fun k h => x6 (ix2 k h)
/-- A [1, 256] row, entry by entry. -/
abbrev rowOf (x : Vec Ideal S1x256 .f32) : Fin 256 → EReal := fun h => x (ix2 (0 : Fin 1) h)
/-- The pooled rows, from the two halves' accumulators and the normalisation's scale and shift. -/
abbrev pooledIn (x0 : Vec Ideal S2x64x256 .f32) (x1 : Vec Ideal S2x64x1 .f32) (x2 x3 : Vec Ideal S2x1x256 .f32)
    (x4 x5 : Vec Ideal S1x256 .f32) : Fin 64 → Fin 256 → EReal :=
  K.pooledOf (rowOf x4) (rowOf x5) (fun cc h => x2 (ix3 cc (0 : Fin 1) h)) (fun cc h => x3 (ix3 cc (0 : Fin 1) h))
    (fun cc g h => x0 (ix3 cc g h)) (fun cc g => x1 (ix3 cc g (0 : Fin 1)))

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- The affine map applied to the folded sums and counts is the pooled rows. -/
theorem pooled_apply (g : Fin 64) (h : Fin 256) :
    addf (k1_pay4 x2 x3 x0 x4) (k1_pay5 x2 x3 x1 x4 x5) (ix2 g h) = pooledIn x0 x1 x2 x3 x4 x5 g h := by
  rw [addf_apply, pay4_apply, pay5_apply]
  rfl

/-- The dense layer's product at an entry, from the left operand's entries. -/
theorem mmV_apply (a : FVec Ideal S64x256 .f32) (x : Fin 64 → Fin 256 → EReal) (ha : ∀ g k, a (ix2 g k) = x g k)
    (g : Fin 64) (h : Fin 256) : mmV a x6 (ix2 g h) = ∑ k : Fin 256, x g k * x6 (ix2 k h) := by
  unfold mmV
  rw [mm_apply]
  exact Finset.sum_congr rfl fun k _ => by rw [ha]

/-- The first pass on the pooled rows. -/
theorem first_apply (g : Fin 64) (h : Fin 256) :
    k1_pay6 (k1_pay4 x2 x3 x0 x4) (k1_pay5 x2 x3 x1 x4 x5) x6 x7 x8 x9 (ix2 g h)
      = K.lp (wOf x6) (rowOf x7) (rowOf x8) (rowOf x9) (pooledIn x0 x1 x2 x3 x4 x5) g h := by
  rw [pay6_eq]
  exact pass_apply x6 x7 x8 x9 _ _ (mmV_apply x6 _ _ (pooled_apply x0 x1 x2 x3 x4 x5)) g h

/-- The second pass, on the first one's result. -/
theorem second_apply (g : Fin 64) (h : Fin 256) :
    k1_pay8 (k1_pay7 (k1_pay4 x2 x3 x0 x4) (k1_pay5 x2 x3 x1 x4 x5) x6 x7 x8 x9 x6) x7 x8 x9 (ix2 g h)
      = K.lp (wOf x6) (rowOf x7) (rowOf x8) (rowOf x9)
          (K.lp (wOf x6) (rowOf x7) (rowOf x8) (rowOf x9) (pooledIn x0 x1 x2 x3 x4 x5)) g h := by
  rw [pay8_eq, pay7_eq]
  exact pass_apply x6 x7 x8 x9 _ _ (mmV_apply x6 _ _ (first_apply x0 x1 x2 x3 x4 x5 x6 x7 x8 x9)) g h

/-- Output window 10's block: one pass of the head on the pooled rows. -/
theorem out10_apply (g : Fin 64) (h : Fin 256) :
    Gen.out1_10 x0 x1 x2 x3 x4 x5 x6 x7 x8 x9 (ix2 g h)
      = K.lp (wOf x6) (rowOf x7) (rowOf x8) (rowOf x9) (pooledIn x0 x1 x2 x3 x4 x5) g h := by
  unfold Gen.out1_10
  rw [View.canon_unit_zero zeros2]
  simp only [View.ld_unit_zero (S := S2x1x256) zeros3, View.ld_unit_zero (S := S2x64x256) zeros3,
    View.ld_unit_zero (S := S2x64x1) zeros3, View.ld_unit_zero (S := S1x256) zeros2, View.ld_unit_zero (S := S256x256) zeros2]
  exact first_apply x0 x1 x2 x3 x4 x5 x6 x7 x8 x9 g h

/-- Output window 11's block: the row-wise log-softmax of two passes of the head on the pooled rows. -/
theorem out11_apply (g : Fin 64) (h : Fin 256) :
    Gen.out1_11 x0 x1 x2 x3 x4 x5 x6 x7 x8 x9 (ix2 g h)
      = K.lsm (K.lp (wOf x6) (rowOf x7) (rowOf x8) (rowOf x9)
          (K.lp (wOf x6) (rowOf x7) (rowOf x8) (rowOf x9) (pooledIn x0 x1 x2 x3 x4 x5))) g h := by
  unfold Gen.out1_11
  rw [View.canon_unit_zero zeros2]
  simp only [View.ld_unit_zero (S := S2x1x256) zeros3, View.ld_unit_zero (S := S2x64x256) zeros3,
    View.ld_unit_zero (S := S2x64x1) zeros3, View.ld_unit_zero (S := S1x256) zeros2, View.ld_unit_zero (S := S256x256) zeros2]
  rw [lsm_apply]
  exact congrArg (fun y => K.lsm y g h)
    (funext fun g => funext fun h => second_apply x0 x1 x2 x3 x4 x5 x6 x7 x8 x9 g h)

end Outputs

/-! ## The run: the region has one grid point and every window's block is its whole array -/

section Run

variable (V : (c : Dev nD) → (b : Ref sig .tc) → Buf (Elt Ideal) ((c : Thread nD τ).loc b))

/-! The ten input windows' arrays as the region finds them. -/
abbrev X0 (c : Dev nD) : Vec Ideal S2x64x256 .f32 := V c (Pipeline.arrRef spec1 0)
abbrev X1 (c : Dev nD) : Vec Ideal S2x64x1 .f32 := V c (Pipeline.arrRef spec1 1)
abbrev X2 (c : Dev nD) : Vec Ideal S2x1x256 .f32 := V c (Pipeline.arrRef spec1 2)
abbrev X3 (c : Dev nD) : Vec Ideal S2x1x256 .f32 := V c (Pipeline.arrRef spec1 3)
abbrev X4 (c : Dev nD) : Vec Ideal S1x256 .f32 := V c (Pipeline.arrRef spec1 4)
abbrev X5 (c : Dev nD) : Vec Ideal S1x256 .f32 := V c (Pipeline.arrRef spec1 5)
abbrev X6 (c : Dev nD) : Vec Ideal S256x256 .f32 := V c (Pipeline.arrRef spec1 6)
abbrev X7 (c : Dev nD) : Vec Ideal S1x256 .f32 := V c (Pipeline.arrRef spec1 7)
abbrev X8 (c : Dev nD) : Vec Ideal S1x256 .f32 := V c (Pipeline.arrRef spec1 8)
abbrev X9 (c : Dev nD) : Vec Ideal S1x256 .f32 := V c (Pipeline.arrRef spec1 9)

/-! Each input window's one block, read through zero offsets at the array's own sizes, is the array. -/
theorem iblk0_eq (c : Dev nD) (t : Fin cfg1.N) : Gen.iblk1 V c 0 t = X0 V c := by
  unfold Gen.iblk1
  have hz : (fun a => win1_0.index t a * main_v33_2.ty.shape.size a) = fun _ => 0 := funext fun a => by fin_cases a <;> rfl
  exact Memref.read_access_unit_zero (Elt Ideal) main_v33_2 hz (fun a => by rw [congrFun hz a]; simp) (V c (Pipeline.arrRef spec1 0))
theorem iblk1_eq (c : Dev nD) (t : Fin cfg1.N) : Gen.iblk1 V c 1 t = X1 V c := by
  unfold Gen.iblk1
  have hz : (fun a => win1_1.index t a * main_v33_3.ty.shape.size a) = fun _ => 0 := funext fun a => by fin_cases a <;> rfl
  exact Memref.read_access_unit_zero (Elt Ideal) main_v33_3 hz (fun a => by rw [congrFun hz a]; simp) (V c (Pipeline.arrRef spec1 1))
theorem iblk2_eq (c : Dev nD) (t : Fin cfg1.N) : Gen.iblk1 V c 2 t = X2 V c := by
  unfold Gen.iblk1
  have hz : (fun a => win1_2.index t a * main_v33_0.ty.shape.size a) = fun _ => 0 := funext fun a => by fin_cases a <;> rfl
  exact Memref.read_access_unit_zero (Elt Ideal) main_v33_0 hz (fun a => by rw [congrFun hz a]; simp) (V c (Pipeline.arrRef spec1 2))
theorem iblk3_eq (c : Dev nD) (t : Fin cfg1.N) : Gen.iblk1 V c 3 t = X3 V c := by
  unfold Gen.iblk1
  have hz : (fun a => win1_3.index t a * main_v33_1.ty.shape.size a) = fun _ => 0 := funext fun a => by fin_cases a <;> rfl
  exact Memref.read_access_unit_zero (Elt Ideal) main_v33_1 hz (fun a => by rw [congrFun hz a]; simp) (V c (Pipeline.arrRef spec1 3))
theorem iblk4_eq (c : Dev nD) (t : Fin cfg1.N) : Gen.iblk1 V c 4 t = X4 V c := by
  unfold Gen.iblk1
  have hz : (fun a => win1_4.index t a * main_v34.ty.shape.size a) = fun _ => 0 := funext fun a => by fin_cases a <;> rfl
  exact Memref.read_access_unit_zero (Elt Ideal) main_v34 hz (fun a => by rw [congrFun hz a]; simp) (V c (Pipeline.arrRef spec1 4))
theorem iblk5_eq (c : Dev nD) (t : Fin cfg1.N) : Gen.iblk1 V c 5 t = X5 V c := by
  unfold Gen.iblk1
  have hz : (fun a => win1_5.index t a * main_v35.ty.shape.size a) = fun _ => 0 := funext fun a => by fin_cases a <;> rfl
  exact Memref.read_access_unit_zero (Elt Ideal) main_v35 hz (fun a => by rw [congrFun hz a]; simp) (V c (Pipeline.arrRef spec1 5))
theorem iblk6_eq (c : Dev nD) (t : Fin cfg1.N) : Gen.iblk1 V c 6 t = X6 V c := by
  unfold Gen.iblk1
  have hz : (fun a => win1_6.index t a * main_arg6.ty.shape.size a) = fun _ => 0 := funext fun a => by fin_cases a <;> rfl
  exact Memref.read_access_unit_zero (Elt Ideal) main_arg6 hz (fun a => by rw [congrFun hz a]; simp) (V c (Pipeline.arrRef spec1 6))
theorem iblk7_eq (c : Dev nD) (t : Fin cfg1.N) : Gen.iblk1 V c 7 t = X7 V c := by
  unfold Gen.iblk1
  have hz : (fun a => win1_7.index t a * main_v36.ty.shape.size a) = fun _ => 0 := funext fun a => by fin_cases a <;> rfl
  exact Memref.read_access_unit_zero (Elt Ideal) main_v36 hz (fun a => by rw [congrFun hz a]; simp) (V c (Pipeline.arrRef spec1 7))
theorem iblk8_eq (c : Dev nD) (t : Fin cfg1.N) : Gen.iblk1 V c 8 t = X8 V c := by
  unfold Gen.iblk1
  have hz : (fun a => win1_8.index t a * main_v37.ty.shape.size a) = fun _ => 0 := funext fun a => by fin_cases a <;> rfl
  exact Memref.read_access_unit_zero (Elt Ideal) main_v37 hz (fun a => by rw [congrFun hz a]; simp) (V c (Pipeline.arrRef spec1 8))
theorem iblk9_eq (c : Dev nD) (t : Fin cfg1.N) : Gen.iblk1 V c 9 t = X9 V c := by
  unfold Gen.iblk1
  have hz : (fun a => win1_9.index t a * main_v38.ty.shape.size a) = fun _ => 0 := funext fun a => by fin_cases a <;> rfl
  exact Memref.read_access_unit_zero (Elt Ideal) main_v38 hz (fun a => by rw [congrFun hz a]; simp) (V c (Pipeline.arrRef spec1 9))

/-- What the one point writes back to output window 10 is the whole of the block the body leaves. -/
theorem flushed10_eq (c : Dev nD) (t : Fin cfg1.N) :
    (Gen.dat1 V c).flushed 10 t = ((cfg1.win 10).blk t).view.read (Elt Ideal) (Gen.out1_10 (X0 V c) (X1 V c) (X2 V c) (X3 V c) (X4 V c) (X5 V c) (X6 V c) (X7 V c) (X8 V c) (X9 V c)) := by
  show (cfg1.win 10).cut (grid1.coords t) ((Gen.dat1 V c).after 10 t) = _
  rw [Gen.after1_10, iblk0_eq, iblk1_eq, iblk2_eq, iblk3_eq, iblk4_eq, iblk5_eq, iblk6_eq, iblk7_eq, iblk8_eq, iblk9_eq]
  have hz : (fun a => win1_10.index t a * main_v39_0.ty.shape.size a) = fun _ => 0 := funext fun a => by fin_cases a <;> rfl
  exact (Memref.read_access_unit_zero (Elt Ideal) main_v39_0 hz (fun a => by rw [congrFun hz a]; simp) _).symm

/-- The one point's block covers output window 10's array. -/
theorem cover10 (c : Dev nD) (i : ((cfg1.win 10).arr.view.loc (c.tc : Thread nD τ)).2.ty.Idx) :
    ∃ t : Fin cfg1.N, (cfg1.win 10).flush t = true ∧ i ∈ ((cfg1.win 10).blk t).view.set := by
  refine ⟨t1_0, flush1_10 t1_0, ?_⟩
  show i ∈ ((View.whole main_v39_0).slice (win1_10.rect t1_0)).set
  rw [View.set_slice_whole]
  have hz : (fun a => win1_10.index t1_0 a * main_v39_0.ty.shape.size a) = fun _ => 0 := funext fun a => by fin_cases a <;> rfl
  exact View.mem_set_unit_zero hz _ i

/-- After the region, output window 10's array is the body's block of the input windows' arrays. -/
theorem final10 (c : Dev nD) : (Gen.dat1 V c).arrAt 10 cfg1.N = Gen.out1_10 (X0 V c) (X1 V c) (X2 V c) (X3 V c) (X4 V c) (X5 V c) (X6 V c) (X7 V c) (X8 V c) (X9 V c) :=
  (Gen.dat1 V c).arrAt_eq_of_cover 10 _ (fun t _ => flushed10_eq V c t) (cover10 c)

/-- What the one point writes back to output window 11 is the whole of the block the body leaves. -/
theorem flushed11_eq (c : Dev nD) (t : Fin cfg1.N) :
    (Gen.dat1 V c).flushed 11 t = ((cfg1.win 11).blk t).view.read (Elt Ideal) (Gen.out1_11 (X0 V c) (X1 V c) (X2 V c) (X3 V c) (X4 V c) (X5 V c) (X6 V c) (X7 V c) (X8 V c) (X9 V c)) := by
  show (cfg1.win 11).cut (grid1.coords t) ((Gen.dat1 V c).after 11 t) = _
  rw [Gen.after1_11, iblk0_eq, iblk1_eq, iblk2_eq, iblk3_eq, iblk4_eq, iblk5_eq, iblk6_eq, iblk7_eq, iblk8_eq, iblk9_eq]
  have hz : (fun a => win1_11.index t a * main_v39_1.ty.shape.size a) = fun _ => 0 := funext fun a => by fin_cases a <;> rfl
  exact (Memref.read_access_unit_zero (Elt Ideal) main_v39_1 hz (fun a => by rw [congrFun hz a]; simp) _).symm

/-- The one point's block covers output window 11's array. -/
theorem cover11 (c : Dev nD) (i : ((cfg1.win 11).arr.view.loc (c.tc : Thread nD τ)).2.ty.Idx) :
    ∃ t : Fin cfg1.N, (cfg1.win 11).flush t = true ∧ i ∈ ((cfg1.win 11).blk t).view.set := by
  refine ⟨t1_0, flush1_11 t1_0, ?_⟩
  show i ∈ ((View.whole main_v39_1).slice (win1_11.rect t1_0)).set
  rw [View.set_slice_whole]
  have hz : (fun a => win1_11.index t1_0 a * main_v39_1.ty.shape.size a) = fun _ => 0 := funext fun a => by fin_cases a <;> rfl
  exact View.mem_set_unit_zero hz _ i

/-- After the region, output window 11's array is the body's block of the input windows' arrays. -/
theorem final11 (c : Dev nD) : (Gen.dat1 V c).arrAt 11 cfg1.N = Gen.out1_11 (X0 V c) (X1 V c) (X2 V c) (X3 V c) (X4 V c) (X5 V c) (X6 V c) (X7 V c) (X8 V c) (X9 V c) :=
  (Gen.dat1 V c).arrAt_eq_of_cover 11 _ (fun t _ => flushed11_eq V c t) (cover11 c)

/-- Output window 10's array after the region, entry by entry: one pass of the head on the pooled rows. -/
theorem final10_apply (c : Dev nD) (g : Fin 64) (h : Fin 256) :
    ((Gen.dat1 V c).arrAt 10 cfg1.N : Vec Ideal S64x256 .f32) (ix2 g h)
      = K.lp (wOf (X6 V c)) (rowOf (X7 V c)) (rowOf (X8 V c)) (rowOf (X9 V c))
          (pooledIn (X0 V c) (X1 V c) (X2 V c) (X3 V c) (X4 V c) (X5 V c)) g h := by
  rw [final10]
  exact out10_apply _ _ _ _ _ _ _ _ _ _ g h

/-- Output window 11's array after the region, entry by entry: the log-softmax of two passes of the head. -/
theorem final11_apply (c : Dev nD) (g : Fin 64) (h : Fin 256) :
    ((Gen.dat1 V c).arrAt 11 cfg1.N : Vec Ideal S64x256 .f32) (ix2 g h)
      = K.lsm (K.lp (wOf (X6 V c)) (rowOf (X7 V c)) (rowOf (X8 V c)) (rowOf (X9 V c))
          (K.lp (wOf (X6 V c)) (rowOf (X7 V c)) (rowOf (X8 V c)) (rowOf (X9 V c))
            (pooledIn (X0 V c) (X1 V c) (X2 V c) (X3 V c) (X4 V c) (X5 V c)))) g h := by
  rw [final11]
  exact out11_apply _ _ _ _ _ _ _ _ _ _ g h

end Run

end Cert.KernelIdeal.Reg1

end
-- ==== Proof.KernelValue.lean ====
/-
  The kernel program's two results as functions of its argument arrays. What the run leaves in the two result
  buffers is the second region's output blocks; that region has one grid point and reads whole arrays: the four
  accumulator arrays the first region left (per half: feature sums, sums of squares, per-graph sums, per-graph
  counts, each accumulated over the half's five tiles) and the normalisation's and the head's parameters. Read at an
  index, the results are the formula of the side that pools raw sums and normalises afterwards, over the record of
  the argument arrays.
-/
import proofs.«416988_j64106681860685_3_alg».proof.Proof.KernelHost
import proofs.«416988_j64106681860685_3_alg».proof.Proof.KernelConvRead
import proofs.«416988_j64106681860685_3_alg».proof.Proof.Region0
import proofs.«416988_j64106681860685_3_alg».proof.Proof.Region1
import proofs.«416988_j64106681860685_3_alg».proof.Proof.KernelInputs

noncomputable section

namespace Cert.KernelIdeal.Val

open Cert.KernelIdeal Cert.KernelIdeal.Gen Idealize.ShloMosaic Idealize.ShloMosaic.TcCoe Idealize.SL.Sem Idealize.ShloMosaic.ValueIdx
open Cert.Spec

variable (m : Inp.Mem) (ρ : Dev nD → PrngReg) (c : Dev nD)

/-- The rectified rows the first region computes from the arrays it is entered with are the rectified rows of
    the argument record, the in-degree counted over the clipped destinations. -/
theorem rr_eq : Reg0.rr (Gen.V3 m ρ) c = (Inp.inputs m c).actK (Inp.dK m c) := by
  funext i h
  unfold Reg0.rr Inputs.actK
  have e0 : Reg0.feat (Gen.V3 m ρ) c = (Inp.inputs m c).feat := by
    funext i k; exact ConvRead.v0_read m ρ c i k
  have e1 : Reg0.hn (Gen.V3 m ρ) c = hnOf (agg (Inp.inputs m c).msg (Inp.inputs m c).dst) (degK (Inp.dK m c)) := by
    funext i k; exact ConvRead.v28_read m ρ c i k
  have e2 : Reg0.Ws (Gen.V3 m ρ) c = (Inp.inputs m c).Ws := by
    funext k h; exact ConvRead.v29_read m ρ c k h
  have e3 : Reg0.Wn (Gen.V3 m ρ) c = (Inp.inputs m c).Wn := by
    funext k h; exact ConvRead.v30_read m ρ c k h
  have e4 : Reg0.b (Gen.V3 m ρ) c = (Inp.inputs m c).b := by
    funext h; exact ConvRead.v31_read m ρ c h
  rw [e0, e1, e2, e3, e4]

/-- The graph number of node i, read off the reshaped array the first region is entered with. -/
theorem gid_eq : Reg0.gid (Gen.V3 m ρ) c = (Inp.inputs m c).gid := by
  funext i
  unfold Reg0.gid
  rw [ConvRead.v32_read m ρ c]
  congr 1
  exact Fin.ext (by simpa using Nat.div_add_mod' i.val 10000)

/-- What the second region pools: the first region's four accumulator arrays and the normalisation's scale and
    shift, as the pooled rows of the argument record. -/
theorem pooledIn_eq :
    Reg1.pooledIn (Reg1.X0 (Gen.V5 m ρ) c) (Reg1.X1 (Gen.V5 m ρ) c) (Reg1.X2 (Gen.V5 m ρ) c) (Reg1.X3 (Gen.V5 m ρ) c)
        (Reg1.X4 (Gen.V5 m ρ) c) (Reg1.X5 (Gen.V5 m ρ) c)
      = K.pooled (Inp.inputs m c).gid (Inp.inputs m c).gc (Inp.inputs m c).bc ((Inp.inputs m c).actK (Inp.dK m c)) := by
  unfold Reg1.pooledIn K.pooled
  have hgc : Reg1.rowOf (Reg1.X4 (Gen.V5 m ρ) c) = (Inp.inputs m c).gc := by
    funext h; exact ConvRead.v34_read m ρ c h
  have hbc : Reg1.rowOf (Reg1.X5 (Gen.V5 m ρ) c) = (Inp.inputs m c).bc := by
    funext h; exact ConvRead.v35_read m ρ c h
  have hS : (fun (cc : Fin 2) (h : Fin 256) => Reg1.X2 (Gen.V5 m ρ) c (ix3 cc (0 : Fin 1) h))
      = K.S ((Inp.inputs m c).actK (Inp.dK m c)) := by
    funext cc h
    refine (congrFun (Host.V5_v33_0 m ρ c) (ix3 cc (0 : Fin 1) h)).trans ?_
    rw [Reg0.arr6_apply (Gen.V3 m ρ) c cc h, rr_eq]
  have hQ : (fun (cc : Fin 2) (h : Fin 256) => Reg1.X3 (Gen.V5 m ρ) c (ix3 cc (0 : Fin 1) h))
      = K.Q ((Inp.inputs m c).actK (Inp.dK m c)) := by
    funext cc h
    refine (congrFun (Host.V5_v33_1 m ρ c) (ix3 cc (0 : Fin 1) h)).trans ?_
    rw [Reg0.arr7_apply (Gen.V3 m ρ) c cc h, rr_eq]
  have hP : (fun (cc : Fin 2) (g : Fin 64) (h : Fin 256) => Reg1.X0 (Gen.V5 m ρ) c (ix3 cc g h))
      = K.P (Inp.inputs m c).gid ((Inp.inputs m c).actK (Inp.dK m c)) := by
    funext cc g h
    refine (congrFun (Host.V5_v33_2 m ρ c) (ix3 cc g h)).trans ?_
    rw [Reg0.arr8_apply (Gen.V3 m ρ) c cc g h, rr_eq, gid_eq]
  have hC : (fun (cc : Fin 2) (g : Fin 64) => Reg1.X1 (Gen.V5 m ρ) c (ix3 cc g (0 : Fin 1)))
      = K.C (Inp.inputs m c).gid := by
    funext cc g
    refine (congrFun (Host.V5_v33_3 m ρ c) (ix3 cc g (0 : Fin 1))).trans ?_
    rw [Reg0.arr9_apply (Gen.V3 m ρ) c cc g, gid_eq]
  rw [hgc, hbc, hS, hQ, hP, hC]

/-- The head's parameters as the second region is entered with them. -/
theorem wOf_eq : Reg1.wOf (Reg1.X6 (Gen.V5 m ρ) c) = (Inp.inputs m c).Wlp := by
  funext k h; exact ConvRead.arg6_read m ρ c k h
theorem blp_eq : Reg1.rowOf (Reg1.X7 (Gen.V5 m ρ) c) = (Inp.inputs m c).blp := by
  funext h; exact ConvRead.v36_read m ρ c h
theorem glp_eq : Reg1.rowOf (Reg1.X8 (Gen.V5 m ρ) c) = (Inp.inputs m c).glp := by
  funext h; exact ConvRead.v37_read m ρ c h
theorem betalp_eq : Reg1.rowOf (Reg1.X9 (Gen.V5 m ρ) c) = (Inp.inputs m c).betalp := by
  funext h; exact ConvRead.v38_read m ρ c h

/-- The result after one pass of the head, as the run leaves it, at an index. -/
theorem p_apply (g : Fin 64) (h : Fin 256) :
    (Gen.W6 m ρ c (Proc.devRef .tc main_v39_0) : FVec Ideal S64x256 .f32) (ix2 g h)
      = (Inp.inputs m c).pK (Inp.dK m c) g h := by
  refine (congrFun (Host.W6_v39_0 m ρ c) (ix2 g h)).trans ?_
  rw [Reg1.final10_apply (Gen.V5 m ρ) c g h, pooledIn_eq, wOf_eq, blp_eq, glp_eq, betalp_eq]
  rfl

/-- The log-softmax result, as the run leaves it, at an index. -/
theorem out_apply (g : Fin 64) (h : Fin 256) :
    (Gen.W6 m ρ c (Proc.devRef .tc main_v39_1) : FVec Ideal S64x256 .f32) (ix2 g h)
      = (Inp.inputs m c).logsmK (Inp.dK m c) g h := by
  refine (congrFun (Host.W6_v39_1 m ρ c) (ix2 g h)).trans ?_
  rw [Reg1.final11_apply (Gen.V5 m ρ) c g h, pooledIn_eq, wOf_eq, blp_eq, glp_eq, betalp_eq]
  rfl

end Cert.KernelIdeal.Val

end
-- ==== Proof.RefOps.lean ====
import proofs.«416988_j64106681860685_3_alg».proof.ReferenceIdeal
import proofs.«416988_j64106681860685_3_alg».proof.Proof.Gen.ReferenceIdeal
import Idealize.ShloMosaic.Lib.StableHlo.Run

/-!
# The reference program's host operations, as four lists

The reference's `@main` is a straight line of tensor operations in which seven calls of outlined
functions (`relu`, `_var` with its inner `_where`, `relu_0`, `_var_1` twice, `log_softmax`) stand.
A call executes the callee's body on the operands, each value of the body in a buffer of that call's
own record, so the whole program is one list of operations: the callee's operations are written
here at the call site, over the call's record. The list is cut where the mathematics is cut:

* `opsA`: the graph convolution: the gather by source node, the two scatter-adds by destination
  node (feature sums and in-degrees), the degree clamp and the division, the two matrix products,
  the bias, and the first rectifier (result `main_v24`, the activations `h`);
* `opsB`: the column means of `h`, its column variances (the call of `_var`), the normalisation
  with scale and shift, and the segment sum by graph (result `main_v46`, the pooled features);
* `opsC`: the first pass of the head: matrix product, bias, rectifier, batch statistics over the
  64 graphs, normalisation (result `main_v70`);
* `opsD`: the second pass of the same head on `main_v70`, then the row-wise log-softmax
  (result `main_v95`).
-/

noncomputable section

namespace Cert.ReferenceIdeal.Ops

open Cert.ReferenceIdeal Cert.ReferenceIdeal.Facts₀ Cert.ReferenceIdeal.Facts
open Idealize.ShloMosaic Idealize.SL.Sem Idealize.ShloMosaic.StableHlo

variable {F : FTy → Type} [FloatOps F]

-- the notations below stand for types built from the section's float values `F`
set_option quotPrecheck false

/-- The contents of a buffer holding a tensor of shape `s` and element type `e`. -/
local notation "𝔹[" s ", " e "]" => ((⟨s, e⟩ : BufTy).Contents (Elt F))
/-- Node activations, `100000 × 256`. -/
local notation "𝔹n" => 𝔹[S100000x256, .f32]
/-- Node features, `100000 × 128`. -/
local notation "𝔹x" => 𝔹[S100000x128, .f32]
/-- Per-graph rows, `64 × 256`. -/
local notation "𝔹g" => 𝔹[S64x256, .f32]
/-- A channel vector, `256`. -/
local notation "𝔹v" => 𝔹[S256, .f32]
/-- A channel vector as one row, `1 × 256`. -/
local notation "𝔹r" => 𝔹[S1x256, .f32]
/-- A scalar. -/
local notation "𝔹s" => 𝔹[S_, .f32]
/-- An edge list, `1000000` indices, flat and as a column. -/
local notation "𝔹e" => 𝔹[S1000000, .i32]
local notation "𝔹c" => 𝔹[S1000000x1, .i32]

/-- The convolution, through the first rectifier: thirty operations of `@main` and the three of `relu`. -/
abbrev opsA : List (HloOp τ sig (Elt F)) :=
  [ nullary main_c (constantI S_ 32 0#32),
    unary main_c main_v0 (broadcastInDim S1000000 ![] bcast_S_S1000000 : 𝔹[S_, .i32] → 𝔹e),
    binary main_arg10 main_v0 main_v1 (cmpi .slt : 𝔹e → 𝔹e → 𝔹[S1000000, .i1]),
    nullary main_c_0 (constantI S_ 32 100000#32),
    unary main_c_0 main_v2 (broadcastInDim S1000000 ![] bcast_S_S1000000 : 𝔹[S_, .i32] → 𝔹e),
    binary main_arg10 main_v2 main_v3 (addi : 𝔹e → 𝔹e → 𝔹e),
    ternary main_v1 main_v3 main_arg10 main_v4 (select : 𝔹[S1000000, .i1] → 𝔹e → 𝔹e → 𝔹e),
    unary main_v4 main_v5 (broadcastInDim S1000000x1 ![0] bcast_S1000000_S1000000x1_0 : 𝔹e → 𝔹c),
    binary main_arg0 main_v5 main_v6 ((fun x i => Host.gather gather_S100000x128_S1000000x1_S1000000x128_1_0_n_n_0_1_1128 x i) : 𝔹x → 𝔹c → 𝔹[S1000000x128, .f32]),
    nullary main_cst (constant S_ .f32 0x00000000#32),
    unary main_cst main_v7 (broadcastInDim S100000x128 ![] bcast_S_S100000x128 : 𝔹s → 𝔹x),
    unary main_arg11 main_v8 (broadcastInDim S1000000x1 ![0] bcast_S1000000_S1000000x1_0 : 𝔹e → 𝔹c),
    ternary main_v7 main_v8 main_v6 main_v9 ((fun x i u => Host.scatterAdd scatter_S100000x128_S1000000x1_S1000000x128_1_0_0_1 x i u) : 𝔹x → 𝔹c → 𝔹[S1000000x128, .f32] → 𝔹x),
    nullary main_cst_1 (constant S_ .f32 0x3F800000#32),
    unary main_cst_1 main_v10 (broadcastInDim S1000000x1 ![] bcast_S_S1000000x1 : 𝔹s → 𝔹[S1000000x1, .f32]),
    nullary main_cst_2 (constant S_ .f32 0x00000000#32),
    unary main_cst_2 main_v11 (broadcastInDim S100000x1 ![] bcast_S_S100000x1 : 𝔹s → 𝔹[S100000x1, .f32]),
    unary main_arg11 main_v12 (broadcastInDim S1000000x1 ![0] bcast_S1000000_S1000000x1_0 : 𝔹e → 𝔹c),
    ternary main_v11 main_v12 main_v10 main_v13 ((fun x i u => Host.scatterAdd scatter_S100000x1_S1000000x1_S1000000x1_1_0_0_1 x i u) : 𝔹[S100000x1, .f32] → 𝔹c → 𝔹[S1000000x1, .f32] → 𝔹[S100000x1, .f32]),
    nullary main_cst_3 (constant S_ .f32 0x3F800000#32),
    unary main_cst_3 main_v14 (broadcastInDim S100000x1 ![] bcast_S_S100000x1 : 𝔹s → 𝔹[S100000x1, .f32]),
    binary main_v13 main_v14 main_v15 (maximumf : 𝔹[S100000x1, .f32] → 𝔹[S100000x1, .f32] → 𝔹[S100000x1, .f32]),
    unary main_v15 main_v16 (broadcastInDim S100000x128 ![0, 1] bcast_S100000x1_S100000x128_0_1 : 𝔹[S100000x1, .f32] → 𝔹x),
    binary main_v9 main_v16 main_v17 (Host.divf : 𝔹x → 𝔹x → 𝔹x),
    binary main_arg0 main_arg1 main_v18 ((fun l r => Host.dotGeneral dot_S100000x128_S128x256_S100000x256_1_0_0_1_n_n none l r) : 𝔹x → 𝔹[S128x256, .f32] → 𝔹n),
    binary main_v17 main_arg2 main_v19 ((fun l r => Host.dotGeneral dot_S100000x128_S128x256_S100000x256_1_0_0_1_n_n none l r) : 𝔹x → 𝔹[S128x256, .f32] → 𝔹n),
    binary main_v18 main_v19 main_v20 (addf : 𝔹n → 𝔹n → 𝔹n),
    unary main_arg3 main_v21 (broadcastInDim S1x256 ![1] bcast_S256_S1x256_1 : 𝔹v → 𝔹r),
    unary main_v21 main_v22 (broadcastInDim S100000x256 ![0, 1] bcast_S1x256_S100000x256_0_1 : 𝔹r → 𝔹n),
    binary main_v20 main_v22 main_v23 (addf : 𝔹n → 𝔹n → 𝔹n),
    -- `relu` on `main_v23`, into the record `main_call0` (its result is `main_v24`)
    TRef.nullary main_call0.cst (constant S_ .f32 0x00000000#32),
    TRef.unary main_call0.cst main_call0.v0 (broadcastInDim S100000x256 ![] bcast_S_S100000x256),
    TRef.binary (.of main_v23 : TRef sig ⟨S100000x256, .f32⟩) main_call0.v0 main_call0.v1 maximumf ]

/-- Means, variances, normalisation and pooling: six operations of `@main`, the nineteen of `_var` and the three of its
    `_where`, then twenty of `@main`. -/
abbrev opsB : List (HloOp τ sig (Elt F)) :=
  [ nullary main_cst_4 (constant S_ .f32 0x00000000#32),
    binary main_v24 main_cst_4 main_v25 ((fun x v => Host.reduceAdd x v reducesTo_S100000x256_S256_d0 h_S_) : 𝔹n → 𝔹s → 𝔹v),
    nullary main_cst_5 (constant S_ .f32 0x47C35000#32),
    unary main_cst_5 main_v26 (broadcastInDim S256 ![] bcast_S_S256 : 𝔹s → 𝔹v),
    binary main_v25 main_v26 main_v27 (Host.divf : 𝔹v → 𝔹v → 𝔹v),
    nullary main_c_6 (constantI S_ 32 0#32),
    -- `_var` on `main_v24` and the correction `main_c_6`, into the record `main_call1`
    TRef.nullary main_call1.cst (constant S_ .f32 0x00000000#32),
    TRef.binary (.of main_v24 : TRef sig ⟨S100000x256, .f32⟩) main_call1.cst main_call1.v0 (fun x v => Host.reduceAdd x v reducesTo_S100000x256_S256_d0 h_S_),
    TRef.unary main_call1.v0 main_call1.v1 (broadcastInDim S1x256 ![1] bcast_S256_S1x256_1),
    TRef.nullary main_call1.cst_0 (constant S_ .f32 0x47C35000#32),
    TRef.unary main_call1.cst_0 main_call1.v2 (broadcastInDim S1x256 ![] bcast_S_S1x256),
    TRef.binary main_call1.v1 main_call1.v2 main_call1.v3 Host.divf,
    TRef.unary main_call1.v3 main_call1.v4 (broadcastInDim S100000x256 ![0, 1] bcast_S1x256_S100000x256_0_1),
    TRef.binary (.of main_v24 : TRef sig ⟨S100000x256, .f32⟩) main_call1.v4 main_call1.v5 subf,
    TRef.binary main_call1.v5 main_call1.v5 main_call1.v6 mulf,
    TRef.unary (.of main_c_6 : TRef sig ⟨S_, .i32⟩) main_call1.v7 (sitofp .f32),
    TRef.nullary main_call1.cst_1 (constant S_ .f32 0x47C35000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S100000x256_S256_d0 h_S_),
    TRef.unary main_call1.v8 main_call1.v10 (broadcastInDim S256 ![] bcast_S_S256),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    -- its `_where`, into `main_call1.call0` (the result is `main_v28`)
    TRef.unary main_call1.cst_4 main_call1.call0.v0 id,
    TRef.unary main_call1.call0.v0 main_call1.call0.v1 (broadcastInDim S256 ![] bcast_S_S256),
    TRef.ternary main_call1.v12 main_call1.v11 main_call1.call0.v1 main_call1.call0.v2 (fun p a b => select (broadcastInDim S256 ![] bcast_S_S256 p) a b),
    unary main_v27 main_v29 (broadcastInDim S1x256 ![1] bcast_S256_S1x256_1 : 𝔹v → 𝔹r),
    unary main_v29 main_v30 (broadcastInDim S100000x256 ![0, 1] bcast_S1x256_S100000x256_0_1 : 𝔹r → 𝔹n),
    binary main_v24 main_v30 main_v31 (subf : 𝔹n → 𝔹n → 𝔹n),
    nullary main_cst_7 (constant S_ .f32 0x3727C5AC#32),
    unary main_cst_7 main_v32 (broadcastInDim S256 ![] bcast_S_S256 : 𝔹s → 𝔹v),
    binary main_v28 main_v32 main_v33 (addf : 𝔹v → 𝔹v → 𝔹v),
    unary main_v33 main_v34 (Host.rsqrt : 𝔹v → 𝔹v),
    unary main_v34 main_v35 (broadcastInDim S1x256 ![1] bcast_S256_S1x256_1 : 𝔹v → 𝔹r),
    unary main_v35 main_v36 (broadcastInDim S100000x256 ![0, 1] bcast_S1x256_S100000x256_0_1 : 𝔹r → 𝔹n),
    binary main_v31 main_v36 main_v37 (mulf : 𝔹n → 𝔹n → 𝔹n),
    unary main_arg4 main_v38 (broadcastInDim S1x256 ![1] bcast_S256_S1x256_1 : 𝔹v → 𝔹r),
    unary main_v38 main_v39 (broadcastInDim S100000x256 ![0, 1] bcast_S1x256_S100000x256_0_1 : 𝔹r → 𝔹n),
    binary main_v37 main_v39 main_v40 (mulf : 𝔹n → 𝔹n → 𝔹n),
    unary main_arg5 main_v41 (broadcastInDim S1x256 ![1] bcast_S256_S1x256_1 : 𝔹v → 𝔹r),
    unary main_v41 main_v42 (broadcastInDim S100000x256 ![0, 1] bcast_S1x256_S100000x256_0_1 : 𝔹r → 𝔹n),
    binary main_v40 main_v42 main_v43 (addf : 𝔹n → 𝔹n → 𝔹n),
    nullary main_cst_8 (constant S_ .f32 0x00000000#32),
    unary main_cst_8 main_v44 (broadcastInDim S64x256 ![] bcast_S_S64x256 : 𝔹s → 𝔹g),
    unary main_arg12 main_v45 (broadcastInDim S100000x1 ![0] bcast_S100000_S100000x1_0 : 𝔹[S100000, .i32] → 𝔹[S100000x1, .i32]),
    ternary main_v44 main_v45 main_v43 main_v46 ((fun x i u => Host.scatterAdd scatter_S64x256_S100000x1_S100000x256_1_0_0_1 x i u) : 𝔹g → 𝔹[S100000x1, .i32] → 𝔹n → 𝔹g) ]

/-- The head's first pass: four operations of `@main`, the three of `relu_0`, six of `@main`, the twenty-two of
    `_var_1` with its `_where`, then sixteen of `@main`. -/
abbrev opsC : List (HloOp τ sig (Elt F)) :=
  [ binary main_v46 main_arg6 main_v47 ((fun l r => Host.dotGeneral dot_S64x256_S256x256_S64x256_1_0_0_1_n_n none l r) : 𝔹g → 𝔹[S256x256, .f32] → 𝔹g),
    unary main_arg7 main_v48 (broadcastInDim S1x256 ![1] bcast_S256_S1x256_1 : 𝔹v → 𝔹r),
    unary main_v48 main_v49 (broadcastInDim S64x256 ![0, 1] bcast_S1x256_S64x256_0_1 : 𝔹r → 𝔹g),
    binary main_v47 main_v49 main_v50 (addf : 𝔹g → 𝔹g → 𝔹g),
    -- `relu_0` on `main_v50`, into `main_call2` (the result is `main_v51`)
    TRef.nullary main_call2.cst (constant S_ .f32 0x00000000#32),
    TRef.unary main_call2.cst main_call2.v0 (broadcastInDim S64x256 ![] bcast_S_S64x256),
    TRef.binary (.of main_v50 : TRef sig ⟨S64x256, .f32⟩) main_call2.v0 main_call2.v1 maximumf,
    nullary main_cst_9 (constant S_ .f32 0x00000000#32),
    binary main_v51 main_cst_9 main_v52 ((fun x v => Host.reduceAdd x v reducesTo_S64x256_S256_d0 h_S_) : 𝔹g → 𝔹s → 𝔹v),
    nullary main_cst_10 (constant S_ .f32 0x42800000#32),
    unary main_cst_10 main_v53 (broadcastInDim S256 ![] bcast_S_S256 : 𝔹s → 𝔹v),
    binary main_v52 main_v53 main_v54 (Host.divf : 𝔹v → 𝔹v → 𝔹v),
    nullary main_c_11 (constantI S_ 32 0#32),
    -- `_var_1` on `main_v51` and `main_c_11`, into `main_call3`
    TRef.nullary main_call3.cst (constant S_ .f32 0x00000000#32),
    TRef.binary (.of main_v51 : TRef sig ⟨S64x256, .f32⟩) main_call3.cst main_call3.v0 (fun x v => Host.reduceAdd x v reducesTo_S64x256_S256_d0 h_S_),
    TRef.unary main_call3.v0 main_call3.v1 (broadcastInDim S1x256 ![1] bcast_S256_S1x256_1),
    TRef.nullary main_call3.cst_0 (constant S_ .f32 0x42800000#32),
    TRef.unary main_call3.cst_0 main_call3.v2 (broadcastInDim S1x256 ![] bcast_S_S1x256),
    TRef.binary main_call3.v1 main_call3.v2 main_call3.v3 Host.divf,
    TRef.unary main_call3.v3 main_call3.v4 (broadcastInDim S64x256 ![0, 1] bcast_S1x256_S64x256_0_1),
    TRef.binary (.of main_v51 : TRef sig ⟨S64x256, .f32⟩) main_call3.v4 main_call3.v5 subf,
    TRef.binary main_call3.v5 main_call3.v5 main_call3.v6 mulf,
    TRef.unary (.of main_c_11 : TRef sig ⟨S_, .i32⟩) main_call3.v7 (sitofp .f32),
    TRef.nullary main_call3.cst_1 (constant S_ .f32 0x42800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S64x256_S256_d0 h_S_),
    TRef.unary main_call3.v8 main_call3.v10 (broadcastInDim S256 ![] bcast_S_S256),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    -- its `_where`, into `main_call3.call0` (the result is `main_v55`)
    TRef.unary main_call3.cst_4 main_call3.call0.v0 id,
    TRef.unary main_call3.call0.v0 main_call3.call0.v1 (broadcastInDim S256 ![] bcast_S_S256),
    TRef.ternary main_call3.v12 main_call3.v11 main_call3.call0.v1 main_call3.call0.v2 (fun p a b => select (broadcastInDim S256 ![] bcast_S_S256 p) a b),
    unary main_v54 main_v56 (broadcastInDim S1x256 ![1] bcast_S256_S1x256_1 : 𝔹v → 𝔹r),
    unary main_v56 main_v57 (broadcastInDim S64x256 ![0, 1] bcast_S1x256_S64x256_0_1 : 𝔹r → 𝔹g),
    binary main_v51 main_v57 main_v58 (subf : 𝔹g → 𝔹g → 𝔹g),
    nullary main_cst_12 (constant S_ .f32 0x3727C5AC#32),
    unary main_cst_12 main_v59 (broadcastInDim S256 ![] bcast_S_S256 : 𝔹s → 𝔹v),
    binary main_v55 main_v59 main_v60 (addf : 𝔹v → 𝔹v → 𝔹v),
    unary main_v60 main_v61 (Host.rsqrt : 𝔹v → 𝔹v),
    unary main_v61 main_v62 (broadcastInDim S1x256 ![1] bcast_S256_S1x256_1 : 𝔹v → 𝔹r),
    unary main_v62 main_v63 (broadcastInDim S64x256 ![0, 1] bcast_S1x256_S64x256_0_1 : 𝔹r → 𝔹g),
    binary main_v58 main_v63 main_v64 (mulf : 𝔹g → 𝔹g → 𝔹g),
    unary main_arg8 main_v65 (broadcastInDim S1x256 ![1] bcast_S256_S1x256_1 : 𝔹v → 𝔹r),
    unary main_v65 main_v66 (broadcastInDim S64x256 ![0, 1] bcast_S1x256_S64x256_0_1 : 𝔹r → 𝔹g),
    binary main_v64 main_v66 main_v67 (mulf : 𝔹g → 𝔹g → 𝔹g),
    unary main_arg9 main_v68 (broadcastInDim S1x256 ![1] bcast_S256_S1x256_1 : 𝔹v → 𝔹r),
    unary main_v68 main_v69 (broadcastInDim S64x256 ![0, 1] bcast_S1x256_S64x256_0_1 : 𝔹r → 𝔹g),
    binary main_v67 main_v69 main_v70 (addf : 𝔹g → 𝔹g → 𝔹g) ]

/-- The head's second pass and the log-softmax: four operations of `@main`, the three of `relu_0`, six of `@main`, the
    twenty-two of `_var_1` with its `_where`, sixteen of `@main`, and the sixteen of `log_softmax`. -/
abbrev opsD : List (HloOp τ sig (Elt F)) :=
  [ binary main_v70 main_arg6 main_v71 ((fun l r => Host.dotGeneral dot_S64x256_S256x256_S64x256_1_0_0_1_n_n none l r) : 𝔹g → 𝔹[S256x256, .f32] → 𝔹g),
    unary main_arg7 main_v72 (broadcastInDim S1x256 ![1] bcast_S256_S1x256_1 : 𝔹v → 𝔹r),
    unary main_v72 main_v73 (broadcastInDim S64x256 ![0, 1] bcast_S1x256_S64x256_0_1 : 𝔹r → 𝔹g),
    binary main_v71 main_v73 main_v74 (addf : 𝔹g → 𝔹g → 𝔹g),
    -- `relu_0` on `main_v74`, into `main_call4` (the result is `main_v75`)
    TRef.nullary main_call4.cst (constant S_ .f32 0x00000000#32),
    TRef.unary main_call4.cst main_call4.v0 (broadcastInDim S64x256 ![] bcast_S_S64x256),
    TRef.binary (.of main_v74 : TRef sig ⟨S64x256, .f32⟩) main_call4.v0 main_call4.v1 maximumf,
    nullary main_cst_13 (constant S_ .f32 0x00000000#32),
    binary main_v75 main_cst_13 main_v76 ((fun x v => Host.reduceAdd x v reducesTo_S64x256_S256_d0 h_S_) : 𝔹g → 𝔹s → 𝔹v),
    nullary main_cst_14 (constant S_ .f32 0x42800000#32),
    unary main_cst_14 main_v77 (broadcastInDim S256 ![] bcast_S_S256 : 𝔹s → 𝔹v),
    binary main_v76 main_v77 main_v78 (Host.divf : 𝔹v → 𝔹v → 𝔹v),
    nullary main_c_15 (constantI S_ 32 0#32),
    -- `_var_1` on `main_v75` and `main_c_15`, into `main_call5`
    TRef.nullary main_call5.cst (constant S_ .f32 0x00000000#32),
    TRef.binary (.of main_v75 : TRef sig ⟨S64x256, .f32⟩) main_call5.cst main_call5.v0 (fun x v => Host.reduceAdd x v reducesTo_S64x256_S256_d0 h_S_),
    TRef.unary main_call5.v0 main_call5.v1 (broadcastInDim S1x256 ![1] bcast_S256_S1x256_1),
    TRef.nullary main_call5.cst_0 (constant S_ .f32 0x42800000#32),
    TRef.unary main_call5.cst_0 main_call5.v2 (broadcastInDim S1x256 ![] bcast_S_S1x256),
    TRef.binary main_call5.v1 main_call5.v2 main_call5.v3 Host.divf,
    TRef.unary main_call5.v3 main_call5.v4 (broadcastInDim S64x256 ![0, 1] bcast_S1x256_S64x256_0_1),
    TRef.binary (.of main_v75 : TRef sig ⟨S64x256, .f32⟩) main_call5.v4 main_call5.v5 subf,
    TRef.binary main_call5.v5 main_call5.v5 main_call5.v6 mulf,
    TRef.unary (.of main_c_15 : TRef sig ⟨S_, .i32⟩) main_call5.v7 (sitofp .f32),
    TRef.nullary main_call5.cst_1 (constant S_ .f32 0x42800000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S64x256_S256_d0 h_S_),
    TRef.unary main_call5.v8 main_call5.v10 (broadcastInDim S256 ![] bcast_S_S256),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    -- its `_where`, into `main_call5.call0` (the result is `main_v79`)
    TRef.unary main_call5.cst_4 main_call5.call0.v0 id,
    TRef.unary main_call5.call0.v0 main_call5.call0.v1 (broadcastInDim S256 ![] bcast_S_S256),
    TRef.ternary main_call5.v12 main_call5.v11 main_call5.call0.v1 main_call5.call0.v2 (fun p a b => select (broadcastInDim S256 ![] bcast_S_S256 p) a b),
    unary main_v78 main_v80 (broadcastInDim S1x256 ![1] bcast_S256_S1x256_1 : 𝔹v → 𝔹r),
    unary main_v80 main_v81 (broadcastInDim S64x256 ![0, 1] bcast_S1x256_S64x256_0_1 : 𝔹r → 𝔹g),
    binary main_v75 main_v81 main_v82 (subf : 𝔹g → 𝔹g → 𝔹g),
    nullary main_cst_16 (constant S_ .f32 0x3727C5AC#32),
    unary main_cst_16 main_v83 (broadcastInDim S256 ![] bcast_S_S256 : 𝔹s → 𝔹v),
    binary main_v79 main_v83 main_v84 (addf : 𝔹v → 𝔹v → 𝔹v),
    unary main_v84 main_v85 (Host.rsqrt : 𝔹v → 𝔹v),
    unary main_v85 main_v86 (broadcastInDim S1x256 ![1] bcast_S256_S1x256_1 : 𝔹v → 𝔹r),
    unary main_v86 main_v87 (broadcastInDim S64x256 ![0, 1] bcast_S1x256_S64x256_0_1 : 𝔹r → 𝔹g),
    binary main_v82 main_v87 main_v88 (mulf : 𝔹g → 𝔹g → 𝔹g),
    unary main_arg8 main_v89 (broadcastInDim S1x256 ![1] bcast_S256_S1x256_1 : 𝔹v → 𝔹r),
    unary main_v89 main_v90 (broadcastInDim S64x256 ![0, 1] bcast_S1x256_S64x256_0_1 : 𝔹r → 𝔹g),
    binary main_v88 main_v90 main_v91 (mulf : 𝔹g → 𝔹g → 𝔹g),
    unary main_arg9 main_v92 (broadcastInDim S1x256 ![1] bcast_S256_S1x256_1 : 𝔹v → 𝔹r),
    unary main_v92 main_v93 (broadcastInDim S64x256 ![0, 1] bcast_S1x256_S64x256_0_1 : 𝔹r → 𝔹g),
    binary main_v91 main_v93 main_v94 (addf : 𝔹g → 𝔹g → 𝔹g),
    -- `log_softmax` on `main_v94`, into `main_call6` (the result is `main_v95`)
    TRef.nullary main_call6.cst (constant S_ .f32 0xFF800000#32),
    TRef.binary (.of main_v94 : TRef sig ⟨S64x256, .f32⟩) main_call6.cst main_call6.v0 (fun x v => Host.reduce FloatOps.maximumf x v reducesTo_S64x256_S64_d1 h_S_),
    TRef.nullary main_call6.cst_0 (constant S_ .f32 0xFF800000#32),
    TRef.unary main_call6.cst_0 main_call6.v1 (broadcastInDim S64 ![] bcast_S_S64),
    TRef.binary main_call6.v1 main_call6.v0 main_call6.v2 maximumf,
    TRef.unary main_call6.v2 main_call6.v3 (broadcastInDim S64x1 ![0] bcast_S64_S64x1_0),
    TRef.unary main_call6.v3 main_call6.v4 (broadcastInDim S64x256 ![0, 1] bcast_S64x1_S64x256_0_1),
    TRef.binary (.of main_v94 : TRef sig ⟨S64x256, .f32⟩) main_call6.v4 main_call6.v5 subf,
    TRef.unary main_call6.v5 main_call6.v6 Host.exp,
    TRef.nullary main_call6.cst_1 (constant S_ .f32 0x00000000#32),
    TRef.binary main_call6.v6 main_call6.cst_1 main_call6.v7 (fun x v => Host.reduceAdd x v reducesTo_S64x256_S64_d1 h_S_),
    TRef.unary main_call6.v7 main_call6.v8 (broadcastInDim S64x1 ![0] bcast_S64_S64x1_0),
    TRef.unary main_call6.v8 main_call6.v9 Host.log,
    TRef.unary main_call6.v9 main_call6.v10 (broadcastInDim S64x256 ![0, 1] bcast_S64x1_S64x256_0_1),
    TRef.binary main_call6.v5 main_call6.v10 main_call6.v11 subf ]

/-- The whole of `@main`, calls inlined: the four stretches in order. -/
abbrev ops : List (HloOp τ sig (Elt F)) := opsA ++ opsB ++ opsC ++ opsD

end Cert.ReferenceIdeal.Ops

end
-- ==== Proof.RefRun.lean ====
import proofs.«416988_j64106681860685_3_alg».proof.Proof.RefOps

/-!
# The reference program's run

`@main` of the reference is the straight line `Ops.ops` of host operations: with every call replaced by its
callee's body over the call's own buffers, the program is one chain of operation steps, and the chain
is the same term as `seq ops` once the sequencing is computed (the free monad's bind grafts the rest of
the program onto each body's return). From there the library's statement for a straight line gives
the run: every fair execution terminates, and each buffer of each device ends at the fold of the
operations' results over the contents the launch dealt it. The fold over the whole list is the fold over
the four stretches one after the other, which is how the readings of the four stretches are chained.
-/

noncomputable section

namespace Cert.ReferenceIdeal.Run

open Cert.ReferenceIdeal Cert.ReferenceIdeal.Ops Cert.ReferenceIdeal.Facts₀ Cert.ReferenceIdeal.Facts
open Idealize.ShloMosaic Idealize.ShloMosaic.TcCoe Idealize.SL.Sem Idealize.ShloMosaic.StableHlo

variable {F : FTy → Type} [FloatOps F]

-- about two hundred operation steps deep on either side
set_option maxRecDepth 65536 in
/-- `@main` is the straight line of its operations. A call is its callee's body applied to the call's record,
    binding a body in front of the rest of the program grafts the rest onto the body's return, and `seq` of a
    concatenation is the chain of its parts: both sides compute to the same chain of operation steps. -/
theorem main_eq (c : Dev nD) : main (F := F) c = seq ops := rfl

/-- No TensorCore buffer of the signature is scoped: all are tensor values in device memory. -/
theorem scopedRefs_eq : (Finset.univ.filter fun b : Ref sig .tc => b.isScoped) = ∅ := by decide
/-- The signature has no semaphore at all. -/
theorem scopedSems_eq : (Finset.univ.filter fun sm : SemLoc sig => sm.isScoped .tc) = ∅ := by decide

/-! ## Every operation touches TensorCore buffers only, and none allocates -/

theorem opsA_sub : (opsA : List (HloOp τ sig (Elt F))).Forall fun op => op.bufs ⊆ tcRefs τ sig := by
  simp only [List.forall_cons, List.Forall, nullary_bufs_sub, unary_bufs_sub, binary_bufs_sub, ternary_bufs_sub, and_self]
theorem opsB_sub : (opsB : List (HloOp τ sig (Elt F))).Forall fun op => op.bufs ⊆ tcRefs τ sig := by
  simp only [List.forall_cons, List.Forall, nullary_bufs_sub, unary_bufs_sub, binary_bufs_sub, ternary_bufs_sub, and_self]
theorem opsC_sub : (opsC : List (HloOp τ sig (Elt F))).Forall fun op => op.bufs ⊆ tcRefs τ sig := by
  simp only [List.forall_cons, List.Forall, nullary_bufs_sub, unary_bufs_sub, binary_bufs_sub, ternary_bufs_sub, and_self]
theorem opsD_sub : (opsD : List (HloOp τ sig (Elt F))).Forall fun op => op.bufs ⊆ tcRefs τ sig := by
  simp only [List.forall_cons, List.Forall, nullary_bufs_sub, unary_bufs_sub, binary_bufs_sub, ternary_bufs_sub, and_self]

theorem ops_sub : (ops : List (HloOp τ sig (Elt F))).Forall fun op => op.bufs ⊆ tcRefs τ sig :=
  List.forall_append.mpr ⟨List.forall_append.mpr ⟨List.forall_append.mpr ⟨opsA_sub, opsB_sub⟩, opsC_sub⟩, opsD_sub⟩

theorem opsA_fresh : ∀ op ∈ (opsA : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  rcases List.mem_append.mp h with h | h
  · rcases List.mem_append.mp h with h | h
    · rcases List.mem_append.mp h with h | h
      · exact opsA_fresh op h
      · exact opsB_fresh op h
    · exact opsC_fresh op h
  · exact opsD_fresh op h

/-! ## The run -/

/-- At the compiled mesh, for any float values, from any memory with zero counters: every weakly fair execution
    of `@main` on the TensorCores terminates, and every final state has each TensorCore buffer at the fold of
    the operations' results over the contents the launch dealt the device. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The fold, stretch by stretch -/

/-- The contents after two lines run one after the other: the second line's fold over the first's. -/
theorem after_concat (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The contents after the whole program are the contents after the last stretch from those after the third,
    from those after the second, from those after the first. -/
theorem after_ops (V : Valuation τ sig (Elt F)) :
    after ops V = after opsD (after opsC (after opsB (after opsA V))) := by
  rw [show (ops : List (HloOp τ sig (Elt F))) = opsA ++ opsB ++ opsC ++ opsD from rfl,
    after_concat, after_concat, after_concat]

/-- The run, with the fold written stretch by stretch. -/
theorem run_stretches (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b)
          = after opsD (after opsC (after opsB (after opsA (launchContents m c)))) (b : DevRef τ sig) :=
  (θ_run defs _ _).mono (fun _ h c b => (h c b).trans (by rw [after_ops])) (run_after m ρ)

/-! ## What each stretch writes, and what it therefore leaves alone

Each operation writes one buffer of its own, so a stretch writes exactly the buffers listed here, in the
order of its operations; a buffer outside the list holds after the stretch what it held before. In
particular no stretch writes an argument of `@main`, and a later stretch does not disturb an earlier
stretch's results. -/

/-- The buffers `opsA` writes. -/
abbrev WA : List (Ref sig .tc) :=
  [main_c, main_v0, main_v1, main_c_0, main_v2, main_v3, main_v4, main_v5, main_v6, main_cst, main_v7, main_v8, main_v9,
   main_cst_1, main_v10, main_cst_2, main_v11, main_v12, main_v13, main_cst_3, main_v14, main_v15, main_v16, main_v17,
   main_v18, main_v19, main_v20, main_v21, main_v22, main_v23, main_call0_cst, main_call0_v0, main_v24]

/-- The buffers `opsB` writes. -/
abbrev WB : List (Ref sig .tc) :=
  [main_cst_4, main_v25, main_cst_5, main_v26, main_v27, main_c_6,
   main_call1_cst, main_call1_v0, main_call1_v1, main_call1_cst_0, main_call1_v2, main_call1_v3, main_call1_v4,
   main_call1_v5, main_call1_v6, main_call1_v7, main_call1_cst_1, main_call1_v8, main_call1_cst_2, main_call1_v9,
   main_call1_v10, main_call1_v11, main_call1_cst_3, main_call1_v12, main_call1_cst_4,
   main_call1_call0_v0, main_call1_call0_v1, main_v28,
   main_v29, main_v30, main_v31, main_cst_7, main_v32, main_v33, main_v34, main_v35, main_v36, main_v37, main_v38,
   main_v39, main_v40, main_v41, main_v42, main_v43, main_cst_8, main_v44, main_v45, main_v46]

/-- The buffers `opsC` writes. -/
abbrev WC : List (Ref sig .tc) :=
  [main_v47, main_v48, main_v49, main_v50, main_call2_cst, main_call2_v0, main_v51,
   main_cst_9, main_v52, main_cst_10, main_v53, main_v54, main_c_11,
   main_call3_cst, main_call3_v0, main_call3_v1, main_call3_cst_0, main_call3_v2, main_call3_v3, main_call3_v4,
   main_call3_v5, main_call3_v6, main_call3_v7, main_call3_cst_1, main_call3_v8, main_call3_cst_2, main_call3_v9,
   main_call3_v10, main_call3_v11, main_call3_cst_3, main_call3_v12, main_call3_cst_4,
   main_call3_call0_v0, main_call3_call0_v1, main_v55,
   main_v56, main_v57, main_v58, main_cst_12, main_v59, main_v60, main_v61, main_v62, main_v63, main_v64, main_v65,
   main_v66, main_v67, main_v68, main_v69, main_v70]

/-- The buffers `opsD` writes. -/
abbrev WD : List (Ref sig .tc) :=
  [main_v71, main_v72, main_v73, main_v74, main_call4_cst, main_call4_v0, main_v75,
   main_cst_13, main_v76, main_cst_14, main_v77, main_v78, main_c_15,
   main_call5_cst, main_call5_v0, main_call5_v1, main_call5_cst_0, main_call5_v2, main_call5_v3, main_call5_v4,
   main_call5_v5, main_call5_v6, main_call5_v7, main_call5_cst_1, main_call5_v8, main_call5_cst_2, main_call5_v9,
   main_call5_v10, main_call5_v11, main_call5_cst_3, main_call5_v12, main_call5_cst_4,
   main_call5_call0_v0, main_call5_call0_v1, main_v79,
   main_v80, main_v81, main_v82, main_cst_16, main_v83, main_v84, main_v85, main_v86, main_v87, main_v88, main_v89,
   main_v90, main_v91, main_v92, main_v93, main_v94,
   main_call6_cst, main_call6_v0, main_call6_cst_0, main_call6_v1, main_call6_v2, main_call6_v3, main_call6_v4,
   main_call6_v5, main_call6_v6, main_call6_cst_1, main_call6_v7, main_call6_v8, main_call6_v9, main_call6_v10, main_v95]

theorem opsA_writes : (opsA : List (HloOp τ sig (Elt F))).Forall fun op => op.writes ⊆ (WA.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
theorem opsB_writes : (opsB : List (HloOp τ sig (Elt F))).Forall fun op => op.writes ⊆ (WB.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
theorem opsC_writes : (opsC : List (HloOp τ sig (Elt F))).Forall fun op => op.writes ⊆ (WC.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)
theorem opsD_writes : (opsD : List (HloOp τ sig (Elt F))).Forall fun op => op.writes ⊆ (WD.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

/-- A buffer `opsA` does not write holds after it what it held before. -/
theorem opsA_keeps {r : Ref sig .tc} (h : r ∉ WA) (V : Valuation τ sig (Elt F)) :
    after opsA V (Proc.devRef .tc r) = V (Proc.devRef .tc r) := after_of_writes_sub opsA V opsA_writes h
/-- A buffer `opsB` does not write holds after it what it held before. -/
theorem opsB_keeps {r : Ref sig .tc} (h : r ∉ WB) (V : Valuation τ sig (Elt F)) :
    after opsB V (Proc.devRef .tc r) = V (Proc.devRef .tc r) := after_of_writes_sub opsB V opsB_writes h
/-- A buffer `opsC` does not write holds after it what it held before. -/
theorem opsC_keeps {r : Ref sig .tc} (h : r ∉ WC) (V : Valuation τ sig (Elt F)) :
    after opsC V (Proc.devRef .tc r) = V (Proc.devRef .tc r) := after_of_writes_sub opsC V opsC_writes h
/-- A buffer `opsD` does not write holds after it what it held before. -/
theorem opsD_keeps {r : Ref sig .tc} (h : r ∉ WD) (V : Valuation τ sig (Elt F)) :
    after opsD V (Proc.devRef .tc r) = V (Proc.devRef .tc r) := after_of_writes_sub opsD V opsD_writes h

/-- A buffer no stretch writes holds after the program what the launch dealt it. -/
theorem ops_keeps {r : Ref sig .tc} (hA : r ∉ WA) (hB : r ∉ WB) (hC : r ∉ WC) (hD : r ∉ WD) (V : Valuation τ sig (Elt F)) :
    after ops V (Proc.devRef .tc r) = V (Proc.devRef .tc r) := by
  rw [after_ops, opsD_keeps hD, opsC_keeps hC, opsB_keeps hB, opsA_keeps hA]

/-- The second result, `main_v70`, is final once the third stretch has run: the last stretch does not write it. -/
theorem after_ops_v70 (V : Valuation τ sig (Elt F)) :
    after ops V (Proc.devRef .tc main_v70) = after opsC (after opsB (after opsA V)) (Proc.devRef .tc main_v70) := by
  rw [after_ops, opsD_keeps (by decide)]

/-- The run at the two results and the thirteen arguments: each result at the fold of the operations over the
    launch contents, each argument unchanged (no operation writes an argument). -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v95) = after ops (launchContents m c) (Proc.devRef .tc main_v95)
      ∧ r.2.mem ((c.tc : Thread nD τ).loc main_v70) = after ops (launchContents m c) (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨h c main_v95, h c main_v70,
      (h c main_arg0).trans (ops_keeps (by decide) (by decide) (by decide) (by decide) _),
      (h c main_arg1).trans (ops_keeps (by decide) (by decide) (by decide) (by decide) _),
      (h c main_arg2).trans (ops_keeps (by decide) (by decide) (by decide) (by decide) _),
      (h c main_arg3).trans (ops_keeps (by decide) (by decide) (by decide) (by decide) _),
      (h c main_arg4).trans (ops_keeps (by decide) (by decide) (by decide) (by decide) _),
      (h c main_arg5).trans (ops_keeps (by decide) (by decide) (by decide) (by decide) _),
      (h c main_arg6).trans (ops_keeps (by decide) (by decide) (by decide) (by decide) _),
      (h c main_arg7).trans (ops_keeps (by decide) (by decide) (by decide) (by decide) _),
      (h c main_arg8).trans (ops_keeps (by decide) (by decide) (by decide) (by decide) _),
      (h c main_arg9).trans (ops_keeps (by decide) (by decide) (by decide) (by decide) _),
      (h c main_arg10).trans (ops_keeps (by decide) (by decide) (by decide) (by decide) _),
      (h c main_arg11).trans (ops_keeps (by decide) (by decide) (by decide) (by decide) _),
      (h c main_arg12).trans (ops_keeps (by decide) (by decide) (by decide) (by decide) _)⟩)
    (run_after m ρ)

end Cert.ReferenceIdeal.Run

end
-- ==== Proof.RefInputs.lean ====
/-
  The argument arrays of the reference program, entry by entry, as the record the formulas are written over: the
  float arrays read at their coordinates, the edge destinations and the nodes' graph numbers read as signed
  integers, and the array of source rows (the gather of the feature rows at the edge sources, a negative source
  counted from the end).
-/
import proofs.«416988_j64106681860685_3_alg».proof.ReferenceIdeal
import proofs.«416988_j64106681860685_3_alg».proof.Proof.Gen.ReferenceIdeal
import proofs.«416988_j64106681860685_3_alg».proof.Proof.Spec
import Idealize.ShloMosaic.Lib.ValueIdx

noncomputable section

namespace Cert.ReferenceIdeal.Inp

open Cert.ReferenceIdeal Idealize.ShloMosaic Idealize.ShloMosaic.TcCoe Idealize.SL.Sem Idealize.ShloMosaic.ValueIdx
open Cert.ReferenceIdeal.Facts₀ Cert.ReferenceIdeal.Facts

abbrev Mem : Type := (ℓ : Loc nD τ sig) → Buf (Elt Ideal) ℓ

/-- The edge sources as the gather reads them: a negative source counted from the end, laid out as a column. -/
def srcIdx (src : IVec S1000000 32) : IVec S1000000x1 32 :=
  broadcastInDim S1000000x1 ![0] bcast_S1000000_S1000000x1_0
    (select (cmpi .slt src (broadcastInDim S1000000 ![] bcast_S_S1000000 (constantI S_ 32 0#32)))
      (addi src (broadcastInDim S1000000 ![] bcast_S_S1000000 (constantI S_ 32 100000#32))) src)

/-- One feature row per edge: the row of the edge's source. -/
def msgArr (feat : FVec Ideal S100000x128 .f32) (src : IVec S1000000 32) : FVec Ideal S1000000x128 .f32 :=
  Host.gather gather_S100000x128_S1000000x1_S1000000x128_1_0_n_n_0_1_1128 feat (srcIdx src)

variable (m : Mem) (c : Dev nD)

def inputs : Cert.Spec.Inputs where
  feat i k := (m ((c.tc : Thread nD τ).loc main_arg0) : FVec Ideal S100000x128 .f32) (ix2 i k)
  msg e k := msgArr (m ((c.tc : Thread nD τ).loc main_arg0)) (m ((c.tc : Thread nD τ).loc main_arg10)) (ix2 e k)
  dst e := ((m ((c.tc : Thread nD τ).loc main_arg11) : IVec S1000000 32) (ix1 e)).toInt
  gid i := ((m ((c.tc : Thread nD τ).loc main_arg12) : IVec S100000 32) (ix1 i)).toInt
  Ws k h := (m ((c.tc : Thread nD τ).loc main_arg1) : FVec Ideal S128x256 .f32) (ix2 k h)
  Wn k h := (m ((c.tc : Thread nD τ).loc main_arg2) : FVec Ideal S128x256 .f32) (ix2 k h)
  b h := (m ((c.tc : Thread nD τ).loc main_arg3) : FVec Ideal S256 .f32) (ix1 h)
  gc h := (m ((c.tc : Thread nD τ).loc main_arg4) : FVec Ideal S256 .f32) (ix1 h)
  bc h := (m ((c.tc : Thread nD τ).loc main_arg5) : FVec Ideal S256 .f32) (ix1 h)
  Wlp k h := (m ((c.tc : Thread nD τ).loc main_arg6) : FVec Ideal S256x256 .f32) (ix2 k h)
  blp h := (m ((c.tc : Thread nD τ).loc main_arg7) : FVec Ideal S256 .f32) (ix1 h)
  glp h := (m ((c.tc : Thread nD τ).loc main_arg8) : FVec Ideal S256 .f32) (ix1 h)
  betalp h := (m ((c.tc : Thread nD τ).loc main_arg9) : FVec Ideal S256 .f32) (ix1 h)

end Cert.ReferenceIdeal.Inp

end
-- ==== Proof.RefConv.lean ====
/-
  The reference's graph convolution read at an entry.

  One feature row per edge (the row of the edge's source) is added into the edge's destination node; each node's
  in-edges are counted in floats; each node's summed rows are divided by its count, an isolated node's by 1; the node's
  own features and that mean go through two dense layers, the bias is added and the result rectified. At node i and
  output feature h this is the specification's actOf over the entries of the argument arrays.
-/
import proofs.«416988_j64106681860685_3_alg».proof.Proof.RefOps
import proofs.«416988_j64106681860685_3_alg».proof.Proof.RefRun
import proofs.«416988_j64106681860685_3_alg».proof.Proof.RefInputs
import proofs.«416988_j64106681860685_3_alg».proof.Proof.Spec
import proofs.«416988_j64106681860685_3_alg».proof.Proof.LibScatterAddRows
import proofs.«416988_j64106681860685_3_alg».proof.Proof.LibPlainMatmul
import Idealize.ShloMosaic.PureOps.Ideal.Laws
import Idealize.ShloMosaic.Lib.ValueIdx
import Idealize.ShloMosaic.Lib.Pipeline.Value
import Idealize.ShloMosaic.Lib.StableHlo.Run

noncomputable section

namespace Cert.ReferenceIdeal.Conv

open Cert.ReferenceIdeal Idealize.ShloMosaic Idealize.ShloMosaic.TcCoe Idealize.SL.Sem Idealize.ShloMosaic.ValueIdx
open Cert.ReferenceIdeal.Facts₀ Cert.ReferenceIdeal.Facts

/-! ## Operations at an index, over arbitrary arrays -/

/-- The host's quotient of two arrays reads, at an index, the quotient of the entries. -/
theorem hostDivf_apply {s : Shape} {φ : FTy} (a b : FVec Ideal s φ) (j : s.Idx) :
    Host.divf a b j = Ideal.div (a j) (b j) := rfl

/-- A float word repeated over a whole array reads, everywhere, the value the word denotes. -/
theorem splat_apply {T : Shape} (hT : S_.BroadcastsInDim T (![] : Fin S_.rank → Fin T.rank)) (w : BitVec 32) (j : T.Idx) :
    broadcastInDim T ![] hT (constant (F := Ideal) S_ .f32 w) j = Ideal.ofBits .f32 w := rfl

/-- The host's accumulating scatter is, at the extended reals, the exact sum of the landing updates. -/
theorem scatterAdd_ideal {s si su : Shape} {w : Nat} (d : ScatterDims s si su) (x : FVec Ideal s .f32) (idx : IVec si w)
    (upd : FVec Ideal su .f32) : Host.scatterAdd d x idx upd = Ideal.hostScatterAdd d x idx upd := rfl

/-- A vector of 1000000 words laid out as a column reads, at (p, 0), word p. -/
theorem col_apply (d : IVec S1000000 32) (p : Fin 1000000) :
    broadcastInDim S1000000x1 ![0] bcast_S1000000_S1000000x1_0 d (ix2 p ⟨0, Nat.one_pos⟩) = d (ix1 p) :=
  broadcastInDim_apply ![0] bcast_S1000000_S1000000x1_0 d (ix2 p ⟨0, Nat.one_pos⟩) (ix1 p) fun a => by
    match a with
    | ⟨0, _⟩ => rfl

/-- A column of 100000 entries repeated along the 128 features reads, at (i, k), the column at (i, 0). -/
theorem colBroadcast_apply (v : FVec Ideal S100000x1 .f32) (i : Fin 100000) (k : Fin 128) :
    broadcastInDim S100000x128 ![0, 1] bcast_S100000x1_S100000x128_0_1 v (ix2 i k) = v (ix2 i ⟨0, Nat.one_pos⟩) :=
  broadcastInDim_apply ![0, 1] bcast_S100000x1_S100000x128_0_1 v (ix2 i k) (ix2 i ⟨0, Nat.one_pos⟩) fun a => by
    match a with
    | ⟨0, _⟩ => rfl
    | ⟨1, _⟩ => rfl

/-- The bias, a vector of 256 entries laid out as one row and repeated over the 100000 nodes, reads at (i, h) entry h. -/
theorem bias_apply (b : FVec Ideal S256 .f32) (i : Fin 100000) (h : Fin 256) :
    broadcastInDim S100000x256 ![0, 1] bcast_S1x256_S100000x256_0_1
      (broadcastInDim S1x256 ![1] bcast_S256_S1x256_1 b) (ix2 i h) = b (ix1 h) := by
  refine (broadcastInDim_apply ![0, 1] bcast_S1x256_S100000x256_0_1 _ (ix2 i h) (ix2 (⟨0, Nat.one_pos⟩ : Fin 1) h)
    fun a => ?_).trans
    (broadcastInDim_apply ![1] bcast_S256_S1x256_1 b (ix2 (⟨0, Nat.one_pos⟩ : Fin 1) h) (ix1 h) fun a => ?_)
  · match a with
    | ⟨0, _⟩ => rfl
    | ⟨1, _⟩ => rfl
  · match a with
    | ⟨0, _⟩ => rfl

/-! ## The dense layers: a plain product [100000, 128] x [128, 256] -/

/-- The program's dimension numbers are the plain product's. -/
theorem dot_eq_plain :
    dot_S100000x128_S128x256_S100000x256_1_0_0_1_n_n = DotDims.plain 100000 128 256 := rfl

/-- Entry (i, h) of the host's product is the sum over the 128 input features. -/
theorem dot_apply (L : FVec Ideal S100000x128 .f32) (R : FVec Ideal S128x256 .f32) (i : Fin 100000) (h : Fin 256) :
    Host.dotGeneral dot_S100000x128_S128x256_S100000x256_1_0_0_1_n_n none L R (ix2 i h)
      = ∑ k : Fin 128, L (ix2 i k) * R (ix2 k h) := by
  rw [dot_eq_plain]
  refine (Ideal.dotGeneral_apply (DotDims.plain 100000 128 256) none .single L R (ix2 i h)).trans ?_
  rw [← Equiv.sum_comp (contrEquiv1 (DotDims.plain 100000 128 256) 128 rfl rfl).symm]
  refine Finset.sum_congr rfl fun k _ => ?_
  have hk := contrEquiv1_symm_val (DotDims.plain 100000 128 256) 128 rfl rfl k
  have el : (DotDims.plain 100000 128 256).lhsIdx (ix2 i h)
      ((contrEquiv1 (DotDims.plain 100000 128 256) 128 rfl rfl).symm k) = ix2 i k :=
    funext fun x => Fin.ext (by
      match x with
      | ⟨0, _⟩ => exact Cert.PlainMatmul.lhs_row _ _
      | ⟨1, _⟩ => exact (Cert.PlainMatmul.lhs_col _ _).trans hk)
  have er : (DotDims.plain 100000 128 256).rhsIdx (ix2 i h)
      ((contrEquiv1 (DotDims.plain 100000 128 256) 128 rfl rfl).symm k) = ix2 k h :=
    funext fun x => Fin.ext (by
      match x with
      | ⟨0, _⟩ => exact (Cert.PlainMatmul.rhs_row _ _).trans hk
      | ⟨1, _⟩ => exact Cert.PlainMatmul.rhs_col _ _)
  rw [el, er]

/-! ## The two scatter-adds by a column of destinations, over arbitrary operands -/

/-- The feature scatter's dimension numbers are those of a row scatter into a [100000, 128] table. -/
theorem scatter128_eq_rows : scatter_S100000x128_S1000000x1_S1000000x128_1_0_0_1
    = ScatterAddRows.rowDims 100000 128 1000000 scatter_S100000x128_S1000000x1_S1000000x128_1_0_0_1_wf := rfl

/-- The count scatter's dimension numbers are those of a row scatter into a [100000, 1] table. -/
theorem scatter1_eq_rows : scatter_S100000x1_S1000000x1_S1000000x1_1_0_0_1
    = ScatterAddRows.rowDims 100000 1 1000000 scatter_S100000x1_S1000000x1_S1000000x1_1_0_0_1_wf := rfl

/-- Rows of 128 features added into a table by a column of row numbers: entry (i, k) is the table's entry plus feature k
    of every update row numbered i. -/
theorem scatter128_apply (x0 : FVec Ideal S100000x128 .f32) (idx : IVec S1000000x1 32) (upd : FVec Ideal S1000000x128 .f32)
    (i : Fin 100000) (k : Fin 128) :
    Host.scatterAdd scatter_S100000x128_S1000000x1_S1000000x128_1_0_0_1 x0 idx upd (ix2 i k)
      = x0 (ix2 i k) + ∑ p : Fin 1000000,
          if (idx (ix2 p ⟨0, Nat.one_pos⟩)).toInt = (i.val : Int) then upd (ix2 p k) else 0 :=
  (congrFun ((scatterAdd_ideal _ x0 idx upd).trans
      (congrArg (fun d => Ideal.hostScatterAdd d x0 idx upd) scatter128_eq_rows)) (ix2 i k)).trans
    (ScatterAddRows.scatterAdd_rows_apply (N := 100000) (C := 128) (n := 1000000)
      scatter_S100000x128_S1000000x1_S1000000x128_1_0_0_1_wf x0 idx upd i k)

/-- The same for rows of one entry. -/
theorem scatter1_apply (x0 : FVec Ideal S100000x1 .f32) (idx : IVec S1000000x1 32) (upd : FVec Ideal S1000000x1 .f32)
    (i : Fin 100000) :
    Host.scatterAdd scatter_S100000x1_S1000000x1_S1000000x1_1_0_0_1 x0 idx upd (ix2 i ⟨0, Nat.one_pos⟩)
      = x0 (ix2 i ⟨0, Nat.one_pos⟩) + ∑ p : Fin 1000000,
          if (idx (ix2 p ⟨0, Nat.one_pos⟩)).toInt = (i.val : Int) then upd (ix2 p ⟨0, Nat.one_pos⟩) else 0 :=
  (congrFun ((scatterAdd_ideal _ x0 idx upd).trans
      (congrArg (fun d => Ideal.hostScatterAdd d x0 idx upd) scatter1_eq_rows)) (ix2 i ⟨0, Nat.one_pos⟩)).trans
    (ScatterAddRows.scatterAdd_rows_apply (N := 100000) (C := 1) (n := 1000000)
      scatter_S100000x1_S1000000x1_S1000000x1_1_0_0_1_wf x0 idx upd i ⟨0, Nat.one_pos⟩)

/-! ## The summed rows and the counts -/

/-- The rows the edges bring, added into their destination nodes from zero. -/
def aggArr (msg : FVec Ideal S1000000x128 .f32) (dst : IVec S1000000 32) : FVec Ideal S100000x128 .f32 :=
  Host.scatterAdd scatter_S100000x128_S1000000x1_S1000000x128_1_0_0_1
    (broadcastInDim S100000x128 ![] bcast_S_S100000x128 (constant S_ .f32 0x00000000#32))
    (broadcastInDim S1000000x1 ![0] bcast_S1000000_S1000000x1_0 dst) msg

/-- Entry (i, k) of the summed rows: zero plus feature k of every edge whose destination is i. -/
theorem aggArr_apply (msg : FVec Ideal S1000000x128 .f32) (dst : IVec S1000000 32) (i : Fin 100000) (k : Fin 128) :
    aggArr msg dst (ix2 i k)
      = Cert.Spec.agg (fun e k => msg (ix2 e k)) (fun e => (dst (ix1 e)).toInt) i k := by
  delta aggArr
  refine (scatter128_apply _ _ msg i k).trans ?_
  refine congrArg₂ (fun a b : EReal => a + b) (splat_apply bcast_S_S100000x128 0x00000000#32 (ix2 i k))
    (Finset.sum_congr rfl fun e _ => ?_)
  rw [col_apply]

/-- The in-degrees counted in floats: 1.0 per edge added into its destination node from zero, as a column. -/
def degArr (dst : IVec S1000000 32) : FVec Ideal S100000x1 .f32 :=
  Host.scatterAdd scatter_S100000x1_S1000000x1_S1000000x1_1_0_0_1
    (broadcastInDim S100000x1 ![] bcast_S_S100000x1 (constant S_ .f32 0x00000000#32))
    (broadcastInDim S1000000x1 ![0] bcast_S1000000_S1000000x1_0 dst)
    (broadcastInDim S1000000x1 ![] bcast_S_S1000000x1 (constant S_ .f32 0x3F800000#32))

/-- Entry (i, 0) of the count: zero plus 1.0 for every edge whose destination is i. -/
theorem degArr_apply (dst : IVec S1000000 32) (i : Fin 100000) :
    degArr dst (ix2 i ⟨0, Nat.one_pos⟩) = Cert.Spec.degR (fun e => (dst (ix1 e)).toInt) i := by
  delta degArr
  refine (scatter1_apply _ _ _ i).trans ?_
  refine congrArg₂ (fun a b : EReal => a + b) (splat_apply bcast_S_S100000x1 0x00000000#32 (ix2 i ⟨0, Nat.one_pos⟩))
    (Finset.sum_congr rfl fun e _ => ?_)
  rw [col_apply]
  exact congrArg (fun t : EReal => if (dst (ix1 e)).toInt = (i.val : Int) then t else 0)
    (splat_apply bcast_S_S1000000x1 0x3F800000#32 (ix2 e ⟨0, Nat.one_pos⟩))

/-! ## The mean of the in-coming rows, and the rectified output -/

/-- Each node's summed rows divided by its count, the count clamped below at 1.0. -/
def hnArr (msg : FVec Ideal S1000000x128 .f32) (dst : IVec S1000000 32) : FVec Ideal S100000x128 .f32 :=
  Host.divf (aggArr msg dst)
    (broadcastInDim S100000x128 ![0, 1] bcast_S100000x1_S100000x128_0_1
      (maximumf (degArr dst) (broadcastInDim S100000x1 ![] bcast_S_S100000x1 (constant S_ .f32 0x3F800000#32))))

/-- Entry (i, k) of the mean: the summed rows' entry over the node's count, the count at least 1.0. -/
theorem hnArr_apply (msg : FVec Ideal S1000000x128 .f32) (dst : IVec S1000000 32) (i : Fin 100000) (k : Fin 128) :
    hnArr msg dst (ix2 i k)
      = Cert.Spec.hnOf (Cert.Spec.agg (fun e k => msg (ix2 e k)) (fun e => (dst (ix1 e)).toInt))
          (Cert.Spec.degR (fun e => (dst (ix1 e)).toInt)) i k := by
  delta hnArr
  refine (hostDivf_apply _ _ (ix2 i k)).trans ?_
  delta Cert.Spec.hnOf
  refine congrArg₂ Ideal.div (aggArr_apply msg dst i k) ?_
  refine (colBroadcast_apply _ i k).trans ((maximumf_apply _ _ _).trans ?_)
  exact congrArg₂ (fun a b : EReal => max a b) (degArr_apply dst i)
    (splat_apply bcast_S_S100000x1 0x3F800000#32 (ix2 i ⟨0, Nat.one_pos⟩))

/-- The convolution's output array: both dense layers, the bias, the rectifier. -/
def convArr (feat : FVec Ideal S100000x128 .f32) (msg : FVec Ideal S1000000x128 .f32) (dst : IVec S1000000 32)
    (Ws Wn : FVec Ideal S128x256 .f32) (b : FVec Ideal S256 .f32) : FVec Ideal S100000x256 .f32 :=
  maximumf
    (addf
      (addf (Host.dotGeneral dot_S100000x128_S128x256_S100000x256_1_0_0_1_n_n none feat Ws)
        (Host.dotGeneral dot_S100000x128_S128x256_S100000x256_1_0_0_1_n_n none (hnArr msg dst) Wn))
      (broadcastInDim S100000x256 ![0, 1] bcast_S1x256_S100000x256_0_1 (broadcastInDim S1x256 ![1] bcast_S256_S1x256_1 b)))
    (broadcastInDim S100000x256 ![] bcast_S_S100000x256 (constant S_ .f32 0x00000000#32))

/-- THE CONVOLUTION AT (i, h): the specification's rectified output over the arrays' entries. -/
theorem convArr_apply (feat : FVec Ideal S100000x128 .f32) (msg : FVec Ideal S1000000x128 .f32) (dst : IVec S1000000 32)
    (Ws Wn : FVec Ideal S128x256 .f32) (b : FVec Ideal S256 .f32) (i : Fin 100000) (h : Fin 256) :
    convArr feat msg dst Ws Wn b (ix2 i h)
      = Cert.Spec.actOf (fun i k => feat (ix2 i k))
          (Cert.Spec.hnOf (Cert.Spec.agg (fun e k => msg (ix2 e k)) (fun e => (dst (ix1 e)).toInt))
            (Cert.Spec.degR (fun e => (dst (ix1 e)).toInt)))
          (fun k h => Ws (ix2 k h)) (fun k h => Wn (ix2 k h)) (fun h => b (ix1 h)) i h := by
  delta convArr
  refine (maximumf_apply _ _ (ix2 i h)).trans ?_
  delta Cert.Spec.actOf
  refine congrArg₂ (fun a b : EReal => max a b) ?_ (splat_apply bcast_S_S100000x256 0x00000000#32 (ix2 i h))
  refine (addf_apply _ _ (ix2 i h)).trans (congrArg₂ (fun a b : EReal => a + b) ?_ (bias_apply b i h))
  refine (addf_apply _ _ (ix2 i h)).trans (congrArg₂ (fun a b : EReal => a + b) (dot_apply feat Ws i h) ?_)
  refine (dot_apply (hnArr msg dst) Wn i h).trans (Finset.sum_congr rfl fun k _ => ?_)
  exact congrArg (fun t : EReal => t * Wn (ix2 k h)) (hnArr_apply msg dst i k)

/-! ## The run of the convolution's operations -/

open Idealize.ShloMosaic.StableHlo in
/-- After the convolution's operations, from any contents W, the buffer of the rectified output holds the convolution's
    array of the argument buffers' contents. -/
theorem conv_term (W : Valuation τ sig (Elt Ideal)) :
    StableHlo.after (Ops.opsA (F := Ideal)) W (Proc.devRef .tc main_v24)
      = convArr (W (Proc.devRef .tc main_arg0))
          (Inp.msgArr (W (Proc.devRef .tc main_arg0)) (W (Proc.devRef .tc main_arg10)))
          (W (Proc.devRef .tc main_arg11)) (W (Proc.devRef .tc main_arg1)) (W (Proc.devRef .tc main_arg2))
          (W (Proc.devRef .tc main_arg3)) := by
  after_results_simp
  rfl

/-- THE RECTIFIED OUTPUT AFTER THE CONVOLUTION'S OPERATIONS, AT (i, h): the specification's actOf over the entries of the
    argument buffers' contents. -/
theorem conv_read (W : Valuation τ sig (Elt Ideal)) (i : Fin 100000) (h : Fin 256) :
    (StableHlo.after (Ops.opsA (F := Ideal)) W (Proc.devRef .tc main_v24) : FVec Ideal S100000x256 .f32) (ix2 i h)
      = Cert.Spec.actOf
          (fun i k => (W (Proc.devRef .tc main_arg0) : FVec Ideal S100000x128 .f32) (ix2 i k))
          (Cert.Spec.hnOf
            (Cert.Spec.agg
              (fun e k => Inp.msgArr (W (Proc.devRef .tc main_arg0)) (W (Proc.devRef .tc main_arg10)) (ix2 e k))
              (fun e => ((W (Proc.devRef .tc main_arg11) : IVec S1000000 32) (ix1 e)).toInt))
            (Cert.Spec.degR (fun e => ((W (Proc.devRef .tc main_arg11) : IVec S1000000 32) (ix1 e)).toInt)))
          (fun k h => (W (Proc.devRef .tc main_arg1) : FVec Ideal S128x256 .f32) (ix2 k h))
          (fun k h => (W (Proc.devRef .tc main_arg2) : FVec Ideal S128x256 .f32) (ix2 k h))
          (fun h => (W (Proc.devRef .tc main_arg3) : FVec Ideal S256 .f32) (ix1 h)) i h :=
  (congrFun (conv_term W) (ix2 i h)).trans (convArr_apply _ _ _ _ _ _ i h)

/-! ## The argument buffers keep their contents -/

theorem frameA_arg0 (W : Valuation τ sig (Elt Ideal)) :
    StableHlo.after (Ops.opsA (F := Ideal)) W (Proc.devRef .tc main_arg0) = W (Proc.devRef .tc main_arg0) :=
  Run.opsA_keeps (by decide) W
theorem frameA_arg1 (W : Valuation τ sig (Elt Ideal)) :
    StableHlo.after (Ops.opsA (F := Ideal)) W (Proc.devRef .tc main_arg1) = W (Proc.devRef .tc main_arg1) :=
  Run.opsA_keeps (by decide) W
theorem frameA_arg2 (W : Valuation τ sig (Elt Ideal)) :
    StableHlo.after (Ops.opsA (F := Ideal)) W (Proc.devRef .tc main_arg2) = W (Proc.devRef .tc main_arg2) :=
  Run.opsA_keeps (by decide) W
theorem frameA_arg3 (W : Valuation τ sig (Elt Ideal)) :
    StableHlo.after (Ops.opsA (F := Ideal)) W (Proc.devRef .tc main_arg3) = W (Proc.devRef .tc main_arg3) :=
  Run.opsA_keeps (by decide) W
theorem frameA_arg4 (W : Valuation τ sig (Elt Ideal)) :
    StableHlo.after (Ops.opsA (F := Ideal)) W (Proc.devRef .tc main_arg4) = W (Proc.devRef .tc main_arg4) :=
  Run.opsA_keeps (by decide) W
theorem frameA_arg5 (W : Valuation τ sig (Elt Ideal)) :
    StableHlo.after (Ops.opsA (F := Ideal)) W (Proc.devRef .tc main_arg5) = W (Proc.devRef .tc main_arg5) :=
  Run.opsA_keeps (by decide) W
theorem frameA_arg6 (W : Valuation τ sig (Elt Ideal)) :
    StableHlo.after (Ops.opsA (F := Ideal)) W (Proc.devRef .tc main_arg6) = W (Proc.devRef .tc main_arg6) :=
  Run.opsA_keeps (by decide) W
theorem frameA_arg7 (W : Valuation τ sig (Elt Ideal)) :
    StableHlo.after (Ops.opsA (F := Ideal)) W (Proc.devRef .tc main_arg7) = W (Proc.devRef .tc main_arg7) :=
  Run.opsA_keeps (by decide) W
theorem frameA_arg8 (W : Valuation τ sig (Elt Ideal)) :
    StableHlo.after (Ops.opsA (F := Ideal)) W (Proc.devRef .tc main_arg8) = W (Proc.devRef .tc main_arg8) :=
  Run.opsA_keeps (by decide) W
theorem frameA_arg9 (W : Valuation τ sig (Elt Ideal)) :
    StableHlo.after (Ops.opsA (F := Ideal)) W (Proc.devRef .tc main_arg9) = W (Proc.devRef .tc main_arg9) :=
  Run.opsA_keeps (by decide) W
theorem frameA_arg10 (W : Valuation τ sig (Elt Ideal)) :
    StableHlo.after (Ops.opsA (F := Ideal)) W (Proc.devRef .tc main_arg10) = W (Proc.devRef .tc main_arg10) :=
  Run.opsA_keeps (by decide) W
theorem frameA_arg11 (W : Valuation τ sig (Elt Ideal)) :
    StableHlo.after (Ops.opsA (F := Ideal)) W (Proc.devRef .tc main_arg11) = W (Proc.devRef .tc main_arg11) :=
  Run.opsA_keeps (by decide) W
theorem frameA_arg12 (W : Valuation τ sig (Elt Ideal)) :
    StableHlo.after (Ops.opsA (F := Ideal)) W (Proc.devRef .tc main_arg12) = W (Proc.devRef .tc main_arg12) :=
  Run.opsA_keeps (by decide) W

end Cert.ReferenceIdeal.Conv

end
-- ==== Proof.RefPool.lean ====
import proofs.«416988_j64106681860685_3_alg».proof.Proof.RefOps
import proofs.«416988_j64106681860685_3_alg».proof.Proof.RefRun
import proofs.«416988_j64106681860685_3_alg».proof.Proof.Spec
import proofs.«416988_j64106681860685_3_alg».proof.Proof.LibScatterAddRows
import proofs.«416988_j64106681860685_3_alg».proof.Proof.LibIdealReal
import Idealize.ShloMosaic.PureOps.Ideal.Laws
import Idealize.ShloMosaic.Lib.ValueIdx
import Idealize.ShloMosaic.Lib.IdealHost
import Idealize.ShloMosaic.Lib.KernelVsHost
import Idealize.ShloMosaic.Lib.Pipeline.Value

/-!
# The reference's normalisation and pooling, read at an index

The second stretch of the reference takes the rectified rows r (100000 by 256), the graph number of every node,
and the normalisation's scale and shift. It forms the mean of every column, the variance of every column as the
mean of the squared deviations (under a guard on the divisor being positive, which it is), normalises every row,
scales and shifts it, and adds the normalised rows of each graph into a zero table of 64 rows. This module reads
that composed term at one entry (g, h) of the table and lands on the formula `Spec.R.pooled`.

First the shape operations met on the way, at any extents: a vector laid along the rows of a matrix in two steps,
a vector laid as a column, the sum down the columns. Then the scalars: the word of 100000 and the guard. Then the
stages in the order of the program.
-/

noncomputable section

namespace Cert.ReferenceIdeal.Pool

open Idealize.ShloMosaic Idealize.ShloMosaic.ValueIdx
open scoped BigOperators

/-! ## Shape operations at an index -/

section Shapes

variable {α : Type}

/-- A vector of n entries laid as the one row of a 1 by n matrix reads, at (0, c), entry c. -/
theorem oneRow_apply {n : ℕ} (h1 : (⟨1, ![n]⟩ : Shape).BroadcastsInDim ⟨2, ![1, n]⟩ ![1])
    (v : (⟨1, ![n]⟩ : Shape).Idx → α) (c : Fin n) :
    broadcastInDim ⟨2, ![1, n]⟩ ![1] h1 v (ix2 (0 : Fin 1) c) = v (ix1 c) := by
  refine broadcastInDim_apply ![1] h1 v _ (ix1 c) ?_
  intro a
  match a with
  | ⟨0, _⟩ =>
    show c.val = if n = 1 then 0 else c.val
    split
    · have := c.isLt; omega
    · rfl

/-- That row laid along each of m rows reads, at (i, c), entry c of the vector. -/
theorem rows_apply {m n : ℕ} (h1 : (⟨1, ![n]⟩ : Shape).BroadcastsInDim ⟨2, ![1, n]⟩ ![1])
    (h2 : (⟨2, ![1, n]⟩ : Shape).BroadcastsInDim ⟨2, ![m, n]⟩ ![0, 1]) (v : (⟨1, ![n]⟩ : Shape).Idx → α)
    (i : Fin m) (c : Fin n) :
    broadcastInDim ⟨2, ![m, n]⟩ ![0, 1] h2 (broadcastInDim ⟨2, ![1, n]⟩ ![1] h1 v) (ix2 i c) = v (ix1 c) :=
  (broadcastInDim_oneRow_apply h2 _ i c).trans (oneRow_apply h1 v c)

/-- A vector of n entries laid as an n by 1 column reads, at (i, 0), entry i. -/
theorem column_apply {n : ℕ} (hc : (⟨1, ![n]⟩ : Shape).BroadcastsInDim ⟨2, ![n, 1]⟩ ![0])
    (v : (⟨1, ![n]⟩ : Shape).Idx → α) (i : Fin n) :
    broadcastInDim ⟨2, ![n, 1]⟩ ![0] hc v (ix2 i (⟨0, Nat.one_pos⟩ : Fin 1)) = v (ix1 i) := by
  refine broadcastInDim_apply ![0] hc v _ (ix1 i) ?_
  intro a
  match a with
  | ⟨0, _⟩ =>
    show i.val = if n = 1 then 0 else i.val
    split
    · have := i.isLt; omega
    · rfl

/-- Over column index c, the source index whose coordinate on the dropped axis 0 is k is (k, c). -/
theorem lift_col {n m : ℕ} (h : (⟨2, ![n, m]⟩ : Shape).Reduces [0] ⟨1, ![m]⟩) (c : Fin m)
    (k : Fin ((⟨2, ![n, m]⟩ : Shape).size 0)) : h.lift (ix1 c) k = ix2 (⟨k.val, k.isLt⟩ : Fin n) c := by
  funext a; apply Fin.ext
  fin_cases a <;> rfl

/-- The host's sum down axis 0 of an n by m array, at column c: the initial value plus the entries of the column. -/
theorem colSum_apply {n m : ℕ} {φ : FTy} {u : Shape} (x : FVec Ideal ⟨2, ![n, m]⟩ φ) (init : u.Idx → Ideal φ)
    (h' : (⟨2, ![n, m]⟩ : Shape).ReducesTo [0] ⟨1, ![m]⟩) (hu : 0 < u.numel) (c : Fin m) :
    Host.reduceAdd x init h' hu (ix1 c) = init (Shape.Idx.first hu) + ∑ i : Fin n, x (ix2 i c) := by
  have h : (⟨2, ![n, m]⟩ : Shape).Reduces [0] ⟨1, ![m]⟩ := ⟨h'.1, Nat.one_pos, h'.2⟩
  refine (Ideal.hostReduceAdd_single h' h x (init (Shape.Idx.first hu)) (ix1 c)).trans ?_
  congr 1
  exact Finset.sum_congr rfl fun k _ => congrArg x (lift_col h c k)

end Shapes

/-! ## The scalars -/

/-- The word of the number of nodes denotes the real 100000. -/
theorem ofBits_100000 : Ideal.ofBits .f32 0x47C35000#32 = ((100000 : ℝ) : EReal) := by
  simp [Ideal.ofBits, Ideal.ieee, -EReal.coe_mul]; norm_num

/-- The variance's divisor, 100000 minus the correction 0, is positive: the guard's comparison gives the bit 1. -/
theorem guard_bit : Ideal.cmp .ogt (Spec.cN - Spec.ddof) Spec.c0 = 1#1 := by
  have hd : Spec.cN - Spec.ddof = (((100000 : ℝ) - 0 : ℝ) : EReal) := by
    show Ideal.ofBits .f32 0x47C35000#32 - (((0#32 : BitVec 32).toInt : ℝ) : EReal) = _
    rw [ofBits_100000, BitVec.toInt_zero, Int.cast_zero, EReal.coe_sub]
  rw [hd, show Spec.c0 = ((0 : ℝ) : EReal) from IdealReal.ofBits_zero_f32, IdealReal.cmp_ogt_coe]
  have hpos : decide ((0 : ℝ) < 100000 - 0) = true := by norm_num
  rw [hpos]; rfl

/-! ## The stages, in the program's order

Every shape fact an operation carries is taken as a hypothesis, so that the lemmas apply whatever proof the program
cites. r is the array of rectified rows. -/

open Cert.ReferenceIdeal

/-- The column mean as the program forms it first: the sum down the rows over the broadcast word of 100000. -/
theorem mean_read (hr : S100000x256.ReducesTo [0] S256) (hS : 0 < S_.numel) (hb : S_.BroadcastsInDim S256 ![])
    (r : FVec Ideal S100000x256 .f32) (h : Fin 256) :
    Host.divf (Host.reduceAdd r (constant (F := Ideal) S_ .f32 0x00000000#32) hr hS)
        (broadcastInDim S256 ![] hb (constant (F := Ideal) S_ .f32 0x47C35000#32)) (ix1 h)
      = Spec.R.mean (fun i k => r (ix2 i k)) h := by
  rw [hostDivf_apply, colSum_apply, broadcastInDim_scalar_apply]
  rfl

/-- The same mean as the variance recomputes it, on one-row matrices. -/
theorem mean_row_read (hr : S100000x256.ReducesTo [0] S256) (hS : 0 < S_.numel)
    (h1 : S256.BroadcastsInDim S1x256 ![1]) (hb1 : S_.BroadcastsInDim S1x256 ![])
    (r : FVec Ideal S100000x256 .f32) (h : Fin 256) :
    Host.divf (broadcastInDim S1x256 ![1] h1 (Host.reduceAdd r (constant (F := Ideal) S_ .f32 0x00000000#32) hr hS))
        (broadcastInDim S1x256 ![] hb1 (constant (F := Ideal) S_ .f32 0x47C35000#32)) (ix2 (0 : Fin 1) h)
      = Spec.R.mean (fun i k => r (ix2 i k)) h := by
  rw [hostDivf_apply, oneRow_apply, colSum_apply, broadcastInDim_scalar_apply]
  rfl

/-- The deviation of entry (i, h) from its column's mean, inside the variance. -/
theorem dev_read (hr : S100000x256.ReducesTo [0] S256) (hS : 0 < S_.numel)
    (h1 : S256.BroadcastsInDim S1x256 ![1]) (hb1 : S_.BroadcastsInDim S1x256 ![])
    (h2 : S1x256.BroadcastsInDim S100000x256 ![0, 1])
    (r : FVec Ideal S100000x256 .f32) (i : Fin 100000) (h : Fin 256) :
    subf r (broadcastInDim S100000x256 ![0, 1] h2
        (Host.divf (broadcastInDim S1x256 ![1] h1 (Host.reduceAdd r (constant (F := Ideal) S_ .f32 0x00000000#32) hr hS))
          (broadcastInDim S1x256 ![] hb1 (constant (F := Ideal) S_ .f32 0x47C35000#32)))) (ix2 i h)
      = r (ix2 i h) - Spec.R.mean (fun i k => r (ix2 i k)) h := by
  rw [subf_apply, broadcastInDim_oneRow_apply, mean_row_read]

/-- The guarded variance of the deviations d: the guard holds, so it is the sum of the squares over the divisor. -/
theorem var_read (hr : S100000x256.ReducesTo [0] S256) (hS : 0 < S_.numel) (hb : S_.BroadcastsInDim S256 ![])
    (d : FVec Ideal S100000x256 .f32) (z : FVec Ideal S_ .f32) (h : Fin 256) :
    select
        (broadcastInDim S256 ![] hb
          (cmpf .ogt (subf (constant (F := Ideal) S_ .f32 0x47C35000#32) (sitofp .f32 (constantI S_ 32 0#32)))
            (constant (F := Ideal) S_ .f32 0x00000000#32)))
        (Host.divf (Host.reduceAdd (mulf d d) (constant (F := Ideal) S_ .f32 0x00000000#32) hr hS)
          (broadcastInDim S256 ![] hb
            (subf (constant (F := Ideal) S_ .f32 0x47C35000#32) (sitofp .f32 (constantI S_ 32 0#32)))))
        (broadcastInDim S256 ![] hb z) (ix1 h)
      = Ideal.div (Spec.c0 + ∑ i : Fin 100000, d (ix2 i h) * d (ix2 i h)) (Spec.cN - Spec.ddof) := by
  rw [select_apply, broadcastInDim_scalar_apply, cmpf_apply]
  rw [show FloatOps.cmpf .ogt
        (subf (constant (F := Ideal) S_ .f32 0x47C35000#32) (sitofp .f32 (constantI S_ 32 0#32)) ix0)
        (constant (F := Ideal) S_ .f32 0x00000000#32 ix0) = 1#1 from guard_bit]
  rw [select_one, hostDivf_apply, colSum_apply, broadcastInDim_scalar_apply]
  rfl

/-- One entry of the normalised, scaled and shifted rows, for any mean vector mu and any vector w under the
    reciprocal square root. -/
theorem norm_read (h1 : S256.BroadcastsInDim S1x256 ![1]) (h2 : S1x256.BroadcastsInDim S100000x256 ![0, 1])
    (r : FVec Ideal S100000x256 .f32) (mu w gc bc : FVec Ideal S256 .f32) (i : Fin 100000) (h : Fin 256) :
    addf
        (mulf
          (mulf (subf r (broadcastInDim S100000x256 ![0, 1] h2 (broadcastInDim S1x256 ![1] h1 mu)))
            (broadcastInDim S100000x256 ![0, 1] h2 (broadcastInDim S1x256 ![1] h1 (Host.rsqrt w))))
          (broadcastInDim S100000x256 ![0, 1] h2 (broadcastInDim S1x256 ![1] h1 gc)))
        (broadcastInDim S100000x256 ![0, 1] h2 (broadcastInDim S1x256 ![1] h1 bc)) (ix2 i h)
      = ((r (ix2 i h) - mu (ix1 h)) * Ideal.rsqrt (w (ix1 h))) * gc (ix1 h) + bc (ix1 h) := by
  rw [addf_apply, mulf_apply, mulf_apply, subf_apply, rows_apply, rows_apply, rows_apply, rows_apply]
  rfl

/-- The segment sum: the zero table plus, at (g, h), the updates of the rows whose graph number is g. -/
theorem scatter_read (hb0 : S_.BroadcastsInDim S64x256 ![]) (hc : S100000.BroadcastsInDim S100000x1 ![0])
    (ids : IVec S100000 32) (upd : FVec Ideal S100000x256 .f32) (g : Fin 64) (h : Fin 256) :
    Host.scatterAdd scatter_S64x256_S100000x1_S100000x256_1_0_0_1
        (broadcastInDim S64x256 ![] hb0 (constant (F := Ideal) S_ .f32 0x00000000#32))
        (broadcastInDim S100000x1 ![0] hc ids) upd (ix2 g h)
      = Spec.c0 + ∑ i : Fin 100000, if (ids (ix1 i)).toInt = (g.val : Int) then upd (ix2 i h) else 0 := by
  have hd : scatter_S64x256_S100000x1_S100000x256_1_0_0_1
      = ScatterAddRows.rowDims 64 256 100000 Facts₀.scatter_S64x256_S100000x1_S100000x256_1_0_0_1_wf := rfl
  rw [hd]
  refine (ScatterAddRows.scatterAdd_rows_apply _ _ _ _ g h).trans ?_
  rw [broadcastInDim_scalar_apply]
  refine congrArg (constant (F := Ideal) S_ .f32 0x00000000#32 ix0 + ·) (Finset.sum_congr rfl fun p _ => ?_)
  rw [column_apply hc ids p]

/-- The guarded variance as the program forms it from r: the formula `Spec.R.var`. -/
theorem var_full_read (hr : S100000x256.ReducesTo [0] S256) (hS : 0 < S_.numel) (hb : S_.BroadcastsInDim S256 ![])
    (h1 : S256.BroadcastsInDim S1x256 ![1]) (hb1 : S_.BroadcastsInDim S1x256 ![])
    (h2 : S1x256.BroadcastsInDim S100000x256 ![0, 1])
    (r : FVec Ideal S100000x256 .f32) (z : FVec Ideal S_ .f32) (h : Fin 256) :
    select
        (broadcastInDim S256 ![] hb
          (cmpf .ogt (subf (constant (F := Ideal) S_ .f32 0x47C35000#32) (sitofp .f32 (constantI S_ 32 0#32)))
            (constant (F := Ideal) S_ .f32 0x00000000#32)))
        (Host.divf
          (Host.reduceAdd
            (mulf
              (subf r (broadcastInDim S100000x256 ![0, 1] h2
                (Host.divf (broadcastInDim S1x256 ![1] h1 (Host.reduceAdd r (constant (F := Ideal) S_ .f32 0x00000000#32) hr hS))
                  (broadcastInDim S1x256 ![] hb1 (constant (F := Ideal) S_ .f32 0x47C35000#32)))))
              (subf r (broadcastInDim S100000x256 ![0, 1] h2
                (Host.divf (broadcastInDim S1x256 ![1] h1 (Host.reduceAdd r (constant (F := Ideal) S_ .f32 0x00000000#32) hr hS))
                  (broadcastInDim S1x256 ![] hb1 (constant (F := Ideal) S_ .f32 0x47C35000#32))))))
            (constant (F := Ideal) S_ .f32 0x00000000#32) hr hS)
          (broadcastInDim S256 ![] hb
            (subf (constant (F := Ideal) S_ .f32 0x47C35000#32) (sitofp .f32 (constantI S_ 32 0#32)))))
        (broadcastInDim S256 ![] hb z) (ix1 h)
      = Spec.R.var (fun i k => r (ix2 i k)) h := by
  rw [var_read]
  unfold Spec.R.var
  refine congrArg (fun s => Ideal.div (Spec.c0 + s) (Spec.cN - Spec.ddof)) (Finset.sum_congr rfl fun i _ => ?_)
  rw [dev_read]

/-! ## The stretch read at an entry -/

open Idealize.SL.Sem Idealize.ShloMosaic.StableHlo

/-- THE POOLED TABLE AT (g, h): after the second stretch, from any contents W, the buffer of the segment sum holds
    at (g, h) the formula `Spec.R.pooled` of W's rectified rows, graph numbers, scale and shift. -/
theorem pool_read (W : Valuation τ sig (Elt Ideal)) (g : Fin 64) (h : Fin 256) :
    (after (Ops.opsB (F := Ideal)) W (Proc.devRef .tc main_v46) : FVec Ideal S64x256 .f32) (ix2 g h)
      = Spec.R.pooled (fun i => ((W (Proc.devRef .tc main_arg12) : IVec S100000 32) (ix1 i)).toInt)
          (fun k => (W (Proc.devRef .tc main_arg4) : FVec Ideal S256 .f32) (ix1 k))
          (fun k => (W (Proc.devRef .tc main_arg5) : FVec Ideal S256 .f32) (ix1 k))
          (fun i k => (W (Proc.devRef .tc main_v24) : FVec Ideal S100000x256 .f32) (ix2 i k)) g h := by
  -- the buffer's contents as the operations' composed term of W's buffers; the typed references' casts are identities
  after_results_simp
  simp only [cast_cast, cast_eq]
  -- the four arrays the term reads, as variables
  generalize W (Proc.devRef .tc main_v24) = r
  generalize W (Proc.devRef .tc main_arg12) = ids
  generalize W (Proc.devRef .tc main_arg4) = gc
  generalize W (Proc.devRef .tc main_arg5) = bc
  -- the segment sum at (g, h), then entry (i, h) of the normalised rows under the sum
  rw [scatter_read]
  unfold Spec.R.pooled
  refine congrArg (Spec.c0 + ·) (Finset.sum_congr rfl fun i _ => ?_)
  rw [norm_read, mean_read, addf_apply, var_full_read, broadcastInDim_scalar_apply, constant_apply]
  rfl

/-- The same entry, for rows, graph numbers, scale and shift given entry by entry. -/
theorem pool_read_of (W : Valuation τ sig (Elt Ideal)) (gid : Fin 100000 → Int) (gc bc : Fin 256 → EReal)
    (r : Fin 100000 → Fin 256 → EReal)
    (hr : ∀ i k, (W (Proc.devRef .tc main_v24) : FVec Ideal S100000x256 .f32) (ix2 i k) = r i k)
    (hgid : ∀ i, ((W (Proc.devRef .tc main_arg12) : IVec S100000 32) (ix1 i)).toInt = gid i)
    (hgc : ∀ k, (W (Proc.devRef .tc main_arg4) : FVec Ideal S256 .f32) (ix1 k) = gc k)
    (hbc : ∀ k, (W (Proc.devRef .tc main_arg5) : FVec Ideal S256 .f32) (ix1 k) = bc k)
    (g : Fin 64) (h : Fin 256) :
    (after (Ops.opsB (F := Ideal)) W (Proc.devRef .tc main_v46) : FVec Ideal S64x256 .f32) (ix2 g h)
      = Spec.R.pooled gid gc bc r g h := by
  have e1 : (fun i k => (W (Proc.devRef .tc main_v24) : FVec Ideal S100000x256 .f32) (ix2 i k)) = r :=
    funext fun i => funext fun k => hr i k
  have e2 : (fun i => ((W (Proc.devRef .tc main_arg12) : IVec S100000 32) (ix1 i)).toInt) = gid := funext hgid
  have e3 : (fun k => (W (Proc.devRef .tc main_arg4) : FVec Ideal S256 .f32) (ix1 k)) = gc := funext hgc
  have e4 : (fun k => (W (Proc.devRef .tc main_arg5) : FVec Ideal S256 .f32) (ix1 k)) = bc := funext hbc
  exact (pool_read W g h).trans (by rw [e1, e2, e3, e4])

/-! ## What the stretch leaves alone

The stretch writes none of the thirteen argument buffers and does not write the rectified rows it reads. -/

theorem frameB_arg0 (W : Valuation τ sig (Elt Ideal)) :
    after (Ops.opsB (F := Ideal)) W (Proc.devRef .tc main_arg0) = W (Proc.devRef .tc main_arg0) := Run.opsB_keeps (by decide) W
theorem frameB_arg1 (W : Valuation τ sig (Elt Ideal)) :
    after (Ops.opsB (F := Ideal)) W (Proc.devRef .tc main_arg1) = W (Proc.devRef .tc main_arg1) := Run.opsB_keeps (by decide) W
theorem frameB_arg2 (W : Valuation τ sig (Elt Ideal)) :
    after (Ops.opsB (F := Ideal)) W (Proc.devRef .tc main_arg2) = W (Proc.devRef .tc main_arg2) := Run.opsB_keeps (by decide) W
theorem frameB_arg3 (W : Valuation τ sig (Elt Ideal)) :
    after (Ops.opsB (F := Ideal)) W (Proc.devRef .tc main_arg3) = W (Proc.devRef .tc main_arg3) := Run.opsB_keeps (by decide) W
theorem frameB_arg4 (W : Valuation τ sig (Elt Ideal)) :
    after (Ops.opsB (F := Ideal)) W (Proc.devRef .tc main_arg4) = W (Proc.devRef .tc main_arg4) := Run.opsB_keeps (by decide) W
theorem frameB_arg5 (W : Valuation τ sig (Elt Ideal)) :
    after (Ops.opsB (F := Ideal)) W (Proc.devRef .tc main_arg5) = W (Proc.devRef .tc main_arg5) := Run.opsB_keeps (by decide) W
theorem frameB_arg6 (W : Valuation τ sig (Elt Ideal)) :
    after (Ops.opsB (F := Ideal)) W (Proc.devRef .tc main_arg6) = W (Proc.devRef .tc main_arg6) := Run.opsB_keeps (by decide) W
theorem frameB_arg7 (W : Valuation τ sig (Elt Ideal)) :
    after (Ops.opsB (F := Ideal)) W (Proc.devRef .tc main_arg7) = W (Proc.devRef .tc main_arg7) := Run.opsB_keeps (by decide) W
theorem frameB_arg8 (W : Valuation τ sig (Elt Ideal)) :
    after (Ops.opsB (F := Ideal)) W (Proc.devRef .tc main_arg8) = W (Proc.devRef .tc main_arg8) := Run.opsB_keeps (by decide) W
theorem frameB_arg9 (W : Valuation τ sig (Elt Ideal)) :
    after (Ops.opsB (F := Ideal)) W (Proc.devRef .tc main_arg9) = W (Proc.devRef .tc main_arg9) := Run.opsB_keeps (by decide) W
theorem frameB_arg10 (W : Valuation τ sig (Elt Ideal)) :
    after (Ops.opsB (F := Ideal)) W (Proc.devRef .tc main_arg10) = W (Proc.devRef .tc main_arg10) := Run.opsB_keeps (by decide) W
theorem frameB_arg11 (W : Valuation τ sig (Elt Ideal)) :
    after (Ops.opsB (F := Ideal)) W (Proc.devRef .tc main_arg11) = W (Proc.devRef .tc main_arg11) := Run.opsB_keeps (by decide) W
theorem frameB_arg12 (W : Valuation τ sig (Elt Ideal)) :
    after (Ops.opsB (F := Ideal)) W (Proc.devRef .tc main_arg12) = W (Proc.devRef .tc main_arg12) := Run.opsB_keeps (by decide) W
theorem frameB_v24 (W : Valuation τ sig (Elt Ideal)) :
    after (Ops.opsB (F := Ideal)) W (Proc.devRef .tc main_v24) = W (Proc.devRef .tc main_v24) := Run.opsB_keeps (by decide) W

end Cert.ReferenceIdeal.Pool

end
-- ==== Proof.RefHead.lean ====
import proofs.«416988_j64106681860685_3_alg».proof.Proof.RefOps
import proofs.«416988_j64106681860685_3_alg».proof.Proof.Spec
import proofs.«416988_j64106681860685_3_alg».proof.Proof.LibRowOps
import proofs.«416988_j64106681860685_3_alg».proof.Proof.LibIdealReal
import proofs.«416988_j64106681860685_3_alg».proof.Proof.LibPlainMatmul
import Idealize.ShloMosaic.Lib.IdealHost
import Idealize.ShloMosaic.Lib.KernelVsHost
import Idealize.ShloMosaic.Lib.ValueIdx

/-!
# The reference's head read at an index

The head of the reference applies twice the pass "dense layer, rectifier, normalisation over the 64 rows"
and ends in a row-wise log-softmax. This module reads the two stretches of host operations that compute it:
the contents after the first pass at entry (g, h) are the formula `Cert.Spec.R.lp` of the stretch's inputs, and the
contents after the second pass and the log-softmax are `Cert.Spec.R.lsm` of `Cert.Spec.R.lp`. Both hold from
any contents of the buffers on entry, so that the stretches can be chained.

The pass is read once, as a function of five arrays (the 64 by 256 input, the weight matrix, the bias and the
normalisation's scale and shift), and used for both stretches.
-/

noncomputable section

namespace Cert.ReferenceIdeal.Head

open Idealize.ShloMosaic Idealize.ShloMosaic.ValueIdx Idealize.ShloMosaic.StableHlo Idealize.SL.Sem
open Cert.ReferenceIdeal Cert.ReferenceIdeal.Facts₀ Cert.ReferenceIdeal.Facts
open scoped BigOperators

variable {α : Type}

/-! ## Layout operations of the head read at an index -/

/-- A vector [m] laid as the one row of [1, m] reads, at (u, c), entry c. -/
theorem row_of_vec_apply {m : ℕ} (hb : (⟨1, ![m]⟩ : Shape).BroadcastsInDim ⟨2, ![1, m]⟩ ![1])
    (v : (⟨1, ![m]⟩ : Shape).Idx → α) (u : Fin 1) (c : Fin m) :
    broadcastInDim ⟨2, ![1, m]⟩ ![1] hb v (ix2 u c) = v (ix1 c) := by
  refine broadcastInDim_apply ![1] hb v (ix2 u c) (ix1 c) fun a => ?_
  match a with
  | ⟨0, _⟩ =>
    show c.val = if m = 1 then 0 else c.val
    split_ifs with hm
    · have := c.isLt; omega
    · rfl

/-- A vector [m] laid along every row of [n, m], by way of the one row, reads at (r, c) entry c. -/
theorem rows_of_vec_apply {n m : ℕ} (hb1 : (⟨1, ![m]⟩ : Shape).BroadcastsInDim ⟨2, ![1, m]⟩ ![1])
    (hb2 : (⟨2, ![1, m]⟩ : Shape).BroadcastsInDim ⟨2, ![n, m]⟩ ![0, 1]) (v : (⟨1, ![m]⟩ : Shape).Idx → α) (r : Fin n) (c : Fin m) :
    broadcastInDim ⟨2, ![n, m]⟩ ![0, 1] hb2 (broadcastInDim ⟨2, ![1, m]⟩ ![1] hb1 v) (ix2 r c) = v (ix1 c) := by
  rw [broadcastInDim_oneRow_apply, row_of_vec_apply]

/-- A vector [n] stood as the one column of [n, 1] reads, at (r, u), entry r. -/
theorem col_of_vec_apply {n : ℕ} (hb : (⟨1, ![n]⟩ : Shape).BroadcastsInDim ⟨2, ![n, 1]⟩ ![0])
    (v : (⟨1, ![n]⟩ : Shape).Idx → α) (r : Fin n) (u : Fin 1) :
    broadcastInDim ⟨2, ![n, 1]⟩ ![0] hb v (ix2 r u) = v (ix1 r) := by
  refine broadcastInDim_apply ![0] hb v (ix2 r u) (ix1 r) fun a => ?_
  match a with
  | ⟨0, _⟩ =>
    show r.val = if n = 1 then 0 else r.val
    split_ifs with hn
    · have := r.isLt; omega
    · rfl

/-- A column [n, 1] laid along the columns of [n, m] reads, at (r, c), the column at (r, 0). -/
theorem cols_of_col_apply {n m : ℕ} (hb : (⟨2, ![n, 1]⟩ : Shape).BroadcastsInDim ⟨2, ![n, m]⟩ ![0, 1])
    (v : (⟨2, ![n, 1]⟩ : Shape).Idx → α) (r : Fin n) (c : Fin m) :
    broadcastInDim ⟨2, ![n, m]⟩ ![0, 1] hb v (ix2 r c) = v (ix2 r (0 : Fin 1)) := by
  refine broadcastInDim_apply ![0, 1] hb v (ix2 r c) (ix2 r (0 : Fin 1)) fun a => ?_
  match a with
  | ⟨0, _⟩ =>
    show r.val = if n = 1 then 0 else r.val
    split_ifs with hn
    · have := r.isLt; omega
    · rfl
  | ⟨1, _⟩ =>
    show (0 : ℕ) = if (1 : ℕ) = 1 then 0 else c.val
    rw [if_pos rfl]

/-! ## The host's sums along an axis of a matrix -/

/-- Over column index c, the source index whose coordinate on the dropped axis 0 is k is (k, c). -/
theorem lift_col {n m : ℕ} (h : (⟨2, ![n, m]⟩ : Shape).Reduces [0] ⟨1, ![m]⟩) (c : Fin m)
    (k : Fin ((⟨2, ![n, m]⟩ : Shape).size 0)) : h.lift (ix1 c) k = ix2 (⟨k.val, k.isLt⟩ : Fin n) c := by
  funext a; apply Fin.ext
  fin_cases a <;> rfl

/-- The host's sum over axis 0, at column c: the initial value plus the sum of the column's entries. -/
theorem hostColSum_apply {n m : ℕ} {φ : FTy} {u : Shape} (x : FVec Ideal ⟨2, ![n, m]⟩ φ) (init : u.Idx → Ideal φ)
    (h' : (⟨2, ![n, m]⟩ : Shape).ReducesTo [0] ⟨1, ![m]⟩) (h : (⟨2, ![n, m]⟩ : Shape).Reduces [0] ⟨1, ![m]⟩) (hu : 0 < u.numel)
    (c : Fin m) :
    Host.reduceAdd x init h' hu (ix1 c) = init (Shape.Idx.first hu) + ∑ r : Fin n, x (ix2 r c) := by
  refine (Ideal.hostReduceAdd_single h' h x (init (Shape.Idx.first hu)) (ix1 c)).trans ?_
  exact congrArg (init (Shape.Idx.first hu) + ·) (Finset.sum_congr rfl fun k _ => congrArg x (lift_col h c k))

/-- The host's sum over axis 1, at row r: the initial value plus the sum of the row's entries. -/
theorem hostRowSum_apply {n m : ℕ} {φ : FTy} {u : Shape} (x : FVec Ideal ⟨2, ![n, m]⟩ φ) (init : u.Idx → Ideal φ)
    (h' : (⟨2, ![n, m]⟩ : Shape).ReducesTo [1] ⟨1, ![n]⟩) (h : (⟨2, ![n, m]⟩ : Shape).Reduces [1] ⟨1, ![n]⟩) (hu : 0 < u.numel)
    (r : Fin n) :
    Host.reduceAdd x init h' hu (ix1 r) = init (Shape.Idx.first hu) + ∑ k : Fin m, x (ix2 r k) := by
  refine (Ideal.hostReduceAdd_single h' h x (init (Shape.Idx.first hu)) (ix1 r)).trans ?_
  exact congrArg (init (Shape.Idx.first hu) + ·) (Finset.sum_congr rfl fun k _ => congrArg x (Cert.RowOps.lift_row h r k))

/-! ## The host's plain matrix product -/

/-- Entry (r, c) of the host's product [M, K] x [K, N] is the sum over k of a (r, k) * b (k, c). -/
theorem hostMatmul_apply {M K N : ℕ} (prec : Option ContractPrecision) {φ₁ φ₂ : FTy} (a : FVec Ideal ⟨2, ![M, K]⟩ φ₁)
    (b : FVec Ideal ⟨2, ![K, N]⟩ φ₂) (r : Fin M) (c : Fin N) :
    Host.dotGeneral (DotDims.plain M K N) prec a b (ix2 r c) = ∑ k : Fin K, a (ix2 r k) * b (ix2 k c) := by
  show FloatOps.dotGeneral (DotDims.plain M K N) prec .single a b (ix2 r c) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact Cert.PlainMatmul.lhs_row _ _
      | ⟨1, _⟩ => exact (Cert.PlainMatmul.lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (Cert.PlainMatmul.rhs_row _ _).trans hk
      | ⟨1, _⟩ => exact Cert.PlainMatmul.rhs_col _ _)
  rw [el, er]

/-! ## Pointwise host operations at an index -/

theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl
theorem hostLog_apply {s : Shape} {φ : FTy} (a : FVec Ideal s φ) (i : s.Idx) : Host.log a i = Ideal.log (a i) := rfl

/-! ## The words of the head -/

/-- The word of 64 denotes the real 64. -/
theorem cG_val : Spec.cG = ((64 : ℝ) : EReal) := by
  simp [Ideal.ofBits, Ideal.ieee, -EReal.coe_mul]; norm_num

/-- The integer 0 read as a float is the real 0. -/
theorem ddof_val : Spec.ddof = ((0 : ℝ) : EReal) := by simp

/-- The variance's divisor 64 - 0 is above zero: the bit of the comparison is set. -/
theorem divisor_pos_bit : Ideal.cmp .ogt (Spec.cG - Spec.ddof) Spec.c0 = 1#1 := by
  rw [cG_val, ddof_val, show Spec.c0 = ((0 : ℝ) : EReal) from IdealReal.ofBits_zero_f32, ← EReal.coe_sub,
    IdealReal.cmp_ogt_coe, decide_eq_true (by norm_num : (0 : ℝ) < 64 - 0)]
  rfl

/-! ## One pass of the head, as the host spells it -/

/-- A vector of 256 entries laid along each of the 64 rows. -/
def rows (v : FVec Ideal S256 .f32) : FVec Ideal S64x256 .f32 :=
  broadcastInDim S64x256 ![0, 1] bcast_S1x256_S64x256_0_1 (broadcastInDim S1x256 ![1] bcast_S256_S1x256_1 v)

theorem rows_apply (v : FVec Ideal S256 .f32) (g : Fin 64) (h : Fin 256) : rows v (ix2 g h) = v (ix1 h) :=
  rows_of_vec_apply _ _ v g h

/-- The dense layer and the rectifier. -/
def act (x : FVec Ideal S64x256 .f32) (Wt : FVec Ideal S256x256 .f32) (b : FVec Ideal S256 .f32) : FVec Ideal S64x256 .f32 :=
  maximumf (addf (Host.dotGeneral dot_S64x256_S256x256_S64x256_1_0_0_1_n_n none x Wt) (rows b))
    (broadcastInDim S64x256 ![] bcast_S_S64x256 (constant S_ .f32 0x00000000#32))

theorem act_apply (x : FVec Ideal S64x256 .f32) (Wt : FVec Ideal S256x256 .f32) (b : FVec Ideal S256 .f32) (g : Fin 64)
    (h : Fin 256) :
    act x Wt b (ix2 g h) = Spec.lin (fun k h => Wt (ix2 k h)) (fun h => b (ix1 h)) (fun g k => x (ix2 g k)) g h := by
  unfold act Spec.lin
  rw [maximumf_apply, addf_apply, rows_apply, broadcastInDim_scalar_apply, constant_apply,
    show dot_S64x256_S256x256_S64x256_1_0_0_1_n_n = DotDims.plain 64 256 256 from rfl, hostMatmul_apply]

/-- The mean over the 64 rows. -/
def meanOf (r : FVec Ideal S64x256 .f32) : FVec Ideal S256 .f32 :=
  Host.divf (Host.reduceAdd r (constant S_ .f32 0x00000000#32) reducesTo_S64x256_S256_d0 h_S_)
    (broadcastInDim S256 ![] bcast_S_S256 (constant S_ .f32 0x42800000#32))

theorem meanOf_apply (r : FVec Ideal S64x256 .f32) (h : Fin 256) :
    meanOf r (ix1 h) = Ideal.div (Spec.c0 + ∑ g : Fin 64, r (ix2 g h)) Spec.cG := by
  unfold meanOf
  rw [hostDivf_apply, hostColSum_apply r _ reducesTo_S64x256_S256_d0 (by decide) h_S_ h, broadcastInDim_scalar_apply]
  rfl

/-- The variance over the 64 rows, as the outlined function computes it: the mean again, the squared deviations
    summed, the sum divided by 64 minus the correction, under a select on that divisor being above zero. -/
def varOf (r : FVec Ideal S64x256 .f32) : FVec Ideal S256 .f32 :=
  let d : FVec Ideal S64x256 .f32 :=
    subf r (broadcastInDim S64x256 ![0, 1] bcast_S1x256_S64x256_0_1
      (Host.divf
        (broadcastInDim S1x256 ![1] bcast_S256_S1x256_1
          (Host.reduceAdd r (constant S_ .f32 0x00000000#32) reducesTo_S64x256_S256_d0 h_S_))
        (broadcastInDim S1x256 ![] bcast_S_S1x256 (constant S_ .f32 0x42800000#32))))
  let n : FVec Ideal S_ .f32 := subf (constant S_ .f32 0x42800000#32) (sitofp .f32 (constantI S_ 32 0#32))
  select (broadcastInDim S256 ![] bcast_S_S256 (cmpf .ogt n (constant S_ .f32 0x00000000#32)))
    (Host.divf (Host.reduceAdd (mulf d d) (constant S_ .f32 0x00000000#32) reducesTo_S64x256_S256_d0 h_S_)
      (broadcastInDim S256 ![] bcast_S_S256 n))
    (broadcastInDim S256 ![] bcast_S_S256 (id (constant S_ .f32 0x7FC00000#32)))

theorem varOf_apply (r : FVec Ideal S64x256 .f32) (h : Fin 256) :
    varOf r (ix1 h)
      = Ideal.div (Spec.c0 + ∑ g : Fin 64, (r (ix2 g h) - Ideal.div (Spec.c0 + ∑ g' : Fin 64, r (ix2 g' h)) Spec.cG)
            * (r (ix2 g h) - Ideal.div (Spec.c0 + ∑ g' : Fin 64, r (ix2 g' h)) Spec.cG)) (Spec.cG - Spec.ddof) := by
  unfold varOf
  rw [select_apply, broadcastInDim_scalar_apply, cmpf_apply]
  have hbit : FloatOps.cmpf (F := Ideal) .ogt
      (subf (constant (F := Ideal) S_ .f32 0x42800000#32) (sitofp .f32 (constantI S_ 32 0#32)) ix0)
      (constant (F := Ideal) S_ .f32 0x00000000#32 ix0) = 1#1 := divisor_pos_bit
  rw [hbit, select_one, hostDivf_apply, hostColSum_apply _ _ reducesTo_S64x256_S256_d0 (by decide) h_S_ h,
    broadcastInDim_scalar_apply]
  have hd : ∀ g : Fin 64, (subf r (broadcastInDim S64x256 ![0, 1] bcast_S1x256_S64x256_0_1
      (Host.divf
        (broadcastInDim S1x256 ![1] bcast_S256_S1x256_1
          (Host.reduceAdd r (constant S_ .f32 0x00000000#32) reducesTo_S64x256_S256_d0 h_S_))
        (broadcastInDim S1x256 ![] bcast_S_S1x256 (constant S_ .f32 0x42800000#32))))) (ix2 g h)
      = r (ix2 g h) - Ideal.div (Spec.c0 + ∑ g' : Fin 64, r (ix2 g' h)) Spec.cG := fun g => by
    rw [subf_apply, broadcastInDim_oneRow_apply, hostDivf_apply, row_of_vec_apply,
      hostColSum_apply r _ reducesTo_S64x256_S256_d0 (by decide) h_S_ h, broadcastInDim_scalar_apply]
    rfl
  simp only [mulf_apply, hd]
  rfl

/-- The pass: dense layer, rectifier, and the normalisation over the 64 rows with scale and shift. -/
def pass (x : FVec Ideal S64x256 .f32) (Wt : FVec Ideal S256x256 .f32) (b gm bt : FVec Ideal S256 .f32) :
    FVec Ideal S64x256 .f32 :=
  addf (mulf (mulf (subf (act x Wt b) (rows (meanOf (act x Wt b))))
      (rows (Host.rsqrt (addf (varOf (act x Wt b)) (broadcastInDim S256 ![] bcast_S_S256 (constant S_ .f32 0x3727C5AC#32))))))
    (rows gm)) (rows bt)

/-- The pass at entry (g, h) is the reference's formula. -/
theorem pass_apply (x : FVec Ideal S64x256 .f32) (Wt : FVec Ideal S256x256 .f32) (b gm bt : FVec Ideal S256 .f32) (g : Fin 64)
    (h : Fin 256) :
    pass x Wt b gm bt (ix2 g h)
      = Spec.R.lp (fun k h => Wt (ix2 k h)) (fun h => b (ix1 h)) (fun h => gm (ix1 h)) (fun h => bt (ix1 h))
          (fun g k => x (ix2 g k)) g h := by
  unfold pass Spec.R.lp Spec.R.lpVar Spec.R.lpMean
  rw [addf_apply, mulf_apply, mulf_apply, subf_apply, rows_apply, rows_apply, rows_apply, rows_apply, hostRsqrt_apply,
    addf_apply, broadcastInDim_scalar_apply, constant_apply, meanOf_apply, varOf_apply]
  simp only [act_apply]

/-! ## The row-wise log-softmax, as the host spells it -/

/-- A vector of 64 entries laid along each of the 256 columns. -/
def cols (v : FVec Ideal S64 .f32) : FVec Ideal S64x256 .f32 :=
  broadcastInDim S64x256 ![0, 1] bcast_S64x1_S64x256_0_1 (broadcastInDim S64x1 ![0] bcast_S64_S64x1_0 v)

theorem cols_apply (v : FVec Ideal S64 .f32) (g : Fin 64) (h : Fin 256) : cols v (ix2 g h) = v (ix1 g) := by
  unfold cols
  rw [cols_of_col_apply, col_of_vec_apply]

/-- The maximum of each row: the host's reduction from minus infinity, then one more maximum with minus infinity. -/
def rowMaxOf (y : FVec Ideal S64x256 .f32) : FVec Ideal S64 .f32 :=
  maximumf (broadcastInDim S64 ![] bcast_S_S64 (constant S_ .f32 0xFF800000#32))
    (Host.reduce FloatOps.maximumf y (constant S_ .f32 0xFF800000#32) reducesTo_S64x256_S64_d1 h_S_)

theorem rowMaxOf_apply (y : FVec Ideal S64x256 .f32) (g : Fin 64) :
    rowMaxOf y (ix1 g) = Spec.R.rowMax (fun g k => y (ix2 g k)) g := by
  unfold rowMaxOf Spec.R.rowMax
  rw [maximumf_apply, broadcastInDim_scalar_apply, constant_apply,
    Cert.RowOps.hostRowMax_apply y _ reducesTo_S64x256_S64_d1 (by decide) h_S_ g]
  rfl

/-- The log-softmax of each row. -/
def logSoftmax (y : FVec Ideal S64x256 .f32) : FVec Ideal S64x256 .f32 :=
  subf (subf y (cols (rowMaxOf y)))
    (broadcastInDim S64x256 ![0, 1] bcast_S64x1_S64x256_0_1
      (Host.log (broadcastInDim S64x1 ![0] bcast_S64_S64x1_0
        (Host.reduceAdd (Host.exp (subf y (cols (rowMaxOf y)))) (constant S_ .f32 0x00000000#32)
          reducesTo_S64x256_S64_d1 h_S_))))

theorem logSoftmax_apply (y : FVec Ideal S64x256 .f32) (g : Fin 64) (h : Fin 256) :
    logSoftmax y (ix2 g h) = Spec.R.lsm (fun g k => y (ix2 g k)) g h := by
  unfold logSoftmax Spec.R.lsm
  rw [subf_apply, subf_apply, cols_apply, rowMaxOf_apply, cols_of_col_apply, hostLog_apply, col_of_vec_apply,
    hostRowSum_apply _ _ reducesTo_S64x256_S64_d1 (by decide) h_S_ g]
  simp only [hostExp_apply, subf_apply, cols_apply, rowMaxOf_apply]
  rfl

/-! ## The two stretches -/

/-- After the first pass, the buffer of its result holds the pass of the stretch's inputs. -/
theorem opsC_v70 (W : Valuation τ sig (Elt Ideal)) :
    after (Ops.opsC (F := Ideal)) W (Proc.devRef .tc main_v70)
      = pass (W (Proc.devRef .tc main_v46)) (W (Proc.devRef .tc main_arg6)) (W (Proc.devRef .tc main_arg7))
          (W (Proc.devRef .tc main_arg8)) (W (Proc.devRef .tc main_arg9)) := by
  after_results_simp
  rfl

/-- After the second stretch, the buffer the log-softmax reads holds the pass of the stretch's inputs. -/
theorem opsD_v94 (W : Valuation τ sig (Elt Ideal)) :
    after (Ops.opsD (F := Ideal)) W (Proc.devRef .tc main_v94)
      = pass (W (Proc.devRef .tc main_v70)) (W (Proc.devRef .tc main_arg6)) (W (Proc.devRef .tc main_arg7))
          (W (Proc.devRef .tc main_arg8)) (W (Proc.devRef .tc main_arg9)) := by
  after_results_simp
  rfl

-- the log-softmax's buffers are the last of the signature's table: computing their types recurses past the default bound
set_option maxRecDepth 40000 in
/-- After the second stretch, the buffer of the result holds the log-softmax of the pass of the stretch's inputs. -/
theorem opsD_v95 (W : Valuation τ sig (Elt Ideal)) :
    after (Ops.opsD (F := Ideal)) W (Proc.devRef .tc main_v95)
      = logSoftmax (pass (W (Proc.devRef .tc main_v70)) (W (Proc.devRef .tc main_arg6)) (W (Proc.devRef .tc main_arg7))
          (W (Proc.devRef .tc main_arg8)) (W (Proc.devRef .tc main_arg9))) := by
  rw [← opsD_v94 W]
  after_results_simp
  rfl

/-- The first pass read at (g, h): the formula of the head's pass over the weight matrix, the bias, the scale and the
    shift as the entry contents have them, applied to the pooled rows on entry. -/
theorem head1_read (W : Valuation τ sig (Elt Ideal)) (g : Fin 64) (h : Fin 256) :
    after (Ops.opsC (F := Ideal)) W (Proc.devRef .tc main_v70) (ix2 g h)
      = Spec.R.lp (fun k h => W (Proc.devRef .tc main_arg6) (ix2 k h)) (fun h => W (Proc.devRef .tc main_arg7) (ix1 h))
          (fun h => W (Proc.devRef .tc main_arg8) (ix1 h)) (fun h => W (Proc.devRef .tc main_arg9) (ix1 h))
          (fun g k => W (Proc.devRef .tc main_v46) (ix2 g k)) g h := by
  rw [opsC_v70]
  exact pass_apply _ _ _ _ _ g h

/-- The second pass and the log-softmax read at (g, h): the log-softmax of the head's pass applied to the first
    pass's rows on entry. -/
theorem head2_read (W : Valuation τ sig (Elt Ideal)) (g : Fin 64) (h : Fin 256) :
    after (Ops.opsD (F := Ideal)) W (Proc.devRef .tc main_v95) (ix2 g h)
      = Spec.R.lsm (Spec.R.lp (fun k h => W (Proc.devRef .tc main_arg6) (ix2 k h))
          (fun h => W (Proc.devRef .tc main_arg7) (ix1 h)) (fun h => W (Proc.devRef .tc main_arg8) (ix1 h))
          (fun h => W (Proc.devRef .tc main_arg9) (ix1 h)) (fun g k => W (Proc.devRef .tc main_v70) (ix2 g k))) g h := by
  rw [opsD_v95, logSoftmax_apply]
  exact congrArg (fun f => Spec.R.lsm f g h) (funext fun g' => funext fun k => pass_apply _ _ _ _ _ g' k)

/-! ## What the two stretches leave alone

Neither stretch writes an argument of the program; the first leaves the pooled rows it reads, the second the first
pass's rows it reads. -/

section Frame

variable (W : Valuation τ sig (Elt Ideal))

theorem frameC_arg0 : after (Ops.opsC (F := Ideal)) W (Proc.devRef .tc main_arg0) = W (Proc.devRef .tc main_arg0) := by
  after_results_simp
theorem frameC_arg1 : after (Ops.opsC (F := Ideal)) W (Proc.devRef .tc main_arg1) = W (Proc.devRef .tc main_arg1) := by
  after_results_simp
theorem frameC_arg2 : after (Ops.opsC (F := Ideal)) W (Proc.devRef .tc main_arg2) = W (Proc.devRef .tc main_arg2) := by
  after_results_simp
theorem frameC_arg3 : after (Ops.opsC (F := Ideal)) W (Proc.devRef .tc main_arg3) = W (Proc.devRef .tc main_arg3) := by
  after_results_simp
theorem frameC_arg4 : after (Ops.opsC (F := Ideal)) W (Proc.devRef .tc main_arg4) = W (Proc.devRef .tc main_arg4) := by
  after_results_simp
theorem frameC_arg5 : after (Ops.opsC (F := Ideal)) W (Proc.devRef .tc main_arg5) = W (Proc.devRef .tc main_arg5) := by
  after_results_simp
theorem frameC_arg6 : after (Ops.opsC (F := Ideal)) W (Proc.devRef .tc main_arg6) = W (Proc.devRef .tc main_arg6) := by
  after_results_simp
theorem frameC_arg7 : after (Ops.opsC (F := Ideal)) W (Proc.devRef .tc main_arg7) = W (Proc.devRef .tc main_arg7) := by
  after_results_simp
theorem frameC_arg8 : after (Ops.opsC (F := Ideal)) W (Proc.devRef .tc main_arg8) = W (Proc.devRef .tc main_arg8) := by
  after_results_simp
theorem frameC_arg9 : after (Ops.opsC (F := Ideal)) W (Proc.devRef .tc main_arg9) = W (Proc.devRef .tc main_arg9) := by
  after_results_simp
theorem frameC_arg10 : after (Ops.opsC (F := Ideal)) W (Proc.devRef .tc main_arg10) = W (Proc.devRef .tc main_arg10) := by
  after_results_simp
theorem frameC_arg11 : after (Ops.opsC (F := Ideal)) W (Proc.devRef .tc main_arg11) = W (Proc.devRef .tc main_arg11) := by
  after_results_simp
theorem frameC_arg12 : after (Ops.opsC (F := Ideal)) W (Proc.devRef .tc main_arg12) = W (Proc.devRef .tc main_arg12) := by
  after_results_simp
theorem frameC_v46 : after (Ops.opsC (F := Ideal)) W (Proc.devRef .tc main_v46) = W (Proc.devRef .tc main_v46) := by
  after_results_simp

theorem frameD_arg0 : after (Ops.opsD (F := Ideal)) W (Proc.devRef .tc main_arg0) = W (Proc.devRef .tc main_arg0) := by
  after_results_simp
theorem frameD_arg1 : after (Ops.opsD (F := Ideal)) W (Proc.devRef .tc main_arg1) = W (Proc.devRef .tc main_arg1) := by
  after_results_simp
theorem frameD_arg2 : after (Ops.opsD (F := Ideal)) W (Proc.devRef .tc main_arg2) = W (Proc.devRef .tc main_arg2) := by
  after_results_simp
theorem frameD_arg3 : after (Ops.opsD (F := Ideal)) W (Proc.devRef .tc main_arg3) = W (Proc.devRef .tc main_arg3) := by
  after_results_simp
theorem frameD_arg4 : after (Ops.opsD (F := Ideal)) W (Proc.devRef .tc main_arg4) = W (Proc.devRef .tc main_arg4) := by
  after_results_simp
theorem frameD_arg5 : after (Ops.opsD (F := Ideal)) W (Proc.devRef .tc main_arg5) = W (Proc.devRef .tc main_arg5) := by
  after_results_simp
theorem frameD_arg6 : after (Ops.opsD (F := Ideal)) W (Proc.devRef .tc main_arg6) = W (Proc.devRef .tc main_arg6) := by
  after_results_simp
theorem frameD_arg7 : after (Ops.opsD (F := Ideal)) W (Proc.devRef .tc main_arg7) = W (Proc.devRef .tc main_arg7) := by
  after_results_simp
theorem frameD_arg8 : after (Ops.opsD (F := Ideal)) W (Proc.devRef .tc main_arg8) = W (Proc.devRef .tc main_arg8) := by
  after_results_simp
theorem frameD_arg9 : after (Ops.opsD (F := Ideal)) W (Proc.devRef .tc main_arg9) = W (Proc.devRef .tc main_arg9) := by
  after_results_simp
theorem frameD_arg10 : after (Ops.opsD (F := Ideal)) W (Proc.devRef .tc main_arg10) = W (Proc.devRef .tc main_arg10) := by
  after_results_simp
theorem frameD_arg11 : after (Ops.opsD (F := Ideal)) W (Proc.devRef .tc main_arg11) = W (Proc.devRef .tc main_arg11) := by
  after_results_simp
theorem frameD_arg12 : after (Ops.opsD (F := Ideal)) W (Proc.devRef .tc main_arg12) = W (Proc.devRef .tc main_arg12) := by
  after_results_simp
theorem frameD_v70 : after (Ops.opsD (F := Ideal)) W (Proc.devRef .tc main_v70) = W (Proc.devRef .tc main_v70) := by
  after_results_simp
theorem frameD_v46 : after (Ops.opsD (F := Ideal)) W (Proc.devRef .tc main_v46) = W (Proc.devRef .tc main_v46) := by
  after_results_simp

end Frame

end Cert.ReferenceIdeal.Head

end
-- ==== Proof.RefValue.lean ====
/-
  The reference program's two results as functions of its argument arrays. Its host operations run in four
  stretches: the convolution (gathered source rows summed per destination, divided by the in-degree, two dense
  layers, the rectifier), the normalisation of every node's row and the sum of the normalised rows per graph, and the
  head's two passes, the second followed by the row-wise log-softmax. Each stretch's result read at an index is its
  stage of the formula over the contents the stretch starts from; no stretch writes an argument or an earlier
  stage's result, so chaining the four gives the formula of the side that normalises row by row, over the record of
  the argument arrays.
-/
import proofs.«416988_j64106681860685_3_alg».proof.Proof.RefRun
import proofs.«416988_j64106681860685_3_alg».proof.Proof.RefConv
import proofs.«416988_j64106681860685_3_alg».proof.Proof.RefPool
import proofs.«416988_j64106681860685_3_alg».proof.Proof.RefHead
import proofs.«416988_j64106681860685_3_alg».proof.Proof.RefInputs

noncomputable section

namespace Cert.ReferenceIdeal.Val

open Cert.ReferenceIdeal Idealize.ShloMosaic Idealize.ShloMosaic.TcCoe Idealize.SL.Sem Idealize.ShloMosaic.ValueIdx
open Idealize.ShloMosaic.StableHlo Cert.Spec

variable (m : Inp.Mem) (c : Dev nD)

/-- The buffer contents at launch and after each of the first three stretches. -/
abbrev W0 : Valuation τ sig (Elt Ideal) := launchContents m c
abbrev W1 : Valuation τ sig (Elt Ideal) := after (Ops.opsA (F := Ideal)) (W0 m c)
abbrev W2 : Valuation τ sig (Elt Ideal) := after (Ops.opsB (F := Ideal)) (W1 m c)
abbrev W3 : Valuation τ sig (Elt Ideal) := after (Ops.opsC (F := Ideal)) (W2 m c)

/-- A buffer no stretch so far has written holds its launch contents. -/
theorem W1_keeps {r : Ref sig .tc} (hA : r ∉ Run.WA) :
    W1 m c (Proc.devRef .tc r) = m ((c.tc : Thread nD τ).loc r) :=
  Run.opsA_keeps hA (W0 m c)
theorem W2_keeps {r : Ref sig .tc} (hA : r ∉ Run.WA) (hB : r ∉ Run.WB) :
    W2 m c (Proc.devRef .tc r) = m ((c.tc : Thread nD τ).loc r) :=
  (Run.opsB_keeps hB (W1 m c)).trans (W1_keeps m c hA)
theorem W3_keeps {r : Ref sig .tc} (hA : r ∉ Run.WA) (hB : r ∉ Run.WB) (hC : r ∉ Run.WC) :
    W3 m c (Proc.devRef .tc r) = m ((c.tc : Thread nD τ).loc r) :=
  (Run.opsC_keeps hC (W2 m c)).trans (W2_keeps m c hA hB)

/-- After the first stretch: the rectified rows. -/
theorem act_at (i : Fin 100000) (h : Fin 256) :
    (W1 m c (Proc.devRef .tc main_v24) : FVec Ideal S100000x256 .f32) (ix2 i h) = (Inp.inputs m c).actR i h :=
  (Conv.conv_read (W0 m c) i h).trans rfl

/-- After the second stretch: the normalised rows summed per graph. -/
theorem pooled_at (g : Fin 64) (h : Fin 256) :
    (W2 m c (Proc.devRef .tc main_v46) : FVec Ideal S64x256 .f32) (ix2 g h)
      = R.pooled (Inp.inputs m c).gid (Inp.inputs m c).gc (Inp.inputs m c).bc (Inp.inputs m c).actR g h :=
  Pool.pool_read_of (W1 m c) (Inp.inputs m c).gid (Inp.inputs m c).gc (Inp.inputs m c).bc (Inp.inputs m c).actR
    (fun i k => act_at m c i k)
    (fun i => congrArg BitVec.toInt (congrFun (W1_keeps m c (r := main_arg12) (by decide)) (ix1 i)))
    (fun k => congrFun (W1_keeps m c (r := main_arg4) (by decide)) (ix1 k))
    (fun k => congrFun (W1_keeps m c (r := main_arg5) (by decide)) (ix1 k)) g h

/-- After the third stretch: the head's first pass. -/
theorem p_at (g : Fin 64) (h : Fin 256) :
    (W3 m c (Proc.devRef .tc main_v70) : FVec Ideal S64x256 .f32) (ix2 g h) = (Inp.inputs m c).pR g h := by
  refine (Head.head1_read (W2 m c) g h).trans ?_
  have e6 : (fun (k h : Fin 256) => (W2 m c (Proc.devRef .tc main_arg6) : FVec Ideal S256x256 .f32) (ix2 k h))
      = (Inp.inputs m c).Wlp := by
    funext k h; exact congrFun (W2_keeps m c (r := main_arg6) (by decide) (by decide)) (ix2 k h)
  have e7 : (fun (h : Fin 256) => (W2 m c (Proc.devRef .tc main_arg7) : FVec Ideal S256 .f32) (ix1 h))
      = (Inp.inputs m c).blp := by
    funext h; exact congrFun (W2_keeps m c (r := main_arg7) (by decide) (by decide)) (ix1 h)
  have e8 : (fun (h : Fin 256) => (W2 m c (Proc.devRef .tc main_arg8) : FVec Ideal S256 .f32) (ix1 h))
      = (Inp.inputs m c).glp := by
    funext h; exact congrFun (W2_keeps m c (r := main_arg8) (by decide) (by decide)) (ix1 h)
  have e9 : (fun (h : Fin 256) => (W2 m c (Proc.devRef .tc main_arg9) : FVec Ideal S256 .f32) (ix1 h))
      = (Inp.inputs m c).betalp := by
    funext h; exact congrFun (W2_keeps m c (r := main_arg9) (by decide) (by decide)) (ix1 h)
  have ex : (fun (g : Fin 64) (k : Fin 256) => (W2 m c (Proc.devRef .tc main_v46) : FVec Ideal S64x256 .f32) (ix2 g k))
      = R.pooled (Inp.inputs m c).gid (Inp.inputs m c).gc (Inp.inputs m c).bc (Inp.inputs m c).actR := by
    funext g k; exact pooled_at m c g k
  rw [e6, e7, e8, e9, ex]
  rfl

/-- The result after one pass of the head, as the run leaves it, at an index. -/
theorem p_apply (g : Fin 64) (h : Fin 256) :
    (after (Ops.ops (F := Ideal)) (launchContents m c) (Proc.devRef .tc main_v70) : FVec Ideal S64x256 .f32) (ix2 g h)
      = (Inp.inputs m c).pR g h := by
  rw [Run.after_ops_v70]
  exact p_at m c g h

/-- The log-softmax result, as the run leaves it, at an index. -/
theorem out_apply (g : Fin 64) (h : Fin 256) :
    (after (Ops.ops (F := Ideal)) (launchContents m c) (Proc.devRef .tc main_v95) : FVec Ideal S64x256 .f32) (ix2 g h)
      = (Inp.inputs m c).logsmR g h := by
  rw [Run.after_ops]
  refine (Head.head2_read (W3 m c) g h).trans ?_
  have e6 : (fun (k h : Fin 256) => (W3 m c (Proc.devRef .tc main_arg6) : FVec Ideal S256x256 .f32) (ix2 k h))
      = (Inp.inputs m c).Wlp := by
    funext k h; exact congrFun (W3_keeps m c (r := main_arg6) (by decide) (by decide) (by decide)) (ix2 k h)
  have e7 : (fun (h : Fin 256) => (W3 m c (Proc.devRef .tc main_arg7) : FVec Ideal S256 .f32) (ix1 h))
      = (Inp.inputs m c).blp := by
    funext h; exact congrFun (W3_keeps m c (r := main_arg7) (by decide) (by decide) (by decide)) (ix1 h)
  have e8 : (fun (h : Fin 256) => (W3 m c (Proc.devRef .tc main_arg8) : FVec Ideal S256 .f32) (ix1 h))
      = (Inp.inputs m c).glp := by
    funext h; exact congrFun (W3_keeps m c (r := main_arg8) (by decide) (by decide) (by decide)) (ix1 h)
  have e9 : (fun (h : Fin 256) => (W3 m c (Proc.devRef .tc main_arg9) : FVec Ideal S256 .f32) (ix1 h))
      = (Inp.inputs m c).betalp := by
    funext h; exact congrFun (W3_keeps m c (r := main_arg9) (by decide) (by decide) (by decide)) (ix1 h)
  have ex : (fun (g : Fin 64) (k : Fin 256) => (W3 m c (Proc.devRef .tc main_v70) : FVec Ideal S64x256 .f32) (ix2 g k))
      = (Inp.inputs m c).pR := by
    funext g k; exact p_at m c g k
  rw [e6, e7, e8, e9, ex]
  rfl

end Cert.ReferenceIdeal.Val

end
-- ==== Proof.Agree.lean ====
/-
  The two programs read the same argument arrays. From memories that agree on the thirteen arguments, the record of
  argument arrays the reference's formulas are written over is the record the kernel's are written over: the float
  arrays and the two integer arrays are the same arrays, and the array of source rows is the same gather of the same
  feature array at the same edge sources (the two programs' copies of the shapes and of the gather's dimension
  record are the same data; their side conditions are propositions).
-/
import proofs.«416988_j64106681860685_3_alg».proof.Proof.KernelInputs
import proofs.«416988_j64106681860685_3_alg».proof.Proof.RefInputs

noncomputable section

namespace Cert.Agree

open Idealize.ShloMosaic Idealize.ShloMosaic.TcCoe Idealize.SL.Sem

/-- The array of source rows is the same function of the feature array and the edge sources in both programs. -/
theorem msgArr_eq (feat : FVec Ideal Cert.KernelIdeal.S100000x128 .f32) (src : IVec Cert.KernelIdeal.S1000000 32) :
    Cert.ReferenceIdeal.Inp.msgArr feat src = Cert.KernelIdeal.Inp.msgArr feat src := rfl

theorem inputs_agree (m : Cert.KernelIdeal.Inp.Mem) (m' : Cert.ReferenceIdeal.Inp.Mem) (c : Dev Cert.KernelIdeal.nD)
    (h :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Inp.inputs m' c = Cert.KernelIdeal.Inp.inputs m c := by
  obtain ⟨h0, h1, h2, h3, h4, h5, h6, h7, h8, h9, h10, h11, h12⟩ := h
  unfold Cert.ReferenceIdeal.Inp.inputs Cert.KernelIdeal.Inp.inputs
  rw [h0, h1, h2, h3, h4, h5, h6, h7, h8, h9, h10, h11, h12]
  simp only [msgArr_eq]

end Cert.Agree

end
-- ==== Proof.LibRealValued.lean ====
/-
  Arrays of extended reals that hold only real numbers.

  At the ideal values a float is an extended real, and an algebraic identity between two ways of
  computing a softmax holds for REAL logits only (at an infinite logit a difference of infinities is a
  convention, not a number). This file names the property "every entry is a real number" and proves
  that each operation a graph-convolution network is made of keeps it: sums, differences, products and
  maxima of entries, constants, re-indexings (broadcasts, shape casts, transposes, gathers), scattered
  sums, contractions, integers read as floats, and the inverse square root of a node's degree.
-/
import Idealize.ShloMosaic.PureOps.Ideal
import Idealize.ShloMosaic.PureOps.Ideal.Laws
import Idealize.ShloMosaic.PureOps.Contract
import Idealize.ShloMosaic.PureOps.ShapeOps
import Idealize.ShloMosaic.Lib.IdealHost

namespace RealValued

open Idealize.ShloMosaic
open scoped BigOperators

/-! ## The property -/

/-- An array of extended reals every entry of which is a real number. -/
def IsReal {ι : Type*} (v : ι → EReal) : Prop := ∀ i, ∃ r : ℝ, v i = (r : EReal)

/-- An array is real-valued exactly when no entry is an infinity. -/
theorem isReal_iff_ne {ι : Type*} (v : ι → EReal) : IsReal v ↔ ∀ i, v i ≠ ⊤ ∧ v i ≠ ⊥ := by
  constructor
  · intro h i
    obtain ⟨r, hr⟩ := h i
    rw [hr]
    exact ⟨EReal.coe_ne_top r, EReal.coe_ne_bot r⟩
  · intro h i
    exact ⟨(v i).toReal, (EReal.coe_toReal (h i).1 (h i).2).symm⟩

/-- What a finiteness precondition gives: an array with no infinite entry is real-valued. -/
theorem isReal_of_finite {ι : Type*} {x : ι → EReal} (h : ∀ i, x i ≠ ⊤ ∧ x i ≠ ⊥) : IsReal x :=
  (isReal_iff_ne x).mpr h

/-- An entry of a real-valued array is not `⊤`. -/
theorem IsReal.ne_top {ι : Type*} {v : ι → EReal} (h : IsReal v) (i : ι) : v i ≠ ⊤ :=
  ((isReal_iff_ne v).mp h i).1

/-- An entry of a real-valued array is not `⊥`. -/
theorem IsReal.ne_bot {ι : Type*} {v : ι → EReal} (h : IsReal v) (i : ι) : v i ≠ ⊥ :=
  ((isReal_iff_ne v).mp h i).2

/-- An entry of a real-valued array is the embedding of its real part. -/
theorem IsReal.coe_toReal {ι : Type*} {v : ι → EReal} (h : IsReal v) (i : ι) : ((v i).toReal : EReal) = v i :=
  EReal.coe_toReal (h.ne_top i) (h.ne_bot i)

/-- An array whose absolute values `max a (-a)` all lie below `⊤` is real-valued: `|a| < ⊤` excludes both
    infinities, since `|⊤| = |⊥| = ⊤`. -/
theorem isReal_of_abs_lt_top {ι : Type*} {x : ι → EReal} (h : ∀ i, max (x i) (-(x i)) < ⊤) : IsReal x := by
  refine isReal_of_finite fun i => ⟨?_, ?_⟩
  · intro e; have := h i; rw [e] at this; simp at this
  · intro e; have := h i; rw [e] at this; simp at this

/-! ## Real numbers are closed under the field operations and the lattice operations -/

/-- The sum of two real numbers is a real number. -/
theorem real_add {a b : EReal} (ha : ∃ r : ℝ, a = (r : EReal)) (hb : ∃ r : ℝ, b = (r : EReal)) :
    ∃ r : ℝ, a + b = (r : EReal) := by
  obtain ⟨p, rfl⟩ := ha; obtain ⟨q, rfl⟩ := hb
  exact ⟨p + q, (EReal.coe_add p q).symm⟩

/-- The difference of two real numbers is a real number. -/
theorem real_sub {a b : EReal} (ha : ∃ r : ℝ, a = (r : EReal)) (hb : ∃ r : ℝ, b = (r : EReal)) :
    ∃ r : ℝ, a - b = (r : EReal) := by
  obtain ⟨p, rfl⟩ := ha; obtain ⟨q, rfl⟩ := hb
  exact ⟨p - q, (EReal.coe_sub p q).symm⟩

/-- The product of two real numbers is a real number. -/
theorem real_mul {a b : EReal} (ha : ∃ r : ℝ, a = (r : EReal)) (hb : ∃ r : ℝ, b = (r : EReal)) :
    ∃ r : ℝ, a * b = (r : EReal) := by
  obtain ⟨p, rfl⟩ := ha; obtain ⟨q, rfl⟩ := hb
  exact ⟨p * q, (EReal.coe_mul p q).symm⟩

/-- The negation of a real number is a real number. -/
theorem real_neg {a : EReal} (ha : ∃ r : ℝ, a = (r : EReal)) : ∃ r : ℝ, -a = (r : EReal) := by
  obtain ⟨p, rfl⟩ := ha
  exact ⟨-p, (EReal.coe_neg p).symm⟩

/-- The greater of two real numbers is a real number. -/
theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

/-- The lesser of two real numbers is a real number. -/
theorem real_min {a b : EReal} (ha : ∃ r : ℝ, a = (r : EReal)) (hb : ∃ r : ℝ, b = (r : EReal)) :
    ∃ r : ℝ, min a b = (r : EReal) := by
  rcases le_total a b with h | h
  · rw [min_eq_left h]; exact ha
  · rw [min_eq_right h]; exact hb

/-- A finite sum of real numbers is a real number (induction on the index set: the empty sum is `0`, and a
    sum of two reals is real). -/
theorem isReal_sum {κ : Type*} (s : Finset κ) (f : κ → EReal) (h : ∀ k ∈ s, ∃ r : ℝ, f k = (r : EReal)) :
    ∃ r : ℝ, ∑ k ∈ s, f k = (r : EReal) :=
  Finset.sum_induction f (fun a => ∃ r : ℝ, a = (r : EReal)) (fun _ _ => real_add) ⟨0, rfl⟩ h

/-- The same over a whole finite type. -/
theorem isReal_sum_univ {κ : Type*} [Fintype κ] (f : κ → EReal) (h : ∀ k, ∃ r : ℝ, f k = (r : EReal)) :
    ∃ r : ℝ, ∑ k, f k = (r : EReal) :=
  isReal_sum Finset.univ f fun k _ => h k

/-! ## The elementwise operations -/

section Elementwise
variable {s : Shape} {φ : FTy}

/-- The elementwise sum of two real-valued arrays is real-valued. -/
theorem isReal_addf {x y : FVec Ideal s φ} (hx : IsReal x) (hy : IsReal y) : IsReal (addf (F := Ideal) x y) :=
  fun i => real_add (hx i) (hy i)

/-- The elementwise difference of two real-valued arrays is real-valued. -/
theorem isReal_subf {x y : FVec Ideal s φ} (hx : IsReal x) (hy : IsReal y) : IsReal (subf (F := Ideal) x y) :=
  fun i => real_sub (hx i) (hy i)

/-- The elementwise product of two real-valued arrays is real-valued. -/
theorem isReal_mulf {x y : FVec Ideal s φ} (hx : IsReal x) (hy : IsReal y) : IsReal (mulf (F := Ideal) x y) :=
  fun i => real_mul (hx i) (hy i)

/-- The elementwise maximum of two real-valued arrays is real-valued. -/
theorem isReal_maximumf {x y : FVec Ideal s φ} (hx : IsReal x) (hy : IsReal y) :
    IsReal (maximumf (F := Ideal) x y) :=
  fun i => real_max (hx i) (hy i)

/-- The elementwise minimum of two real-valued arrays is real-valued. -/
theorem isReal_minimumf {x y : FVec Ideal s φ} (hx : IsReal x) (hy : IsReal y) :
    IsReal (minimumf (F := Ideal) x y) :=
  fun i => real_min (hx i) (hy i)

/-- The elementwise negation of a real-valued array is real-valued. -/
theorem isReal_negf {x : FVec Ideal s φ} (hx : IsReal x) : IsReal (negf (F := Ideal) x) :=
  fun i => real_neg (hx i)

/-- The host's elementwise negation of a real-valued array is real-valued. -/
theorem isReal_hostNegf {x : FVec Ideal s φ} (hx : IsReal x) : IsReal (Host.negf (F := Ideal) x) :=
  fun i => real_neg (hx i)

end Elementwise

/-! ## Constants -/

section Constants
variable {s : Shape} {φ : FTy}

/-- A constant array whose bit pattern denotes a real number is real-valued. -/
theorem isReal_const_of {w : BitVec φ.bits} {r : ℝ} (h : Ideal.ofBits φ w = (r : EReal)) :
    IsReal (constant (F := Ideal) s φ w) :=
  fun _ => ⟨r, h⟩

/-- The f32 pattern of `4096.0` (sign 0, exponent 139, fraction 0: `2 ^ 12`) denotes the real `4096`. -/
theorem ofBits_4096_f32 : Ideal.ofBits .f32 0x45800000#32 = ((4096 : ℝ) : EReal) := by
  simp [Ideal.ofBits, Ideal.ieee, -EReal.coe_mul]; norm_num

/-- The f32 pattern `0x358637BD` (the float nearest `1e-6`: sign 0, exponent 107, fraction `0x0637BD`)
    denotes the real `(2 ^ 23 + 407485) · 2 ^ (-43)`. -/
theorem ofBits_1em6_f32 :
    Ideal.ofBits .f32 0x358637BD#32 = (((8796093 : ℝ) * (2 : ℝ) ^ (-43 : ℤ) : ℝ) : EReal) := by
  simp [Ideal.ofBits, Ideal.ieee, -EReal.coe_mul]

/-- The constant `0.0` array is real-valued. -/
theorem isReal_const_zero : IsReal (constant (F := Ideal) s .f32 0x00000000#32) :=
  isReal_const_of (r := 0) Ideal.ofBits_zero_f32

/-- The constant `1.0` array is real-valued. -/
theorem isReal_const_one : IsReal (constant (F := Ideal) s .f32 0x3F800000#32) :=
  isReal_const_of (r := 1) Ideal.ofBits_one_f32

/-- The constant `4096.0` array is real-valued. -/
theorem isReal_const_4096 : IsReal (constant (F := Ideal) s .f32 0x45800000#32) :=
  isReal_const_of ofBits_4096_f32

/-- The constant array of the float nearest `1e-6` is real-valued. -/
theorem isReal_const_1em6 : IsReal (constant (F := Ideal) s .f32 0x358637BD#32) :=
  isReal_const_of ofBits_1em6_f32

/-- Every entry of the constant `1.0` array is `1`. -/
theorem const_one_apply (i : s.Idx) : constant (F := Ideal) s .f32 0x3F800000#32 i = 1 :=
  Ideal.ofBits_one_f32

/-- Every entry of the constant `0.0` array is `0`. -/
theorem const_zero_apply (i : s.Idx) : constant (F := Ideal) s .f32 0x00000000#32 i = 0 :=
  Ideal.ofBits_zero_f32

end Constants

/-! ## Re-indexings: every entry of the result is an entry of the operand -/

section Reindex
variable {s t : Shape}

/-- An array read through any map of indices is real-valued when the array is. -/
theorem isReal_comp {ι κ : Type*} {x : ι → EReal} (hx : IsReal x) (f : κ → ι) : IsReal fun j => x (f j) :=
  fun j => hx (f j)

/-- A broadcast along dimensions of a real-valued array is real-valued. -/
theorem isReal_broadcastInDim {dims : Fin s.rank → Fin t.rank} {h : s.BroadcastsInDim t dims} {x : s.Idx → EReal}
    (hx : IsReal x) : IsReal (broadcastInDim t dims h x) :=
  fun _ => hx _

/-- The splat of a real number is real-valued. -/
theorem isReal_broadcast {a : EReal} (ha : ∃ r : ℝ, a = (r : EReal)) : IsReal (broadcast t a) :=
  fun _ => ha

/-- A trailing-axes broadcast of a real-valued array is real-valued. -/
theorem isReal_broadcastTo {h : s.Broadcasts t} {x : s.Idx → EReal} (hx : IsReal x) : IsReal (broadcastTo t x h) :=
  fun _ => hx _

/-- A shape cast (a reshape: the same entries in row-major order) of a real-valued array is real-valued. -/
theorem isReal_shapeCast {h : s.ShapeCasts t} {x : s.Idx → EReal} (hx : IsReal x) : IsReal (shapeCast t x h) :=
  fun _ => hx _

/-- A transpose of a real-valued array is real-valued. -/
theorem isReal_transpose {perm : List (Fin s.rank)} {h : s.Transposes perm t} {x : s.Idx → EReal} (hx : IsReal x) :
    IsReal (transpose t perm x h) :=
  fun _ => hx _

/-- A gather from a real-valued array is real-valued: each result entry is the operand's at an index. -/
theorem isReal_gather {si : Shape} {w : Nat} (d : GatherDims s si t) {x : s.Idx → EReal} (idx : IVec si w)
    (hx : IsReal x) : IsReal (Host.gather d x idx) :=
  fun _ => hx _

end Reindex

/-! ## Scattered sums, contractions, integers -/

section Sums
variable {s : Shape} {φ : FTy}

/-- An accumulating scatter of real-valued updates into a real-valued operand is real-valued: each entry is the
    operand's plus a finite sum of update entries. -/
theorem isReal_scatterAdd {si su : Shape} {w : Nat} (d : ScatterDims s si su) {x : FVec Ideal s φ} (idx : IVec si w)
    {u : FVec Ideal su φ} (hx : IsReal x) (hu : IsReal u) : IsReal (Host.scatterAdd (F := Ideal) d x idx u) :=
  fun i => real_add (hx i) (isReal_sum _ _ fun j _ => hu j)

/-- A contraction (`dot_general`) of two real-valued arrays is real-valued: each entry is a finite sum of products. -/
theorem isReal_dotGeneral {sl sr so : Shape} {φ₁ φ₂ : FTy} (d : DotDims sl sr so) (prec : Option ContractPrecision)
    {x : FVec Ideal sl φ₁} {w : FVec Ideal sr φ₂} (hx : IsReal x) (hw : IsReal w) :
    IsReal (Host.dotGeneral (F := Ideal) d prec x w) := by
  intro j
  show ∃ r : ℝ, FloatOps.dotGeneral d prec .single x w j = (r : EReal)
  rw [Ideal.dotGeneral_apply]
  exact isReal_sum_univ _ fun k => real_mul (hx _) (hw _)

/-- The same at any schedule key. -/
theorem isReal_dotGeneralAt (sched : HostSchedule) {sl sr so : Shape} {φ₁ φ₂ : FTy} (d : DotDims sl sr so)
    (prec : Option ContractPrecision) {x : FVec Ideal sl φ₁} {w : FVec Ideal sr φ₂} (hx : IsReal x) (hw : IsReal w) :
    IsReal (Host.dotGeneralAt (F := Ideal) sched d prec x w) := by
  intro j
  show ∃ r : ℝ, FloatOps.dotGeneral d prec sched x w j = (r : EReal)
  rw [Ideal.dotGeneral_apply]
  exact isReal_sum_univ _ fun k => real_mul (hx _) (hw _)

/-- A kernel's matrix product of real-valued operands onto a real-valued accumulator is real-valued: each entry is
    the accumulator's plus a finite sum of products. -/
theorem isReal_matmul {sl sr so : Shape} {φ₁ φ₂ : FTy} (d : DotDims sl sr so) (prec : Option ContractPrecision)
    {x : FVec Ideal sl φ₁} {w : FVec Ideal sr φ₂} {acc : FVec Ideal so .f32} (hx : IsReal x) (hw : IsReal w)
    (hacc : IsReal acc) : IsReal (matmul (F := Ideal) d prec x w acc) := by
  intro j
  show ∃ r : ℝ, FloatOps.matmul d prec x w acc j = (r : EReal)
  rw [Ideal.matmul_apply]
  exact real_add (hacc j) (isReal_sum_univ _ fun k => real_mul (hx _) (hw _))

/-- A signed integer array read as floats is real-valued: each entry is the integer's value. -/
theorem isReal_sitofp {w : Nat} (v : IVec s w) : IsReal (sitofp (F := Ideal) φ v) :=
  fun i => ⟨((v i).toInt : ℝ), rfl⟩

/-- An unsigned integer array read as floats is real-valued. -/
theorem isReal_uitofp {w : Nat} (v : IVec s w) : IsReal (uitofp (F := Ideal) φ v) :=
  fun i => ⟨((v i).toNat : ℝ), rfl⟩

end Sums

/-! ## Positive arrays, and the inverse square root of a degree -/

section Degree
variable {s : Shape} {φ : FTy}

/-- An array every entry of which is a positive real number. -/
def IsPos {ι : Type*} (v : ι → EReal) : Prop := ∀ i, ∃ r : ℝ, 0 < r ∧ v i = (r : EReal)

/-- A positive array is real-valued. -/
theorem IsPos.isReal {ι : Type*} {v : ι → EReal} (h : IsPos v) : IsReal v :=
  fun i => let ⟨r, _, hr⟩ := h i; ⟨r, hr⟩

/-- The inverse square root of a positive real number `r` is the positive real number `(√r)⁻¹`. -/
theorem rsqrt_of_pos {a : EReal} (ha : ∃ r : ℝ, 0 < r ∧ a = (r : EReal)) :
    ∃ r : ℝ, 0 < r ∧ Ideal.rsqrt a = (r : EReal) := by
  obtain ⟨r, hr, rfl⟩ := ha
  refine ⟨(Real.sqrt r)⁻¹, inv_pos.mpr (Real.sqrt_pos.mpr hr), ?_⟩
  rw [Ideal.rsqrt_coe, if_neg (not_lt.mpr hr.le), if_neg hr.ne']

/-- The host's elementwise inverse square root of a positive array is positive. -/
theorem isPos_rsqrt {x : FVec Ideal s φ} (hx : IsPos x) : IsPos (Host.rsqrt (F := Ideal) x) :=
  fun i => rsqrt_of_pos (hx i)

/-- The host's elementwise inverse square root of a positive array is real-valued. -/
theorem isReal_rsqrt_of_pos {x : FVec Ideal s φ} (hx : IsPos x) : IsReal (Host.rsqrt (F := Ideal) x) :=
  (isPos_rsqrt hx).isReal

/-- The kernel-side elementwise inverse square root of a positive array is positive. -/
theorem isPos_rsqrt' {x : FVec Ideal s φ} (hx : IsPos x) : IsPos (rsqrt (F := Ideal) x) :=
  fun i => rsqrt_of_pos (hx i)

/-- The product of two positive arrays is positive. -/
theorem isPos_mulf {x y : FVec Ideal s φ} (hx : IsPos x) (hy : IsPos y) : IsPos (mulf (F := Ideal) x y) := by
  intro i
  obtain ⟨p, hp, hpx⟩ := hx i; obtain ⟨q, hq, hqy⟩ := hy i
  refine ⟨p * q, mul_pos hp hq, ?_⟩
  show x i * y i = _
  rw [hpx, hqy, EReal.coe_mul]

/-- A gather from a positive array is positive. -/
theorem isPos_gather {t si : Shape} {w : Nat} (d : GatherDims s si t) {x : s.Idx → EReal} (idx : IVec si w)
    (hx : IsPos x) : IsPos (Host.gather d x idx) :=
  fun _ => hx _

/-- A broadcast along dimensions of a positive array is positive. -/
theorem isPos_broadcastInDim {t : Shape} {dims : Fin s.rank → Fin t.rank} {h : s.BroadcastsInDim t dims}
    {x : s.Idx → EReal} (hx : IsPos x) : IsPos (broadcastInDim t dims h x) :=
  fun _ => hx _

/-- A degree count: scattering ones onto an array of ones leaves at each entry `1 + n`, `n` the number of updates
    that land there. -/
theorem scatterAdd_ones_apply {si su : Shape} (d : ScatterDims s si su) {w : Nat} (idx : IVec si w)
    (one : FVec Ideal s φ) (ones : FVec Ideal su φ) (h1 : ∀ i, one i = 1) (h2 : ∀ j, ones j = 1) (i : s.Idx) :
    Host.scatterAdd (F := Ideal) d one idx ones i
      = ((1 + ((Finset.univ.filter fun j => d.resultIdx? j idx = some i).card : ℝ) : ℝ) : EReal) := by
  show one i + ∑ j ∈ Finset.univ.filter (fun j => d.resultIdx? j idx = some i), ones j = _
  rw [h1 i, Finset.sum_congr rfl (fun j _ => h2 j), Finset.sum_const, nsmul_one, EReal.coe_add, EReal.coe_one,
    EReal.coe_natCast]

/-- A degree count is positive: each entry is a real number at least `1`. -/
theorem isPos_scatterAdd_ones {si su : Shape} (d : ScatterDims s si su) {w : Nat} (idx : IVec si w)
    (one : FVec Ideal s φ) (ones : FVec Ideal su φ) (h1 : ∀ i, one i = 1) (h2 : ∀ j, ones j = 1) :
    IsPos (Host.scatterAdd (F := Ideal) d one idx ones) := fun i =>
  ⟨_, by positivity, scatterAdd_ones_apply d idx one ones h1 h2 i⟩

/-- The inverse square root of a degree count is positive: each entry is `(√(1 + n))⁻¹`. -/
theorem isPos_rsqrt_degree {si su : Shape} (d : ScatterDims s si su) {w : Nat} (idx : IVec si w)
    (one : FVec Ideal s φ) (ones : FVec Ideal su φ) (h1 : ∀ i, one i = 1) (h2 : ∀ j, ones j = 1) :
    IsPos (Host.rsqrt (F := Ideal) (Host.scatterAdd d one idx ones)) :=
  isPos_rsqrt (isPos_scatterAdd_ones d idx one ones h1 h2)

/-- The inverse square root of a degree count is real-valued. -/
theorem isReal_rsqrt_degree {si su : Shape} (d : ScatterDims s si su) {w : Nat} (idx : IVec si w)
    (one : FVec Ideal s φ) (ones : FVec Ideal su φ) (h1 : ∀ i, one i = 1) (h2 : ∀ j, ones j = 1) :
    IsReal (Host.rsqrt (F := Ideal) (Host.scatterAdd d one idx ones)) :=
  (isPos_rsqrt_degree d idx one ones h1 h2).isReal

/-- A degree count with the ones spelled as broadcasts of the constant `1.0` is positive. -/
theorem isPos_scatterAdd_ones_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.scatterAdd (F := Ideal) d (broadcastInDim s dims₀ hb₀ (constant S₀ .f32 0x3F800000#32)) idx
      (broadcastInDim su dims₁ hb₁ (constant S₁ .f32 0x3F800000#32))) :=
  isPos_scatterAdd_ones d idx _ _ (fun _ => Ideal.ofBits_one_f32) (fun _ => Ideal.ofBits_one_f32)

/-- The inverse square root of a degree count so spelled is positive. -/
theorem isPos_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsPos (Host.rsqrt (F := Ideal) (Host.scatterAdd d (broadcastInDim s dims₀ hb₀ (constant S₀ .f32 0x3F800000#32)) idx
      (broadcastInDim su dims₁ hb₁ (constant S₁ .f32 0x3F800000#32)))) :=
  isPos_rsqrt_degree d idx _ _ (fun _ => Ideal.ofBits_one_f32) (fun _ => Ideal.ofBits_one_f32)

/-- … and real-valued. -/
theorem isReal_rsqrt_degree_bcast {si su S₀ S₁ : Shape} (d : ScatterDims s si su) {w : Nat} (idx : IVec si w)
    {dims₀ : Fin S₀.rank → Fin s.rank} {dims₁ : Fin S₁.rank → Fin su.rank} (hb₀ : S₀.BroadcastsInDim s dims₀)
    (hb₁ : S₁.BroadcastsInDim su dims₁) :
    IsReal (Host.rsqrt (F := Ideal) (Host.scatterAdd d (broadcastInDim s dims₀ hb₀ (constant S₀ .f32 0x3F800000#32)) idx
      (broadcastInDim su dims₁ hb₁ (constant S₁ .f32 0x3F800000#32)))) :=
  (isPos_rsqrt_degree_bcast d idx hb₀ hb₁).isReal

end Degree

/-! ## More host operations on real-valued arrays -/

section More
variable {s : Shape} {φ : FTy}

/-- A real-valued array minus itself is zero everywhere (for an infinite entry the difference is not zero). -/
theorem subf_self {x : FVec Ideal s φ} (hx : IsReal x) : subf (F := Ideal) x x = fun _ => 0 := by
  funext i
  obtain ⟨r, hr⟩ := hx i
  show x i - x i = 0
  rw [hr, ← EReal.coe_sub, sub_self, EReal.coe_zero]

/-- The host's sum over axes of a real-valued array, from a real initial value, is real-valued: each entry is the
    initial value plus a finite sum of entries. -/
theorem isReal_hostReduceAdd {t u : Shape} {axes : List (Fin s.rank)} {x : FVec Ideal s φ} {init : u.Idx → Ideal φ}
    (h : s.ReducesTo axes t) (hu : 0 < u.numel) (hx : IsReal x) (hinit : IsReal init) :
    IsReal (Host.reduceAdd (F := Ideal) x init h hu) :=
  fun _ => real_add (hinit _) (isReal_sum _ _ fun i _ => hx i)

/-- The host's quotient of a real-valued array by an array of real numbers that are not zero is real-valued. -/
theorem isReal_hostDivf {x y : FVec Ideal s φ} (hx : IsReal x) (hy : ∀ i, ∃ r : ℝ, r ≠ 0 ∧ y i = (r : EReal)) :
    IsReal (Host.divf (F := Ideal) x y) := by
  intro i
  obtain ⟨q, hq, hqy⟩ := hy i
  show ∃ r : ℝ, Ideal.div (x i) (y i) = (r : EReal)
  rw [hqy, Ideal.div_coe hq]
  exact real_mul (hx i) ⟨_, rfl⟩

/-- The host's exponential of a real-valued array is positive. -/
theorem isPos_hostExp {x : FVec Ideal s φ} (hx : IsReal x) : IsPos (Host.exp (F := Ideal) x) := by
  intro i
  obtain ⟨r, hr⟩ := hx i
  refine ⟨Real.exp r, Real.exp_pos r, ?_⟩
  show Ideal.exp (x i) = _
  rw [hr, Ideal.exp_coe]

/-- The host's exponential of a real-valued array is real-valued. -/
theorem isReal_hostExp {x : FVec Ideal s φ} (hx : IsReal x) : IsReal (Host.exp (F := Ideal) x) :=
  (isPos_hostExp hx).isReal

/-- The host's logarithm of a positive array is real-valued. -/
theorem isReal_hostLog {x : FVec Ideal s φ} (hx : IsPos x) : IsReal (Host.log (F := Ideal) x) := by
  intro i
  obtain ⟨r, hr, hrx⟩ := hx i
  refine ⟨Real.log r, ?_⟩
  show Ideal.log (x i) = _
  rw [hrx, Ideal.log_coe, if_neg (not_le.mpr hr)]

/-- The host's square root of an array of real numbers that are not negative is real-valued. -/
theorem isReal_hostSqrt {x : FVec Ideal s φ} (hx : ∀ i, ∃ r : ℝ, 0 ≤ r ∧ x i = (r : EReal)) :
    IsReal (Host.sqrt (F := Ideal) x) := by
  intro i
  obtain ⟨r, hr, hrx⟩ := hx i
  refine ⟨Real.sqrt r, ?_⟩
  show Ideal.sqrt (x i) = _
  rw [hrx, Ideal.sqrt_coe, if_neg (not_lt.mpr hr)]

end More

/-! ## A tactic for nested terms -/

/-- `real_valued` proves a goal `IsReal t` for a term `t` built from real-valued hypotheses by the operations above:
    it applies the closure lemma of the outermost operation, then works on the operands, and closes a leaf by a
    hypothesis or by a lemma about a constant or an integer array. A goal it cannot progress on is left to the caller. -/
syntax (name := realValuedTac) "real_valued" : tactic

macro_rules
  | `(tactic| real_valued) => `(tactic|
      repeat' (with_reducible first
        | assumption
        | exact isReal_const_zero
        | exact isReal_const_one
        | exact isReal_const_4096
        | exact isReal_const_1em6
        | exact isReal_sitofp _
        | exact isReal_uitofp _
        | exact isReal_rsqrt_degree_bcast _ _ _ _
        | exact IsPos.isReal (by assumption)
        | exact isPos_scatterAdd_ones_bcast _ _ _ _
        | apply isReal_addf
        | apply isReal_subf
        | apply isReal_mulf
        | apply isReal_maximumf
        | apply isReal_minimumf
        | apply isReal_negf
        | apply isReal_hostNegf
        | apply isReal_broadcastInDim
        | apply isReal_shapeCast
        | apply isReal_transpose
        | apply isReal_gather
        | apply isReal_scatterAdd
        | apply isReal_dotGeneral
        | apply isReal_matmul
        | apply isReal_hostReduceAdd
        | apply isReal_hostExp
        | apply isReal_rsqrt_of_pos
        | apply isPos_rsqrt
        | apply isPos_mulf
        | apply isPos_gather
        | apply isPos_broadcastInDim
        | apply isPos_hostExp))

/-! ## Usage -/

section Usage

/-- Small shapes standing for nodes, edges and features: `N` nodes, `E` edges, `D` features. -/
private abbrev S0 : Shape := ⟨0, ![]⟩
private abbrev SN : Shape := ⟨1, ![5]⟩
private abbrev SN1 : Shape := ⟨2, ![5, 1]⟩
private abbrev SND : Shape := ⟨2, ![5, 3]⟩
private abbrev SE : Shape := ⟨1, ![7]⟩
private abbrev SE1 : Shape := ⟨2, ![7, 1]⟩
private abbrev SED : Shape := ⟨2, ![7, 3]⟩
private abbrev SD : Shape := ⟨1, ![3]⟩
private abbrev S1D : Shape := ⟨2, ![1, 3]⟩
private abbrev SKD : Shape := ⟨2, ![4, 3]⟩
private abbrev SNK : Shape := ⟨2, ![5, 4]⟩

/-- One graph-convolution aggregation, term by term: a scattered sum of weighted gathered rows onto zeros, plus the
    weighted self term. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) :=
  isReal_addf
    (isReal_scatterAdd d idx (isReal_broadcastInDim isReal_const_zero)
      (isReal_mulf (isReal_broadcastInDim ha) (isReal_gather g idx' hx)))
    (isReal_mulf (isReal_broadcastInDim hc) hx)

/-- The same by the tactic. -/
example (d : ScatterDims SND SE1 SED) (g : GatherDims SND SE1 SED) (idx idx' : IVec SE1 32)
    (hb0 : S0.BroadcastsInDim SND ![]) (hb1 : SE1.BroadcastsInDim SED ![0, 1]) (hb2 : SN1.BroadcastsInDim SND ![0, 1])
    (a : FVec Ideal SE1 .f32) (c : FVec Ideal SN1 .f32) (x : FVec Ideal SND .f32)
    (ha : IsReal a) (hc : IsReal c) (hx : IsReal x) :
    IsReal (addf (F := Ideal)
      (Host.scatterAdd d (broadcastInDim SND ![] hb0 (constant S0 .f32 0x00000000#32)) idx
        (mulf (broadcastInDim SED ![0, 1] hb1 a) (Host.gather g x idx')))
      (mulf (broadcastInDim SND ![0, 1] hb2 c) x)) := by
  real_valued

/-- The normalisation weights of an edge: the product of the two endpoints' inverse-square-root degrees, the degree
    a scattered count of ones onto ones, the operations applied through `fun`s as a host program writes them. -/
example (d : ScatterDims SN SE1 SE) (g : GatherDims SN SE1 SE) (idx i₁ i₂ : IVec SE1 32)
    (hb0 : S0.BroadcastsInDim SN ![]) (hb1 : S0.BroadcastsInDim SE ![]) :
    IsReal (mulf (F := Ideal)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₁)
      ((fun x i => Host.gather g x i)
        (Host.rsqrt ((fun x i u => Host.scatterAdd d x i u) (broadcastInDim SN ![] hb0 (constant S0 .f32 0x3F800000#32)) idx
          (broadcastInDim SE ![] hb1 (constant S0 .f32 0x3F800000#32)))) i₂)) := by
  real_valued

/-- A dense layer with a bias and a relu: a contraction of real-valued arrays, plus a broadcast bias, against zero. -/
example (dd : DotDims SNK SKD SND) (x : FVec Ideal SNK .f32) (w : FVec Ideal SKD .f32) (b : FVec Ideal SD .f32)
    (hb0 : S0.BroadcastsInDim SND ![]) (hb1 : SD.BroadcastsInDim S1D ![1]) (hb2 : S1D.BroadcastsInDim SND ![0, 1])
    (hx : IsReal x) (hw : IsReal w) (hbias : IsReal b) :
    IsReal (maximumf (F := Ideal)
      (addf ((fun l r => Host.dotGeneral dd none l r) x w) (broadcastInDim SND ![0, 1] hb2 (broadcastInDim S1D ![1] hb1 b)))
      (broadcastInDim SND ![] hb0 (constant S0 .f32 0x00000000#32))) := by
  real_valued

/-- Labels read as floats, negated. -/
example (v : IVec SN 32) : IsReal (Host.negf (F := Ideal) (sitofp .f32 v)) := by
  real_valued

/-- A leaf the tactic does not know is left as a goal: here an input known finite by a precondition. -/
example (x y : FVec Ideal SN .f32) (hx : IsReal x) (hy : ∀ i, y i ≠ ⊤ ∧ y i ≠ ⊥) :
    IsReal (addf (F := Ideal) x (mulf y x)) := by
  real_valued
  exact isReal_of_finite hy

/-- A host program's term as such a program is written: generic in the float values, each operation applied at its
    buffers' contents types. -/
private def edgeWeights {F : FTy → Type} [FloatOps F] (d : ScatterDims SN SE1 SE) (g : GatherDims SN SE1 SE)
    (idx i₁ : IVec SE1 32) (hb0 : S0.BroadcastsInDim SN ![]) (hb1 : S0.BroadcastsInDim SE ![])
    (hbe : SE.BroadcastsInDim SE1 ![0]) (x : FVec F SE1 .f32) : FVec F SE1 .f32 :=
  (mulf : (⟨SE1, .f32⟩ : BufTy).Contents (Elt F) → (⟨SE1, .f32⟩ : BufTy).Contents (Elt F)
      → (⟨SE1, .f32⟩ : BufTy).Contents (Elt F))
    ((broadcastInDim SE1 ![0] hbe : (⟨SE, .f32⟩ : BufTy).Contents (Elt F) → (⟨SE1, .f32⟩ : BufTy).Contents (Elt F))
      (((fun x i => Host.gather g x i) : (⟨SN, .f32⟩ : BufTy).Contents (Elt F) → (⟨SE1, .i32⟩ : BufTy).Contents (Elt F)
          → (⟨SE, .f32⟩ : BufTy).Contents (Elt F))
        ((Host.rsqrt : (⟨SN, .f32⟩ : BufTy).Contents (Elt F) → (⟨SN, .f32⟩ : BufTy).Contents (Elt F))
          (((fun x i u => Host.scatterAdd d x i u) : (⟨SN, .f32⟩ : BufTy).Contents (Elt F)
              → (⟨SE1, .i32⟩ : BufTy).Contents (Elt F) → (⟨SE, .f32⟩ : BufTy).Contents (Elt F)
              → (⟨SN, .f32⟩ : BufTy).Contents (Elt F))
            ((broadcastInDim SN ![] hb0 : (⟨S0, .f32⟩ : BufTy).Contents (Elt F) → (⟨SN, .f32⟩ : BufTy).Contents (Elt F))
              (constant S0 .f32 0x3F800000#32))
            idx
            ((broadcastInDim SE ![] hb1 : (⟨S0, .f32⟩ : BufTy).Contents (Elt F) → (⟨SE, .f32⟩ : BufTy).Contents (Elt F))
              (constant S0 .f32 0x3F800000#32))))
        i₁))
    x

/-- Read at the ideal values, that term is real-valued when its input is. -/
example (d : ScatterDims SN SE1 SE) (g : GatherDims SN SE1 SE) (idx i₁ : IVec SE1 32) (hb0 : S0.BroadcastsInDim SN ![])
    (hb1 : S0.BroadcastsInDim SE ![]) (hbe : SE.BroadcastsInDim SE1 ![0]) (x : FVec Ideal SE1 .f32) (hx : IsReal x) :
    IsReal (edgeWeights (F := Ideal) d g idx i₁ hb0 hb1 hbe x) := by
  unfold edgeWeights
  real_valued

end Usage

end RealValued
-- ==== Proof.PreDecode.lean ====
/-
  What the precondition says of the argument arrays, entry by entry.

  The precondition is one bit: the conjunction, over the ten float arrays, of "every entry's absolute value lies
  strictly below plus infinity", and of "every edge destination is at least zero" (a signed comparison). Read back:
  every float entry is a real number (an extended real a with max a (-a) below the top element is neither
  infinity), and so is every entry of the array of source rows, each of which is an entry of the feature array;
  every destination, read as a signed integer, is nonnegative. On such a destination the clipping the degree count
  applies (the signed maximum with zero, then an index counted from the end if negative) does nothing.
-/
import proofs.«416988_j64106681860685_3_alg».proof.Defs
import proofs.«416988_j64106681860685_3_alg».proof.Proof.Gen.Pre_finite_inputs
import proofs.«416988_j64106681860685_3_alg».proof.Proof.KernelInputs
import proofs.«416988_j64106681860685_3_alg».proof.Proof.LibRealValued
import Idealize.ShloMosaic.Lib.ReduceAll
import Idealize.ShloMosaic.Lib.StableHlo.Predicate

noncomputable section

namespace Cert.KernelIdeal.Inp

open Cert.KernelIdeal Idealize.ShloMosaic Idealize.ShloMosaic.TcCoe Idealize.SL.Sem Idealize.ShloMosaic.ValueIdx
open Cert.KernelIdeal.Facts₀ Cert.KernelIdeal.Facts

/-! ## One entry -/

/-- The f32 word 0x7F800000 is plus infinity. -/
theorem ofBits_inf_f32 : Ideal.ofBits .f32 0x7F800000#32 = (⊤ : EReal) := by
  simp [Ideal.ofBits, Ideal.ieee]

/-- An extended real whose absolute value max a (-a) tests strictly below plus infinity is a real number: the
    absolute value of either infinity is the top element. -/
theorem real_of_abs_lt_inf (a : EReal)
    (h : Ideal.cmp .olt (max a (-a)) (Ideal.ofBits .f32 0x7F800000#32) = 1#1) : ∃ r : ℝ, a = (r : EReal) := by
  rw [ofBits_inf_f32] at h
  have hlt : max a (-a) < ⊤ := by
    simpa [Ideal.cmp, StableHlo.Predicate.ofBool_eq_one_iff] using h
  induction a using EReal.rec with
  | bot => simp at hlt
  | coe r => exact ⟨r, rfl⟩
  | top => simp at hlt

/-- A destination that is not below zero is unchanged by the clipping: the signed maximum of 0 and v is v, it is
    not below 0, and the select keeps it. -/
theorem clip_word (v : BitVec 32) (hv : 0 ≤ v.toInt) :
    Scalar.select (IntOp.cmpi .slt (IntOp.maxsi 0#32 v) 0#32) (IntOp.addi (IntOp.maxsi 0#32 v) 100000#32)
      (IntOp.maxsi 0#32 v) = v := by
  have hs : v.slt 0#32 = false := by
    rw [Bool.eq_false_iff, ne_eq, BitVec.slt_iff_toInt_lt, show (0#32 : BitVec 32).toInt = 0 from by decide]
    omega
  have hm : IntOp.maxsi 0#32 v = v := by simp [IntOp.maxsi, hs]
  rw [hm]
  simp [IntOp.cmpi, hs, Scalar.select]

/-! ## One array -/

/-- An array whose test "every absolute value is below plus infinity" came out 1 is real-valued. -/
theorem isReal_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi
          (cmpf .olt (Host.absf x) (broadcastInDim s ![] hb (constant (F := Ideal) ⟨0, ![]⟩ .f32 0x7F800000#32)))
          init hr hu ix0 = 1#1) :
    RealValued.IsReal x := by
  haveI : Subsingleton (⟨0, ![]⟩ : Shape).Idx := ⟨fun a b => funext fun d => d.elim0⟩
  intro i
  exact real_of_abs_lt_inf (x i) (Host.reduce_andi_all _ _ hr hu ix0 h i)

/-- An integer array whose test "every entry is at least 0, signed" came out 1 has every entry nonnegative. -/
theorem nonneg_of_all {s : Shape} {axes : List (Fin s.rank)} (x : IVec s 32)
    (hb : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (h : Host.reduce IntOp.andi (cmpi .sge x (broadcastInDim s ![] hb (constantI ⟨0, ![]⟩ 32 0#32))) init hr hu ix0
          = 1#1) :
    ∀ i, 0 ≤ (x i).toInt := by
  haveI : Subsingleton (⟨0, ![]⟩ : Shape).Idx := ⟨fun a b => funext fun d => d.elim0⟩
  intro i
  have hi : IntOp.cmpi .sge (x i) 0#32 = 1#1 := Host.reduce_andi_all _ _ hr hu ix0 h i
  rw [IntOp.cmpi_sge, show (0#32 : BitVec 32).toInt = 0 from by decide] at hi
  exact hi

/-! ## The precondition read back -/

/-- The precondition's one bit split into its eleven tests and each test read back: the ten float arrays are
    real-valued and every destination is nonnegative. -/
theorem decode (m : Mem) (hpre : Cert.Pre_KernelIdeal m) (c : Dev nD) :
    RealValued.IsReal ((m ((c.tc : Thread nD τ).loc main_arg0)) : FVec Ideal S100000x128 .f32)
    ∧ RealValued.IsReal ((m ((c.tc : Thread nD τ).loc main_arg1)) : FVec Ideal S128x256 .f32)
    ∧ RealValued.IsReal ((m ((c.tc : Thread nD τ).loc main_arg2)) : FVec Ideal S128x256 .f32)
    ∧ RealValued.IsReal ((m ((c.tc : Thread nD τ).loc main_arg3)) : FVec Ideal S256 .f32)
    ∧ RealValued.IsReal ((m ((c.tc : Thread nD τ).loc main_arg4)) : FVec Ideal S256 .f32)
    ∧ RealValued.IsReal ((m ((c.tc : Thread nD τ).loc main_arg5)) : FVec Ideal S256 .f32)
    ∧ RealValued.IsReal ((m ((c.tc : Thread nD τ).loc main_arg6)) : FVec Ideal S256x256 .f32)
    ∧ RealValued.IsReal ((m ((c.tc : Thread nD τ).loc main_arg7)) : FVec Ideal S256 .f32)
    ∧ RealValued.IsReal ((m ((c.tc : Thread nD τ).loc main_arg8)) : FVec Ideal S256 .f32)
    ∧ RealValued.IsReal ((m ((c.tc : Thread nD τ).loc main_arg9)) : FVec Ideal S256 .f32)
    ∧ ∀ i, 0 ≤ (((m ((c.tc : Thread nD τ).loc main_arg11)) : IVec S1000000 32) i).toInt := by
  have h := congrFun (hpre c) ix0
  dsimp only [Cert.Pre_finite_inputs.fn, Cert.Pre_finite_inputs.fn_part1, Cert.Pre_finite_inputs.fn_part2,
    Cert.Pre_finite_inputs.fn_part3, andi] at h
  simp only [IntOp.andi_eq_one] at h
  obtain ⟨⟨⟨⟨⟨⟨⟨⟨⟨⟨h0, h1⟩, h2⟩, h3⟩, h4⟩, h5⟩, h6⟩, h7⟩, h8⟩, h9⟩, h11⟩ := h
  exact ⟨isReal_of_all _ _ _ _ _ h0, isReal_of_all _ _ _ _ _ h1, isReal_of_all _ _ _ _ _ h2,
    isReal_of_all _ _ _ _ _ h3, isReal_of_all _ _ _ _ _ h4, isReal_of_all _ _ _ _ _ h5, isReal_of_all _ _ _ _ _ h6,
    isReal_of_all _ _ _ _ _ h7, isReal_of_all _ _ _ _ _ h8, isReal_of_all _ _ _ _ _ h9, nonneg_of_all _ _ _ _ _ h11⟩

/-- Under the precondition every float entry of the argument record is a real number; an entry of the array of
    source rows is an entry of the feature array. -/
theorem finite_of_pre (m : Mem) (hpre : Cert.Pre_KernelIdeal m) (c : Dev nD) : (inputs m c).Finite := by
  obtain ⟨r0, r1, r2, r3, r4, r5, r6, r7, r8, r9, -⟩ := decode m hpre c
  exact ⟨fun i k => r0 (ix2 i k), fun e k => RealValued.isReal_gather _ _ r0 (ix2 e k), fun k h => r1 (ix2 k h),
    fun k h => r2 (ix2 k h), fun h => r3 (ix1 h), fun h => r4 (ix1 h), fun h => r5 (ix1 h), fun k h => r6 (ix2 k h),
    fun h => r7 (ix1 h), fun h => r8 (ix1 h), fun h => r9 (ix1 h)⟩

/-- Under the precondition every destination, read as a signed integer, is nonnegative. -/
theorem dst_nonneg_of_pre (m : Mem) (hpre : Cert.Pre_KernelIdeal m) (c : Dev nD) : ∀ e, 0 ≤ (inputs m c).dst e :=
  fun e => (decode m hpre c).2.2.2.2.2.2.2.2.2.2 (ix1 e)

/-- A nonnegative destination is its own clipped form. -/
theorem dK_of_nonneg (m : Mem) (c : Dev nD) : ∀ e, 0 ≤ (inputs m c).dst e → dK m c e = (inputs m c).dst e :=
  fun e he => congrArg BitVec.toInt (clip_word (((m ((c.tc : Thread nD τ).loc main_arg11)) : IVec S1000000 32) (ix1 e)) he)

end Cert.KernelIdeal.Inp

end
-- ==== Proof.BridgeSums.lean ====
/-
  Sums and constants the two formulas differ by, none needing finiteness: the in-degree counted in integers over
  the clipped destinations is the float count when no destination is negative; a sum over 2 halves of 5 tiles of
  10000 rows is the sum over the 100000 nodes; a membership factor 0 or 1 times a value is the value kept or
  dropped; and the head's two spellings (a sum started from the float zero, a divisor with the integer 0 taken
  off, a maximum started from minus infinity twice) agree on every extended real.
-/
import proofs.«416988_j64106681860685_3_alg».proof.Proof.Spec
import proofs.«416988_j64106681860685_3_alg».proof.Proof.LibIdealReal
import Mathlib.Data.Fintype.BigOperators

noncomputable section

open Idealize.ShloMosaic

namespace Cert.Spec

/-- The float words' values. -/
theorem c0_eq : c0 = 0 := IdealReal.ofBits_zero_f32.trans EReal.coe_zero
theorem c1_eq : c1 = 1 := IdealReal.ofBits_one_f32.trans EReal.coe_one
-- Exponent field 143 and fraction 4411392: (2^23 + 4411392) · 2^(143 - 127 - 23) = 12800000 / 128 = 100000.
theorem cN_eq : cN = ((100000 : ℝ) : EReal) := by
  simp [Ideal.ofBits, Ideal.ieee, -EReal.coe_mul]; norm_num
-- Exponent field 133 and fraction 0: 2^23 · 2^(133 - 127 - 23) = 2^6 = 64.
theorem cG_eq : cG = ((64 : ℝ) : EReal) := by
  simp [Ideal.ofBits, Ideal.ieee, -EReal.coe_mul]; norm_num
-- The integer word 0 read as a signed integer is 0.
theorem ddof_eq : ddof = 0 := by
  simp
-- Sign bit set, exponent field all ones, fraction 0: minus infinity, the bottom of the extended reals.
theorem cBot_eq : cBot = ⊥ := by
  simp [Ideal.ofBits, Ideal.ieee]
/-- The epsilon is a positive real. -/
-- Exponent field 110 and fraction 2606508: (2^23 + 2606508) · 2^(110 - 127 - 23) = 10995116 · 2^(-40), about 1e-5.
theorem eps_pos : ∃ x : ℝ, 0 < x ∧ eps = (x : EReal) := by
  refine ⟨(10995116 : ℝ) * (2 : ℝ) ^ (-40 : ℤ), by positivity, ?_⟩
  simp [Ideal.ofBits, Ideal.ieee, -EReal.coe_mul]

/-- With no negative destination the integer count over the clipped destinations is the float count. -/
-- Both counts are 0 plus a sum of 1 per edge landing on i; every destination is non-negative, so clipping keeps it.
theorem degK_eq_degR (dst dK : Fin 1000000 → Int) (h0 : ∀ e, 0 ≤ dst e) (hK : ∀ e, 0 ≤ dst e → dK e = dst e) :
    degK dK = degR dst := by
  funext i
  unfold degK degR
  rw [c0_eq, c1_eq]
  refine congrArg (fun s => (0 : EReal) + s) (Finset.sum_congr rfl fun e _ => ?_)
  rw [hK e (h0 e)]

/-- Two halves of five tiles of 10000 rows are the 100000 nodes, each once. -/
-- (cc, j, q) ↦ (5 cc + j) · 10000 + q is a bijection onto the nodes, with inverse
-- i ↦ (i / 50000, (i / 10000) mod 5, i mod 10000); the triple sum is the sum over the triples carried along it.
theorem sum_node (f : Fin 100000 → EReal) :
    ∑ cc : Fin 2, ∑ j : Fin 5, ∑ q : Fin 10000, f (node cc j q) = ∑ i : Fin 100000, f i := by
  let e : Fin 2 × Fin 5 × Fin 10000 ≃ Fin 100000 :=
    { toFun := fun p => node p.1 p.2.1 p.2.2
      invFun := fun i =>
        (⟨i.val / 50000, by have := i.isLt; omega⟩, ⟨i.val / 10000 % 5, by omega⟩, ⟨i.val % 10000, by omega⟩)
      left_inv := by
        rintro ⟨cc, j, q⟩
        have h1 := cc.isLt; have h2 := j.isLt; have h3 := q.isLt
        refine Prod.ext (Fin.ext ?_) (Prod.ext (Fin.ext ?_) (Fin.ext ?_)) <;> simp only [node] <;> omega
      right_inv := by
        intro i
        have hi := i.isLt
        refine Fin.ext ?_
        simp only [node]
        omega }
  rw [← Fintype.sum_equiv e (fun p => f (node p.1 p.2.1 p.2.2)) f (fun _ => rfl)]
  rw [Fintype.sum_prod_type]
  refine Finset.sum_congr rfl fun cc _ => ?_
  rw [Fintype.sum_prod_type]

/-- A membership factor keeps or drops its value. -/
-- In the extended reals 1 · y = y and 0 · y = 0 for every y, the two infinities included.
theorem hot_mul (x : Int) (g : Fin 64) (y : EReal) : hot x g * y = if x = (g.val : Int) then y else 0 := by
  unfold hot
  split_ifs
  · exact one_mul y
  · exact zero_mul y

/-- The head's mean over the 64 rows: a sum started from the float zero is the sum. -/
theorem lpMean_K_eq_R (W : Fin 256 → Fin 256 → EReal) (b : Fin 256 → EReal) (x : Fin 64 → Fin 256 → EReal) :
    K.lpMean W b x = R.lpMean W b x := by
  funext h
  unfold K.lpMean R.lpMean
  rw [c0_eq, zero_add]

/-- The head's variance over the 64 rows: the same means, the sum started from zero, and the divisor 64 - 0 = 64. -/
theorem lpVar_K_eq_R (W : Fin 256 → Fin 256 → EReal) (b : Fin 256 → EReal) (x : Fin 64 → Fin 256 → EReal) :
    K.lpVar W b x = R.lpVar W b x := by
  funext h
  unfold K.lpVar R.lpVar
  rw [lpMean_K_eq_R, c0_eq, zero_add, ddof_eq, sub_zero]

/-- The head's normalised dense layer: the two spellings agree. -/
theorem lp_eq (W : Fin 256 → Fin 256 → EReal) (b gm bt : Fin 256 → EReal) (x : Fin 64 → Fin 256 → EReal) :
    K.lp W b gm bt x = R.lp W b gm bt x := by
  funext g h
  unfold K.lp R.lp
  rw [lpMean_K_eq_R, lpVar_K_eq_R]

/-- The row maximum: taking the maximum with minus infinity once more changes nothing. -/
theorem rowMax_K_eq_R (x : Fin 64 → Fin 256 → EReal) : K.rowMax x = R.rowMax x := by
  funext g
  unfold K.rowMax R.rowMax
  rw [cBot_eq]
  exact (max_eq_right bot_le).symm

/-- The row-wise log-softmax: the two spellings agree. -/
theorem lsm_eq (x : Fin 64 → Fin 256 → EReal) : K.lsm x = R.lsm x := by
  funext g h
  unfold K.lsm R.lsm
  rw [rowMax_K_eq_R, c0_eq, zero_add]

end Cert.Spec

end
-- ==== Proof.BridgeNorm.lean ====
/-
  The normalisation over the nodes, on real entries.

  When the rectified rows, the scale and the shift hold real numbers, every stage of both formulas is the
  embedding of a real expression. Over the reals the two formulas agree: with m the mean of the entries of a
  feature over the N nodes, the mean of the squared deviations is the mean of the squares minus m squared (so that
  difference is never negative and clamping it at 0 changes nothing), and a sum over the nodes of one graph of
  (x - m) s c + d is (the sum of the x) (c s) + (the number of nodes) (d - m (c s)).

  The first part shows that the convolution's stages keep real entries real; the second part proves the two
  identities over the reals; the third carries each stage of the two formulas to its real expression and joins them.
-/
import proofs.«416988_j64106681860685_3_alg».proof.Proof.Spec
import proofs.«416988_j64106681860685_3_alg».proof.Proof.BridgeSums
import proofs.«416988_j64106681860685_3_alg».proof.Proof.LibIdealReal
import proofs.«416988_j64106681860685_3_alg».proof.Proof.LibRealValued
import Mathlib.Algebra.BigOperators.Ring.Finset
import Mathlib.Algebra.Order.BigOperators.Group.Finset
import Mathlib.Analysis.SpecialFunctions.Pow.Real
import Mathlib.Tactic.Ring
import Mathlib.Tactic.FieldSimp
import Mathlib.Tactic.Positivity

noncomputable section

open Idealize.ShloMosaic
open scoped BigOperators

namespace Cert.Spec

/-! ## Real entries stay real through the convolution -/

/-- The extended real 0 is the real 0. -/
private theorem real_zero : ∃ x : ℝ, (0 : EReal) = (x : EReal) := ⟨0, rfl⟩

/-- The embedding of the reals keeps the greater of two. -/
private theorem coe_max (x y : ℝ) : ((max x y : ℝ) : EReal) = max (x : EReal) (y : EReal) :=
  EReal.coe_strictMono.monotone.map_max

/-- The float zero is a real. -/
private theorem real_c0 : ∃ x : ℝ, c0 = (x : EReal) := ⟨0, IdealReal.ofBits_zero_f32⟩

theorem agg_real (msg : Fin 1000000 → Fin 128 → EReal) (dst : Fin 1000000 → Int)
    (hmsg : ∀ e k, ∃ x : ℝ, msg e k = (x : EReal)) : ∀ i k, ∃ x : ℝ, agg msg dst i k = (x : EReal) := by
  intro i k
  unfold agg
  refine RealValued.real_add real_c0 (RealValued.isReal_sum_univ _ fun e => ?_)
  by_cases he : dst e = (i.val : Int)
  · rw [if_pos he]; exact hmsg e k
  · rw [if_neg he]; exact real_zero

theorem degR_real (dst : Fin 1000000 → Int) : ∀ i, ∃ x : ℝ, 0 ≤ x ∧ degR dst i = (x : EReal) := by
  intro i
  refine ⟨∑ e : Fin 1000000, if dst e = (i.val : Int) then (1 : ℝ) else 0,
    Finset.sum_nonneg fun e _ => by by_cases he : dst e = (i.val : Int) <;> simp [he], ?_⟩
  unfold degR
  rw [c0_eq, zero_add, c1_eq, IdealReal.coe_sum]
  refine Finset.sum_congr rfl fun e _ => ?_
  by_cases he : dst e = (i.val : Int)
  · rw [if_pos he, if_pos he, EReal.coe_one]
  · rw [if_neg he, if_neg he, EReal.coe_zero]

theorem hnOf_real (ag : Fin 100000 → Fin 128 → EReal) (deg : Fin 100000 → EReal)
    (hag : ∀ i k, ∃ x : ℝ, ag i k = (x : EReal)) (hdeg : ∀ i, ∃ x : ℝ, 0 ≤ x ∧ deg i = (x : EReal)) :
    ∀ i k, ∃ x : ℝ, hnOf ag deg i k = (x : EReal) := by
  intro i k
  obtain ⟨p, hp⟩ := hag i k
  obtain ⟨d, hd0, hd⟩ := hdeg i
  unfold hnOf
  have hmax : max (deg i) c1 = ((max d 1 : ℝ) : EReal) := by
    rw [hd, c1_eq, ← EReal.coe_one, coe_max]
  have hne : max d 1 ≠ 0 := ne_of_gt (lt_of_lt_of_le one_pos (le_max_right d 1))
  exact ⟨p / max d 1, by rw [hp, hmax, IdealReal.div_coe_coe p (max d 1) hne]⟩

theorem actOf_real {n : ℕ} (feat hn : Fin n → Fin 128 → EReal) (Ws Wn : Fin 128 → Fin 256 → EReal)
    (b : Fin 256 → EReal) (hfeat : ∀ i k, ∃ x : ℝ, feat i k = (x : EReal))
    (hhn : ∀ i k, ∃ x : ℝ, hn i k = (x : EReal)) (hWs : ∀ k h, ∃ x : ℝ, Ws k h = (x : EReal))
    (hWn : ∀ k h, ∃ x : ℝ, Wn k h = (x : EReal)) (hb : ∀ h, ∃ x : ℝ, b h = (x : EReal)) :
    ∀ i h, ∃ x : ℝ, actOf feat hn Ws Wn b i h = (x : EReal) := by
  intro i h
  unfold actOf
  exact RealValued.real_max
    (RealValued.real_add
      (RealValued.real_add
        (RealValued.isReal_sum_univ _ fun k => RealValued.real_mul (hfeat i k) (hWs k h))
        (RealValued.isReal_sum_univ _ fun k => RealValued.real_mul (hhn i k) (hWn k h)))
      (hb h))
    real_c0

/-! ## The two identities over the reals -/

/-- The mean of the squared deviations from the mean is the mean of the squares minus the squared mean. -/
theorem real_var_identity {ι : Type} [Fintype ι] (ρ : ι → ℝ) (N : ℝ) (hcard : (Fintype.card ι : ℝ) = N)
    (hN : N ≠ 0) :
    (∑ i, (ρ i - (∑ i, ρ i) / N) * (ρ i - (∑ i, ρ i) / N)) / N
      = (∑ i, ρ i * ρ i) / N - ((∑ i, ρ i) / N) * ((∑ i, ρ i) / N) := by
  generalize hs : ∑ i, ρ i = s
  have hexp : ∀ i, (ρ i - s / N) * (ρ i - s / N) = ρ i * ρ i - 2 * (s / N) * ρ i + (s / N) * (s / N) := by
    intro i; ring
  rw [Finset.sum_congr rfl fun i _ => hexp i, Finset.sum_add_distrib, Finset.sum_sub_distrib, ← Finset.mul_sum, hs,
    Finset.sum_const, Finset.card_univ, nsmul_eq_mul, hcard]
  field_simp
  ring

/-- A sum of squares over a non-negative count is not negative. -/
theorem real_var_nonneg {ι : Type} [Fintype ι] (ρ : ι → ℝ) (m N : ℝ) (hN : 0 ≤ N) :
    0 ≤ (∑ i, (ρ i - m) * (ρ i - m)) / N :=
  div_nonneg (Finset.sum_nonneg fun i _ => mul_self_nonneg _) hN

/-- Summing an affine image over the members of a set: the scale times the sum plus the count times the shift. -/
theorem real_pool_identity {ι : Type} [Fintype ι] (ρ : ι → ℝ) (ind : ι → Prop) [DecidablePred ind]
    (m rs γ β : ℝ) :
    (∑ i, if ind i then ((ρ i - m) * rs) * γ + β else 0)
      = (∑ i, if ind i then ρ i else 0) * (γ * rs) + (∑ i, if ind i then (1 : ℝ) else 0) * (β - m * (γ * rs)) := by
  rw [Finset.sum_mul, Finset.sum_mul, ← Finset.sum_add_distrib]
  refine Finset.sum_congr rfl fun i _ => ?_
  by_cases hi : ind i
  · rw [if_pos hi, if_pos hi, if_pos hi]; ring
  · rw [if_neg hi, if_neg hi, if_neg hi]; ring

/-! ## The stages of both formulas on real entries

Throughout, ρ holds the real entries of the rectified rows r. -/

/-- The mean of feature h over the nodes. -/
def meanRe (ρ : Fin 100000 → Fin 256 → ℝ) (h : Fin 256) : ℝ := (∑ i, ρ i h) / 100000
/-- The mean of the squared deviations. -/
def varRe (ρ : Fin 100000 → Fin 256 → ℝ) (h : Fin 256) : ℝ :=
  (∑ i, (ρ i h - meanRe ρ h) * (ρ i h - meanRe ρ h)) / 100000

theorem sq_mean_sub_eq_varRe (ρ : Fin 100000 → Fin 256 → ℝ) (h : Fin 256) :
    (∑ i, ρ i h * ρ i h) / 100000 - meanRe ρ h * meanRe ρ h = varRe ρ h := by
  unfold varRe meanRe
  exact (real_var_identity (fun i => ρ i h) 100000 (by rw [Fintype.card_fin]; norm_num) (by norm_num)).symm

theorem varRe_nonneg (ρ : Fin 100000 → Fin 256 → ℝ) (h : Fin 256) : 0 ≤ varRe ρ h :=
  real_var_nonneg (fun i => ρ i h) (meanRe ρ h) 100000 (by norm_num)

/-- The inverse square root of a positive real. -/
theorem rsqrt_coe_pos (v : ℝ) (hv : 0 < v) : Ideal.rsqrt (v : EReal) = (((Real.sqrt v)⁻¹ : ℝ) : EReal) := by
  rw [Ideal.rsqrt_coe, if_neg (not_lt.mpr hv.le), if_neg hv.ne']

/-- A sum over the two halves, each started from the float zero, is the sum over all nodes. -/
theorem halves_sum (f : Fin 100000 → EReal) :
    ∑ cc : Fin 2, (c0 + ∑ j : Fin 5, ∑ q : Fin 10000, f (node cc j q)) = ∑ i, f i := by
  rw [c0_eq]
  simp only [zero_add]
  exact sum_node f

section Stages

variable (gid : Fin 100000 → Int) (r : Fin 100000 → Fin 256 → EReal) (ρ : Fin 100000 → Fin 256 → ℝ)
  (hρ : ∀ i h, r i h = (ρ i h : EReal))

include hρ

theorem K_S_sum (h : Fin 256) : ∑ cc : Fin 2, K.S r cc h = ((∑ i, ρ i h : ℝ) : EReal) := by
  unfold K.S
  refine (halves_sum fun i => r i h).trans ?_
  rw [IdealReal.coe_sum]
  exact Finset.sum_congr rfl fun i _ => hρ i h

theorem K_Q_sum (h : Fin 256) : ∑ cc : Fin 2, K.Q r cc h = ((∑ i, ρ i h * ρ i h : ℝ) : EReal) := by
  unfold K.Q
  refine (halves_sum fun i => r i h * r i h).trans ?_
  rw [IdealReal.coe_sum]
  exact Finset.sum_congr rfl fun i _ => by rw [hρ i h, EReal.coe_mul]

theorem K_P_sum (g : Fin 64) (h : Fin 256) :
    ∑ cc : Fin 2, K.P gid r cc g h = ((∑ i, if gid i = (g.val : Int) then ρ i h else 0 : ℝ) : EReal) := by
  unfold K.P
  refine (halves_sum fun i => hot (gid i) g * r i h).trans ?_
  rw [IdealReal.coe_sum]
  refine Finset.sum_congr rfl fun i _ => ?_
  rw [hot_mul]
  by_cases hi : gid i = (g.val : Int)
  · rw [if_pos hi, if_pos hi, hρ i h]
  · rw [if_neg hi, if_neg hi, EReal.coe_zero]

omit hρ in
theorem K_C_sum (g : Fin 64) :
    ∑ cc : Fin 2, K.C gid cc g = ((∑ i, if gid i = (g.val : Int) then (1 : ℝ) else 0 : ℝ) : EReal) := by
  unfold K.C
  refine (halves_sum fun i => hot (gid i) g).trans ?_
  rw [IdealReal.coe_sum]
  refine Finset.sum_congr rfl fun i _ => ?_
  unfold hot
  by_cases hi : gid i = (g.val : Int)
  · rw [if_pos hi, if_pos hi, EReal.coe_one]
  · rw [if_neg hi, if_neg hi, EReal.coe_zero]

theorem K_mean_eq (h : Fin 256) : K.mean (K.S r) h = (meanRe ρ h : EReal) := by
  unfold K.mean meanRe
  rw [K_S_sum r ρ hρ h, cN_eq, IdealReal.div_coe_coe _ _ (by norm_num)]

/-- The clamp at zero is the identity: the difference is a mean of squares. -/
theorem K_var_eq (h : Fin 256) : K.var (K.S r) (K.Q r) h = (varRe ρ h : EReal) := by
  unfold K.var
  rw [K_mean_eq r ρ hρ h, K_Q_sum r ρ hρ h, cN_eq, IdealReal.div_coe_coe _ _ (by norm_num), ← EReal.coe_mul,
    ← EReal.coe_sub, sq_mean_sub_eq_varRe ρ h, c0_eq, ← EReal.coe_zero, ← coe_max,
    max_eq_left (varRe_nonneg ρ h)]

theorem R_mean_eq (h : Fin 256) : R.mean r h = (meanRe ρ h : EReal) := by
  unfold R.mean meanRe
  have hs : ∑ i, r i h = ((∑ i, ρ i h : ℝ) : EReal) := by
    rw [IdealReal.coe_sum]; exact Finset.sum_congr rfl fun i _ => hρ i h
  rw [c0_eq, zero_add, hs, cN_eq, IdealReal.div_coe_coe _ _ (by norm_num)]

theorem R_var_eq (h : Fin 256) : R.var r h = (varRe ρ h : EReal) := by
  unfold R.var varRe
  have hs : ∑ i, (r i h - R.mean r h) * (r i h - R.mean r h)
      = ((∑ i, (ρ i h - meanRe ρ h) * (ρ i h - meanRe ρ h) : ℝ) : EReal) := by
    rw [IdealReal.coe_sum, R_mean_eq r ρ hρ h]
    exact Finset.sum_congr rfl fun i _ => by rw [hρ i h, ← EReal.coe_sub, ← EReal.coe_mul]
  rw [c0_eq, zero_add, hs, cN_eq, ddof_eq, sub_zero, IdealReal.div_coe_coe _ _ (by norm_num)]

end Stages

/-- Normalising each row and summing the rows of a graph is the affine map applied once to the graph's raw sums. -/
theorem pooled_eq (gid : Fin 100000 → Int) (gc bc : Fin 256 → EReal) (r : Fin 100000 → Fin 256 → EReal)
    (hr : ∀ i h, ∃ x : ℝ, r i h = (x : EReal)) (hgc : ∀ h, ∃ x : ℝ, gc h = (x : EReal))
    (hbc : ∀ h, ∃ x : ℝ, bc h = (x : EReal)) : K.pooled gid gc bc r = R.pooled gid gc bc r := by
  choose ρ hρ using hr
  choose γ hγ using hgc
  choose β hβ using hbc
  obtain ⟨ε, hε, heps⟩ := eps_pos
  funext g h
  have hpos : 0 < varRe ρ h + ε := add_pos_of_nonneg_of_pos (varRe_nonneg ρ h) hε
  -- the side that pools raw sums
  have hK : K.pooled gid gc bc r g h
      = (((∑ i, if gid i = (g.val : Int) then ρ i h else 0) * (γ h * (Real.sqrt (varRe ρ h + ε))⁻¹)
          + (∑ i, if gid i = (g.val : Int) then (1 : ℝ) else 0)
            * (β h - meanRe ρ h * (γ h * (Real.sqrt (varRe ρ h + ε))⁻¹)) : ℝ) : EReal) := by
    unfold K.pooled K.pooledOf K.bb K.a
    rw [K_P_sum gid r ρ hρ g h, K_C_sum gid g, K_mean_eq r ρ hρ h, K_var_eq r ρ hρ h, heps, hγ h, hβ h,
      ← EReal.coe_add, rsqrt_coe_pos _ hpos, ← EReal.coe_mul, ← EReal.coe_mul, ← EReal.coe_mul, ← EReal.coe_sub,
      ← EReal.coe_mul, ← EReal.coe_add]
  -- the side that normalises row by row
  have hR : R.pooled gid gc bc r g h
      = ((∑ i, if gid i = (g.val : Int)
            then ((ρ i h - meanRe ρ h) * (Real.sqrt (varRe ρ h + ε))⁻¹) * γ h + β h else 0 : ℝ) : EReal) := by
    unfold R.pooled
    rw [c0_eq, zero_add, IdealReal.coe_sum]
    refine Finset.sum_congr rfl fun i _ => ?_
    by_cases hi : gid i = (g.val : Int)
    · rw [if_pos hi, if_pos hi]
      unfold R.y
      rw [R_mean_eq r ρ hρ h, R_var_eq r ρ hρ h, heps, hρ i h, hγ h, hβ h, ← EReal.coe_add, rsqrt_coe_pos _ hpos,
        ← EReal.coe_sub, ← EReal.coe_mul, ← EReal.coe_mul, ← EReal.coe_add]
    · rw [if_neg hi, if_neg hi, EReal.coe_zero]
  rw [hK, hR, real_pool_identity (fun i => ρ i h) (fun i => gid i = (g.val : Int))]

end Cert.Spec

end
-- ==== Proof.Bridge.lean ====
/-
  The two formulas agree on finite inputs whose edge destinations are not negative.

  With no negative destination the in-degree counted in integers over the clipped destinations is the float
  count, so both sides rectify the same rows. Those rows hold real numbers (finite inputs, a real in-degree that is
  at least 0, a divisor that is at least 1), so normalising each row and then summing the rows of a graph is the
  same as applying the normalisation's affine map to the graph's raw sums. The head and the log-softmax differ only
  in spellings that agree on every extended real.
-/
import proofs.«416988_j64106681860685_3_alg».proof.Proof.Spec
import proofs.«416988_j64106681860685_3_alg».proof.Proof.BridgeSums
import proofs.«416988_j64106681860685_3_alg».proof.Proof.BridgeNorm

noncomputable section

open Idealize.ShloMosaic

namespace Cert.Spec

/-- With no negative destination both sides rectify the same rows. -/
theorem actK_eq_actR (I : Inputs) (dK : Fin 1000000 → Int) (h0 : ∀ e, 0 ≤ I.dst e)
    (hK : ∀ e, 0 ≤ I.dst e → dK e = I.dst e) : I.actK dK = I.actR := by
  unfold Inputs.actK Inputs.actR
  rw [degK_eq_degR I.dst dK h0 hK]

/-- On finite inputs the rectified rows hold real numbers. -/
theorem actR_real (I : Inputs) (hfin : I.Finite) : ∀ i h, ∃ x : ℝ, I.actR i h = (x : EReal) := by
  obtain ⟨hfeat, hmsg, hWs, hWn, hb, -⟩ := hfin
  unfold Inputs.actR
  exact actOf_real I.feat _ I.Ws I.Wn I.b hfeat
    (hnOf_real _ _ (agg_real I.msg I.dst hmsg) (degR_real I.dst)) hWs hWn hb

theorem bridge (I : Inputs) (dK : Fin 1000000 → Int) (hfin : I.Finite) (h0 : ∀ e, 0 ≤ I.dst e)
    (hK : ∀ e, 0 ≤ I.dst e → dK e = I.dst e) : I.pK dK = I.pR ∧ I.logsmK dK = I.logsmR := by
  have hp : I.pK dK = I.pR := by
    have hreal := actR_real I hfin
    obtain ⟨-, -, -, -, -, hgc, hbc, -⟩ := hfin
    unfold Inputs.pK Inputs.pR
    rw [actK_eq_actR I dK h0 hK, pooled_eq I.gid I.gc I.bc I.actR hreal hgc hbc, lp_eq]
  refine ⟨hp, ?_⟩
  unfold Inputs.logsmK Inputs.logsmR
  rw [hp, lp_eq, lsm_eq]

end Cert.Spec

end
-- ==== Proof.lean ====
/-
  A graph-convolution layer followed by sum pooling over graphs and a small head, computed two ways.

  The reference gathers each edge's source row, sums the rows landing on each destination node and divides by the
  node's in-degree (at least 1), passes the node features and these means through two dense layers, rectifies,
  batch-normalises every node's row over the 100000 nodes, sums the normalised rows of each of 64 graphs, and applies
  twice "dense layer, rectifier, batch normalisation over the 64 graphs", returning the first pass and the row-wise
  log-softmax of the second.

  The kernel never forms the normalised rows. A first region walks the nodes in 2 halves of 5 tiles of 10000 rows
  and accumulates, per half, the column sums and column sums of squares of the rectified rows and, through a 0/1
  membership matrix, each graph's raw row sum and node count. A second region adds the halves, takes the variance as
  the mean of squares minus the squared mean, and applies the normalisation's affine map x ↦ a x + b once per
  graph: the sum over a graph of (a r_i + b) is a (sum r_i) + (count) b. Over exact reals the two agree; at an
  infinity distributivity fails, which is where the finiteness of the inputs is used.

  The in-degree is the one place where the programs differ on integer inputs: the reference's float scatter drops an
  edge whose destination is negative, the kernel's integer count clips the destination to 0 first. The statement's
  precondition therefore asks, beside finite floats, that no destination is negative, where the reference's own
  scatter would index out of range.

  The three run claims cite the two kernel programs' generated frames and the reference's run; the idealisation
  claim is the one recorded rewrite (a float widened back after a narrowing to a 16-bit format); the equivalence
  reads both runs' result arrays at an index as formulas of the argument arrays (Spec.lean) and joins the two
  formulas (Bridge.lean).
-/
import proofs.«416988_j64106681860685_3_alg».proof.Defs
import proofs.«416988_j64106681860685_3_alg».proof.Proof.Gen.Kernel
import proofs.«416988_j64106681860685_3_alg».proof.Proof.Gen.Kernel.Skeleton
import proofs.«416988_j64106681860685_3_alg».proof.Proof.Gen.Kernel.Launch
import proofs.«416988_j64106681860685_3_alg».proof.Proof.Gen.Kernel.Points
import proofs.«416988_j64106681860685_3_alg».proof.Proof.Gen.Kernel.Frame
import proofs.«416988_j64106681860685_3_alg».proof.Proof.Gen.KernelIdeal
import proofs.«416988_j64106681860685_3_alg».proof.Proof.Gen.KernelIdeal.Skeleton
import proofs.«416988_j64106681860685_3_alg».proof.Proof.Gen.KernelIdeal.Launch
import proofs.«416988_j64106681860685_3_alg».proof.Proof.Gen.KernelIdeal.Points
import proofs.«416988_j64106681860685_3_alg».proof.Proof.Gen.KernelIdeal.Frame
import proofs.«416988_j64106681860685_3_alg».proof.Proof.Gen.ReferenceIdeal
import proofs.«416988_j64106681860685_3_alg».proof.Proof.Gen.Pre_finite_inputs
import proofs.«416988_j64106681860685_3_alg».proof.Proof.KernelRun
import proofs.«416988_j64106681860685_3_alg».proof.Proof.KernelValue
import proofs.«416988_j64106681860685_3_alg».proof.Proof.RefRun
import proofs.«416988_j64106681860685_3_alg».proof.Proof.RefValue
import proofs.«416988_j64106681860685_3_alg».proof.Proof.Agree
import proofs.«416988_j64106681860685_3_alg».proof.Proof.PreDecode
import proofs.«416988_j64106681860685_3_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program runs and leaves its arguments as they were. -/
theorem frame_kernel : Cert.frame_Kernel := fun m ρ _ => Cert.Kernel.Gen.frame m ρ

/-- So does its idealisation. -/
theorem frame_kernelIdeal : Cert.frame_KernelIdeal := fun m ρ _ => Cert.KernelIdeal.Gen.frame m ρ

/-- The reference runs and leaves its arguments as they were: its run with the two results forgotten. -/
theorem frame_referenceIdeal : Cert.frame_ReferenceIdeal := fun m ρ _ =>
  (θ_run Cert.ReferenceIdeal.defs _ _).mono (fun _ h c => (h c).2.2) (Cert.ReferenceIdeal.Run.run (F := Ideal) m ρ)

/-- The one rewrite the idealisation made: narrowing the 0/1 membership matrix to a 16-bit float and widening it
    back is the identity at the ideal instance. -/
theorem preserves : Cert.preserves_Kernel_KernelIdeal :=
  IdealRules.truncf_extf.statement _ .f32 .bf16

/-- On finite inputs with no negative destination, from memories agreeing on the arguments, both programs end with
    the same two result arrays: each array read at an index is its side's formula of the argument record, the two
    records agree, and the two formulas agree on such a record. -/
theorem algebraic : Cert.algebraic_KernelIdeal_ReferenceIdeal := by
  intro m ρ m' ρ' hpre hagree
  refine ⟨fun c => Cert.KernelIdeal.Gen.W6 m ρ c (Proc.devRef .tc Cert.KernelIdeal.main_v39_1),
    fun c => Cert.KernelIdeal.Gen.W6 m ρ c (Proc.devRef .tc Cert.KernelIdeal.main_v39_0),
    Cert.KernelIdeal.Run.run (F := Ideal) m ρ, ?_⟩
  refine (θ_run Cert.ReferenceIdeal.defs _ _).mono (fun r h c => ⟨(h c).1.trans ?_, (h c).2.1.trans ?_, (h c).2.2⟩)
    (Cert.ReferenceIdeal.Run.run (F := Ideal) m' ρ')
  · have hb := Cert.Spec.bridge (Cert.KernelIdeal.Inp.inputs m c) (Cert.KernelIdeal.Inp.dK m c)
      (Cert.KernelIdeal.Inp.finite_of_pre m hpre c) (Cert.KernelIdeal.Inp.dst_nonneg_of_pre m hpre c)
      (Cert.KernelIdeal.Inp.dK_of_nonneg m c)
    funext j
    obtain ⟨g, h, rfl⟩ : ∃ (g : Fin 64) (h : Fin 256), j = ix2 g h := ⟨j 0, j 1, eq_ix2 j⟩
    rw [Cert.ReferenceIdeal.Val.out_apply, Cert.Agree.inputs_agree m m' c (hagree c), ← hb.2]
    exact (Cert.KernelIdeal.Val.out_apply m ρ c g h).symm
  · have hb := Cert.Spec.bridge (Cert.KernelIdeal.Inp.inputs m c) (Cert.KernelIdeal.Inp.dK m c)
      (Cert.KernelIdeal.Inp.finite_of_pre m hpre c) (Cert.KernelIdeal.Inp.dst_nonneg_of_pre m hpre c)
      (Cert.KernelIdeal.Inp.dK_of_nonneg m c)
    funext j
    obtain ⟨g, h, rfl⟩ : ∃ (g : Fin 64) (h : Fin 256), j = ix2 g h := ⟨j 0, j 1, eq_ix2 j⟩
    rw [Cert.ReferenceIdeal.Val.p_apply, Cert.Agree.inputs_agree m m' c (hagree c), ← hb.1]
    exact (Cert.KernelIdeal.Val.p_apply m ρ c g h).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
